-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1536, 768]⟩ ⟨2, ![24576, 768]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1536x768 : Shape := ⟨2, ![1536, 768]⟩
abbrev S_ : Shape := ⟨0, ![]⟩

class Facts : Prop where
  bcast_S_S1536x768 : S_.BroadcastsInDim S1536x768 (![] : Fin 0 → Fin S1536x768.rank)
  reducesTo_S1536x768_S_d0_1 : S1536x768.ReducesTo [0, 1] S_
  h_S_ : 0 < S_.numel

variable [Facts]

def fn {F : FTy → Type} [FloatOps F] (main_arg0 : FVec F S1536x768 .f32) : IVec S_ 1 :=
  let main_v0 : FVec F S1536x768 .f32 := Host.absf main_arg0
  let main_cst : FVec F S_ .f32 := constant S_ .f32 0x7F800000#32
  let main_v1 : FVec F S1536x768 .f32 := broadcastInDim S1536x768 ![] bcast_S_S1536x768 main_cst
  let main_v2 : IVec S1536x768 1 := cmpf .olt main_v0 main_v1
  let main_c : IVec S_ 1 := constantI S_ 1 1#1
  let main_v3 : IVec S_ 1 := (fun x v => Host.reduce IntOp.andi x v reducesTo_S1536x768_S_d0_1 h_S_) main_v2 main_c
  main_v3
-- ==== Pre_finite_inputs_ReferenceIdeal.lean ====
abbrev S24576x768 : Shape := ⟨2, ![24576, 768]⟩
abbrev S_ : Shape := ⟨0, ![]⟩

class Facts : Prop where
  bcast_S_S24576x768 : S_.BroadcastsInDim S24576x768 (![] : Fin 0 → Fin S24576x768.rank)
  reducesTo_S24576x768_S_d0_1 : S24576x768.ReducesTo [0, 1] S_
  h_S_ : 0 < S_.numel

variable [Facts]

def fn {F : FTy → Type} [FloatOps F] (main_arg0 : FVec F S24576x768 .f32) : IVec S_ 1 :=
  let main_v0 : FVec F S24576x768 .f32 := Host.absf main_arg0
  let main_cst : FVec F S_ .f32 := constant S_ .f32 0x7F800000#32
  let main_v1 : FVec F S24576x768 .f32 := broadcastInDim S24576x768 ![] bcast_S_S24576x768 main_cst
  let main_v2 : IVec S24576x768 1 := cmpf .olt main_v0 main_v1
  let main_c : IVec S_ 1 := constantI S_ 1 1#1
  let main_v3 : IVec S_ 1 := (fun x v => Host.reduce IntOp.andi x v reducesTo_S24576x768_S_d0_1 h_S_) main_v2 main_c
  main_v3
-- ==== Kernel.lean ====
abbrev S1536x768 : Shape := ⟨2, ![1536, 768]⟩
abbrev S1x768 : Shape := ⟨2, ![1, 768]⟩
abbrev S16x1x768 : Shape := ⟨3, ![16, 1, 768]⟩
abbrev S15 : Shape := ⟨1, ![15]⟩
abbrev S16 : Shape := ⟨1, ![16]⟩
abbrev S_ : Shape := ⟨0, ![]⟩
abbrev S768 : Shape := ⟨1, ![768]⟩
abbrev S1x1x768 : Shape := ⟨3, ![1, 1, 768]⟩
abbrev S1 : Shape := ⟨1, ![1]⟩
abbrev S16x768 : Shape := ⟨2, ![16, 768]⟩

abbrev nBuf : Space → Nat
  | .hbm => 2
  | .vmem => 3
  | .smem => 0
  | _ => 0

abbrev bufTy : (tb : Table) → Fin (tcTables nBuf tb) → BufTy
  | .hbm, ⟨0, _⟩ => ⟨S1536x768, .f32⟩
  | .hbm, ⟨1, _⟩ => ⟨S1x768, .f32⟩
  | .local _ .vmem, ⟨0, _⟩ => ⟨S1536x768, .f32⟩
  | .local _ .vmem, ⟨1, _⟩ => ⟨S1x768, .f32⟩
  | .local _ .vmem, ⟨2, _⟩ => ⟨S16x1x768, .f32⟩
  | _, _ => ⟨S1536x768, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  (ofTc nBuf bufTy 1 33 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_152 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_140 : BitVec 32 := 1#32
  let v206 : BitVec 32 := Scalar.addi v2 c1_i32_140
  let c16_i32_141 : BitVec 32 := 16#32
  let c0_i32_142 : BitVec 32 := 0#32
  let v207 : BitVec 1 := Scalar.cmpi .eq c16_i32_141 c0_i32_142
  let c1_i32_143 : BitVec 32 := 1#32
  let v208 : BitVec 32 := Scalar.select v207 c1_i32_143 c16_i32_141
  let v209 : BitVec 32 := Scalar.remsi v206 v208
  let c0_i32_145 : BitVec 32 := 0#32
  let v211 : BitVec 1 := Scalar.cmpi .slt v209 c0_i32_145
  let c0_i32_146 : BitVec 32 := 0#32
  let v212 : BitVec 1 := Scalar.cmpi .slt v208 c0_i32_146
  let v213 : BitVec 1 := Scalar.xori v211 v212
  let c0_i32_144 : BitVec 32 := 0#32
  let v210 : BitVec 1 := Scalar.cmpi .ne v209 c0_i32_144
  let v214 : BitVec 1 := Scalar.andi v213 v210
  let v215 : BitVec 32 := Scalar.addi v209 v208
  let v216 : BitVec 32 := Scalar.select v214 v215 v209
  let c1_i32_151 : BitVec 32 := 1#32
  let v217 : BitVec 32 := Scalar.muli v216 c1_i32_151
  let v218 : BitVec 32 := Scalar.addi c0_i32_152 v217
  v218.toNat
def k0_dev17 (d0 : Dev nD) : Nat :=
  let c0_i32_169 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_157 : BitVec 32 := 2#32
  let v227 : BitVec 32 := Scalar.addi v2 c2_i32_157
  let c16_i32_158 : BitVec 32 := 16#32
  let c0_i32_159 : BitVec 32 := 0#32
  let v228 : BitVec 1 := Scalar.cmpi .eq c16_i32_158 c0_i32_159
  let c1_i32_160 : BitVec 32 := 1#32
  let v229 : BitVec 32 := Scalar.select v228 c1_i32_160 c16_i32_158
  let v230 : BitVec 32 := Scalar.remsi v227 v229
  let c0_i32_162 : BitVec 32 := 0#32
  let v232 : BitVec 1 := Scalar.cmpi .slt v230 c0_i32_162
  let c0_i32_163 : BitVec 32 := 0#32
  let v233 : BitVec 1 := Scalar.cmpi .slt v229 c0_i32_163
  let v234 : BitVec 1 := Scalar.xori v232 v233
  let c0_i32_161 : BitVec 32 := 0#32
  let v231 : BitVec 1 := Scalar.cmpi .ne v230 c0_i32_161
  let v235 : BitVec 1 := Scalar.andi v234 v231
  let v236 : BitVec 32 := Scalar.addi v230 v229
  let v237 : BitVec 32 := Scalar.select v235 v236 v230
  let c1_i32_168 : BitVec 32 := 1#32
  let v238 : BitVec 32 := Scalar.muli v237 c1_i32_168
  let v239 : BitVec 32 := Scalar.addi c0_i32_169 v238
  v239.toNat
def k0_dev18 (d0 : Dev nD) : Nat :=
  let c0_i32_186 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_174 : BitVec 32 := 3#32
  let v248 : BitVec 32 := Scalar.addi v2 c3_i32_174
  let c16_i32_175 : BitVec 32 := 16#32
  let c0_i32_176 : BitVec 32 := 0#32
  let v249 : BitVec 1 := Scalar.cmpi .eq c16_i32_175 c0_i32_176
  let c1_i32_177 : BitVec 32 := 1#32
  let v250 : BitVec 32 := Scalar.select v249 c1_i32_177 c16_i32_175
  let v251 : BitVec 32 := Scalar.remsi v248 v250
  let c0_i32_179 : BitVec 32 := 0#32
  let v253 : BitVec 1 := Scalar.cmpi .slt v251 c0_i32_179
  let c0_i32_180 : BitVec 32 := 0#32
  let v254 : BitVec 1 := Scalar.cmpi .slt v250 c0_i32_180
  let v255 : BitVec 1 := Scalar.xori v253 v254
  let c0_i32_178 : BitVec 32 := 0#32
  let v252 : BitVec 1 := Scalar.cmpi .ne v251 c0_i32_178
  let v256 : BitVec 1 := Scalar.andi v255 v252
  let v257 : BitVec 32 := Scalar.addi v251 v250
  let v258 : BitVec 32 := Scalar.select v256 v257 v251
  let c1_i32_185 : BitVec 32 := 1#32
  let v259 : BitVec 32 := Scalar.muli v258 c1_i32_185
  let v260 : BitVec 32 := Scalar.addi c0_i32_186 v259
  v260.toNat
def k0_dev19 (d0 : Dev nD) : Nat :=
  let c0_i32_203 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_191 : BitVec 32 := 4#32
  let v269 : BitVec 32 := Scalar.addi v2 c4_i32_191
  let c16_i32_192 : BitVec 32 := 16#32
  let c0_i32_193 : BitVec 32 := 0#32
  let v270 : BitVec 1 := Scalar.cmpi .eq c16_i32_192 c0_i32_193
  let c1_i32_194 : BitVec 32 := 1#32
  let v271 : BitVec 32 := Scalar.select v270 c1_i32_194 c16_i32_192
  let v272 : BitVec 32 := Scalar.remsi v269 v271
  let c0_i32_196 : BitVec 32 := 0#32
  let v274 : BitVec 1 := Scalar.cmpi .slt v272 c0_i32_196
  let c0_i32_197 : BitVec 32 := 0#32
  let v275 : BitVec 1 := Scalar.cmpi .slt v271 c0_i32_197
  let v276 : BitVec 1 := Scalar.xori v274 v275
  let c0_i32_195 : BitVec 32 := 0#32
  let v273 : BitVec 1 := Scalar.cmpi .ne v272 c0_i32_195
  let v277 : BitVec 1 := Scalar.andi v276 v273
  let v278 : BitVec 32 := Scalar.addi v272 v271
  let v279 : BitVec 32 := Scalar.select v277 v278 v272
  let c1_i32_202 : BitVec 32 := 1#32
  let v280 : BitVec 32 := Scalar.muli v279 c1_i32_202
  let v281 : BitVec 32 := Scalar.addi c0_i32_203 v280
  v281.toNat
def k0_dev20 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_208 : BitVec 32 := 5#32
  let v290 : BitVec 32 := Scalar.addi v2 c5_i32_208
  let c16_i32_209 : BitVec 32 := 16#32
  let c0_i32_210 : BitVec 32 := 0#32
  let v291 : BitVec 1 := Scalar.cmpi .eq c16_i32_209 c0_i32_210
  let c1_i32_211 : BitVec 32 := 1#32
  let v292 : BitVec 32 := Scalar.select v291 c1_i32_211 c16_i32_209
  let v293 : BitVec 32 := Scalar.remsi v290 v292
  let c0_i32_213 : BitVec 32 := 0#32
  let v295 : BitVec 1 := Scalar.cmpi .slt v293 c0_i32_213
  let c0_i32_214 : BitVec 32 := 0#32
  let v296 : BitVec 1 := Scalar.cmpi .slt v292 c0_i32_214
  let v297 : BitVec 1 := Scalar.xori v295 v296
  let c0_i32_212 : BitVec 32 := 0#32
  let v294 : BitVec 1 := Scalar.cmpi .ne v293 c0_i32_212
  let v298 : BitVec 1 := Scalar.andi v297 v294
  let v299 : BitVec 32 := Scalar.addi v293 v292
  let v300 : BitVec 32 := Scalar.select v298 v299 v293
  let c1_i32_219 : BitVec 32 := 1#32
  let v301 : BitVec 32 := Scalar.muli v300 c1_i32_219
  let v302 : BitVec 32 := Scalar.addi c0_i32_220 v301
  v302.toNat
def k0_dev21 (d0 : Dev nD) : Nat :=
  let c0_i32_237 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_225 : BitVec 32 := 6#32
  let v311 : BitVec 32 := Scalar.addi v2 c6_i32_225
  let c16_i32_226 : BitVec 32 := 16#32
  let c0_i32_227 : BitVec 32 := 0#32
  let v312 : BitVec 1 := Scalar.cmpi .eq c16_i32_226 c0_i32_227
  let c1_i32_228 : BitVec 32 := 1#32
  let v313 : BitVec 32 := Scalar.select v312 c1_i32_228 c16_i32_226
  let v314 : BitVec 32 := Scalar.remsi v311 v313
  let c0_i32_230 : BitVec 32 := 0#32
  let v316 : BitVec 1 := Scalar.cmpi .slt v314 c0_i32_230
  let c0_i32_231 : BitVec 32 := 0#32
  let v317 : BitVec 1 := Scalar.cmpi .slt v313 c0_i32_231
  let v318 : BitVec 1 := Scalar.xori v316 v317
  let c0_i32_229 : BitVec 32 := 0#32
  let v315 : BitVec 1 := Scalar.cmpi .ne v314 c0_i32_229
  let v319 : BitVec 1 := Scalar.andi v318 v315
  let v320 : BitVec 32 := Scalar.addi v314 v313
  let v321 : BitVec 32 := Scalar.select v319 v320 v314
  let c1_i32_236 : BitVec 32 := 1#32
  let v322 : BitVec 32 := Scalar.muli v321 c1_i32_236
  let v323 : BitVec 32 := Scalar.addi c0_i32_237 v322
  v323.toNat
def k0_dev22 (d0 : Dev nD) : Nat :=
  let c0_i32_254 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_242 : BitVec 32 := 7#32
  let v332 : BitVec 32 := Scalar.addi v2 c7_i32_242
  let c16_i32_243 : BitVec 32 := 16#32
  let c0_i32_244 : BitVec 32 := 0#32
  let v333 : BitVec 1 := Scalar.cmpi .eq c16_i32_243 c0_i32_244
  let c1_i32_245 : BitVec 32 := 1#32
  let v334 : BitVec 32 := Scalar.select v333 c1_i32_245 c16_i32_243
  let v335 : BitVec 32 := Scalar.remsi v332 v334
  let c0_i32_247 : BitVec 32 := 0#32
  let v337 : BitVec 1 := Scalar.cmpi .slt v335 c0_i32_247
  let c0_i32_248 : BitVec 32 := 0#32
  let v338 : BitVec 1 := Scalar.cmpi .slt v334 c0_i32_248
  let v339 : BitVec 1 := Scalar.xori v337 v338
  let c0_i32_246 : BitVec 32 := 0#32
  let v336 : BitVec 1 := Scalar.cmpi .ne v335 c0_i32_246
  let v340 : BitVec 1 := Scalar.andi v339 v336
  let v341 : BitVec 32 := Scalar.addi v335 v334
  let v342 : BitVec 32 := Scalar.select v340 v341 v335
  let c1_i32_253 : BitVec 32 := 1#32
  let v343 : BitVec 32 := Scalar.muli v342 c1_i32_253
  let v344 : BitVec 32 := Scalar.addi c0_i32_254 v343
  v344.toNat
def k0_dev23 (d0 : Dev nD) : Nat :=
  let c0_i32_271 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_259 : BitVec 32 := 8#32
  let v353 : BitVec 32 := Scalar.addi v2 c8_i32_259
  let c16_i32_260 : BitVec 32 := 16#32
  let c0_i32_261 : BitVec 32 := 0#32
  let v354 : BitVec 1 := Scalar.cmpi .eq c16_i32_260 c0_i32_261
  let c1_i32_262 : BitVec 32 := 1#32
  let v355 : BitVec 32 := Scalar.select v354 c1_i32_262 c16_i32_260
  let v356 : BitVec 32 := Scalar.remsi v353 v355
  let c0_i32_264 : BitVec 32 := 0#32
  let v358 : BitVec 1 := Scalar.cmpi .slt v356 c0_i32_264
  let c0_i32_265 : BitVec 32 := 0#32
  let v359 : BitVec 1 := Scalar.cmpi .slt v355 c0_i32_265
  let v360 : BitVec 1 := Scalar.xori v358 v359
  let c0_i32_263 : BitVec 32 := 0#32
  let v357 : BitVec 1 := Scalar.cmpi .ne v356 c0_i32_263
  let v361 : BitVec 1 := Scalar.andi v360 v357
  let v362 : BitVec 32 := Scalar.addi v356 v355
  let v363 : BitVec 32 := Scalar.select v361 v362 v356
  let c1_i32_270 : BitVec 32 := 1#32
  let v364 : BitVec 32 := Scalar.muli v363 c1_i32_270
  let v365 : BitVec 32 := Scalar.addi c0_i32_271 v364
  v365.toNat
def k0_dev24 (d0 : Dev nD) : Nat :=
  let c0_i32_288 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_276 : BitVec 32 := 9#32
  let v374 : BitVec 32 := Scalar.addi v2 c9_i32_276
  let c16_i32_277 : BitVec 32 := 16#32
  let c0_i32_278 : BitVec 32 := 0#32
  let v375 : BitVec 1 := Scalar.cmpi .eq c16_i32_277 c0_i32_278
  let c1_i32_279 : BitVec 32 := 1#32
  let v376 : BitVec 32 := Scalar.select v375 c1_i32_279 c16_i32_277
  let v377 : BitVec 32 := Scalar.remsi v374 v376
  let c0_i32_281 : BitVec 32 := 0#32
  let v379 : BitVec 1 := Scalar.cmpi .slt v377 c0_i32_281
  let c0_i32_282 : BitVec 32 := 0#32
  let v380 : BitVec 1 := Scalar.cmpi .slt v376 c0_i32_282
  let v381 : BitVec 1 := Scalar.xori v379 v380
  let c0_i32_280 : BitVec 32 := 0#32
  let v378 : BitVec 1 := Scalar.cmpi .ne v377 c0_i32_280
  let v382 : BitVec 1 := Scalar.andi v381 v378
  let v383 : BitVec 32 := Scalar.addi v377 v376
  let v384 : BitVec 32 := Scalar.select v382 v383 v377
  let c1_i32_287 : BitVec 32 := 1#32
  let v385 : BitVec 32 := Scalar.muli v384 c1_i32_287
  let v386 : BitVec 32 := Scalar.addi c0_i32_288 v385
  v386.toNat
def k0_dev25 (d0 : Dev nD) : Nat :=
  let c0_i32_305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_293 : BitVec 32 := 10#32
  let v395 : BitVec 32 := Scalar.addi v2 c10_i32_293
  let c16_i32_294 : BitVec 32 := 16#32
  let c0_i32_295 : BitVec 32 := 0#32
  let v396 : BitVec 1 := Scalar.cmpi .eq c16_i32_294 c0_i32_295
  let c1_i32_296 : BitVec 32 := 1#32
  let v397 : BitVec 32 := Scalar.select v396 c1_i32_296 c16_i32_294
  let v398 : BitVec 32 := Scalar.remsi v395 v397
  let c0_i32_298 : BitVec 32 := 0#32
  let v400 : BitVec 1 := Scalar.cmpi .slt v398 c0_i32_298
  let c0_i32_299 : BitVec 32 := 0#32
  let v401 : BitVec 1 := Scalar.cmpi .slt v397 c0_i32_299
  let v402 : BitVec 1 := Scalar.xori v400 v401
  let c0_i32_297 : BitVec 32 := 0#32
  let v399 : BitVec 1 := Scalar.cmpi .ne v398 c0_i32_297
  let v403 : BitVec 1 := Scalar.andi v402 v399
  let v404 : BitVec 32 := Scalar.addi v398 v397
  let v405 : BitVec 32 := Scalar.select v403 v404 v398
  let c1_i32_304 : BitVec 32 := 1#32
  let v406 : BitVec 32 := Scalar.muli v405 c1_i32_304
  let v407 : BitVec 32 := Scalar.addi c0_i32_305 v406
  v407.toNat
def k0_dev26 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_310 : BitVec 32 := 11#32
  let v416 : BitVec 32 := Scalar.addi v2 c11_i32_310
  let c16_i32_311 : BitVec 32 := 16#32
  let c0_i32_312 : BitVec 32 := 0#32
  let v417 : BitVec 1 := Scalar.cmpi .eq c16_i32_311 c0_i32_312
  let c1_i32_313 : BitVec 32 := 1#32
  let v418 : BitVec 32 := Scalar.select v417 c1_i32_313 c16_i32_311
  let v419 : BitVec 32 := Scalar.remsi v416 v418
  let c0_i32_315 : BitVec 32 := 0#32
  let v421 : BitVec 1 := Scalar.cmpi .slt v419 c0_i32_315
  let c0_i32_316 : BitVec 32 := 0#32
  let v422 : BitVec 1 := Scalar.cmpi .slt v418 c0_i32_316
  let v423 : BitVec 1 := Scalar.xori v421 v422
  let c0_i32_314 : BitVec 32 := 0#32
  let v420 : BitVec 1 := Scalar.cmpi .ne v419 c0_i32_314
  let v424 : BitVec 1 := Scalar.andi v423 v420
  let v425 : BitVec 32 := Scalar.addi v419 v418
  let v426 : BitVec 32 := Scalar.select v424 v425 v419
  let c1_i32_321 : BitVec 32 := 1#32
  let v427 : BitVec 32 := Scalar.muli v426 c1_i32_321
  let v428 : BitVec 32 := Scalar.addi c0_i32_322 v427
  v428.toNat
def k0_dev27 (d0 : Dev nD) : Nat :=
  let c0_i32_339 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_327 : BitVec 32 := 12#32
  let v437 : BitVec 32 := Scalar.addi v2 c12_i32_327
  let c16_i32_328 : BitVec 32 := 16#32
  let c0_i32_329 : BitVec 32 := 0#32
  let v438 : BitVec 1 := Scalar.cmpi .eq c16_i32_328 c0_i32_329
  let c1_i32_330 : BitVec 32 := 1#32
  let v439 : BitVec 32 := Scalar.select v438 c1_i32_330 c16_i32_328
  let v440 : BitVec 32 := Scalar.remsi v437 v439
  let c0_i32_332 : BitVec 32 := 0#32
  let v442 : BitVec 1 := Scalar.cmpi .slt v440 c0_i32_332
  let c0_i32_333 : BitVec 32 := 0#32
  let v443 : BitVec 1 := Scalar.cmpi .slt v439 c0_i32_333
  let v444 : BitVec 1 := Scalar.xori v442 v443
  let c0_i32_331 : BitVec 32 := 0#32
  let v441 : BitVec 1 := Scalar.cmpi .ne v440 c0_i32_331
  let v445 : BitVec 1 := Scalar.andi v444 v441
  let v446 : BitVec 32 := Scalar.addi v440 v439
  let v447 : BitVec 32 := Scalar.select v445 v446 v440
  let c1_i32_338 : BitVec 32 := 1#32
  let v448 : BitVec 32 := Scalar.muli v447 c1_i32_338
  let v449 : BitVec 32 := Scalar.addi c0_i32_339 v448
  v449.toNat
def k0_dev28 (d0 : Dev nD) : Nat :=
  let c0_i32_356 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_344 : BitVec 32 := 13#32
  let v458 : BitVec 32 := Scalar.addi v2 c13_i32_344
  let c16_i32_345 : BitVec 32 := 16#32
  let c0_i32_346 : BitVec 32 := 0#32
  let v459 : BitVec 1 := Scalar.cmpi .eq c16_i32_345 c0_i32_346
  let c1_i32_347 : BitVec 32 := 1#32
  let v460 : BitVec 32 := Scalar.select v459 c1_i32_347 c16_i32_345
  let v461 : BitVec 32 := Scalar.remsi v458 v460
  let c0_i32_349 : BitVec 32 := 0#32
  let v463 : BitVec 1 := Scalar.cmpi .slt v461 c0_i32_349
  let c0_i32_350 : BitVec 32 := 0#32
  let v464 : BitVec 1 := Scalar.cmpi .slt v460 c0_i32_350
  let v465 : BitVec 1 := Scalar.xori v463 v464
  let c0_i32_348 : BitVec 32 := 0#32
  let v462 : BitVec 1 := Scalar.cmpi .ne v461 c0_i32_348
  let v466 : BitVec 1 := Scalar.andi v465 v462
  let v467 : BitVec 32 := Scalar.addi v461 v460
  let v468 : BitVec 32 := Scalar.select v466 v467 v461
  let c1_i32_355 : BitVec 32 := 1#32
  let v469 : BitVec 32 := Scalar.muli v468 c1_i32_355
  let v470 : BitVec 32 := Scalar.addi c0_i32_356 v469
  v470.toNat
def k0_dev29 (d0 : Dev nD) : Nat :=
  let c0_i32_373 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_361 : BitVec 32 := 14#32
  let v479 : BitVec 32 := Scalar.addi v2 c14_i32_361
  let c16_i32_362 : BitVec 32 := 16#32
  let c0_i32_363 : BitVec 32 := 0#32
  let v480 : BitVec 1 := Scalar.cmpi .eq c16_i32_362 c0_i32_363
  let c1_i32_364 : BitVec 32 := 1#32
  let v481 : BitVec 32 := Scalar.select v480 c1_i32_364 c16_i32_362
  let v482 : BitVec 32 := Scalar.remsi v479 v481
  let c0_i32_366 : BitVec 32 := 0#32
  let v484 : BitVec 1 := Scalar.cmpi .slt v482 c0_i32_366
  let c0_i32_367 : BitVec 32 := 0#32
  let v485 : BitVec 1 := Scalar.cmpi .slt v481 c0_i32_367
  let v486 : BitVec 1 := Scalar.xori v484 v485
  let c0_i32_365 : BitVec 32 := 0#32
  let v483 : BitVec 1 := Scalar.cmpi .ne v482 c0_i32_365
  let v487 : BitVec 1 := Scalar.andi v486 v483
  let v488 : BitVec 32 := Scalar.addi v482 v481
  let v489 : BitVec 32 := Scalar.select v487 v488 v482
  let c1_i32_372 : BitVec 32 := 1#32
  let v490 : BitVec 32 := Scalar.muli v489 c1_i32_372
  let v491 : BitVec 32 := Scalar.addi c0_i32_373 v490
  v491.toNat
def k0_dev30 (d0 : Dev nD) : Nat :=
  let c0_i32_390 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_378 : BitVec 32 := 15#32
  let v500 : BitVec 32 := Scalar.addi v2 c15_i32_378
  let c16_i32_379 : BitVec 32 := 16#32
  let c0_i32_380 : BitVec 32 := 0#32
  let v501 : BitVec 1 := Scalar.cmpi .eq c16_i32_379 c0_i32_380
  let c1_i32_381 : BitVec 32 := 1#32
  let v502 : BitVec 32 := Scalar.select v501 c1_i32_381 c16_i32_379
  let v503 : BitVec 32 := Scalar.remsi v500 v502
  let c0_i32_383 : BitVec 32 := 0#32
  let v505 : BitVec 1 := Scalar.cmpi .slt v503 c0_i32_383
  let c0_i32_384 : BitVec 32 := 0#32
  let v506 : BitVec 1 := Scalar.cmpi .slt v502 c0_i32_384
  let v507 : BitVec 1 := Scalar.xori v505 v506
  let c0_i32_382 : BitVec 32 := 0#32
  let v504 : BitVec 1 := Scalar.cmpi .ne v503 c0_i32_382
  let v508 : BitVec 1 := Scalar.andi v507 v504
  let v509 : BitVec 32 := Scalar.addi v503 v502
  let v510 : BitVec 32 := Scalar.select v508 v509 v503
  let c1_i32_389 : BitVec 32 := 1#32
  let v511 : BitVec 32 := Scalar.muli v510 c1_i32_389
  let v512 : BitVec 32 := Scalar.addi c0_i32_390 v511
  v512.toNat
abbrev stage0_0 : Fin 1 → Memref sig .tc .vmem S1536x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  inb_S1536x768_S1536x768_0_0 : ∀ a, (![0, 0] : Fin 2 → Nat) a + S1536x768.size a ≤ S1536x768.size a
  h_S1536x768 : 0 < S1536x768.numel
  shapeCasts_S1536x768_S1536x768 : S1536x768.ShapeCasts S1536x768
  reduces_S1536x768_S768 : S1536x768.Reduces [0] S768
  shapeCasts_S768_S1x768 : S768.ShapeCasts S1x768
  inb_S16x1x768_S1x1x768_0_0_0 : ∀ a, (![0, 0, 0] : Fin 3 → Nat) a + S1x1x768.size a ≤ S16x1x768.size a
  h_S1x1x768 : 0 < S1x1x768.numel
  shapeCasts_S1x1x768_S1x768 : S1x1x768.ShapeCasts S1x768
  shapeCasts_S1x768_S1x1x768 : S1x768.ShapeCasts S1x1x768
  hamt_15 : (15#32 : BitVec 32).msb = false
  inb_S15_S1_0 : ∀ a, (![0] : Fin 1 → Nat) a + S1.size a ≤ S15.size a
  squeezes_S1_S_ : S1.Squeezes S_
  inb_S16_S1_15 : ∀ a, (![15] : Fin 1 → Nat) a + S1.size a ≤ S16.size a
  inb_S16x1x768_S1x1x768_15_0_0 : ∀ a, (![15, 0, 0] : Fin 3 → Nat) a + S1x1x768.size a ≤ S16x1x768.size a
  squeezes_S1x1x768_S1x768 : S1x1x768.Squeezes S1x768
  inb_S15_S1_1 : ∀ a, (![1] : Fin 1 → Nat) a + S1.size a ≤ S15.size a
  inb_S16_S1_14 : ∀ a, (![14] : Fin 1 → Nat) a + S1.size a ≤ S16.size a
  inb_S16x1x768_S1x1x768_14_0_0 : ∀ a, (![14, 0, 0] : Fin 3 → Nat) a + S1x1x768.size a ≤ S16x1x768.size a
  inb_S15_S1_2 : ∀ a, (![2] : Fin 1 → Nat) a + S1.size a ≤ S15.size a
  inb_S16_S1_13 : ∀ a, (![13] : Fin 1 → Nat) a + S1.size a ≤ S16.size a
  inb_S16x1x768_S1x1x768_13_0_0 : ∀ a, (![13, 0, 0] : Fin 3 → Nat) a + S1x1x768.size a ≤ S16x1x768.size a
  inb_S15_S1_3 : ∀ a, (![3] : Fin 1 → Nat) a + S1.size a ≤ S15.size a
  inb_S16_S1_12 : ∀ a, (![12] : Fin 1 → Nat) a + S1.size a ≤ S16.size a
  inb_S16x1x768_S1x1x768_12_0_0 : ∀ a, (![12, 0, 0] : Fin 3 → Nat) a + S1x1x768.size a ≤ S16x1x768.size a
  inb_S15_S1_4 : ∀ a, (![4] : Fin 1 → Nat) a + S1.size a ≤ S15.size a
  inb_S16_S1_11 : ∀ a, (![11] : Fin 1 → Nat) a + S1.size a ≤ S16.size a
  inb_S16x1x768_S1x1x768_11_0_0 : ∀ a, (![11, 0, 0] : Fin 3 → Nat) a + S1x1x768.size a ≤ S16x1x768.size a
  inb_S15_S1_5 : ∀ a, (![5] : Fin 1 → Nat) a + S1.size a ≤ S15.size a
  inb_S16_S1_10 : ∀ a, (![10] : Fin 1 → Nat) a + S1.size a ≤ S16.size a
  inb_S16x1x768_S1x1x768_10_0_0 : ∀ a, (![10, 0, 0] : Fin 3 → Nat) a + S1x1x768.size a ≤ S16x1x768.size a
  inb_S15_S1_6 : ∀ a, (![6] : Fin 1 → Nat) a + S1.size a ≤ S15.size a
  inb_S16_S1_9 : ∀ a, (![9] : Fin 1 → Nat) a + S1.size a ≤ S16.size a
  inb_S16x1x768_S1x1x768_9_0_0 : ∀ a, (![9, 0, 0] : Fin 3 → Nat) a + S1x1x768.size a ≤ S16x1x768.size a
  inb_S15_S1_7 : ∀ a, (![7] : Fin 1 → Nat) a + S1.size a ≤ S15.size a
  inb_S16_S1_8 : ∀ a, (![8] : Fin 1 → Nat) a + S1.size a ≤ S16.size a
  inb_S16x1x768_S1x1x768_8_0_0 : ∀ a, (![8, 0, 0] : Fin 3 → Nat) a + S1x1x768.size a ≤ S16x1x768.size a
  inb_S15_S1_8 : ∀ a, (![8] : Fin 1 → Nat) a + S1.size a ≤ S15.size a
  inb_S16_S1_7 : ∀ a, (![7] : Fin 1 → Nat) a + S1.size a ≤ S16.size a
  inb_S16x1x768_S1x1x768_7_0_0 : ∀ a, (![7, 0, 0] : Fin 3 → Nat) a + S1x1x768.size a ≤ S16x1x768.size a
  inb_S15_S1_9 : ∀ a, (![9] : Fin 1 → Nat) a + S1.size a ≤ S15.size a
  inb_S16_S1_6 : ∀ a, (![6] : Fin 1 → Nat) a + S1.size a ≤ S16.size a
  inb_S16x1x768_S1x1x768_6_0_0 : ∀ a, (![6, 0, 0] : Fin 3 → Nat) a + S1x1x768.size a ≤ S16x1x768.size a
  inb_S15_S1_10 : ∀ a, (![10] : Fin 1 → Nat) a + S1.size a ≤ S15.size a
  inb_S16_S1_5 : ∀ a, (![5] : Fin 1 → Nat) a + S1.size a ≤ S16.size a
  inb_S16x1x768_S1x1x768_5_0_0 : ∀ a, (![5, 0, 0] : Fin 3 → Nat) a + S1x1x768.size a ≤ S16x1x768.size a
  inb_S15_S1_11 : ∀ a, (![11] : Fin 1 → Nat) a + S1.size a ≤ S15.size a
  inb_S16_S1_4 : ∀ a, (![4] : Fin 1 → Nat) a + S1.size a ≤ S16.size a
  inb_S16x1x768_S1x1x768_4_0_0 : ∀ a, (![4, 0, 0] : Fin 3 → Nat) a + S1x1x768.size a ≤ S16x1x768.size a
  inb_S15_S1_12 : ∀ a, (![12] : Fin 1 → Nat) a + S1.size a ≤ S15.size a
  inb_S16_S1_3 : ∀ a, (![3] : Fin 1 → Nat) a + S1.size a ≤ S16.size a
  inb_S16x1x768_S1x1x768_3_0_0 : ∀ a, (![3, 0, 0] : Fin 3 → Nat) a + S1x1x768.size a ≤ S16x1x768.size a
  inb_S15_S1_13 : ∀ a, (![13] : Fin 1 → Nat) a + S1.size a ≤ S15.size a
  inb_S16_S1_2 : ∀ a, (![2] : Fin 1 → Nat) a + S1.size a ≤ S16.size a
  inb_S16x1x768_S1x1x768_2_0_0 : ∀ a, (![2, 0, 0] : Fin 3 → Nat) a + S1x1x768.size a ≤ S16x1x768.size a
  inb_S15_S1_14 : ∀ a, (![14] : Fin 1 → Nat) a + S1.size a ≤ S15.size a
  inb_S16_S1_1 : ∀ a, (![1] : Fin 1 → Nat) a + S1.size a ≤ S16.size a
  inb_S16x1x768_S1x1x768_1_0_0 : ∀ a, (![1, 0, 0] : Fin 3 → Nat) a + S1x1x768.size a ≤ S16x1x768.size a
  inb_S16x1x768_S16x1x768_0_0_0 : ∀ a, (![0, 0, 0] : Fin 3 → Nat) a + S16x1x768.size a ≤ S16x1x768.size a
  h_S16x1x768 : 0 < S16x1x768.numel
  shapeCasts_S16x1x768_S16x768 : S16x1x768.ShapeCasts S16x768
  reduces_S16x768_S768 : S16x768.Reduces [0] S768
  inb_S1x768_S1x768_0_0 : ∀ a, (![0, 0] : Fin 2 → Nat) a + S1x768.size a ≤ S1x768.size a
  h_S1x768 : 0 < S1x768.numel
  hcc0_scratch1 : 2 + S15.numel ≤ 33
  hcc0_scratch2 : 17 + S16.numel ≤ 33
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  hstage0_0 : ∀ j, (stage0_0 j).IsWhole
  hstage0_1 : ∀ j, (stage0_1 j).IsWhole

variable [Facts₀]

abbrev cc0_scratch1 : DmaSems sig S15 := SemArray.consecutive 2 S15 hcc0_scratch1
abbrev cc0_scratch2 : DmaSems sig S16 := SemArray.consecutive 17 S16 hcc0_scratch2

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S24576x768 : Shape := ⟨2, ![24576, 768]⟩
abbrev S_ : Shape := ⟨0, ![]⟩
abbrev S768 : Shape := ⟨1, ![768]⟩
abbrev S1x768 : Shape := ⟨2, ![1, 768]⟩

abbrev nBuf : Space → Nat
  | .hbm => 4
  | .vmem => 0
  | .smem => 0
  | _ => 0

abbrev bufTy : (tb : Table) → Fin (tcTables nBuf tb) → BufTy
  | .hbm, ⟨0, _⟩ => ⟨S24576x768, .f32⟩
  | .hbm, ⟨1, _⟩ => ⟨S_, .f32⟩
  | .hbm, ⟨2, _⟩ => ⟨S768, .f32⟩
  | .hbm, ⟨3, _⟩ => ⟨S1x768, .f32⟩
  | _, _ => ⟨S24576x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S24576x768_S768_d0 : S24576x768.ReducesTo [0] S768
  h_S_ : 0 < S_.numel
  bcast_S768_S1x768_1 : S768.BroadcastsInDim S1x768 (![1] : Fin 1 → Fin S1x768.rank)

variable [Facts₀]

class Facts : Prop extends Facts₀ where

variable [Facts]
-- ==== Proof.Kernel.Mesh.lean ====
/-
  The mesh arithmetic of the all-to-all exchange on the ring of sixteen devices.

  Device `c` addresses its peers by OFFSET: the peer at offset `e` is `peer c e = (c + e) mod 16`, and the offset
  back from that peer to `c` is `opp e = (16 - e) mod 16`. Every `device_id` the kernel computes is such a peer:
  its `d`-th barrier signal and its `d`-th remote copy (d = 1 … 15) both address `peer c d`. The printed chains
  (a floor-mod of `my + d` by 16, spelt with remsi / select) are decided equal to that closed form over the sixteen
  devices.
-/
import proofs.«900908_g7700000000000909_dist_max_ax0_shard0_i_m1536_n768_v7x_i16_bf16_1_alg».proof.Proof.Gen.Kernel

namespace Cert.Kernel.Hand

open Idealize.ShloMosaic Cert.Kernel Cert.Kernel.Gen

/-- The device at offset `e` from `c` on the ring. -/
def peer (c : Dev nD) (e : Fin 16) : Dev nD := ⟨(c.val + e.val) % 16, Nat.mod_lt _ (by decide)⟩

/-- The offset that undoes `e`. -/
def opp (e : Fin 16) : Fin 16 := ⟨(16 - e.val) % 16, Nat.mod_lt _ (by decide)⟩

theorem peer_zero (c : Dev nD) : peer c 0 = c := by revert c; decide
theorem peer_opp (c : Dev nD) (e : Fin 16) : peer (peer c e) (opp e) = c := by revert c e; decide
theorem peer_opp' (c : Dev nD) (e : Fin 16) : peer (peer c (opp e)) e = c := by revert c e; decide
theorem opp_opp (e : Fin 16) : opp (opp e) = e := by revert e; decide
theorem opp_zero : opp 0 = 0 := by decide
theorem opp_ne_zero {e : Fin 16} (h : e ≠ 0) : opp e ≠ 0 := by revert e; decide
theorem opp_eq_zero_iff {e : Fin 16} : opp e = 0 ↔ e = 0 := by revert e; decide
theorem peer_right_inj (c : Dev nD) {e e' : Fin 16} (h : peer c e = peer c e') : e = e' := by revert c e e'; decide
theorem peer_left_inj (e : Fin 16) {c c' : Dev nD} (h : peer c e = peer c' e) : c = c' := by revert e c c'; decide
theorem peer_ne_self (c : Dev nD) {e : Fin 16} (h : e ≠ 0) : peer c e ≠ c := by revert c e; decide
/-- The offset from `c` to `c'`. -/
def off (c c' : Dev nD) : Fin 16 := ⟨(c'.val + 16 - c.val) % 16, Nat.mod_lt _ (by decide)⟩
theorem peer_off (c c' : Dev nD) : peer c (off c c') = c' := by revert c c'; decide
theorem off_peer (c : Dev nD) (e : Fin 16) : off c (peer c e) = e := by revert c e; decide
theorem off_self (c : Dev nD) : off c c = 0 := by revert c; decide
theorem off_opp (c c' : Dev nD) : opp (off c c') = off c' c := by revert c c'; decide
theorem peer_eq_iff (c c' : Dev nD) (e : Fin 16) : peer c e = c' ↔ e = off c c' := by revert c c' e; decide

/-- Translation by a fixed offset is a permutation of the devices. -/
def shift (e : Fin 16) : Dev nD ≃ Dev nD := ⟨fun c => peer c e, fun c => peer c (opp e), fun c => peer_opp c e, fun c => peer_opp' c e⟩

/-! ## The printed device chains, in closed form -/

theorem dev_sig1 (c : Dev nD) : (⟨k0_dev1 c, k0_dev1_lt c⟩ : Dev nD) = peer c 1 := by revert c; decide +kernel
theorem dev_sig2 (c : Dev nD) : (⟨k0_dev2 c, k0_dev2_lt c⟩ : Dev nD) = peer c 2 := by revert c; decide +kernel
theorem dev_sig3 (c : Dev nD) : (⟨k0_dev3 c, k0_dev3_lt c⟩ : Dev nD) = peer c 3 := by revert c; decide +kernel
theorem dev_sig4 (c : Dev nD) : (⟨k0_dev4 c, k0_dev4_lt c⟩ : Dev nD) = peer c 4 := by revert c; decide +kernel
theorem dev_sig5 (c : Dev nD) : (⟨k0_dev5 c, k0_dev5_lt c⟩ : Dev nD) = peer c 5 := by revert c; decide +kernel
theorem dev_sig6 (c : Dev nD) : (⟨k0_dev6 c, k0_dev6_lt c⟩ : Dev nD) = peer c 6 := by revert c; decide +kernel
theorem dev_sig7 (c : Dev nD) : (⟨k0_dev7 c, k0_dev7_lt c⟩ : Dev nD) = peer c 7 := by revert c; decide +kernel
theorem dev_sig8 (c : Dev nD) : (⟨k0_dev8 c, k0_dev8_lt c⟩ : Dev nD) = peer c 8 := by revert c; decide +kernel
theorem dev_sig9 (c : Dev nD) : (⟨k0_dev9 c, k0_dev9_lt c⟩ : Dev nD) = peer c 9 := by revert c; decide +kernel
theorem dev_sig10 (c : Dev nD) : (⟨k0_dev10 c, k0_dev10_lt c⟩ : Dev nD) = peer c 10 := by revert c; decide +kernel
theorem dev_sig11 (c : Dev nD) : (⟨k0_dev11 c, k0_dev11_lt c⟩ : Dev nD) = peer c 11 := by revert c; decide +kernel
theorem dev_sig12 (c : Dev nD) : (⟨k0_dev12 c, k0_dev12_lt c⟩ : Dev nD) = peer c 12 := by revert c; decide +kernel
theorem dev_sig13 (c : Dev nD) : (⟨k0_dev13 c, k0_dev13_lt c⟩ : Dev nD) = peer c 13 := by revert c; decide +kernel
theorem dev_sig14 (c : Dev nD) : (⟨k0_dev14 c, k0_dev14_lt c⟩ : Dev nD) = peer c 14 := by revert c; decide +kernel
theorem dev_sig15 (c : Dev nD) : (⟨k0_dev15 c, k0_dev15_lt c⟩ : Dev nD) = peer c 15 := by revert c; decide +kernel
theorem dev_xfer1 (c : Dev nD) : (⟨k0_dev16 c, k0_dev16_lt c⟩ : Dev nD) = peer c 1 := by revert c; decide +kernel
theorem dev_xfer2 (c : Dev nD) : (⟨k0_dev17 c, k0_dev17_lt c⟩ : Dev nD) = peer c 2 := by revert c; decide +kernel
theorem dev_xfer3 (c : Dev nD) : (⟨k0_dev18 c, k0_dev18_lt c⟩ : Dev nD) = peer c 3 := by revert c; decide +kernel
theorem dev_xfer4 (c : Dev nD) : (⟨k0_dev19 c, k0_dev19_lt c⟩ : Dev nD) = peer c 4 := by revert c; decide +kernel
theorem dev_xfer5 (c : Dev nD) : (⟨k0_dev20 c, k0_dev20_lt c⟩ : Dev nD) = peer c 5 := by revert c; decide +kernel
theorem dev_xfer6 (c : Dev nD) : (⟨k0_dev21 c, k0_dev21_lt c⟩ : Dev nD) = peer c 6 := by revert c; decide +kernel
theorem dev_xfer7 (c : Dev nD) : (⟨k0_dev22 c, k0_dev22_lt c⟩ : Dev nD) = peer c 7 := by revert c; decide +kernel
theorem dev_xfer8 (c : Dev nD) : (⟨k0_dev23 c, k0_dev23_lt c⟩ : Dev nD) = peer c 8 := by revert c; decide +kernel
theorem dev_xfer9 (c : Dev nD) : (⟨k0_dev24 c, k0_dev24_lt c⟩ : Dev nD) = peer c 9 := by revert c; decide +kernel
theorem dev_xfer10 (c : Dev nD) : (⟨k0_dev25 c, k0_dev25_lt c⟩ : Dev nD) = peer c 10 := by revert c; decide +kernel
theorem dev_xfer11 (c : Dev nD) : (⟨k0_dev26 c, k0_dev26_lt c⟩ : Dev nD) = peer c 11 := by revert c; decide +kernel
theorem dev_xfer12 (c : Dev nD) : (⟨k0_dev27 c, k0_dev27_lt c⟩ : Dev nD) = peer c 12 := by revert c; decide +kernel
theorem dev_xfer13 (c : Dev nD) : (⟨k0_dev28 c, k0_dev28_lt c⟩ : Dev nD) = peer c 13 := by revert c; decide +kernel
theorem dev_xfer14 (c : Dev nD) : (⟨k0_dev29 c, k0_dev29_lt c⟩ : Dev nD) = peer c 14 := by revert c; decide +kernel
theorem dev_xfer15 (c : Dev nD) : (⟨k0_dev30 c, k0_dev30_lt c⟩ : Dev nD) = peer c 15 := by revert c; decide +kernel

end Cert.Kernel.Hand
-- ==== Proof.Kernel.Spec.lean ====
/-
  What the exchange computes, as pure functions of the sixteen devices' blocks.

  Device `c` first reduces its block (1536 rows of 768 columns) to its column maxima and keeps them in slot 0 of
  its exchange buffer (sixteen slots of one row of 768). Every other device does the same and copies its slot 0
  into one slot of `c`'s buffer: the device at offset `s` from `c` lands in slot `s`. So, once everything has
  landed, slot `s` of `c`'s buffer holds the column maxima of the block of `peer c s` (slot 0: its own), and the
  result, the maximum over the sixteen slots, is the column maximum over all sixteen blocks — the same on every
  device.
-/
import proofs.«900908_g7700000000000909_dist_max_ax0_shard0_i_m1536_n768_v7x_i16_bf16_1_alg».proof.Proof.Gen.Kernel.Skeleton
import proofs.«900908_g7700000000000909_dist_max_ax0_shard0_i_m1536_n768_v7x_i16_bf16_1_alg».proof.Proof.Kernel.Mesh
import Idealize.ShloMosaic.Lib.ValueIdx

noncomputable section

namespace Cert.Kernel.Hand

open Idealize.ShloMosaic Cert.Kernel Cert.Kernel.Gen

variable {F : FTy → Type} [FloatOps F]

/-- The exchange buffer of device `c` with every slot landed: at slot `s`, the column maxima of the block of the
    device at offset `s` (as the body's first payload computes them from a block). -/
def gathered (X : Dev nD → Vec F S1536x768 .f32) (c : Dev nD) : Vec F S16x1x768 .f32 :=
  fun i => k0_pay2 (X (peer c ⟨(i 0).val, (i 0).isLt⟩)) (ValueIdx.ix3 (0 : Fin 1) (0 : Fin 1) (⟨(i 2).val, (i 2).isLt⟩ : Fin 768))

/-- The result on device `c`: the maximum over the sixteen slots (the body's last two payloads). -/
def result (X : Dev nD → Vec F S1536x768 .f32) (c : Dev nD) : FVec F S1x768 .f32 :=
  k0_pay1 (k0_pay3 (gathered X c))

end Cert.Kernel.Hand

end
-- ==== Proof.Kernel.Proto.lean ====
/-
  The exchange's protocol, as data: which semaphore cells there are, what each unit landing on one of them hands to the
  cell's owner, at which level each cell is waited on, and what a device still owes at each moment.

  Per device `c` (sixteen of them on a ring, peers addressed by offset, Mesh.lean):
  * its barrier cell receives one unit from each of the fifteen other devices. The unit from the peer at offset `e`
    hands `c` that peer's receive slot `opp e` (the slot `c` is going to write into) and the fact that the peer's receive
    cell for that slot is at its first round — exactly what `c`'s copy number `e` needs;
  * its fifteen send cells (one per copy) each receive that copy's credit once the source, slot 0, has been read:
    the landing hands back the share of slot 0 the copy was issued with;
  * its receive cells 1 … 15 each receive one copy's credit once slot `s` has been written by the peer at offset `s`:
    the landing hands `c` slot `s` holding that peer's column maxima. Receive cell 0 is never used.
  All of it is one round per cell. A device waits on its barrier cell while it still owes the fifteen receive credits,
  so barrier cells sit below receive cells; staging and send cells are waited on owing nothing that matters.
  The contents every landing leaves are named from the start by ONE function of the devices' blocks,
  `gathered` (Spec.lean): slot `s` of device `c` holds the column maxima of the block of `peer c s`.
-/
import proofs.«900908_g7700000000000909_dist_max_ax0_shard0_i_m1536_n768_v7x_i16_bf16_1_alg».proof.Proof.Gen.Kernel
import proofs.«900908_g7700000000000909_dist_max_ax0_shard0_i_m1536_n768_v7x_i16_bf16_1_alg».proof.Proof.Gen.Kernel.Skeleton
import proofs.«900908_g7700000000000909_dist_max_ax0_shard0_i_m1536_n768_v7x_i16_bf16_1_alg».proof.Proof.Gen.Kernel.Launch
import proofs.«900908_g7700000000000909_dist_max_ax0_shard0_i_m1536_n768_v7x_i16_bf16_1_alg».proof.Proof.Gen.Kernel.Points
import proofs.«900908_g7700000000000909_dist_max_ax0_shard0_i_m1536_n768_v7x_i16_bf16_1_alg».proof.Proof.Kernel.Mesh
import proofs.«900908_g7700000000000909_dist_max_ax0_shard0_i_m1536_n768_v7x_i16_bf16_1_alg».proof.Proof.Kernel.Spec
import Idealize.ShloMosaic.Lib.Pipeline.Launch
import Idealize.ShloMosaic.Lib.Pipeline.Kit
import Idealize.ShloMosaic.Lib.Tactic

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the exchange's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs: the two staging buffers, the exchange buffer and its sixteen slots -/

abbrev xM : Memref sig .tc .vmem S1536x768 .f32 := Memref.whole cc0_stg0_0
abbrev oM : Memref sig .tc .vmem S1x768 .f32 := Memref.whole cc0_stg1_0
abbrev rM : Memref sig .tc .vmem S16x1x768 .f32 := Memref.whole cc0_scratch0

theorem slot_inb (s : Fin 16) : ∀ a, (![s.val, 0, 0] : Fin 3 → Nat) a + S1x1x768.size a ≤ S16x1x768.size a := by
  revert s; decide
/-- Slot `s` of the exchange buffer as a rectangle of it: row `s`, all 768 columns. -/
abbrev slotRect (s : Fin 16) : Rect S16x1x768 := Rect.unit (s := S16x1x768) ![s.val, 0, 0] S1x1x768.size (slot_inb s)
/-- Slot `s` as the body names it: the slice, with the leading axis squeezed away. -/
abbrev slotM (s : Fin 16) : Memref sig .tc .vmem S1x768 .f32 :=
  ((Memref.whole (cc0_scratch0 : Ref sig .tc) : Memref sig .tc .vmem S16x1x768 .f32).slice (slotRect s) (fun _ => rfl)).squeeze S1x768 squeezes_S1x1x768_S1x768

/-! ## The semaphores and the cells -/

/-- The runtime's barrier semaphore of collective id 0 (not scoped to the launch). -/
abbrev barS : Sem sig := (SemArray.scalar (sig.barrier 0 rfl) : Sems sig S_).sem
/-- Send semaphore `j` (copy number `j + 1`) and receive semaphore `s` (slot `s`), by their place in the pool of DMA
    semaphores: the two staging semaphores come first, then the fifteen send, then the sixteen receive semaphores. -/
abbrev sendS (j : Fin 15) : DmaSem sig := ⟨2 + j.val, by have := j.isLt; show 2 + j.val < 33; omega⟩
abbrev recvS (s : Fin 16) : DmaSem sig := ⟨17 + s.val, by have := s.isLt; show 17 + s.val < 33; omega⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (s : Fin 16) : GSem nD τ sig := ((c : Thread nD τ), .dma (recvS s))

/-- The kernel's OWN (scoped) semaphores, as the launch theorem indexes them: the thirty-one DMA semaphores after the two
    staging ones; -/
abbrev osem : Fin 31 → SemLoc sig := fun k => .dma ⟨2 + k.val, by have := k.isLt; show 2 + k.val < 33; omega⟩
/-- all thirty-two of the exchange's, as this proof indexes them: the barrier, then the same thirty-one. -/
abbrev csem : Fin 32 → SemLoc sig := fun k =>
  if h : k.val = 0 then .reg barS else .dma ⟨1 + k.val, by have := k.isLt; show 1 + k.val < 33; omega⟩
abbrev kcell (ck : Dev nD × Fin 32) : GSem nD τ sig := ((ck.1 : Thread nD τ), csem ck.2)

/-- What one copy of a slot credits the cells it completes on. -/
abbrev N : ℕ := (slotM 0).view.dmaCredit
theorem N_pos : 0 < N := View.dmaCredit_pos _ (by decide)

/-! ## Contents -/

/-- Device `c`'s block of the argument, as its input staging buffer holds it at the one grid point. -/
def xblk (c : Dev nD) : (cc0_stg0_0 : Ref sig .tc).ty.Contents (Elt F) :=
  (win0_0.blk (0 : Fin 1)).view.read (Elt F) ((s₀ m ρ).mem ((c : Thread nD τ).loc main_arg0))

/-- The exchange buffer of device `c` with everything landed (Spec.lean's `gathered` of the devices' blocks). -/
def full (c : Dev nD) : (cc0_scratch0 : Ref sig .tc).ty.Contents (Elt F) := gathered (xblk m ρ) c

/-- The result on device `c`. -/
def outAt (c : Dev nD) : (cc0_stg1_0 : Ref sig .tc).ty.Contents (Elt F) := result (xblk m ρ) c

/-! ## Points-to assertions -/

/-- The shares the fifteen copies read slot 0 under: the `n`-th copy takes the left half of what the first `n` left. -/
def restShare : ℕ → PosShare TreeShare
  | 0 => fullShare
  | n + 1 => (restShare n).right
def copyShare (n : ℕ) : PosShare TreeShare := (restShare n).left

/-- Slot `s` of device `c`'s exchange buffer, held at share `q` with the buffer's contents agreeing with `f` there. -/
def slotPts (c : Dev nD) (s : Fin 16) (q : PosShare TreeShare)
    (f : Buf (Elt F) ((slotM s).view.loc (c : Thread nD τ))) : sProp 𝕄 :=
  (slotM s).view.loc (c : Thread nD τ) ↦[(slotM s).view.set]{q} f
/-- The whole exchange buffer. -/
def scrPts (c : Dev nD) (f : Buf (Elt F) ((rM : Memref sig .tc .vmem S16x1x768 .f32).view.loc (c : Thread nD τ))) : sProp 𝕄 :=
  (rM : Memref sig .tc .vmem S16x1x768 .f32).view.loc (c : Thread nD τ) ↦[(rM : Memref sig .tc .vmem S16x1x768 .f32).view.set]{fullShare} f
/-- The input staging buffer, holding the device's block. -/
def xPts (c : Dev nD) : sProp 𝕄 :=
  (xM : Memref sig .tc .vmem S1536x768 .f32).view.loc (c : Thread nD τ) ↦[(xM : Memref sig .tc .vmem S1536x768 .f32).view.set]{fullShare} xblk m ρ c

omit [FloatOps F] in
instance slotPts_storable (c : Dev nD) (s : Fin 16) (q) (f) : BI.Storable (upEmb : UEmb _ 𝕄) (slotPts (F := F) c s q f) := by
  unfold slotPts; infer_instance
omit [FloatOps F] in
instance scrPts_storable (c : Dev nD) (f) : BI.Storable (upEmb : UEmb _ 𝕄) (scrPts (F := F) c f) := by unfold scrPts; infer_instance

/-! ## The schedule -/

/-- What the unit from the peer at offset `e` hands `c`: that peer's slot `opp e`, at whatever it holds, and that the
    peer's receive cell for it has reached its first round. -/
def barPay (c : Dev nD) (e : Fin 16) : sProp 𝕄 :=
  iprop((∃ f, slotPts (peer c e) (opp e) fullShare f) ∗ reached ER (recvCell (peer c e) (opp e)) 0)
/-- What the copy landing in slot `s` hands `c`: the slot, holding what the finished exchange buffer holds there. -/
def recvPay (c : Dev nD) (s : Fin 16) : sProp 𝕄 := slotPts c s fullShare (full m ρ c)
/-- What copy number `j + 1`, once it has read its source, hands back: its share of slot 0. -/
def sendPay (c : Dev nD) (j : Fin 15) : sProp 𝕄 := slotPts c 0 (copyShare j.val) (full m ρ c)

/-- One round, round 0. A barrier cell: fifteen duties of one unit, named by the payer's offset. A send cell, and a
    receive cell other than the unused one: the duty `0` of one copy's credit. -/
def sched : Rounds.Schedule (GSem nD τ sig) (Fin 16) 𝕄 where
  duties g r :=
    if r = 0 ∧ g.1.2 = .tc then
      (match g.2 with
        | .reg _ => Finset.univ.erase 0
        | .dma q => if 2 ≤ q.val ∧ q.val ≠ 17 then {0} else ∅)
    else ∅
  unitless _ := False
  amount g _ _ := match g.2 with
    | .reg _ => 1
    | .dma _ => N
  payload g _ d := match g.2 with
    | .reg _ => barPay g.1.1 d
    | .dma q =>
      if h : 17 ≤ q.val then recvPay m ρ g.1.1 ⟨q.val - 17, by have : q.val < 33 := q.isLt; omega⟩
      else if h2 : 2 ≤ q.val then sendPay m ρ g.1.1 ⟨q.val - 2, by omega⟩
      else iprop(emp)
  amount_pos g _ _ _ := by
    cases g.2 with
    | reg _ => exact Nat.one_pos
    | dma _ => exact N_pos

instance sched_payload_storable (g : GSem nD τ sig) (r : ℕ) (d : Fin 16) :
    BI.Storable (upEmb : UEmb _ 𝕄) ((sched (F := F) m ρ).payload g r d) := by
  obtain ⟨t, sm⟩ := g
  cases sm with
  | reg s => show BI.Storable upEmb (barPay t.1 d); unfold barPay; infer_instance
  | dma q =>
    show BI.Storable upEmb (if h : 17 ≤ q.val then recvPay m ρ t.1 ⟨q.val - 17, _⟩
      else if h2 : 2 ≤ q.val then sendPay m ρ t.1 ⟨q.val - 2, _⟩ else iprop(emp))
    unfold recvPay sendPay
    (repeat' split) <;> infer_instance

/-! ## Levels, and what a device owes -/

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 17 ≤ q.val then 2 else 0

def fin16 (n : ℕ) : Fin 16 := ⟨n % 16, Nat.mod_lt _ (by decide)⟩

/-- The unit device `c`'s signal number `d` pays, and the credit its copy number `d` pays. -/
def tSig (c : Dev nD) (d : Fin 16) : CellTallies nD τ sig Unit := tallyAt (barCell (peer c d)) () 1
def tXfer (c : Dev nD) (d : Fin 16) : CellTallies nD τ sig Unit := tallyAt (recvCell (peer c d) (opp d)) () N

/-- What `c` owes with `k` copies still to issue (the copies go out in the order 1, 2, … 15, so with `k + 1` to go the
    next one is number `15 - k`, and it peels the last summand). -/
def oweX (c : Dev nD) : ℕ → CellTallies nD τ sig Unit
  | 0 => 0
  | k + 1 => oweX c k + tXfer c (fin16 (15 - k))
/-- What `c` owes with `k` signals still to send (and all fifteen copies). -/
def oweS (c : Dev nD) : ℕ → CellTallies nD τ sig Unit
  | 0 => oweX c 15
  | k + 1 => oweS c k + tSig c (fin16 (15 - k))
/-- At launch: fifteen signals and fifteen copies. -/
def O₀ (c : Dev nD) : CellTallies nD τ sig Unit := oweS c 15

/-! ## The ghost state a device's body starts from -/

/-- Every cell's invariant, under the names `K` the launch allocated them at, and that every cell is at its first round:
    persistent, so every device has all of it. -/
def records (K : Dev nD × Fin 32 → ℕ) : sProp 𝕄 :=
  iprop((bigSep Finset.univ fun ck : Dev nD × Fin 32 => cellInv ER (sched m ρ) (K ck) (kcell ck))
    ∗ bigSep Finset.univ fun ck : Dev nD × Fin 32 => reached ER (kcell ck) 0)

instance records_persistent (K : Dev nD × Fin 32 → ℕ) : BI.Persistent (records m ρ K) := by unfold records; infer_instance

/-- What only device `c` has: its position at the start of round 0 of each of its cells, and the token of every duty IT
    pays — the duty `opp e` of the barrier cell of its peer at offset `e`, the duty of each of its own send cells, the
    duty of the receive cell for slot `opp e` of its peer at offset `e`. -/
def linear (c : Dev nD) : sProp 𝕄 :=
  iprop(atPos ER (barCell c) 0 ∅ 0
    ∗ (bigSep Finset.univ fun j : Fin 15 => atPos ER (sendCell c j) 0 ∅ 0)
    ∗ (bigSep Finset.univ fun s : Fin 16 => atPos ER (recvCell c s) 0 ∅ 0)
    ∗ (bigSep (Finset.univ.erase 0) fun e : Fin 16 => dutyTok ER (barCell (peer c e)) 0 (opp e))
    ∗ (bigSep Finset.univ fun j : Fin 15 => dutyTok ER (sendCell c j) 0 0)
    ∗ (bigSep (Finset.univ.erase 0) fun e : Fin 16 => dutyTok ER (recvCell (peer c e) (opp e)) 0 0))

def ghost (K : Dev nD × Fin 32 → ℕ) (c : Dev nD) : sProp 𝕄 := iprop(records m ρ K ∗ linear c)

/-- What device `c`'s body starts from: that at some names, the credit to wait with (fifteen units on its barrier cell,
    one copy's credit on each receive cell in use) and the level facts. -/
def start (c : Dev nD) : sProp 𝕄 :=
  iprop((∃ K, ghost m ρ K c) ∗ cred (tallyAt (barCell c) () 15)
    ∗ (bigSep (Finset.univ.erase 0) fun s : Fin 16 => cred (tallyAt (recvCell c s) () N)) ∗ levAts L lv)

def Φ₀ (c : Dev nD) : sProp 𝕄 := iprop(start m ρ c ∗ ∃ f, scrPts c f)
/-- After the point: the exchange buffer with everything landed, and the kernel's own semaphores at zero again. -/
def Φ₁ (c : Dev nD) : sProp 𝕄 :=
  iprop(scrPts c (full m ρ c) ∗ bigSep Finset.univ fun k : Fin 31 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 32 → ℕ) (c : Dev nD) : sProp 𝕄 :=
  iprop((ghost m ρ K c ∗ cred (tallyAt (barCell c) () 15)
      ∗ (bigSep (Finset.univ.erase 0) fun s : Fin 16 => cred (tallyAt (recvCell c s) () N)) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xblk m ρ c) ∗ stg c cc0_stg1_0 (outAt m ρ c))

end Cert.Kernel.Hand

end
-- ==== Proof.Kernel.Tables.lean ====
/-
  The schedule's tables read at each kind of cell, and the level facts.

  A barrier cell has the fifteen duties 1 … 15 of one unit each in round 0, a send cell and a receive cell in use the one
  duty 0 of a copy's credit, the unused receive cell none; nothing after round 0. A device's debts all sit on barrier
  cells (level 1) and receive cells (level 2): so a staging or send cell (level 0) may be waited on whatever is owed, and
  the barrier cell while only receive credits are owed.
-/
import proofs.«900908_g7700000000000909_dist_max_ax0_shard0_i_m1536_n768_v7x_i16_bf16_1_alg».proof.Proof.Kernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

theorem duties_bar : (sched (F := F) m ρ).duties (barCell c) 0 = Finset.univ.erase 0 := by
  dsimp only [sched]; exact if_pos ⟨rfl, rfl⟩
theorem duties_send (j : Fin 15) : (sched (F := F) m ρ).duties (sendCell c j) 0 = {0} := by
  have hj := j.isLt
  dsimp only [sched]
  exact (if_pos ⟨rfl, rfl⟩).trans
    (if_pos ⟨show 2 ≤ 2 + j.val by omega, show 2 + j.val ≠ 17 by omega⟩)
theorem duties_recv {s : Fin 16} (hs : s ≠ 0) : (sched (F := F) m ρ).duties (recvCell c s) 0 = {0} := by
  have h0 : s.val ≠ 0 := fun h => hs (Fin.ext h)
  dsimp only [sched]
  exact (if_pos ⟨rfl, rfl⟩).trans
    (if_pos ⟨show 2 ≤ 17 + s.val by omega, show 17 + s.val ≠ 17 by omega⟩)
theorem duties_recv0 (r : ℕ) : (sched (F := F) m ρ).duties (recvCell c 0) r = ∅ := by
  dsimp only [sched]
  by_cases hr : r = 0
  · subst hr
    exact (if_pos ⟨rfl, rfl⟩).trans (if_neg fun h => h.2 rfl)
  · exact if_neg fun h => hr h.1
theorem duties_later (g : GSem nD τ sig) : ∀ r, 1 ≤ r → (sched (F := F) m ρ).duties g r = ∅ :=
  fun r hr => by dsimp only [sched]; exact if_neg fun h => by omega

theorem amount_bar (d : Fin 16) : (sched (F := F) m ρ).amount (barCell c) 0 d = 1 := rfl
theorem amount_send (j : Fin 15) (d : Fin 16) : (sched (F := F) m ρ).amount (sendCell c j) 0 d = N := rfl
theorem amount_recv (s : Fin 16) (d : Fin 16) : (sched (F := F) m ρ).amount (recvCell c s) 0 d = N := rfl

theorem expect_bar : (sched (F := F) m ρ).expect (barCell c) 0 = 15 := by
  unfold Schedule.expect Schedule.amountOf
  rw [duties_bar, Finset.sum_congr rfl fun d _ => amount_bar m ρ c d, Finset.sum_const, smul_eq_mul, mul_one,
    Finset.card_erase_of_mem (Finset.mem_univ _), Finset.card_univ, Fintype.card_fin]
theorem expect_send (j : Fin 15) : (sched (F := F) m ρ).expect (sendCell c j) 0 = N := by
  unfold Schedule.expect Schedule.amountOf; rw [duties_send, Finset.sum_singleton, amount_send]
theorem expect_recv {s : Fin 16} (hs : s ≠ 0) : (sched (F := F) m ρ).expect (recvCell c s) 0 = N := by
  unfold Schedule.expect Schedule.amountOf; rw [duties_recv m ρ c hs, Finset.sum_singleton, amount_recv]

theorem payload_bar (e : Fin 16) : (sched (F := F) m ρ).payload (barCell c) 0 e = barPay c e := rfl
theorem payload_send (j : Fin 15) (d : Fin 16) : (sched (F := F) m ρ).payload (sendCell c j) 0 d = sendPay m ρ c j := by
  have hj := j.isLt
  show (if h : 17 ≤ 2 + j.val then recvPay m ρ c ⟨2 + j.val - 17, _⟩
    else if h2 : 2 ≤ 2 + j.val then sendPay m ρ c ⟨2 + j.val - 2, _⟩ else iprop(emp)) = _
  rw [dif_neg (by omega), dif_pos (by omega)]
  congr 1
  exact Fin.ext (show 2 + j.val - 2 = j.val by omega)
theorem payload_recv (s : Fin 16) (d : Fin 16) : (sched (F := F) m ρ).payload (recvCell c s) 0 d = recvPay m ρ c s := by
  show (if h : 17 ≤ 17 + s.val then recvPay m ρ c ⟨17 + s.val - 17, _⟩
    else if h2 : 2 ≤ 17 + s.val then sendPay m ρ c ⟨17 + s.val - 2, _⟩ else iprop(emp)) = _
  rw [dif_pos (by omega)]
  congr 1
  exact Fin.ext (show 17 + s.val - 17 = s.val by omega)

/-- The rest of the barrier cell's round, no duty taken: the fifteen peers' payloads. -/
theorem rest_bar : bigSep ((sched (F := F) m ρ).duties (barCell c) 0 \ ∅) (fun d => (sched (F := F) m ρ).payload (barCell c) 0 d)
    = bigSep (Finset.univ.erase 0) (fun e : Fin 16 => barPay (F := F) c e) := by
  rw [Finset.sdiff_empty, duties_bar]
  rfl
theorem rest_send (j : Fin 15) : bigSep ((sched (F := F) m ρ).duties (sendCell c j) 0 \ ∅) (fun d => (sched (F := F) m ρ).payload (sendCell c j) 0 d)
    = sendPay m ρ c j := by
  rw [Finset.sdiff_empty, duties_send, bigSep_singleton, payload_send]
theorem rest_recv {s : Fin 16} (hs : s ≠ 0) : bigSep ((sched (F := F) m ρ).duties (recvCell c s) 0 \ ∅) (fun d => (sched (F := F) m ρ).payload (recvCell c s) 0 d)
    = recvPay m ρ c s := by
  rw [Finset.sdiff_empty, duties_recv m ρ c hs, bigSep_singleton, payload_recv]

end Sched

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- Whatever is owed with copies still to issue is owed to a receive cell. -/
theorem oweX_pos {c : Dev nD} {k : ℕ} {g : GSem nD τ sig} {u : Unit} (h : 0 < oweX c k g u) :
    ∃ d : Fin 16, g = recvCell (peer c d) (opp d) := by
  induction k with
  | zero =>
    rw [oweX, Pi.zero_apply, Finsupp.zero_apply] at h
    exact absurd h (Nat.lt_irrefl 0)
  | succ k ih =>
    rw [oweX, Pi.add_apply, Finsupp.add_apply, tXfer, tallyAt_apply] at h
    rcases Nat.eq_zero_or_pos (oweX c k g u) with h0 | hp
    · by_cases hh : g = recvCell (peer c (fin16 (15 - k))) (opp (fin16 (15 - k))) ∧ u = ()
      · exact ⟨_, hh.1⟩
      · rw [h0, if_neg hh] at h; exact absurd h (Nat.lt_irrefl 0)
    · exact ih hp
/-- Whatever is owed at all is owed to a receive cell or to a barrier cell. -/
theorem oweS_pos {c : Dev nD} {k : ℕ} {g : GSem nD τ sig} {u : Unit} (h : 0 < oweS c k g u) :
    (∃ d : Fin 16, g = recvCell (peer c d) (opp d)) ∨ ∃ d : Fin 16, g = barCell (peer c d) := by
  induction k with
  | zero =>
    rw [oweS] at h
    exact .inl (oweX_pos h)
  | succ k ih =>
    rw [oweS, Pi.add_apply, Finsupp.add_apply, tSig, tallyAt_apply] at h
    rcases Nat.eq_zero_or_pos (oweS c k g u) with h0 | hp
    · by_cases hh : g = barCell (peer c (fin16 (15 - k))) ∧ u = ()
      · exact .inr ⟨_, hh.1⟩
      · rw [h0, if_neg hh] at h; exact absurd h (Nat.lt_irrefl 0)
    · exact ih hp

/-- A staging or send cell (any DMA cell before the receive cells) may be waited on owing the launch's debts, or nothing. -/
theorem mayWait_low (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases oweS_pos (c := c) (k := 15) hg with ⟨d, rfl⟩ | ⟨d, rfl⟩ <;> exact Finset.mem_singleton_self _)
      (fun p hp => by
        rw [Finset.mem_singleton.mp hp]
        show (if 17 ≤ q.val then 2 else 0) ≤ 0
        rw [if_neg (by omega)])
      (fun g u hg => by
        rcases oweS_pos (c := c) (k := 15) hg with ⟨d, rfl⟩ | ⟨d, rfl⟩
        · show 0 < (if 17 ≤ 17 + (opp d).val then 2 else 0)
          rw [if_pos (Nat.le_add_right _ _)]; exact Nat.two_pos
        · exact Nat.one_pos)
  · rw [MayWait_zero]; iintro -; iempintro
/-- At its barrier wait a device owes the fifteen receive credits only: receive cells, above its barrier cell. -/
theorem mayWait_bar (c : Dev nD) :
    (levAts L lv : sProp 𝕄) ⊢ MayWait (c : Thread nD τ) (.reg barS) () (oweX c 15) :=
  MayOwe.of_cut (L := L) (lev := lv) 1
    (fun p hp => by rw [Finset.mem_singleton.mp hp, L_tc]; exact Finset.mem_singleton_self _)
    (fun g u hg => by obtain ⟨d, rfl⟩ := oweX_pos hg; exact Finset.mem_singleton_self _)
    (fun p hp => by rw [Finset.mem_singleton.mp hp]; exact Nat.le_refl 1)
    (fun g u hg => by
      obtain ⟨d, rfl⟩ := oweX_pos hg
      show 1 < (if 17 ≤ 17 + (opp d).val then 2 else 0)
      rw [if_pos (Nat.le_add_right _ _)]; exact Nat.one_lt_two)

/-- info: 'Cert.Kernel.Hand.duties_bar' depends on axioms: [propext, Classical.choice, Quot.sound] -/
#guard_msgs in #print axioms duties_bar

/-- info: 'Cert.Kernel.Hand.duties_send' depends on axioms: [propext, Classical.choice, Quot.sound] -/
#guard_msgs in #print axioms duties_send

/-- info: 'Cert.Kernel.Hand.duties_recv' depends on axioms: [propext, Classical.choice, Quot.sound] -/
#guard_msgs in #print axioms duties_recv

/-- info: 'Cert.Kernel.Hand.duties_recv0' depends on axioms: [propext, Classical.choice, Quot.sound] -/
#guard_msgs in #print axioms duties_recv0

/-- info: 'Cert.Kernel.Hand.duties_later' depends on axioms: [propext, Classical.choice, Quot.sound] -/
#guard_msgs in #print axioms duties_later

/-- info: 'Cert.Kernel.Hand.amount_bar' depends on axioms: [propext, Classical.choice, Quot.sound] -/
#guard_msgs in #print axioms amount_bar

/-- info: 'Cert.Kernel.Hand.amount_send' depends on axioms: [propext, Classical.choice, Quot.sound] -/
#guard_msgs in #print axioms amount_send

/-- info: 'Cert.Kernel.Hand.amount_recv' depends on axioms: [propext, Classical.choice, Quot.sound] -/
#guard_msgs in #print axioms amount_recv

/-- info: 'Cert.Kernel.Hand.expect_bar' depends on axioms: [propext, Classical.choice, Quot.sound] -/
#guard_msgs in #print axioms expect_bar

/-- info: 'Cert.Kernel.Hand.expect_send' depends on axioms: [propext, Classical.choice, Quot.sound] -/
#guard_msgs in #print axioms expect_send

/-- info: 'Cert.Kernel.Hand.expect_recv' depends on axioms: [propext, Classical.choice, Quot.sound] -/
#guard_msgs in #print axioms expect_recv

/-- info: 'Cert.Kernel.Hand.payload_bar' depends on axioms: [propext, Classical.choice, Quot.sound] -/
#guard_msgs in #print axioms payload_bar

/-- info: 'Cert.Kernel.Hand.payload_send' depends on axioms: [propext, Classical.choice, Quot.sound] -/
#guard_msgs in #print axioms payload_send

/-- info: 'Cert.Kernel.Hand.payload_recv' depends on axioms: [propext, Classical.choice, Quot.sound] -/
#guard_msgs in #print axioms payload_recv

/-- info: 'Cert.Kernel.Hand.rest_bar' depends on axioms: [propext, Classical.choice, Quot.sound] -/
#guard_msgs in #print axioms rest_bar

/-- info: 'Cert.Kernel.Hand.rest_send' depends on axioms: [propext, Classical.choice, Quot.sound] -/
#guard_msgs in #print axioms rest_send

/-- info: 'Cert.Kernel.Hand.rest_recv' depends on axioms: [propext, Classical.choice, Quot.sound] -/
#guard_msgs in #print axioms rest_recv

/-- info: 'Cert.Kernel.Hand.L_of_ne' depends on axioms: [propext, Classical.choice, Quot.sound] -/
#guard_msgs in #print axioms L_of_ne

/-- info: 'Cert.Kernel.Hand.L_tc' depends on axioms: [propext, Classical.choice, Quot.sound] -/
#guard_msgs in #print axioms L_tc

/-- info: 'Cert.Kernel.Hand.oweX_pos' depends on axioms: [propext, Classical.choice, Quot.sound] -/
#guard_msgs in #print axioms oweX_pos

/-- info: 'Cert.Kernel.Hand.oweS_pos' depends on axioms: [propext, Classical.choice, Quot.sound] -/
#guard_msgs in #print axioms oweS_pos

/-- info: 'Cert.Kernel.Hand.mayWait_low' depends on axioms: [propext, Classical.choice, Quot.sound] -/
#guard_msgs in #print axioms mayWait_low

/-- info: 'Cert.Kernel.Hand.mayWait_bar' depends on axioms: [propext, Classical.choice, Quot.sound] -/
#guard_msgs in #print axioms mayWait_bar

end Cert.Kernel.Hand

end
-- ==== Proof.Kernel.Slots.lean ====
/-
  The exchange buffer as sixteen slots, and what the body's stores, copies and loads do to it.

  The buffer's index set is the disjoint union of the sixteen slots' index sets, so holding the buffer is holding the
  sixteen slots and back. The store of a block's column maxima through the rectangle of slot 0, and the copy of a peer's
  slot 0 into slot `s`, each leave the slot holding what the finished buffer `full` holds there: at (s, 0, j) that is the
  column-`j` maximum of the block of the device at offset `s`. Values off a slot's index set are irrelevant to a
  points-to of that slot, so each such fact is an equation between points-to assertions.
-/
import proofs.«900908_g7700000000000909_dist_max_ax0_shard0_i_m1536_n768_v7x_i16_bf16_1_alg».proof.Proof.Kernel.Proto
import Idealize.ShloMosaic.Lib.Pipeline.Value

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Slots
variable (c : Dev nD)

/-! ### The slots' index sets -/

omit [FloatOps F] in
/-- The rectangle of slot `s` and the squeezed slice the copies name go through the same elements of the buffer. -/
theorem access_set (s : Fin 16) :
    ((rM : Memref sig .tc .vmem S16x1x768 .f32).access (slotRect s) : View sig .tc .vmem _ .f32).set = (slotM s).view.set :=
  (View.set_reshape _ _).symm

omit [FloatOps F] in
/-- A slot's elements are those of its rectangle: first coordinate `s`, the other two free. -/
private theorem slot_set (s : Fin 16) : (slotM s).view.set = (slotRect s).set :=
  (access_set s).symm.trans (View.set_slice_whole cc0_scratch0 (slotRect s))

omit [FloatOps F] in
/-- Distinct slots share no element. -/
theorem slot_disjoint {s s' : Fin 16} (h : s ≠ s') : Disjoint (slotM s).view.set (slotM s').view.set := by
  rw [slot_set s, slot_set s']
  have hv : s.val ≠ s'.val := fun e => h (Fin.ext e)
  exact Rect.unit_disjoint 0 (by show s.val + 1 ≤ s'.val ∨ s'.val + 1 ≤ s.val; omega)

omit [FloatOps F] in
/-- Every element of the buffer lies in the slot its first coordinate names. -/
private theorem mem_slot (i : S16x1x768.Idx) : i ∈ (slotRect ⟨(i 0).val, (i 0).isLt⟩).set := by
  rw [Rect.mem_set_unit]
  intro a
  match a with
  | ⟨0, _⟩ => exact ⟨Nat.le_refl _, Nat.lt_succ_self _⟩
  | ⟨1, _⟩ => exact ⟨Nat.zero_le _, (i 1).isLt⟩
  | ⟨2, _⟩ => exact ⟨Nat.zero_le _, (i 2).isLt⟩

omit [FloatOps F] in
/-- The buffer is its sixteen slots. -/
theorem scr_split (f : Buf (Elt F) ((rM : Memref sig .tc .vmem S16x1x768 .f32).view.loc (c : Thread nD τ))) :
    scrPts (F := F) c f = bigSep Finset.univ fun s : Fin 16 => slotPts c s fullShare f := by
  unfold scrPts slotPts
  have hU : (rM : Memref sig .tc .vmem S16x1x768 .f32).view.set
      = Finset.univ.biUnion fun s : Fin 16 => (slotM s).view.set := by
    have hw : (rM : Memref sig .tc .vmem S16x1x768 .f32).view.set = Finset.univ := View.set_whole cc0_scratch0
    rw [hw]
    ext i
    simp only [Finset.mem_univ, Finset.mem_biUnion, true_and, true_iff]
    exact ⟨⟨(i 0).val, (i 0).isLt⟩, by rw [slot_set]; exact mem_slot i⟩
  rw [hU]
  exact pointsTo_biUnion _ _ (fun t _ t' _ h => slot_disjoint h)

/-! ### What the finished buffer holds at an element of a slot -/

omit [FloatOps F] in
/-- A cast along an equation between a type and itself does nothing. -/
private theorem cast_self {α : Type} (h : α = α) (a : α) : cast h a = a := rfl

omit [FloatOps F] in
/-- Where an index of slot `s`'s rectangle sits in the buffer: at `s` on the first axis, at itself on the others. -/
private theorem acc_emb (s : Fin 16) (y : S1x1x768.Idx) (a : Fin 3) :
    ((((rM : Memref sig .tc .vmem S16x1x768 .f32).access (slotRect s) : View sig .tc .vmem _ .f32).emb y) a).val
      = (![s.val, 0, 0] : Fin 3 → ℕ) a + (y a).val := by
  show (((slotRect s).emb y a : Fin _) : ℕ) = _
  rw [Rect.emb_apply]
  show (![s.val, 0, 0] : Fin 3 → ℕ) a + 1 * (y a).val = _
  rw [Nat.one_mul]

/-- The gathered buffer at an index whose first coordinate is `s` and whose last coordinate is that of `y`, an index of a
    slot's rectangle (its first two coordinates are zero): the column maxima of the block at offset `s`, read at `y`. -/
private theorem gathered_at (X : Dev nD → Vec F S1536x768 .f32) (s : Fin 16) (i : S16x1x768.Idx) (y : S1x1x768.Idx)
    (h0 : (i 0).val = s.val) (h2 : (i 2).val = (y 2).val) : gathered X c i = k0_pay2 (X (peer c s)) y := by
  have y0 : (y 0).val < 1 := (y 0).isLt
  have y1 : (y 1).val < 1 := (y 1).isLt
  have e1 : (⟨(i 0).val, (i 0).isLt⟩ : Fin 16) = s := Fin.ext h0
  have e2 : (ValueIdx.ix3 (0 : Fin 1) (0 : Fin 1) (⟨(i 2).val, (i 2).isLt⟩ : Fin 768) : S1x1x768.Idx) = y := by
    funext a
    match a with
    | ⟨0, _⟩ => exact Fin.ext (by show 0 = (y 0).val; omega)
    | ⟨1, _⟩ => exact Fin.ext (by show 0 = (y 1).val; omega)
    | ⟨2, _⟩ => exact Fin.ext h2
  unfold gathered
  rw [e1, e2]

/-- At the element of slot `s` under the index `y` of the slot's rectangle the finished buffer holds the column maxima of
    the block of the device at offset `s`, read at `y`. -/
private theorem full_acc (s : Fin 16) (y : S1x1x768.Idx) :
    full m ρ c (((rM : Memref sig .tc .vmem S16x1x768 .f32).access (slotRect s) : View sig .tc .vmem _ .f32).emb y)
      = k0_pay2 (xblk m ρ (peer c s)) y := by
  have y0 : (y 0).val < 1 := (y 0).isLt
  unfold full
  refine gathered_at c (xblk m ρ) s _ y ?_ ?_
  · rw [acc_emb]; show s.val + (y 0).val = s.val; omega
  · rw [acc_emb]; show 0 + (y 2).val = (y 2).val; omega

omit [FloatOps F] in
/-- An index of slot `s` sits where the matching index of the slot's rectangle does. -/
private theorem slot_emb (s : Fin 16) (x : S1x768.Idx) :
    (slotM s).view.emb x
      = ((rM : Memref sig .tc .vmem S16x1x768 .f32).access (slotRect s) : View sig .tc .vmem _ .f32).emb
          (Shape.reshapeEquiv squeezes_S1x1x768_S1x768.numel_eq x) := rfl

/-- The store of the block's column maxima through slot 0's rectangle leaves slot 0 as the finished buffer has it. -/
theorem store_slot0 (f : Buf (Elt F) ((rM : Memref sig .tc .vmem S16x1x768 .f32).view.loc (c : Thread nD τ))) :
    slotPts (F := F) c 0 fullShare
        (((rM : Memref sig .tc .vmem S16x1x768 .f32).access (Rect.unit (s := S16x1x768) ![0, 0, 0] S1x1x768.size inb_S16x1x768_S1x1x768_0_0_0) : View sig .tc .vmem _ .f32).write
          (Elt F) f (k0_pay2 (xblk m ρ c)) Finset.univ)
      = slotPts c 0 fullShare (full m ρ c) := by
  unfold slotPts
  refine pointsTo_congr fun i hi => ?_
  have hi' : i ∈ ((rM : Memref sig .tc .vmem S16x1x768 .f32).access (slotRect 0) : View sig .tc .vmem _ .f32).set := by
    rw [access_set]; exact hi
  obtain ⟨y, rfl⟩ := View.exists_emb_of_mem_set _ hi'
  rw [full_acc, peer_zero]
  generalize k0_pay2 (xblk m ρ c) = w
  exact (View.write_emb_of_mem
    (v := ((rM : Memref sig .tc .vmem S16x1x768 .f32).access (slotRect 0) : View sig .tc .vmem _ .f32))
    f w (Finset.mem_univ y)).trans (cast_self _ _)

/-- The copy of the slot 0 of the peer at offset `s` into slot `s` leaves slot `s` as the finished buffer has it, whatever
    the slot held before. -/
theorem landing (s : Fin 16) (fd : Buf (Elt F) ((slotM s).view.loc (c : Thread nD τ))) :
    ((slotM s).view.loc (c : Thread nD τ) ↦[(slotM s).view.set]{fullShare}
        ((slotM s).view.write (Elt F) fd ((slotM 0).view.read (Elt F) (full m ρ (peer c s))) Finset.univ) : sProp 𝕄)
      = slotPts c s fullShare (full m ρ c) := by
  unfold slotPts
  refine pointsTo_congr fun i hi => ?_
  obtain ⟨x, rfl⟩ := View.exists_emb_of_mem_set _ hi
  rw [View.write_emb_of_mem _ _ (Finset.mem_univ x), cast_self, View.read_apply, cast_self, slot_emb, slot_emb, full_acc, full_acc,
    peer_zero]

/-! ### Whole rectangles -/

omit [FloatOps F] in
/-- Loads and the final store through whole rectangles read and write the whole buffer. -/
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 (funext fun a => by fin_cases a <;> rfl) inb_S1536x768_S1536x768_0_0 f
omit [FloatOps F] in
theorem read_scr (f : (cc0_scratch0 : Ref sig .tc).ty.Contents (Elt F)) :
    (rM : Memref sig .tc .vmem S16x1x768 .f32).view.readAt (Elt F) (Rect.unit (s := S16x1x768) ![0, 0, 0] S16x1x768.size inb_S16x1x768_S16x1x768_0_0_0).toLoadRect f = f :=
  Memref.readAt_unit_zero (Elt F) cc0_scratch0 (funext fun a => by fin_cases a <;> rfl) inb_S16x1x768_S16x1x768_0_0_0 f
omit [FloatOps F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc .vmem _ .f32).write (Elt F) f w Finset.univ = w :=
  Memref.write_access_unit_zero_univ (Elt F) cc0_stg1_0 (funext fun a => by fin_cases a <;> rfl) inb_S1x768_S1x768_0_0 f w

/-! ### The shares slot 0 is read under -/

omit [FloatOps F] in
/-- Slot 0 held at what the first `n` copies left is the `n`-th copy's share and what that leaves. -/
theorem share_step (n : ℕ) (f : Buf (Elt F) ((slotM 0).view.loc (c : Thread nD τ))) :
    (slotPts (F := F) c 0 (restShare n) f) ⊣⊢ iprop(slotPts c 0 (copyShare n) f ∗ slotPts c 0 (restShare (n + 1)) f) := by
  unfold slotPts copyShare
  exact pointsTo_share (PosShare.mem_left_op_right (restShare n))

end Slots

/-- info: 'Cert.Kernel.Hand.access_set' depends on axioms: [propext, Classical.choice, Quot.sound] -/
#guard_msgs in #print axioms access_set

/-- info: 'Cert.Kernel.Hand.slot_disjoint' depends on axioms: [propext, Classical.choice, Quot.sound] -/
#guard_msgs in #print axioms slot_disjoint

/-- info: 'Cert.Kernel.Hand.scr_split' depends on axioms: [propext, Classical.choice, Quot.sound] -/
#guard_msgs in #print axioms scr_split

/-- info: 'Cert.Kernel.Hand.store_slot0' depends on axioms: [propext, Classical.choice, Quot.sound] -/
#guard_msgs in #print axioms store_slot0

/-- info: 'Cert.Kernel.Hand.landing' depends on axioms: [propext, Classical.choice, Quot.sound] -/
#guard_msgs in #print axioms landing

/-- info: 'Cert.Kernel.Hand.read_x' depends on axioms: [propext, Classical.choice, Quot.sound] -/
#guard_msgs in #print axioms read_x

/-- info: 'Cert.Kernel.Hand.read_scr' depends on axioms: [propext, Classical.choice, Quot.sound] -/
#guard_msgs in #print axioms read_scr

/-- info: 'Cert.Kernel.Hand.write_out' depends on axioms: [propext, Classical.choice, Quot.sound] -/
#guard_msgs in #print axioms write_out

/-- info: 'Cert.Kernel.Hand.share_step' depends on axioms: [propext, Classical.choice, Quot.sound] -/
#guard_msgs in #print axioms share_step

end Cert.Kernel.Hand

end
-- ==== Proof.Kernel.Stages.lean ====
/-
  The body cut into four stretches at boundaries of its printed parts, and what a device holds between them.

  Stretch 1 (parts 1–7): the fifteen signals, the local column maxima stored into slot 0, the barrier wait.
  Stretch 2 (parts 8–17): the fifteen copies, and the waits for the copies into slots 15 and 14.
  Stretch 3 (parts 18–21): the waits for the copies into slots 13 … 1.
  Stretch 4 (parts 22–25 and the tail): the fifteen waits for the copies' sources, then the load of the whole buffer and
  the store of the result.
  The words the parts pass along are what the printed device arithmetic computed; no step depends on them, so a stretch's
  continuation is any function of them.
-/
import proofs.«900908_g7700000000000909_dist_max_ax0_shard0_i_m1536_n768_v7x_i16_bf16_1_alg».proof.Proof.Kernel.Proto

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four stretches of the program -/

def seg1Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (kont : Dev nD → BitVec 32 → BitVec 32 → Prog (TpuEff nD τ sig (Elt F) Λ₀ .tc) α) : Prog (TpuEff nD τ sig (Elt F) Λ₀ .tc) α := do
  let ⟨d0, v2, v3, v30, c16_i32_18, v31⟩ : Σ' (d0 : Dev nD) (v2 : BitVec 32) (v3 : Sems sig S_) (v30 : BitVec 32) (c16_i32_18 : BitVec 32), BitVec 1 ← k0_part1 arg0 harg0 arg1 harg1 arg2 harg2 arg3 arg4
  let ⟨v59, v64, v65⟩ : Σ' (v59 : BitVec 32) (v64 : BitVec 1), BitVec 32 ← k0_part2 arg0 harg0 arg1 harg1 arg2 harg2 arg3 arg4 d0 v2 v3 v30 c16_i32_18 v31
  let ⟨v95, c16_i32_63, v96⟩ : Σ' (v95 : BitVec 32) (c16_i32_63 : BitVec 32), BitVec 1 ← k0_part3 arg0 harg0 arg1 harg1 arg2 harg2 arg3 arg4 d0 v2 v3 v59 v64 v65
  let ⟨v124, v129, v130⟩ : Σ' (v124 : BitVec 32) (v129 : BitVec 1), BitVec 32 ← k0_part4 arg0 harg0 arg1 harg1 arg2 harg2 arg3 arg4 d0 v2 v3 v95 c16_i32_63 v96
  let ⟨v160, c16_i32_108, v161⟩ : Σ' (v160 : BitVec 32) (c16_i32_108 : BitVec 32), BitVec 1 ← k0_part5 arg0 harg0 arg1 harg1 arg2 harg2 arg3 arg4 d0 v2 v3 v124 v129 v130
  let ⟨v189, v194, v195⟩ : Σ' (v189 : BitVec 32) (v194 : BitVec 1), BitVec 32 ← k0_part6 arg0 harg0 arg1 harg1 arg2 harg2 arg3 arg4 d0 v2 v3 v160 c16_i32_108 v161
  let v216 : BitVec 32 ← k0_part7 arg0 harg0 arg1 harg1 arg2 harg2 arg3 arg4 d0 v2 v3 v189 v194 v195
  kont d0 v2 v216

def seg2Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (d0 : Dev nD) (v2 v216 : BitVec 32)
    (kont : (v279 v300 v321 v342 v363 v384 v405 v426 v447 v468 v489 v510 : BitVec 32) → Prog (TpuEff nD τ sig (Elt F) Λ₀ .tc) α) : Prog (TpuEff nD τ sig (Elt F) Λ₀ .tc) α := do
  let ⟨v237, v258⟩ : Σ' (v237 : BitVec 32), BitVec 32 ← k0_part8 arg0 harg0 arg1 harg1 arg2 harg2 arg3 arg4 d0 v2
  let v279 : BitVec 32 ← k0_part9 arg0 harg0 arg1 harg1 arg2 harg2 arg3 arg4 d0 v2 v258
  let ⟨v300, v321⟩ : Σ' (v300 : BitVec 32), BitVec 32 ← k0_part10 arg0 harg0 arg1 harg1 arg2 harg2 arg3 arg4 d0 v2
  let ⟨v342, v353, c16_i32_260⟩ : Σ' (v342 : BitVec 32) (v353 : BitVec 32), BitVec 32 ← k0_part11 arg0 harg0 arg1 harg1 arg2 harg2 arg3 arg4 d0 v2 v321
  let ⟨v363, v384, v385⟩ : Σ' (v363 : BitVec 32) (v384 : BitVec 32), BitVec 32 ← k0_part12 arg0 harg0 arg1 harg1 arg2 harg2 arg3 arg4 d0 v2 v353 c16_i32_260
  let ⟨v405, v416, c16_i32_311, v417, c1_i32_313⟩ : Σ' (v405 : BitVec 32) (v416 : BitVec 32) (c16_i32_311 : BitVec 32) (v417 : BitVec 1), BitVec 32 ← k0_part13 arg0 harg0 arg1 harg1 arg2 harg2 arg3 arg4 d0 v2 v385
  let ⟨v426, v447⟩ : Σ' (v426 : BitVec 32), BitVec 32 ← k0_part14 arg0 harg0 arg1 harg1 arg2 harg2 arg3 arg4 d0 v2 v416 c16_i32_311 v417 c1_i32_313
  let ⟨v468, v481, v482, c0_i32_365⟩ : Σ' (v468 : BitVec 32) (v481 : BitVec 32) (v482 : BitVec 32), BitVec 32 ← k0_part15 arg0 harg0 arg1 harg1 arg2 harg2 arg3 arg4 d0 v2
  let ⟨v489, v510⟩ : Σ' (v489 : BitVec 32), BitVec 32 ← k0_part16 arg0 harg0 arg1 harg1 arg2 harg2 arg3 arg4 d0 v2 v481 v482 c0_i32_365
  k0_part17 arg0 harg0 arg1 harg1 arg2 harg2 arg3 arg4 d0 v216 v237 v258
  kont v279 v300 v321 v342 v363 v384 v405 v426 v447 v468 v489 v510

def seg3Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (v279 v300 v321 v342 v363 v384 v405 v426 v447 v468 v489 v510 : BitVec 32)
    (kont : Prog (TpuEff nD τ sig (Elt F) Λ₀ .tc) α) : Prog (TpuEff nD τ sig (Elt F) Λ₀ .tc) α := do
  k0_part18 arg0 harg0 arg1 harg1 arg2 harg2 arg3 arg4 v279 v300 v321
  k0_part19 arg0 harg0 arg1 harg1 arg2 harg2 arg3 arg4 v342 v363 v384
  k0_part20 arg0 harg0 arg1 harg1 arg2 harg2 arg3 arg4 v405 v426 v447
  k0_part21 arg0 harg0 arg1 harg1 arg2 harg2 arg3 arg4 v468 v489 v510
  kont

def seg4Prog (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16) : Prog (TpuEff nD τ sig (Elt F) Λ₀ .tc) PUnit := do
  k0_part22 arg0 harg0 arg1 harg1 arg2 harg2 arg3 arg4
  k0_part23 arg0 harg0 arg1 harg1 arg2 harg2 arg3 arg4
  k0_part24 arg0 harg0 arg1 harg1 arg2 harg2 arg3 arg4
  let v732 : FVec F S16x768 .f32 ← k0_part25 arg0 harg0 arg1 harg1 arg2 harg2 arg3 arg4
  let v735 : Vec F S1x768 .f32 ← Prog.lift (.load arg1 (Rect.unit (s := S1x768) ![0, 0] S1x768.size inb_S1x768_S1x768_0_0).toLoadRect (View.loadsAt_vmem h_S1x768))
  Prog.lift (.store arg1 (Rect.unit (s := S1x768) ![0, 0] S1x768.size inb_S1x768_S1x768_0_0) (k0_pay1 v732) Finset.univ (View.stores_vmem_bits_univ h_S1x768 rfl) (.inl rfl))
  pure ⟨⟩

/-- The body is the four stretches in order. -/
theorem body_split (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16) :
    cc0_body_skel (F := F) arg0 harg0 arg1 harg1 arg2 harg2 arg3 arg4
      = seg1Prog arg0 harg0 arg1 harg1 arg2 harg2 arg3 arg4 fun d0 v2 v216 =>
          seg2Prog arg0 harg0 arg1 harg1 arg2 harg2 arg3 arg4 d0 v2 v216 fun v279 v300 v321 v342 v363 v384 v405 v426 v447 v468 v489 v510 =>
            seg3Prog arg0 harg0 arg1 harg1 arg2 harg2 arg3 arg4 v279 v300 v321 v342 v363 v384 v405 v426 v447 v468 v489 v510
              (seg4Prog arg0 harg0 arg1 harg1 arg2 harg2 arg3 arg4) := rfl

/-! ## What a device holds between the stretches -/

section Stages
variable (K : Dev nD × Fin 32 → ℕ) (c : Dev nD)

/-- The two staging buffers: the block, and the result buffer at whatever it holds. -/
def stgs : sProp 𝕄 :=
  iprop((((c : Thread nD τ).loc cc0_stg0_0) ↦{fullShare} xblk m ρ c)
    ∗ ∃ g : Buf (Elt F) ((c : Thread nD τ).loc cc0_stg1_0), (((c : Thread nD τ).loc cc0_stg1_0) ↦{fullShare} g))

/-- Slots 1 … 13, and slots 14 and 15. -/
def lowSlots : Finset (Fin 16) := Finset.univ.filter fun s => 1 ≤ s.val ∧ s.val ≤ 13
def highSlots : Finset (Fin 16) := Finset.univ.filter fun s => 14 ≤ s.val

/-- After stretch 1: slot 0 holds the column maxima; the fifteen peers' slots are in hand; the fifteen receive credits
    are still owed; no copy has been issued. -/
def stageB (W : Waits sig Unit) : sProp 𝕄 :=
  iprop(records m ρ K ∗ levAts L lv ∗ stgs m ρ c
    ∗ owes (c : Thread nD τ) (oweX c 15) W
    ∗ slotPts c 0 fullShare (full m ρ c)
    ∗ (bigSep (Finset.univ.erase 0) fun e : Fin 16 => barPay (F := F) c e)
    ∗ (bigSep Finset.univ fun j : Fin 15 => atPos ER (sendCell c j) 0 ∅ 0)
    ∗ (bigSep Finset.univ fun s : Fin 16 => atPos ER (recvCell c s) 0 ∅ 0)
    ∗ (bigSep Finset.univ fun j : Fin 15 => dutyTok ER (sendCell c j) 0 0)
    ∗ (bigSep (Finset.univ.erase 0) fun e : Fin 16 => dutyTok ER (recvCell (peer c e) (opp e)) 0 0)
    ∗ (bigSep (Finset.univ.erase 0) fun s : Fin 16 => cred (tallyAt (recvCell c s) () N)))

/-- After stretch 2: nothing owed; slot 0 at what the fifteen copies left of it; each send cell's credit in hand; slots
    15 and 14 landed, slots 1 … 13 still awaited. -/
def stageC (W : Waits sig Unit) : sProp 𝕄 :=
  iprop(records m ρ K ∗ levAts L lv ∗ stgs m ρ c
    ∗ owes (c : Thread nD τ) 0 W
    ∗ slotPts c 0 (restShare 15) (full m ρ c)
    ∗ (bigSep Finset.univ fun j : Fin 15 => cred (tallyAt (sendCell c j) () N))
    ∗ (bigSep Finset.univ fun j : Fin 15 => atPos ER (sendCell c j) 0 ∅ 0)
    ∗ atPos ER (recvCell c 0) 0 ∅ 0
    ∗ (bigSep lowSlots fun s : Fin 16 => iprop(cred (tallyAt (recvCell c s) () N) ∗ atPos ER (recvCell c s) 0 ∅ 0))
    ∗ (bigSep highSlots fun s : Fin 16 => iprop(slotPts c s fullShare (full m ρ c) ∗ atPos ER (recvCell c s) 1 ∅ 0)))

/-- After stretch 3: every slot landed. -/
def stageD (W : Waits sig Unit) : sProp 𝕄 :=
  iprop(records m ρ K ∗ levAts L lv ∗ stgs m ρ c
    ∗ owes (c : Thread nD τ) 0 W
    ∗ slotPts c 0 (restShare 15) (full m ρ c)
    ∗ (bigSep Finset.univ fun j : Fin 15 => cred (tallyAt (sendCell c j) () N))
    ∗ (bigSep Finset.univ fun j : Fin 15 => atPos ER (sendCell c j) 0 ∅ 0)
    ∗ atPos ER (recvCell c 0) 0 ∅ 0
    ∗ (bigSep (Finset.univ.erase 0) fun s : Fin 16 => iprop(slotPts c s fullShare (full m ρ c) ∗ atPos ER (recvCell c s) 1 ∅ 0)))

end Stages

end Cert.Kernel.Hand

end
-- ==== Proof.Kernel.Steps.lean ====
/-
  The exchange's steps, one lemma per kind, each stated over only what the step touches.

  A device `c` makes five kinds of steps that involve a cell: its signal number `e` (to the barrier cell of the peer at
  offset `e`, handing over its own slot `e`), its one barrier wait (for all fifteen peers' units, which hand it their
  slots), its copy number `e` (slot 0, at the copy's share, into slot `opp e` of the peer at offset `e`), its wait for
  the copy into its slot `s` (the slot comes back holding that peer's column maxima), its wait for its own copy's source
  to have been read (the share comes back). Afterwards each of its cells is closed: its counter is zero again.
  `records` (every cell's invariant and first round, persistent) is taken whole by each lemma.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- A cell's place in the table of names: the barrier cell first, the fifteen send cells, the sixteen receive cells. -/
abbrev kBar : Fin 32 := 0
abbrev kSend (j : Fin 15) : Fin 32 := ⟨1 + j.val, by have := j.isLt; omega⟩
abbrev kRecv (s : Fin 16) : Fin 32 := ⟨16 + s.val, by have := s.isLt; omega⟩

section Steps
variable (K : Dev nD × Fin 32 → ℕ) (c : Dev nD)

omit [FloatOps F] in
theorem kcell_bar (c' : Dev nD) : kcell (c', kBar) = barCell c' := rfl
omit [FloatOps F] in
theorem kcell_send (c' : Dev nD) (j : Fin 15) : kcell (c', kSend j) = sendCell c' j := by
  have h : ¬ (kSend j).val = 0 := by show ¬ (1 + j.val = 0); omega
  refine Prod.ext rfl ?_
  show csem (kSend j) = SemLoc.dma (sendS j)
  unfold csem
  rw [dif_neg h]
  exact congrArg SemLoc.dma (Fin.ext (by show 1 + (1 + j.val) = 2 + j.val; omega))
omit [FloatOps F] in
theorem kcell_recv (c' : Dev nD) (s : Fin 16) : kcell (c', kRecv s) = recvCell c' s := by
  have h : ¬ (kRecv s).val = 0 := by show ¬ (16 + s.val = 0); omega
  refine Prod.ext rfl ?_
  show csem (kRecv s) = SemLoc.dma (recvS s)
  unfold csem
  rw [dif_neg h]
  exact congrArg SemLoc.dma (Fin.ext (by show 1 + (16 + s.val) = 17 + s.val; omega))

theorem inv_bar (c' : Dev nD) : records m ρ K ⊢ cellInv ER (sched m ρ) (K (c', kBar)) (barCell c') := by
  rw [← kcell_bar c']
  unfold records
  have h : (bigSep Finset.univ fun ck : Dev nD × Fin 32 => cellInv ER (sched (F := F) m ρ) (K ck) (kcell ck))
      ⊢ cellInv ER (sched (F := F) m ρ) (K (c', kBar)) (kcell (c', kBar)) :=
    BI.bigSep_elim (Finset.mem_univ ((c', kBar) : Dev nD × Fin 32))
  iintro ⟨H, -⟩
  iapply h
  iexact H
theorem inv_send (c' : Dev nD) (j : Fin 15) : records m ρ K ⊢ cellInv ER (sched m ρ) (K (c', kSend j)) (sendCell c' j) := by
  rw [← kcell_send c' j]
  unfold records
  have h : (bigSep Finset.univ fun ck : Dev nD × Fin 32 => cellInv ER (sched (F := F) m ρ) (K ck) (kcell ck))
      ⊢ cellInv ER (sched (F := F) m ρ) (K (c', kSend j)) (kcell (c', kSend j)) :=
    BI.bigSep_elim (Finset.mem_univ ((c', kSend j) : Dev nD × Fin 32))
  iintro ⟨H, -⟩
  iapply h
  iexact H
theorem inv_recv (c' : Dev nD) (s : Fin 16) : records m ρ K ⊢ cellInv ER (sched m ρ) (K (c', kRecv s)) (recvCell c' s) := by
  rw [← kcell_recv c' s]
  unfold records
  have h : (bigSep Finset.univ fun ck : Dev nD × Fin 32 => cellInv ER (sched (F := F) m ρ) (K ck) (kcell ck))
      ⊢ cellInv ER (sched (F := F) m ρ) (K (c', kRecv s)) (kcell (c', kRecv s)) :=
    BI.bigSep_elim (Finset.mem_univ ((c', kRecv s) : Dev nD × Fin 32))
  iintro ⟨H, -⟩
  iapply h
  iexact H
theorem reached_bar (c' : Dev nD) : records m ρ K ⊢ (reached ER (barCell c') 0 : sProp 𝕄) := by
  rw [← kcell_bar c']
  unfold records
  have h : (bigSep Finset.univ fun ck : Dev nD × Fin 32 => (reached ER (kcell ck) 0 : sProp 𝕄))
      ⊢ (reached ER (kcell (c', kBar)) 0 : sProp 𝕄) :=
    BI.bigSep_elim (Finset.mem_univ ((c', kBar) : Dev nD × Fin 32))
  iintro ⟨-, H⟩
  iapply h
  iexact H
theorem reached_send (c' : Dev nD) (j : Fin 15) : records m ρ K ⊢ (reached ER (sendCell c' j) 0 : sProp 𝕄) := by
  rw [← kcell_send c' j]
  unfold records
  have h : (bigSep Finset.univ fun ck : Dev nD × Fin 32 => (reached ER (kcell ck) 0 : sProp 𝕄))
      ⊢ (reached ER (kcell (c', kSend j)) 0 : sProp 𝕄) :=
    BI.bigSep_elim (Finset.mem_univ ((c', kSend j) : Dev nD × Fin 32))
  iintro ⟨-, H⟩
  iapply h
  iexact H
theorem reached_recv (c' : Dev nD) (s : Fin 16) : records m ρ K ⊢ (reached ER (recvCell c' s) 0 : sProp 𝕄) := by
  rw [← kcell_recv c' s]
  unfold records
  have h : (bigSep Finset.univ fun ck : Dev nD × Fin 32 => (reached ER (kcell ck) 0 : sProp 𝕄))
      ⊢ (reached ER (kcell (c', kRecv s)) 0 : sProp 𝕄) :=
    BI.bigSep_elim (Finset.mem_univ ((c', kRecv s) : Dev nD × Fin 32))
  iintro ⟨-, H⟩
  iapply h
  iexact H

/-! ### What the steps read off the schedule and off what is owed -/

omit [FloatOps F] in
/-- Equal assertions entail one another. -/
theorem ent_of_eq {P Q : sProp 𝕄} (h : P = Q) : P ⊢ Q := h ▸ .rfl

/-- The unit a device's signal number `e` pays, as the peer's barrier cell states it: the payer's own slot `e`, and
    that its receive cell for that slot is at its first round. -/
theorem pay_bar_at (e : Fin 16) :
    (sched (F := F) m ρ).payload (barCell (peer c e)) 0 (opp e)
      = iprop((∃ f, ((slotM e).view.loc (c : Thread nD τ) ↦[(slotM e).view.set]{fullShare} f : sProp 𝕄)) ∗ reached ER (recvCell c e) 0) := by
  rw [payload_bar]; unfold barPay slotPts; rw [peer_opp, opp_opp]

omit [FloatOps F] in
theorem oweS_succ (e : Fin 16) (n : ℕ) (hn : fin16 (15 - n) = e) :
    oweS c (n + 1) = oweS c n + tallyAt (barCell (peer c e)) () 1 := by
  show oweS c n + tSig c (fin16 (15 - n)) = _; rw [hn]; rfl

omit [FloatOps F] in
theorem oweX_succ (e : Fin 16) (n : ℕ) (hn : fin16 (15 - n) = e) :
    oweX c (n + 1) = oweX c n + tallyAt (recvCell (peer c e) (opp e)) () N := by
  show oweX c n + tXfer c (fin16 (15 - n)) = _; rw [hn]; rfl

theorem mem_bar (e : Fin 16) (he : e ≠ 0) : opp e ∈ (sched (F := F) m ρ).duties (barCell (peer c e)) 0 := by
  rw [duties_bar]; exact Finset.mem_erase.mpr ⟨opp_ne_zero he, Finset.mem_univ _⟩
theorem mem_send (j : Fin 15) : (0 : Fin 16) ∈ (sched (F := F) m ρ).duties (sendCell c j) 0 := by
  rw [duties_send]; exact Finset.mem_singleton_self _
theorem mem_recv (c' : Dev nD) {s : Fin 16} (hs : s ≠ 0) : (0 : Fin 16) ∈ (sched (F := F) m ρ).duties (recvCell c' s) 0 := by
  rw [duties_recv m ρ c' hs]; exact Finset.mem_singleton_self _

attribute [local sl_rounds] pay_bar_at amount_bar mem_bar expect_bar expect_send expect_recv rest_bar rest_send rest_recv

/-- Signal number `e` (with `n` signals to go after it): the unit to the barrier cell of the peer at offset `e`, paid with
    that cell's duty `opp e`; it hands over slot `e`, at whatever it holds. -/
theorem step_signal (e : Fin 16) (he : e ≠ 0) (n : ℕ) (hn : fin16 (15 - n) = e) {k' : ℕ} (hk' : k' = 1)
    {α : Type} {Q : α → sProp 𝕄} {kont : PUnit → Prog (TpuEff nD τ sig (Elt F) Λ₀ .tc) α} (W : Waits sig Unit)
    (f : Buf (Elt F) ((slotM e).view.loc (c : Thread nD τ))) :
    iprop(records m ρ K ∗ owes (c : Thread nD τ) (oweS c (n + 1)) W ∗ dutyTok ER (barCell (peer c e)) 0 (opp e) ∗ slotPts c e fullShare f)
      ⊢ iprop((owes (c : Thread nD τ) (oweS c n) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((peer c e : Dev nD), Proc.tc) barS k') kont) Q) := by
  subst hk'
  rw [oweS_succ c e n hn]
  unfold slotPts
  iintro ⟨#Hrec, HO, Htok, Hslot⟩ Hk
  ihave #HI := (inv_bar m ρ K (peer c e)) $$ Hrec
  ihave #Hr := (reached_bar m ρ K (peer c e)) $$ Hrec
  ihave #Hr2 := (reached_recv m ρ K c e) $$ Hrec
  sl_exec
  iapply Hk
  iexact HO

/-- The barrier wait, owing the fifteen receive credits: the fifteen peers' payloads come with it. -/
theorem step_barwait {k' : ℕ} (hk' : k' = 15)
    {α : Type} {Q : α → sProp 𝕄} {kont : PUnit → Prog (TpuEff nD τ sig (Elt F) Λ₀ .tc) α} (W : Waits sig Unit) :
    iprop(records m ρ K ∗ levAts L lv ∗ cred (tallyAt (barCell c) () 15) ∗ owes (c : Thread nD τ) (oweX c 15) W ∗ atPos ER (barCell c) 0 ∅ 0)
      ⊢ iprop(((owes (c : Thread nD τ) (oweX c 15) (insert (SemLoc.reg barS, ()) W) ∗ atPos ER (barCell c) 1 ∅ 0
              ∗ bigSep (Finset.univ.erase 0) (fun e : Fin 16 => barPay (F := F) c e))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  have hlev := mayWait_bar (F := F) c
  iintro ⟨#Hrec, Hlev, Hcred, HO, Hat⟩ Hk
  ihave #HI := (inv_bar m ρ K c) $$ Hrec
  sl_exec
  iapply Hk
  isplitl [HO]; · iexact HO
  isplitl [Hat]; · iexact Hat
  iexact Hat_pay1

/-- Copy number `e` (send semaphore `j = e - 1`, with `n` copies to go after it): slot 0 at the copy's share into slot
    `opp e` of the peer at offset `e`, which the peer's barrier unit handed over at contents `fn`. -/
theorem step_send (e : Fin 16) (he : e ≠ 0) (n : ℕ) (hn : fin16 (15 - n) = e) (j : Fin 15) (hj : j.val + 1 = e.val)
    {hsc : (slotM (opp e) : Memref sig (Dev.tc (peer c e) : Thread nD τ).2.kind .vmem S1x768 .f32).view.ref.isScScratch = false}
    {hsrc : (slotM 0).view.WordExact} {hdst : (slotM (opp e)).view.WordExact}
    {hsem : DmaTarget.Typed .vmem (.dma (recvS (opp e))) (.remote (Dev.tc (peer c e) : Thread nD τ) (slotM (opp e)) (.dma (sendS j)) hsc)}
    {α : Type} {Q : α → sProp 𝕄} {kont : PUnit → Prog (TpuEff nD τ sig (Elt F) Λ₀ .tc) α} (W : Waits sig Unit)
    (fn : Buf (Elt F) ((slotM (opp e)).view.loc (peer c e : Thread nD τ))) :
    iprop(records m ρ K ∗ slotPts c 0 (copyShare j.val) (full m ρ c) ∗ slotPts (peer c e) (opp e) fullShare fn
        ∗ owes (c : Thread nD τ) (oweX c (n + 1)) W
        ∗ dutyTok ER (sendCell c j) 0 0 ∗ dutyTok ER (recvCell (peer c e) (opp e)) 0 0)
      ⊢ iprop(((cred (tallyAt (sendCell c j) () N) ∗ owes (c : Thread nD τ) (oweX c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0) (.remote (Dev.tc (peer c e) : Thread nD τ) (slotM (opp e)) (.dma (sendS j)) hsc) (.dma (recvS (opp e))) hsrc hdst hsem) kont) Q) := by
  have hpay₁ : ((slotM 0).view.loc (c : Thread nD τ) ↦[(slotM 0).view.set]{copyShare j.val} full m ρ c : sProp 𝕄)
      ⊢ (sched (F := F) m ρ).payload (sendCell c j) 0 0 := by
    rw [payload_send]; exact .rfl
  have hpay₂ : ((slotM (opp e)).view.loc (peer c e : Thread nD τ) ↦[(slotM (opp e)).view.set]{fullShare}
        ((slotM (opp e)).view.write (Elt F) fn ((slotM 0).view.read (Elt F) (full m ρ c)) Finset.univ) : sProp 𝕄)
      ⊢ (sched (F := F) m ρ).payload (recvCell (peer c e) (opp e)) 0 0 := by
    rw [payload_recv]
    have h := landing m ρ (peer c e) (opp e) fn
    rw [peer_opp] at h
    rw [h]; exact .rfl
  unfold slotPts
  iintro ⟨#Hrec, Hsrc, Hdst, HO, Htok₁, Htok₂⟩ Hk
  iapply (Rounds.wp_send_pointsTo 𝒱₀ ER (sched m ρ) (c : Thread nD τ) none
      (c' := (peer c e : Thread nD τ)) (src := slotM 0) (dst := slotM (opp e)) (sS := .dma (sendS j)) (sem := .dma (recvS (opp e)))
      (q := copyShare j.val) (fs := full m ρ c) (fd := fn) (r₁ := 0) (r₂ := 0) (d₁ := 0) (d₂ := 0)
      (κ₁ := K (c, kSend j)) (κ₂ := K (peer c e, kRecv (opp e)))
      (mem_send m ρ c j) (mem_recv m ρ (peer c e) (opp_ne_zero he)) () () N rfl
      (amount_send m ρ c j 0) (amount_recv m ρ (peer c e) (opp e) 0) (oweX c n) (oweX_succ c e n hn) hpay₁ hpay₂)
    $$ [Hsrc Hdst HO Htok₁ Htok₂]
  · isplitr; · iapply (inv_send m ρ K c j); iexact Hrec
    isplitr; · iapply (inv_recv m ρ K (peer c e) (opp e)); iexact Hrec
    isplitl [Hsrc]; · iexact Hsrc
    isplitl [Hdst]; · iexact Hdst
    isplitl [HO]; · iexact HO
    isplitl [Htok₁]; · iexact Htok₁
    isplitr; · iapply (reached_send m ρ K c j); iexact Hrec
    isplitl [Htok₂]; · iexact Htok₂
    iapply (reached_recv m ρ K (peer c e) (opp e)); iexact Hrec
  iexact Hk

/-- The wait for the copy into slot `s`, owing nothing: the slot comes back holding what the finished buffer holds there. -/
theorem step_recvwait (s : Fin 16) (hs : s ≠ 0) {sp sp' : Space} {sh sh' : Shape} {el el' : EltTy}
    {src : Memref sig .tc sp' sh' el'} {κ' : Kind} {dst : Memref sig κ' sp sh el} {hsrc : src.view.WordExact} {hdst : dst.view.WordExact}
    (hcr : dst.view.dmaCredit = N)
    {α : Type} {Q : α → sProp 𝕄} {kont : PUnit → Prog (TpuEff nD τ sig (Elt F) Λ₀ .tc) α} (W : Waits sig Unit) :
    iprop(records m ρ K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0
              ∗ slotPts c s fullShare (full m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS s) src dst hsrc hdst) kont) Q) := by
  have hrest : bigSep ((sched (F := F) m ρ).duties (recvCell c s) 0) (fun d => (sched (F := F) m ρ).payload (recvCell c s) 0 d)
      = slotPts c s fullShare (full m ρ c) := by
    have h := rest_recv m ρ c hs
    rw [Finset.sdiff_empty] at h
    exact h
  rw [← hcr]
  iintro ⟨#Hrec, Hcred, HO, Hat⟩ Hk
  ihave #HI := (inv_recv m ρ K c s) $$ Hrec
  sl_exec
  iapply Hk
  isplitl [HO]; · iexact HO
  isplitl [Hat]; · iexact Hat
  iapply (ent_of_eq hrest)
  iexact Hat_pay1

/-- The wait for copy number `j + 1`'s source to have been read, owing nothing: its share of slot 0 comes back. -/
theorem step_sendwait (j : Fin 15) {sp sp' : Space} {sh sh' : Shape} {el el' : EltTy}
    {src : Memref sig .tc sp' sh' el'} {κ' : Kind} {dst : Memref sig κ' sp sh el} {hsrc : src.view.WordExact} {hdst : dst.view.WordExact}
    (hcr : dst.view.dmaCredit = N)
    {α : Type} {Q : α → sProp 𝕄} {kont : PUnit → Prog (TpuEff nD τ sig (Elt F) Λ₀ .tc) α} (W : Waits sig Unit) :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c 0 (copyShare j.val) (full m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS j) src dst hsrc hdst) kont) Q) := by
  have hrest : bigSep ((sched (F := F) m ρ).duties (sendCell c j) 0) (fun d => (sched (F := F) m ρ).payload (sendCell c j) 0 d)
      = slotPts c 0 (copyShare j.val) (full m ρ c) := by
    have h := rest_send m ρ c j
    rw [Finset.sdiff_empty] at h
    exact h
  rw [← hcr]
  iintro ⟨#Hrec, Hcred, HO, Hat⟩ Hk
  ihave #HI := (inv_send m ρ K c j) $$ Hrec
  sl_exec
  iapply Hk
  isplitl [HO]; · iexact HO
  isplitl [Hat]; · iexact Hat
  iapply (ent_of_eq hrest)
  iexact Hat_pay1

/-- A cell past its only round, and the unused cell, close: the counter at zero is the device's again. -/
theorem close_send (j : Fin 15) : iprop(records m ρ K ∗ atPos ER (sendCell c j) 1 ∅ 0) ⊢ (|={Set.univ}=> semVal (sendCell c j) 0 : sProp 𝕄) := by
  iintro ⟨#Hrec, Hat⟩
  iapply (Rounds.cell_close ER (sched m ρ) (g := sendCell c j) (κ := K (c, kSend j)) (Set.mem_univ _) (fun h => h) (R := 1)
    (duties_later m ρ (sendCell c j)))
  isplitr; · iapply (inv_send m ρ K c j); iexact Hrec
  iexact Hat
theorem close_recv (s : Fin 16) (hs : s ≠ 0) : iprop(records m ρ K ∗ atPos ER (recvCell c s) 1 ∅ 0) ⊢ (|={Set.univ}=> semVal (recvCell c s) 0 : sProp 𝕄) := by
  iintro ⟨#Hrec, Hat⟩
  iapply (Rounds.cell_close ER (sched m ρ) (g := recvCell c s) (κ := K (c, kRecv s)) (Set.mem_univ _) (fun h => h) (R := 1)
    (duties_later m ρ (recvCell c s)))
  isplitr; · iapply (inv_recv m ρ K c s); iexact Hrec
  iexact Hat
theorem close_recv0 : iprop(records m ρ K ∗ atPos ER (recvCell c 0) 0 ∅ 0) ⊢ (|={Set.univ}=> semVal (recvCell c 0) 0 : sProp 𝕄) := by
  iintro ⟨#Hrec, Hat⟩
  iapply (Rounds.cell_close ER (sched m ρ) (g := recvCell c 0) (κ := K (c, kRecv 0)) (Set.mem_univ _) (fun h => h) (R := 0)
    (fun r _ => duties_recv0 m ρ c r))
  isplitr; · iapply (inv_recv m ρ K c 0); iexact Hrec
  iexact Hat

end Steps

/-- info: 'Cert.Kernel.Hand.step_signal' depends on axioms: [propext, Classical.choice, Quot.sound] -/
#guard_msgs in #print axioms step_signal

/-- info: 'Cert.Kernel.Hand.step_barwait' depends on axioms: [propext, Classical.choice, Quot.sound] -/
#guard_msgs in #print axioms step_barwait

/-- info: 'Cert.Kernel.Hand.step_send' depends on axioms: [propext, Classical.choice, Quot.sound] -/
#guard_msgs in #print axioms step_send

/-- info: 'Cert.Kernel.Hand.step_recvwait' depends on axioms: [propext, Classical.choice, Quot.sound] -/
#guard_msgs in #print axioms step_recvwait

/-- info: 'Cert.Kernel.Hand.step_sendwait' depends on axioms: [propext, Classical.choice, Quot.sound] -/
#guard_msgs in #print axioms step_sendwait

/-- info: 'Cert.Kernel.Hand.close_send' depends on axioms: [propext, Classical.choice, Quot.sound] -/
#guard_msgs in #print axioms close_send

/-- info: 'Cert.Kernel.Hand.close_recv' depends on axioms: [propext, Classical.choice, Quot.sound] -/
#guard_msgs in #print axioms close_recv

/-- info: 'Cert.Kernel.Hand.close_recv0' depends on axioms: [propext, Classical.choice, Quot.sound] -/
#guard_msgs in #print axioms close_recv0

end Cert.Kernel.Hand

end
-- ==== Proof.Kernel.Seg1.lean ====
/-
  The body's first stretch: the fifteen signals, the column maxima into slot 0, the barrier wait.

  The device cuts its exchange buffer into its sixteen slots. Signal number e hands slot e to the peer at offset e (through
  the duty opp e of that peer's barrier cell) and peels one unit off what the device owes. It loads its block, reduces it
  to its column maxima and stores them into slot 0. It then waits for all fifteen units on its own barrier cell, still
  owing the fifteen receive credits, which sit above the barrier cell; the wait returns the fifteen peers' payloads.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots
import proofs.«900908_g7700000000000909_dist_max_ax0_shard0_i_m1536_n768_v7x_i16_bf16_1_alg».proof.Proof.Kernel.Steps
import proofs.«900908_g7700000000000909_dist_max_ax0_shard0_i_m1536_n768_v7x_i16_bf16_1_alg».proof.Proof.Kernel.Stages

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Seg
variable (K : Dev nD × Fin 32 → ℕ) (c : Dev nD)

omit [FloatOps F] in
private theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
private theorem bigSep_fin16e (Φ : Fin 16 → sProp 𝕄) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

set_option hygiene false in
/-- One signal: the unit to the peer at offset `e`, paid with the duty token `Ht`, handing over the slot `Hs`. -/
local macro "seg1_signal" e:term:max n:term:max Ht:ident Hs:ident : tactic => `(tactic| (
  iapply (step_signal m ρ K c $e (by decide) $n (by decide) (show (1#32).toNat = 1 by decide) W f) $$ [Howes $Ht:ident $Hs:ident]
  · isplitr
    · iexact Hrec
    isplitl [Howes]
    · iexact Howes
    isplitl [$Ht:ident]
    · iexact $Ht
    · iexact $Hs
  iintro Howes))

set_option hygiene false in
local macro "seg1_part" t:term:max s:ident : tactic => `(tactic| (
  simp only [$t:term]; unfold $s:ident
  simp only [semSignalWord, semWaitWord, Prog.lift, Prog.bind_op, Prog.bind_ret, Prog.pure_eq_ret]))

/-- The input staging buffer holds the device's block: window 0 is fetched at the one grid point. -/
private theorem before_x (c : Dev nD) (d : (cfg0.win 0).block.Idx → Elt F (cfg0.win 0).elt) :
    (dats m ρ 0 c).before (0 : Fin 2) t₀ d = xblk m ρ c := by
  rw [(dats m ρ 0 c).before_fetched 0 t₀ (fetch0_0 t₀)]
  unfold Dat.fetched Dat.blockOf
  rfl

omit [FloatOps F] in
/-- Slot 0 held through the squeezed slice is slot 0 held through its rectangle of the buffer: the same location. -/
private theorem slot0_access (c : Dev nD) (g : Buf (Elt F) ((slotM 0).view.loc (c : Thread nD τ))) :
    slotPts (F := F) c 0 fullShare g
      = (((rM : Memref sig .tc .vmem S16x1x768 .f32).access (Rect.unit (s := S16x1x768) ![0, 0, 0] S1x1x768.size inb_S16x1x768_S1x1x768_0_0_0) : View sig .tc .vmem _ .f32).loc (c : Thread nD τ)
          ↦[(slotM 0).view.set]{fullShare} g) := rfl

theorem seg1 {α : Type} (Kt : α → sProp 𝕄) (kont : Dev nD → BitVec 32 → BitVec 32 → Prog (TpuEff nD τ sig (Elt F) Λ₀ .tc) α) :
    iprop(bodyPre m ρ K c ∗ (∀ v2 v216, (∃ W, stageB m ρ K c W) -∗ wp frame (wpE (defs₀ (F := F)) 𝒱₀ (c : Thread nD τ) none) Set.univ (kont c v2 v216) Kt))
      ⊢ wp frame (wpE (defs₀ (F := F)) 𝒱₀ (c : Thread nD τ) none) Set.univ (seg1Prog (Memref.whole cc0_stg0_0) (Memref.isWhole_whole _) (Memref.whole cc0_stg1_0) (Memref.isWhole_whole _) (Memref.whole cc0_scratch0) (Memref.isWhole_whole _) cc0_scratch1 cc0_scratch2 kont) Kt := by
  unfold seg1Prog bodyPre ghost linear
  iintro ⟨⟨⟨⟨#Hrec, Hbar, Hsend, Hrecv, HtokB, HtokS, HtokR⟩, Hcred, HcredR, #Hlev, ⟨%f, Hscr⟩⟩, ⟨%W, %hW, Howes⟩, ⟨%d0, %fx, %hfx, Hx⟩, ⟨%d1, %fo, %hfo, Ho⟩⟩, Hk⟩
  ihave Hslots := (Entails.of_eq (scr_split c f)) $$ Hscr
  ihave Hslots := (Entails.of_eq (bigSep_fin16 _)) $$ Hslots
  icases Hslots with ⟨Hs0, Hs1, Hs2, Hs3, Hs4, Hs5, Hs6, Hs7, Hs8, Hs9, Hs10, Hs11, Hs12, Hs13, Hs14, Hs15⟩
  ihave HtokB := (Entails.of_eq (bigSep_fin16e _)) $$ HtokB
  icases HtokB with ⟨Ht1, Ht2, Ht3, Ht4, Ht5, Ht6, Ht7, Ht8, Ht9, Ht10, Ht11, Ht12, Ht13, Ht14, Ht15⟩
  simp only [k0_part1_eq_skeleton]; unfold k0_part1_skel
  simp only [semSignalWord, semWaitWord, Prog.lift, Prog.bind_op, Prog.bind_ret, Prog.pure_eq_ret, wp_deviceId]
  simp only [dev_sig1 c, dev_sig2 c]
  seg1_signal 1 14 Ht1 Hs1
  seg1_signal 2 13 Ht2 Hs2
  seg1_part k0_part2_eq_skeleton k0_part2_skel
  simp only [dev_sig3 c, dev_sig4 c]
  seg1_signal 3 12 Ht3 Hs3
  seg1_signal 4 11 Ht4 Hs4
  seg1_part k0_part3_eq_skeleton k0_part3_skel
  simp only [dev_sig5 c, dev_sig6 c, dev_sig7 c]
  seg1_signal 5 10 Ht5 Hs5
  seg1_signal 6 9 Ht6 Hs6
  seg1_signal 7 8 Ht7 Hs7
  seg1_part k0_part4_eq_skeleton k0_part4_skel
  simp only [dev_sig8 c, dev_sig9 c]
  seg1_signal 8 7 Ht8 Hs8
  seg1_signal 9 6 Ht9 Hs9
  seg1_part k0_part5_eq_skeleton k0_part5_skel
  simp only [dev_sig10 c, dev_sig11 c, dev_sig12 c]
  seg1_signal 10 5 Ht10 Hs10
  seg1_signal 11 4 Ht11 Hs11
  seg1_signal 12 3 Ht12 Hs12
  seg1_part k0_part6_eq_skeleton k0_part6_skel
  simp only [dev_sig13 c, dev_sig14 c]
  seg1_signal 13 2 Ht13 Hs13
  seg1_signal 14 1 Ht14 Hs14
  seg1_part k0_part7_eq_skeleton k0_part7_skel
  simp only [dev_sig15 c]
  seg1_signal 15 0 Ht15 Hs15
  -- the block, read whole
  have hx : fx = xblk m ρ c := hfx.trans (before_x m ρ c d0)
  subst hx
  iapply (wp_load (defs := defs₀ (F := F)) 𝒱₀ (c : Thread nD τ) none Set.univ (m := xM) (S := Finset.univ) (q := fullShare)
    (f := xblk m ρ c) (Finset.subset_univ _)) $$ [Hx]
  · iexact Hx
  iintro Hx
  rw [read_x]
  -- slot 0, read through its rectangle (the value is not used)
  ihave Hs0 := (Entails.of_eq (slot0_access c f)) $$ Hs0
  iapply (wp_load_rect (defs := defs₀ (F := F)) 𝒱₀ (c : Thread nD τ) none Set.univ (m := rM)
    (r := Rect.unit (s := S16x1x768) ![0, 0, 0] S1x1x768.size inb_S16x1x768_S1x1x768_0_0_0)
    (S := (slotM 0).view.set) (q := fullShare) (f := f) (access_set 0).subset) $$ [Hs0]
  · iexact Hs0
  iintro Hs0
  -- the column maxima into slot 0
  iapply (wp_store (defs := defs₀ (F := F)) 𝒱₀ (c : Thread nD τ) none Set.univ (m := rM)
    (r := Rect.unit (s := S16x1x768) ![0, 0, 0] S1x1x768.size inb_S16x1x768_S1x1x768_0_0_0)
    (S := (slotM 0).view.set) (f := f) (access_set 0).subset) $$ [Hs0]
  · iexact Hs0
  iintro Hs0
  ihave Hs0 := (Entails.of_eq (slot0_access c _).symm) $$ Hs0
  ihave Hs0 := (Entails.of_eq (store_slot0 m ρ c f)) $$ Hs0
  -- the barrier wait
  iapply (step_barwait m ρ K c (show (15#32).toNat = 15 by decide) W) $$ [Hcred Howes Hbar]
  · isplitr
    · iexact Hrec
    isplitr
    · iexact Hlev
    isplitl [Hcred]
    · iexact Hcred
    isplitl [Howes]
    · iexact Howes
    · iexact Hbar
  iintro ⟨Howes, Hbar, Hpay⟩
  -- the next stretch
  iapply Hk
  iexists (insert (SemLoc.reg barS, ()) W)
  unfold stageB stgs
  isplitr
  · iexact Hrec
  isplitr
  · iexact Hlev
  isplitl [Hx Ho]
  · isplitl [Hx]
    · iexact Hx
    · iexists fo
      iexact Ho
  isplitl [Howes]
  · iexact Howes
  isplitl [Hs0]
  · iexact Hs0
  isplitl [Hpay]
  · iexact Hpay
  isplitl [Hsend]
  · iexact Hsend
  isplitl [Hrecv]
  · iexact Hrecv
  isplitl [HtokS]
  · iexact HtokS
  isplitl [HtokR]
  · iexact HtokR
  · iexact HcredR

end Seg

/-- info: 'Cert.Kernel.Hand.seg1' depends on axioms: [propext, Classical.choice, Quot.sound] -/
#guard_msgs in #print axioms seg1

end Cert.Kernel.Hand

end
-- ==== Proof.Kernel.Seg2.lean ====
/-
  The body's second stretch: the fifteen copies, and the waits for the copies into slots 15 and 14.

  Copy number e takes the left half of what is left of slot 0's share, pays the duty of send cell e - 1 and the duty of
  the receive cell for slot opp e of the peer at offset e, whose slot the peer's barrier unit handed over; it peels that
  receive credit off what the device owes and returns the send cell's credit. After the fifteenth the device owes nothing,
  and waits for the copies into its own slots 15 and 14.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots
import proofs.«900908_g7700000000000909_dist_max_ax0_shard0_i_m1536_n768_v7x_i16_bf16_1_alg».proof.Proof.Kernel.Steps
import proofs.«900908_g7700000000000909_dist_max_ax0_shard0_i_m1536_n768_v7x_i16_bf16_1_alg».proof.Proof.Kernel.Stages

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions, listed -/

omit [FloatOps F] in
private theorem bigSep_off (Φ : Fin 16 → sProp 𝕄) : bigSep (Finset.univ.erase 0) Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ
omit [FloatOps F] in
private theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
private theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
private theorem bigSep_low (Φ : Fin 16 → sProp 𝕄) : bigSep lowSlots Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq [1, 2, 3, 4, 5, 6, 7, 8, 9, 10, 11, 12, 13] (by decide) (by decide) Φ
omit [FloatOps F] in
private theorem bigSep_high (Φ : Fin 16 → sProp 𝕄) : bigSep highSlots Φ = iprop(Φ 14 ∗ Φ 15) :=
  bigSep_eq_bigSepL_of_eq [14, 15] (by decide) (by decide) Φ

/-! ## The copy's step with the destination device named as the program computes it -/

section Send

/-- `step_send` with the destination device given as any device equal to the peer at offset `e`. -/
private theorem step_send_at (K : Dev nD × Fin 32 → ℕ) (c : Dev nD) (e : Fin 16) (he : e ≠ 0) (n : ℕ) (hn : fin16 (15 - n) = e) (j : Fin 15) (hj : j.val + 1 = e.val)
    (d' : Dev nD) (hd : d' = peer c e)
    {hsc : (slotM (opp e) : Memref sig (Dev.tc d' : Thread nD τ).2.kind .vmem S1x768 .f32).view.ref.isScScratch = false}
    {hsrc : (slotM 0).view.WordExact} {hdst : (slotM (opp e)).view.WordExact}
    {hsem : DmaTarget.Typed .vmem (.dma (recvS (opp e))) (.remote (Dev.tc d' : Thread nD τ) (slotM (opp e)) (.dma (sendS j)) hsc)}
    {α : Type} {Q : α → sProp 𝕄} {kont : PUnit → Prog (TpuEff nD τ sig (Elt F) Λ₀ .tc) α} (W : Waits sig Unit)
    (fn : Buf (Elt F) ((slotM (opp e)).view.loc (peer c e : Thread nD τ))) :
    iprop(records m ρ K ∗ slotPts c 0 (copyShare j.val) (full m ρ c) ∗ slotPts (peer c e) (opp e) fullShare fn
        ∗ owes (c : Thread nD τ) (oweX c (n + 1)) W
        ∗ dutyTok ER (sendCell c j) 0 0 ∗ dutyTok ER (recvCell (peer c e) (opp e)) 0 0)
      ⊢ iprop(((cred (tallyAt (sendCell c j) () N) ∗ owes (c : Thread nD τ) (oweX c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0) (.remote (Dev.tc d' : Thread nD τ) (slotM (opp e)) (.dma (sendS j)) hsc) (.dma (recvS (opp e))) hsrc hdst hsem) kont) Q) := by
  subst hd
  exact step_send m ρ K c e he n hn j hj W fn

end Send

omit [FloatOps F] in
/-- Before the first copy all of slot 0's share is left. -/
private theorem slot0_start (c : Dev nD) (f : Buf (Elt F) ((slotM 0).view.loc (c : Thread nD τ))) :
    slotPts (F := F) c 0 fullShare f ⊢ slotPts c 0 (restShare 0) f := .rfl

omit [FloatOps F] in
/-- After the fifteenth copy nothing is owed. -/
private theorem owes_done (c : Dev nD) (W : Waits sig Unit) :
    (owes (c : Thread nD τ) (oweX c 0) W : sProp 𝕄) ⊢ owes (c : Thread nD τ) 0 W := .rfl

/-! ## One copy: split slot 0's share, issue the copy, take back the send cell's credit and what is still owed -/

set_option hygiene false in
local macro "seg2_copy_step " e:num n:num j:num hd:ident Hb:ident Ht:ident Hr:ident Hcr:ident : tactic => `(tactic| (
  icases $Hb:ident with ⟨⟨%fn, Hn⟩, -⟩
  ihave Hsp := (share_step c $j (full m ρ c)).1 $$ Hs0
  icases Hsp with ⟨Hcp, Hs0⟩
  iapply (step_send_at m ρ K c $e (by decide) $n (by decide) $j (by decide) _ ($hd c) W fn) $$ [Hcp Hn Ho $Ht:ident $Hr:ident]
  · isplitr; · iexact Hrec
    isplitl [Hcp]; · iexact Hcp
    isplitl [Hn]; · iexact Hn
    isplitl [Ho]; · iexact Ho
    isplitl [$Ht:ident]; · iexact $Ht:ident
    iexact $Hr:ident
  iintro ⟨$Hcr:ident, Ho⟩))

section Seg
variable (K : Dev nD × Fin 32 → ℕ) (c : Dev nD)

theorem seg2 {α : Type} (Kt : α → sProp 𝕄) (v2 v216 : BitVec 32) (kont : (v279 v300 v321 v342 v363 v384 v405 v426 v447 v468 v489 v510 : BitVec 32) → Prog (TpuEff nD τ sig (Elt F) Λ₀ .tc) α) (W : Waits sig Unit) :
    iprop(stageB m ρ K c W ∗ (∀ v279 v300 v321 v342 v363 v384 v405 v426 v447 v468 v489 v510, (∃ W', stageC m ρ K c W') -∗ wp frame (wpE (defs₀ (F := F)) 𝒱₀ (c : Thread nD τ) none) Set.univ (kont v279 v300 v321 v342 v363 v384 v405 v426 v447 v468 v489 v510) Kt))
      ⊢ wp frame (wpE (defs₀ (F := F)) 𝒱₀ (c : Thread nD τ) none) Set.univ (seg2Prog (Memref.whole cc0_stg0_0) (Memref.isWhole_whole _) (Memref.whole cc0_stg1_0) (Memref.isWhole_whole _) (Memref.whole cc0_scratch0) (Memref.isWhole_whole _) cc0_scratch1 cc0_scratch2 c v2 v216 kont) Kt := by
  -- what the device holds at the start of the stretch, every finite conjunction listed
  unfold seg2Prog stageB barPay
  simp only [bigSep_off, bigSep_fin15, bigSep_fin16]
  iintro ⟨⟨#Hrec, HL, Hstg, Ho, Hs0, ⟨Hb1, Hb2, Hb3, Hb4, Hb5, Hb6, Hb7, Hb8, Hb9, Hb10, Hb11, Hb12, Hb13, Hb14, Hb15⟩,
    ⟨Hsa0, Hsa1, Hsa2, Hsa3, Hsa4, Hsa5, Hsa6, Hsa7, Hsa8, Hsa9, Hsa10, Hsa11, Hsa12, Hsa13, Hsa14⟩,
    ⟨Hra0, Hra1, Hra2, Hra3, Hra4, Hra5, Hra6, Hra7, Hra8, Hra9, Hra10, Hra11, Hra12, Hra13, Hra14, Hra15⟩,
    ⟨Ht0, Ht1, Ht2, Ht3, Ht4, Ht5, Ht6, Ht7, Ht8, Ht9, Ht10, Ht11, Ht12, Ht13, Ht14⟩,
    ⟨Hr1, Hr2, Hr3, Hr4, Hr5, Hr6, Hr7, Hr8, Hr9, Hr10, Hr11, Hr12, Hr13, Hr14, Hr15⟩,
    ⟨Hc1, Hc2, Hc3, Hc4, Hc5, Hc6, Hc7, Hc8, Hc9, Hc10, Hc11, Hc12, Hc13, Hc14, Hc15⟩⟩, Hk⟩
  ihave Hs0 := (slot0_start c (full m ρ c)) $$ Hs0
  -- the fifteen copies, in program order
  simp only [k0_part8_eq_skeleton]; unfold k0_part8_skel
  simp only [Prog.lift, Prog.bind_op, Prog.bind_ret, Prog.pure_eq_ret]
  seg2_copy_step 1 14 0 dev_xfer1 Hb1 Ht0 Hr1 Hd0
  seg2_copy_step 2 13 1 dev_xfer2 Hb2 Ht1 Hr2 Hd1
  simp only [k0_part9_eq_skeleton]; unfold k0_part9_skel
  simp only [Prog.lift, Prog.bind_op, Prog.bind_ret, Prog.pure_eq_ret]
  seg2_copy_step 3 12 2 dev_xfer3 Hb3 Ht2 Hr3 Hd2
  seg2_copy_step 4 11 3 dev_xfer4 Hb4 Ht3 Hr4 Hd3
  simp only [k0_part10_eq_skeleton]; unfold k0_part10_skel
  simp only [Prog.lift, Prog.bind_op, Prog.bind_ret, Prog.pure_eq_ret]
  seg2_copy_step 5 10 4 dev_xfer5 Hb5 Ht4 Hr5 Hd4
  simp only [k0_part11_eq_skeleton]; unfold k0_part11_skel
  simp only [Prog.lift, Prog.bind_op, Prog.bind_ret, Prog.pure_eq_ret]
  seg2_copy_step 6 9 5 dev_xfer6 Hb6 Ht5 Hr6 Hd5
  seg2_copy_step 7 8 6 dev_xfer7 Hb7 Ht6 Hr7 Hd6
  simp only [k0_part12_eq_skeleton]; unfold k0_part12_skel
  simp only [Prog.lift, Prog.bind_op, Prog.bind_ret, Prog.pure_eq_ret]
  seg2_copy_step 8 7 7 dev_xfer8 Hb8 Ht7 Hr8 Hd7
  simp only [k0_part13_eq_skeleton]; unfold k0_part13_skel
  simp only [Prog.lift, Prog.bind_op, Prog.bind_ret, Prog.pure_eq_ret]
  seg2_copy_step 9 6 8 dev_xfer9 Hb9 Ht8 Hr9 Hd8
  seg2_copy_step 10 5 9 dev_xfer10 Hb10 Ht9 Hr10 Hd9
  simp only [k0_part14_eq_skeleton]; unfold k0_part14_skel
  simp only [Prog.lift, Prog.bind_op, Prog.bind_ret, Prog.pure_eq_ret]
  seg2_copy_step 11 4 10 dev_xfer11 Hb11 Ht10 Hr11 Hd10
  simp only [k0_part15_eq_skeleton]; unfold k0_part15_skel
  simp only [Prog.lift, Prog.bind_op, Prog.bind_ret, Prog.pure_eq_ret]
  seg2_copy_step 12 3 11 dev_xfer12 Hb12 Ht11 Hr12 Hd11
  seg2_copy_step 13 2 12 dev_xfer13 Hb13 Ht12 Hr13 Hd12
  simp only [k0_part16_eq_skeleton]; unfold k0_part16_skel
  simp only [Prog.lift, Prog.bind_op, Prog.bind_ret, Prog.pure_eq_ret]
  seg2_copy_step 14 1 13 dev_xfer14 Hb14 Ht13 Hr14 Hd13
  simp only [k0_part17_eq_skeleton]; unfold k0_part17_skel
  simp only [Prog.lift, Prog.bind_op, Prog.bind_ret, Prog.pure_eq_ret]
  seg2_copy_step 15 0 14 dev_xfer15 Hb15 Ht14 Hr15 Hd14
  -- nothing is owed any more: the waits for the copies into slots 15 and 14
  ihave Ho := (owes_done (F := F) c W) $$ Ho
  iapply (step_recvwait m ρ K c 15 (by decide) (dst := slotM 15) (hcr := rfl) W) $$ [Hc15 Ho Hra15]
  · isplitr; · iexact Hrec
    isplitl [Hc15]; · iexact Hc15
    isplitl [Ho]; · iexact Ho
    iexact Hra15
  iintro ⟨Ho, Hra15, Hs15⟩
  iapply (step_recvwait m ρ K c 14 (by decide) (dst := slotM 14) (hcr := rfl) (insert (SemLoc.dma (recvS 15), ()) W)) $$ [Hc14 Ho Hra14]
  · isplitr; · iexact Hrec
    isplitl [Hc14]; · iexact Hc14
    isplitl [Ho]; · iexact Ho
    iexact Hra14
  iintro ⟨Ho, Hra14, Hs14⟩
  -- the continuation, from what the device holds now
  iapply Hk
  iexists (insert (SemLoc.dma (recvS 14), ()) (insert (SemLoc.dma (recvS 15), ()) W))
  unfold stageC
  simp only [bigSep_fin15, bigSep_low, bigSep_high]
  isplitr; · iexact Hrec
  isplitl [HL]; · iexact HL
  isplitl [Hstg]; · iexact Hstg
  isplitl [Ho]; · iexact Ho
  isplitl [Hs0]; · iexact Hs0
  isplitl [Hd0 Hd1 Hd2 Hd3 Hd4 Hd5 Hd6 Hd7 Hd8 Hd9 Hd10 Hd11 Hd12 Hd13 Hd14]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    iexact Hd14
  isplitl [Hsa0 Hsa1 Hsa2 Hsa3 Hsa4 Hsa5 Hsa6 Hsa7 Hsa8 Hsa9 Hsa10 Hsa11 Hsa12 Hsa13 Hsa14]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    isplitl [Hsa7]; · iexact Hsa7
    isplitl [Hsa8]; · iexact Hsa8
    isplitl [Hsa9]; · iexact Hsa9
    isplitl [Hsa10]; · iexact Hsa10
    isplitl [Hsa11]; · iexact Hsa11
    isplitl [Hsa12]; · iexact Hsa12
    isplitl [Hsa13]; · iexact Hsa13
    iexact Hsa14
  isplitl [Hra0]; · iexact Hra0
  isplitl [Hc1 Hc2 Hc3 Hc4 Hc5 Hc6 Hc7 Hc8 Hc9 Hc10 Hc11 Hc12 Hc13 Hra1 Hra2 Hra3 Hra4 Hra5 Hra6 Hra7 Hra8 Hra9 Hra10 Hra11 Hra12 Hra13]
  · isplitl [Hc1 Hra1]; · (isplitl [Hc1]; · iexact Hc1); iexact Hra1
    isplitl [Hc2 Hra2]; · (isplitl [Hc2]; · iexact Hc2); iexact Hra2
    isplitl [Hc3 Hra3]; · (isplitl [Hc3]; · iexact Hc3); iexact Hra3
    isplitl [Hc4 Hra4]; · (isplitl [Hc4]; · iexact Hc4); iexact Hra4
    isplitl [Hc5 Hra5]; · (isplitl [Hc5]; · iexact Hc5); iexact Hra5
    isplitl [Hc6 Hra6]; · (isplitl [Hc6]; · iexact Hc6); iexact Hra6
    isplitl [Hc7 Hra7]; · (isplitl [Hc7]; · iexact Hc7); iexact Hra7
    isplitl [Hc8 Hra8]; · (isplitl [Hc8]; · iexact Hc8); iexact Hra8
    isplitl [Hc9 Hra9]; · (isplitl [Hc9]; · iexact Hc9); iexact Hra9
    isplitl [Hc10 Hra10]; · (isplitl [Hc10]; · iexact Hc10); iexact Hra10
    isplitl [Hc11 Hra11]; · (isplitl [Hc11]; · iexact Hc11); iexact Hra11
    isplitl [Hc12 Hra12]; · (isplitl [Hc12]; · iexact Hc12); iexact Hra12
    isplitl [Hc13]; · iexact Hc13
    iexact Hra13
  isplitl [Hs14 Hra14]
  · isplitl [Hs14]; · iexact Hs14
    iexact Hra14
  isplitl [Hs15]; · iexact Hs15
  iexact Hra15

end Seg

/-- info: 'Cert.Kernel.Hand.seg2' depends on axioms: [propext, Classical.choice, Quot.sound] -/
#guard_msgs in #print axioms seg2

end Cert.Kernel.Hand

end
-- ==== Proof.Kernel.Seg3.lean ====
/-
  The body's third stretch: the waits for the copies into slots 13 down to 1, each returning its slot holding the
  column maxima of the peer at that offset.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots
import proofs.«900908_g7700000000000909_dist_max_ax0_shard0_i_m1536_n768_v7x_i16_bf16_1_alg».proof.Proof.Kernel.Steps
import proofs.«900908_g7700000000000909_dist_max_ax0_shard0_i_m1536_n768_v7x_i16_bf16_1_alg».proof.Proof.Kernel.Stages

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three index sets, listed -/

omit [FloatOps F] in
private theorem low_open (Φ : Fin 16 → sProp 𝕄) :
    bigSep lowSlots Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq [1, 2, 3, 4, 5, 6, 7, 8, 9, 10, 11, 12, 13] (by decide) (by decide) Φ
omit [FloatOps F] in
private theorem high_open (Φ : Fin 16 → sProp 𝕄) : bigSep highSlots Φ = iprop(Φ 14 ∗ Φ 15) :=
  bigSep_eq_bigSepL_of_eq [14, 15] (by decide) (by decide) Φ
omit [FloatOps F] in
private theorem all_open (Φ : Fin 16 → sProp 𝕄) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

section Seg
variable (K : Dev nD × Fin 32 → ℕ) (c : Dev nD)

/-- One wait for the copy into slot `s`, as the program spells it (the destination is slot `s` itself), with the
    grown set of waits left unnamed. -/
private theorem recv_one (s : Fin 16) (hs : s ≠ 0) (W : Waits sig Unit)
    {src : Memref sig .tc .vmem S1x768 .f32} {hsrc : src.view.WordExact} {hdst : (slotM s).view.WordExact}
    {α : Type} {Q : α → sProp 𝕄} {kont : PUnit → Prog (TpuEff nD τ sig (Elt F) Λ₀ .tc) α} :
    records m ρ K ⊢ iprop(cred (tallyAt (recvCell c s) () N) -∗ owes (c : Thread nD τ) 0 W -∗ atPos ER (recvCell c s) 0 ∅ 0
      -∗ ((∃ W' : Waits sig Unit, owes (c : Thread nD τ) 0 W' ∗ atPos ER (recvCell c s) 1 ∅ 0 ∗ slotPts c s fullShare (full m ρ c))
            -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 (recvS s) src (slotM s) hsrc hdst) kont) Q) := by
  iintro #Hrec Hc HO Ha Hk
  iapply (step_recvwait m ρ K c s hs (dst := slotM s) rfl W) $$ [Hc HO Ha]
  · isplitr; · iexact Hrec
    isplitl [Hc]; · iexact Hc
    isplitl [HO]; · iexact HO
    iexact Ha
  iintro ⟨HO, Ha, Hs⟩
  iapply Hk
  iexists (insert (SemLoc.dma (recvS s), ()) W)
  isplitl [HO]; · iexact HO
  isplitl [Ha] <;> iassumption

theorem seg3 {α : Type} (Kt : α → sProp 𝕄) (v279 v300 v321 v342 v363 v384 v405 v426 v447 v468 v489 v510 : BitVec 32) (kont : Prog (TpuEff nD τ sig (Elt F) Λ₀ .tc) α) (W : Waits sig Unit) :
    iprop(stageC m ρ K c W ∗ ((∃ W', stageD m ρ K c W') -∗ wp frame (wpE (defs₀ (F := F)) 𝒱₀ (c : Thread nD τ) none) Set.univ kont Kt))
      ⊢ wp frame (wpE (defs₀ (F := F)) 𝒱₀ (c : Thread nD τ) none) Set.univ (seg3Prog (Memref.whole cc0_stg0_0) (Memref.isWhole_whole _) (Memref.whole cc0_stg1_0) (Memref.isWhole_whole _) (Memref.whole cc0_scratch0) (Memref.isWhole_whole _) cc0_scratch1 cc0_scratch2 v279 v300 v321 v342 v363 v384 v405 v426 v447 v468 v489 v510 kont) Kt := by
  unfold stageC stageD seg3Prog
  simp only [low_open, high_open, all_open]
  iintro ⟨⟨#Hrec, #Hlev, Hstg, HO, Hs0, Hsc, Hsp, Hr0, ⟨⟨Hc1, Ha1⟩, ⟨Hc2, Ha2⟩, ⟨Hc3, Ha3⟩, ⟨Hc4, Ha4⟩, ⟨Hc5, Ha5⟩, ⟨Hc6, Ha6⟩, ⟨Hc7, Ha7⟩, ⟨Hc8, Ha8⟩, ⟨Hc9, Ha9⟩, ⟨Hc10, Ha10⟩, ⟨Hc11, Ha11⟩, ⟨Hc12, Ha12⟩, ⟨Hc13, Ha13⟩⟩, ⟨Hs14, Ha14⟩, ⟨Hs15, Ha15⟩⟩, Hk⟩
  -- the waits for slots 13, 12, 11
  simp only [k0_part18_eq_skeleton]; unfold k0_part18_skel
  simp only [Prog.lift, Prog.bind_op, Prog.bind_ret, Prog.pure_eq_ret]
  iapply (recv_one m ρ K c 13 (by decide) W) $$ Hrec Hc13 HO Ha13
  iintro ⟨%W13, HO, Ha13, Hs13⟩
  iapply (recv_one m ρ K c 12 (by decide) W13) $$ Hrec Hc12 HO Ha12
  iintro ⟨%W12, HO, Ha12, Hs12⟩
  iapply (recv_one m ρ K c 11 (by decide) W12) $$ Hrec Hc11 HO Ha11
  iintro ⟨%W11, HO, Ha11, Hs11⟩
  -- the waits for slots 10, 9, 8, 7
  simp only [k0_part19_eq_skeleton]; unfold k0_part19_skel
  simp only [Prog.lift, Prog.bind_op, Prog.bind_ret, Prog.pure_eq_ret]
  iapply (recv_one m ρ K c 10 (by decide) W11) $$ Hrec Hc10 HO Ha10
  iintro ⟨%W10, HO, Ha10, Hs10⟩
  iapply (recv_one m ρ K c 9 (by decide) W10) $$ Hrec Hc9 HO Ha9
  iintro ⟨%W9, HO, Ha9, Hs9⟩
  iapply (recv_one m ρ K c 8 (by decide) W9) $$ Hrec Hc8 HO Ha8
  iintro ⟨%W8, HO, Ha8, Hs8⟩
  iapply (recv_one m ρ K c 7 (by decide) W8) $$ Hrec Hc7 HO Ha7
  iintro ⟨%W7, HO, Ha7, Hs7⟩
  -- the waits for slots 6, 5, 4
  simp only [k0_part20_eq_skeleton]; unfold k0_part20_skel
  simp only [Prog.lift, Prog.bind_op, Prog.bind_ret, Prog.pure_eq_ret]
  iapply (recv_one m ρ K c 6 (by decide) W7) $$ Hrec Hc6 HO Ha6
  iintro ⟨%W6, HO, Ha6, Hs6⟩
  iapply (recv_one m ρ K c 5 (by decide) W6) $$ Hrec Hc5 HO Ha5
  iintro ⟨%W5, HO, Ha5, Hs5⟩
  iapply (recv_one m ρ K c 4 (by decide) W5) $$ Hrec Hc4 HO Ha4
  iintro ⟨%W4, HO, Ha4, Hs4⟩
  -- the waits for slots 3, 2, 1
  simp only [k0_part21_eq_skeleton]; unfold k0_part21_skel
  simp only [Prog.lift, Prog.bind_op, Prog.bind_ret, Prog.pure_eq_ret]
  iapply (recv_one m ρ K c 3 (by decide) W4) $$ Hrec Hc3 HO Ha3
  iintro ⟨%W3, HO, Ha3, Hs3⟩
  iapply (recv_one m ρ K c 2 (by decide) W3) $$ Hrec Hc2 HO Ha2
  iintro ⟨%W2, HO, Ha2, Hs2⟩
  iapply (recv_one m ρ K c 1 (by decide) W2) $$ Hrec Hc1 HO Ha1
  iintro ⟨%W1, HO, Ha1, Hs1⟩
  -- every slot has landed
  iapply Hk
  iexists W1
  isplitr; · iexact Hrec
  isplitr; · iexact Hlev
  isplitl [Hstg]; · iexact Hstg
  isplitl [HO]; · iexact HO
  isplitl [Hs0]; · iexact Hs0
  isplitl [Hsc]; · iexact Hsc
  isplitl [Hsp]; · iexact Hsp
  isplitl [Hr0]; · iexact Hr0
  isplitl [Hs1 Ha1]; · isplitl [Hs1] <;> iassumption
  isplitl [Hs2 Ha2]; · isplitl [Hs2] <;> iassumption
  isplitl [Hs3 Ha3]; · isplitl [Hs3] <;> iassumption
  isplitl [Hs4 Ha4]; · isplitl [Hs4] <;> iassumption
  isplitl [Hs5 Ha5]; · isplitl [Hs5] <;> iassumption
  isplitl [Hs6 Ha6]; · isplitl [Hs6] <;> iassumption
  isplitl [Hs7 Ha7]; · isplitl [Hs7] <;> iassumption
  isplitl [Hs8 Ha8]; · isplitl [Hs8] <;> iassumption
  isplitl [Hs9 Ha9]; · isplitl [Hs9] <;> iassumption
  isplitl [Hs10 Ha10]; · isplitl [Hs10] <;> iassumption
  isplitl [Hs11 Ha11]; · isplitl [Hs11] <;> iassumption
  isplitl [Hs12 Ha12]; · isplitl [Hs12] <;> iassumption
  isplitl [Hs13 Ha13]; · isplitl [Hs13] <;> iassumption
  isplitl [Hs14 Ha14]; · isplitl [Hs14] <;> iassumption
  isplitl [Hs15] <;> iassumption

end Seg

/-- info: 'Cert.Kernel.Hand.seg3' depends on axioms: [propext, Classical.choice, Quot.sound] -/
#guard_msgs in #print axioms seg3

end Cert.Kernel.Hand

end
-- ==== Proof.Kernel.Seg4.lean ====
/-
  The body's last stretch: the fifteen waits for the copies' sources, the cells closed, the result.

  Each wait returns the share of slot 0 its copy was issued with; joined in reverse order they make the full share again.
  Every send cell, every receive cell in use (past its round) and the unused one (never opened) is closed: the
  thirty-one counters are at zero. The sixteen slots are the whole buffer again, holding the finished contents; the body
  loads it, reduces over the sixteen slots and stores the result.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots
import proofs.«900908_g7700000000000909_dist_max_ax0_shard0_i_m1536_n768_v7x_i16_bf16_1_alg».proof.Proof.Kernel.Steps
import proofs.«900908_g7700000000000909_dist_max_ax0_shard0_i_m1536_n768_v7x_i16_bf16_1_alg».proof.Proof.Kernel.Stages

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Finite conjunctions as chains

A conjunction over all of `Fin 15`, `Fin 16`, `Fin 31`, or over `Fin 16` without `0`, written out member by member. -/

section Lists
variable {M : Type _} [URA M]

private theorem univ15 (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
private theorem erase16 (Φ : Fin 16 → sProp M) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ
private theorem univ16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
private theorem univ31 (Φ : Fin 31 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ
end Lists

variable (m : (ℓ : Loc nD τ sig) → Buf (Elt F) ℓ) (ρ : Dev nD → PrngReg)

section Seg
variable (K : Dev nD × Fin 32 → ℕ) (c : Dev nD)

theorem seg4 (Kt : PUnit → sProp 𝕄) (W : Waits sig Unit) :
    iprop(stageD m ρ K c W ∗ (bodyPost m ρ c -∗ Kt ⟨⟩))
      ⊢ wp frame (wpE (defs₀ (F := F)) 𝒱₀ (c : Thread nD τ) none) Set.univ (seg4Prog (F := F) (Memref.whole cc0_stg0_0) (Memref.isWhole_whole _) (Memref.whole cc0_stg1_0) (Memref.isWhole_whole _) (Memref.whole cc0_scratch0) (Memref.isWhole_whole _) cc0_scratch1 cc0_scratch2) Kt := by
  unfold seg4Prog stageD stgs
  simp only [univ15, erase16]
  -- what the device holds, member by member: per send cell its credit and its position, per slot 1 … 15 the slot and its
  -- cell's position
  iintro ⟨⟨#HR, HL, ⟨Hx, ⟨%g, Hout⟩⟩, Ho, H0, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩, Hr0, ⟨⟨Hs1, Hp1⟩, ⟨Hs2, Hp2⟩, ⟨Hs3, Hp3⟩, ⟨Hs4, Hp4⟩, ⟨Hs5, Hp5⟩, ⟨Hs6, Hp6⟩, ⟨Hs7, Hp7⟩, ⟨Hs8, Hp8⟩, ⟨Hs9, Hp9⟩, ⟨Hs10, Hp10⟩, ⟨Hs11, Hp11⟩, ⟨Hs12, Hp12⟩, ⟨Hs13, Hp13⟩, ⟨Hs14, Hp14⟩, ⟨Hs15, Hp15⟩⟩⟩, Hk⟩
  -- the fifteen waits for the copies' sources, in program order: wait `j` spends send cell `j`'s credit, leaves the cell
  -- past its round and hands back the share `copyShare j` of slot 0
  simp only [k0_part22_eq_skeleton]; unfold k0_part22_skel
  simp only [Prog.lift, Prog.bind_op, Prog.bind_ret, Prog.pure_eq_ret]
  iapply (step_sendwait m ρ K c 0 (hcr := rfl) _) $$ [Hc0 Ho Ha0]
  · isplitr; · iexact HR
    isplitl [Hc0]; · iexact Hc0
    isplitl [Ho]; · iexact Ho
    iexact Ha0
  iintro ⟨Ho, Ha0, Hq0⟩
  iapply (step_sendwait m ρ K c 1 (hcr := rfl) _) $$ [Hc1 Ho Ha1]
  · isplitr; · iexact HR
    isplitl [Hc1]; · iexact Hc1
    isplitl [Ho]; · iexact Ho
    iexact Ha1
  iintro ⟨Ho, Ha1, Hq1⟩
  iapply (step_sendwait m ρ K c 2 (hcr := rfl) _) $$ [Hc2 Ho Ha2]
  · isplitr; · iexact HR
    isplitl [Hc2]; · iexact Hc2
    isplitl [Ho]; · iexact Ho
    iexact Ha2
  iintro ⟨Ho, Ha2, Hq2⟩
  iapply (step_sendwait m ρ K c 3 (hcr := rfl) _) $$ [Hc3 Ho Ha3]
  · isplitr; · iexact HR
    isplitl [Hc3]; · iexact Hc3
    isplitl [Ho]; · iexact Ho
    iexact Ha3
  iintro ⟨Ho, Ha3, Hq3⟩
  simp only [k0_part23_eq_skeleton]; unfold k0_part23_skel
  simp only [Prog.lift, Prog.bind_op, Prog.bind_ret, Prog.pure_eq_ret]
  iapply (step_sendwait m ρ K c 4 (hcr := rfl) _) $$ [Hc4 Ho Ha4]
  · isplitr; · iexact HR
    isplitl [Hc4]; · iexact Hc4
    isplitl [Ho]; · iexact Ho
    iexact Ha4
  iintro ⟨Ho, Ha4, Hq4⟩
  iapply (step_sendwait m ρ K c 5 (hcr := rfl) _) $$ [Hc5 Ho Ha5]
  · isplitr; · iexact HR
    isplitl [Hc5]; · iexact Hc5
    isplitl [Ho]; · iexact Ho
    iexact Ha5
  iintro ⟨Ho, Ha5, Hq5⟩
  iapply (step_sendwait m ρ K c 6 (hcr := rfl) _) $$ [Hc6 Ho Ha6]
  · isplitr; · iexact HR
    isplitl [Hc6]; · iexact Hc6
    isplitl [Ho]; · iexact Ho
    iexact Ha6
  iintro ⟨Ho, Ha6, Hq6⟩
  simp only [k0_part24_eq_skeleton]; unfold k0_part24_skel
  simp only [Prog.lift, Prog.bind_op, Prog.bind_ret, Prog.pure_eq_ret]
  iapply (step_sendwait m ρ K c 7 (hcr := rfl) _) $$ [Hc7 Ho Ha7]
  · isplitr; · iexact HR
    isplitl [Hc7]; · iexact Hc7
    isplitl [Ho]; · iexact Ho
    iexact Ha7
  iintro ⟨Ho, Ha7, Hq7⟩
  iapply (step_sendwait m ρ K c 8 (hcr := rfl) _) $$ [Hc8 Ho Ha8]
  · isplitr; · iexact HR
    isplitl [Hc8]; · iexact Hc8
    isplitl [Ho]; · iexact Ho
    iexact Ha8
  iintro ⟨Ho, Ha8, Hq8⟩
  iapply (step_sendwait m ρ K c 9 (hcr := rfl) _) $$ [Hc9 Ho Ha9]
  · isplitr; · iexact HR
    isplitl [Hc9]; · iexact Hc9
    isplitl [Ho]; · iexact Ho
    iexact Ha9
  iintro ⟨Ho, Ha9, Hq9⟩
  iapply (step_sendwait m ρ K c 10 (hcr := rfl) _) $$ [Hc10 Ho Ha10]
  · isplitr; · iexact HR
    isplitl [Hc10]; · iexact Hc10
    isplitl [Ho]; · iexact Ho
    iexact Ha10
  iintro ⟨Ho, Ha10, Hq10⟩
  simp only [k0_part25_eq_skeleton]; unfold k0_part25_skel
  simp only [Prog.lift, Prog.bind_op, Prog.bind_ret, Prog.pure_eq_ret]
  iapply (step_sendwait m ρ K c 11 (hcr := rfl) _) $$ [Hc11 Ho Ha11]
  · isplitr; · iexact HR
    isplitl [Hc11]; · iexact Hc11
    isplitl [Ho]; · iexact Ho
    iexact Ha11
  iintro ⟨Ho, Ha11, Hq11⟩
  iapply (step_sendwait m ρ K c 12 (hcr := rfl) _) $$ [Hc12 Ho Ha12]
  · isplitr; · iexact HR
    isplitl [Hc12]; · iexact Hc12
    isplitl [Ho]; · iexact Ho
    iexact Ha12
  iintro ⟨Ho, Ha12, Hq12⟩
  iapply (step_sendwait m ρ K c 13 (hcr := rfl) _) $$ [Hc13 Ho Ha13]
  · isplitr; · iexact HR
    isplitl [Hc13]; · iexact Hc13
    isplitl [Ho]; · iexact Ho
    iexact Ha13
  iintro ⟨Ho, Ha13, Hq13⟩
  iapply (step_sendwait m ρ K c 14 (hcr := rfl) _) $$ [Hc14 Ho Ha14]
  · isplitr; · iexact HR
    isplitl [Hc14]; · iexact Hc14
    isplitl [Ho]; · iexact Ho
    iexact Ha14
  iintro ⟨Ho, Ha14, Hq14⟩
  -- the shares joined again, last first: `copyShare n` and `restShare (n + 1)` are `restShare n`; `restShare 0` is the
  -- full share
  ihave H0 := (share_step (F := F) c 14 (full m ρ c)).2 $$ [Hq14 H0]
  · isplitl [Hq14]; · iexact Hq14
    iexact H0
  ihave H0 := (share_step (F := F) c 13 (full m ρ c)).2 $$ [Hq13 H0]
  · isplitl [Hq13]; · iexact Hq13
    iexact H0
  ihave H0 := (share_step (F := F) c 12 (full m ρ c)).2 $$ [Hq12 H0]
  · isplitl [Hq12]; · iexact Hq12
    iexact H0
  ihave H0 := (share_step (F := F) c 11 (full m ρ c)).2 $$ [Hq11 H0]
  · isplitl [Hq11]; · iexact Hq11
    iexact H0
  ihave H0 := (share_step (F := F) c 10 (full m ρ c)).2 $$ [Hq10 H0]
  · isplitl [Hq10]; · iexact Hq10
    iexact H0
  ihave H0 := (share_step (F := F) c 9 (full m ρ c)).2 $$ [Hq9 H0]
  · isplitl [Hq9]; · iexact Hq9
    iexact H0
  ihave H0 := (share_step (F := F) c 8 (full m ρ c)).2 $$ [Hq8 H0]
  · isplitl [Hq8]; · iexact Hq8
    iexact H0
  ihave H0 := (share_step (F := F) c 7 (full m ρ c)).2 $$ [Hq7 H0]
  · isplitl [Hq7]; · iexact Hq7
    iexact H0
  ihave H0 := (share_step (F := F) c 6 (full m ρ c)).2 $$ [Hq6 H0]
  · isplitl [Hq6]; · iexact Hq6
    iexact H0
  ihave H0 := (share_step (F := F) c 5 (full m ρ c)).2 $$ [Hq5 H0]
  · isplitl [Hq5]; · iexact Hq5
    iexact H0
  ihave H0 := (share_step (F := F) c 4 (full m ρ c)).2 $$ [Hq4 H0]
  · isplitl [Hq4]; · iexact Hq4
    iexact H0
  ihave H0 := (share_step (F := F) c 3 (full m ρ c)).2 $$ [Hq3 H0]
  · isplitl [Hq3]; · iexact Hq3
    iexact H0
  ihave H0 := (share_step (F := F) c 2 (full m ρ c)).2 $$ [Hq2 H0]
  · isplitl [Hq2]; · iexact Hq2
    iexact H0
  ihave H0 := (share_step (F := F) c 1 (full m ρ c)).2 $$ [Hq1 H0]
  · isplitl [Hq1]; · iexact Hq1
    iexact H0
  ihave H0 := (share_step (F := F) c 0 (full m ρ c)).2 $$ [Hq0 H0]
  · isplitl [Hq0]; · iexact Hq0
    iexact H0
  -- the sixteen slots, each whole and holding the finished contents, are the buffer
  ihave Hscr : scrPts (F := F) c (full m ρ c) $$ [H0 Hs1 Hs2 Hs3 Hs4 Hs5 Hs6 Hs7 Hs8 Hs9 Hs10 Hs11 Hs12 Hs13 Hs14 Hs15]
  · rw [scr_split (F := F) c (full m ρ c), univ16]
    isplitl [H0]; · iexact H0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  -- the load of the whole buffer reads the finished contents
  unfold scrPts
  iapply (wp_load 𝒱₀ (c : Thread nD τ) none Set.univ (m := (rM : Memref sig .tc .vmem S16x1x768 .f32)) (View.setOn_subset_set _ _)) $$ Hscr
  iintro Hscr
  rw [read_scr]
  -- the load of the result buffer, then the store of the maximum over the sixteen slots into it
  iapply (wp_load 𝒱₀ (c : Thread nD τ) none Set.univ (m := (oM : Memref sig .tc .vmem S1x768 .f32)) (S := Finset.univ) (Finset.subset_univ _)) $$ Hout
  iintro Hout
  iapply (wp_store 𝒱₀ (c : Thread nD τ) none Set.univ (m := (oM : Memref sig .tc .vmem S1x768 .f32))
    (r := Rect.unit (s := S1x768) ![0, 0] S1x768.size inb_S1x768_S1x768_0_0) (S := Finset.univ) (Finset.subset_univ _)) $$ Hout
  iintro Hout
  rw [write_out, wp_ret]
  -- every cell closes: the fifteen send cells and the receive cells 1 … 15 past their round, receive cell 0 never opened
  imod (close_send m ρ K c 0) $$ [Ha0] with Hz0
  · isplitr; · iexact HR
    iexact Ha0
  imod (close_send m ρ K c 1) $$ [Ha1] with Hz1
  · isplitr; · iexact HR
    iexact Ha1
  imod (close_send m ρ K c 2) $$ [Ha2] with Hz2
  · isplitr; · iexact HR
    iexact Ha2
  imod (close_send m ρ K c 3) $$ [Ha3] with Hz3
  · isplitr; · iexact HR
    iexact Ha3
  imod (close_send m ρ K c 4) $$ [Ha4] with Hz4
  · isplitr; · iexact HR
    iexact Ha4
  imod (close_send m ρ K c 5) $$ [Ha5] with Hz5
  · isplitr; · iexact HR
    iexact Ha5
  imod (close_send m ρ K c 6) $$ [Ha6] with Hz6
  · isplitr; · iexact HR
    iexact Ha6
  imod (close_send m ρ K c 7) $$ [Ha7] with Hz7
  · isplitr; · iexact HR
    iexact Ha7
  imod (close_send m ρ K c 8) $$ [Ha8] with Hz8
  · isplitr; · iexact HR
    iexact Ha8
  imod (close_send m ρ K c 9) $$ [Ha9] with Hz9
  · isplitr; · iexact HR
    iexact Ha9
  imod (close_send m ρ K c 10) $$ [Ha10] with Hz10
  · isplitr; · iexact HR
    iexact Ha10
  imod (close_send m ρ K c 11) $$ [Ha11] with Hz11
  · isplitr; · iexact HR
    iexact Ha11
  imod (close_send m ρ K c 12) $$ [Ha12] with Hz12
  · isplitr; · iexact HR
    iexact Ha12
  imod (close_send m ρ K c 13) $$ [Ha13] with Hz13
  · isplitr; · iexact HR
    iexact Ha13
  imod (close_send m ρ K c 14) $$ [Ha14] with Hz14
  · isplitr; · iexact HR
    iexact Ha14
  imod (close_recv0 m ρ K c) $$ [Hr0] with Hy0
  · isplitr; · iexact HR
    iexact Hr0
  imod (close_recv m ρ K c 1 (by decide)) $$ [Hp1] with Hy1
  · isplitr; · iexact HR
    iexact Hp1
  imod (close_recv m ρ K c 2 (by decide)) $$ [Hp2] with Hy2
  · isplitr; · iexact HR
    iexact Hp2
  imod (close_recv m ρ K c 3 (by decide)) $$ [Hp3] with Hy3
  · isplitr; · iexact HR
    iexact Hp3
  imod (close_recv m ρ K c 4 (by decide)) $$ [Hp4] with Hy4
  · isplitr; · iexact HR
    iexact Hp4
  imod (close_recv m ρ K c 5 (by decide)) $$ [Hp5] with Hy5
  · isplitr; · iexact HR
    iexact Hp5
  imod (close_recv m ρ K c 6 (by decide)) $$ [Hp6] with Hy6
  · isplitr; · iexact HR
    iexact Hp6
  imod (close_recv m ρ K c 7 (by decide)) $$ [Hp7] with Hy7
  · isplitr; · iexact HR
    iexact Hp7
  imod (close_recv m ρ K c 8 (by decide)) $$ [Hp8] with Hy8
  · isplitr; · iexact HR
    iexact Hp8
  imod (close_recv m ρ K c 9 (by decide)) $$ [Hp9] with Hy9
  · isplitr; · iexact HR
    iexact Hp9
  imod (close_recv m ρ K c 10 (by decide)) $$ [Hp10] with Hy10
  · isplitr; · iexact HR
    iexact Hp10
  imod (close_recv m ρ K c 11 (by decide)) $$ [Hp11] with Hy11
  · isplitr; · iexact HR
    iexact Hp11
  imod (close_recv m ρ K c 12 (by decide)) $$ [Hp12] with Hy12
  · isplitr; · iexact HR
    iexact Hp12
  imod (close_recv m ρ K c 13 (by decide)) $$ [Hp13] with Hy13
  · isplitr; · iexact HR
    iexact Hp13
  imod (close_recv m ρ K c 14 (by decide)) $$ [Hp14] with Hy14
  · isplitr; · iexact HR
    iexact Hp14
  imod (close_recv m ρ K c 15 (by decide)) $$ [Hp15] with Hy15
  · isplitr; · iexact HR
    iexact Hp15
  -- the postcondition: the buffer and the thirty-one counters at zero; nothing owed; the two staging buffers
  imodintro
  iapply Hk
  unfold bodyPost Φ₁
  rw [univ31]
  isplitl [Hscr Hz0 Hz1 Hz2 Hz3 Hz4 Hz5 Hz6 Hz7 Hz8 Hz9 Hz10 Hz11 Hz12 Hz13 Hz14 Hy0 Hy1 Hy2 Hy3 Hy4 Hy5 Hy6 Hy7 Hy8 Hy9 Hy10 Hy11 Hy12 Hy13 Hy14 Hy15]
  · isplitl [Hscr]; · unfold scrPts; iexact Hscr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    iexact Hy15
  isplitl [Ho]
  · unfold Dat.owesAt Pipeline.owesWithin
    iexists (insert (SemLoc.dma (sendS 14), ()) (insert (SemLoc.dma (sendS 13), ()) (insert (SemLoc.dma (sendS 12), ()) (insert (SemLoc.dma (sendS 11), ()) (insert (SemLoc.dma (sendS 10), ()) (insert (SemLoc.dma (sendS 9), ()) (insert (SemLoc.dma (sendS 8), ()) (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) W)))))))))))))))
    isplitr; · ipureintro; exact fun _ _ => Or.inl trivial
    iexact Ho
  isplitl [Hx]
  · iexists _
    isplitr; · ipureintro; rfl
    iexact Hx
  iexists _
  isplitr; · ipureintro; rfl
  iexact Hout

end Seg

/-- info: 'Cert.Kernel.Hand.seg4' depends on axioms: [propext, Classical.choice, Quot.sound] -/
#guard_msgs in #print axioms seg4

end Cert.Kernel.Hand

end
-- ==== Proof.Kernel.Body.lean ====
/-
  The body: its four stretches in order, each handing the next what it holds.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Stages
import proofs.«900908_g7700000000000909_dist_max_ax0_shard0_i_m1536_n768_v7x_i16_bf16_1_alg».proof.Proof.Kernel.Seg1
import proofs.«900908_g7700000000000909_dist_max_ax0_shard0_i_m1536_n768_v7x_i16_bf16_1_alg».proof.Proof.Kernel.Seg2
import proofs.«900908_g7700000000000909_dist_max_ax0_shard0_i_m1536_n768_v7x_i16_bf16_1_alg».proof.Proof.Kernel.Seg3
import proofs.«900908_g7700000000000909_dist_max_ax0_shard0_i_m1536_n768_v7x_i16_bf16_1_alg».proof.Proof.Kernel.Seg4

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 32 → ℕ) (c : Dev nD)

/-- The body, from what the launch hands device `c` to the finished exchange buffer, the own cells closed, and the result
    in the output staging buffer. -/
theorem sound_body (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) cc0_scratch1 cc0_scratch2) Kt := by
  rw [cc0_body_eq_skeleton, body_split]
  iintro ⟨Hpre, Hk⟩
  iapply (seg1 m ρ K c Kt _)
  isplitl [Hpre]; · iexact Hpre
  iintro %v2 %v216 ⟨%W, HB⟩
  iapply (seg2 m ρ K c Kt v2 v216 _ W)
  isplitl [HB]; · iexact HB
  iintro %v279 %v300 %v321 %v342 %v363 %v384 %v405 %v426 %v447 %v468 %v489 %v510 ⟨%W', HC⟩
  iapply (seg3 m ρ K c Kt v279 v300 v321 v342 v363 v384 v405 v426 v447 v468 v489 v510 _ W')
  isplitl [HC]; · iexact HC
  iintro ⟨%W'', HD⟩
  iapply (seg4 m ρ K c Kt W'')
  isplitl [HD]; · iexact HD
  iexact Hk

end Body

end Cert.Kernel.Hand

end
-- ==== Proof.Kernel.LaunchGhost.lean ====
/-
  The launch's ghost state: every cell funded at its first round, the cells' invariants allocated for all devices at once,
  and the duty tokens dealt to the devices that pay them.

  Each device's thirty-two cells (its barrier cell, fifteen send cells, sixteen receive cells) start at round 0 with their
  counters at zero — the thirty-one own ones from the launch, the barrier's among the launch's unscoped semaphores. The
  token of duty `e` of device `c`'s barrier cell goes to the peer at offset `e` (it is that peer's signal number `opp e`);
  the token of receive cell `s` of `c` goes to the peer at offset `s` (its copy number `opp s`); a send cell's token stays.
  Translation by a fixed offset is a permutation of the devices, so each deal is a re-indexing of one big conjunction.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables

import Mathlib.Logic.Equiv.Fin.Basic
import Mathlib.Data.Fintype.Sum

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Ghost

/-! ## The thirty-two cells of a device, and the tokens minted for them -/

omit [FloatOps F] in
theorem csem_pos (k : Fin 32) (h : k.val ≠ 0) :
    csem k = .dma ⟨1 + k.val, by have := k.isLt; show 1 + k.val < 33; omega⟩ := dif_neg h

omit [FloatOps F] in
theorem csem_injective : Function.Injective csem := by
  intro k k' h
  by_cases hk : k.val = 0 <;> by_cases hk' : k'.val = 0
  · exact Fin.ext (hk.trans hk'.symm)
  · rw [show csem k = .reg barS from dif_pos hk, csem_pos k' hk'] at h; cases h
  · rw [csem_pos k hk, show csem k' = .reg barS from dif_pos hk'] at h; cases h
  · rw [csem_pos k hk, csem_pos k' hk'] at h
    have hv : 1 + k.val = 1 + k'.val := congrArg Fin.val (SemLoc.dma.inj h)
    exact Fin.ext (by omega)

omit [FloatOps F] in
theorem kcell_injective : Function.Injective (kcell : Dev nD × Fin 32 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := csem_injective h2
  subst h3; rfl
/-- All the exchange's cells, over all devices. -/
def ringCells : Finset (GSem nD τ sig) := Finset.univ.map ⟨kcell, kcell_injective⟩

/-- Which of a device's own cells' duty tokens: a duty `e ≠ 0` of its barrier cell, the duty of one of its fifteen send
    cells, or the duty of its receive cell for a slot `s ≠ 0`. -/
abbrev Tk : Type := {e : Fin 16 // e ≠ 0} ⊕ (Fin 15 ⊕ {s : Fin 16 // s ≠ 0})

/-- A device's own cells' duty tokens as minted: (device, which). -/
def tokOf (cj : Dev nD × Tk) : GSem nD τ sig × ℕ × Fin 16 := match cj.2 with
  | .inl e => (barCell cj.1, 0, e.1)
  | .inr (.inl j) => (sendCell cj.1 j, 0, 0)
  | .inr (.inr s) => (recvCell cj.1 s.1, 0, 0)
omit [FloatOps F] in
theorem tokOf_injective : Function.Injective (tokOf : Dev nD × Tk → GSem nD τ sig × ℕ × Fin 16) := by
  rintro ⟨c, j⟩ ⟨c', j'⟩ h
  have h1 : c = c' := by
    have := congrArg (fun x : GSem nD τ sig × ℕ × Fin 16 => x.1.1.1) h
    rcases j with e | j | s <;> rcases j' with e' | j' | s' <;> exact this
  subst h1
  have hs := congrArg (fun x : GSem nD τ sig × ℕ × Fin 16 => x.1.2) h
  have hd := congrArg (fun x : GSem nD τ sig × ℕ × Fin 16 => x.2.2) h
  have h2 : j = j' := by
    rcases j with e | j | s <;> rcases j' with e' | j' | s'
    · exact congrArg Sum.inl (Subtype.ext hd)
    · exact absurd hs (fun h' => by cases h')
    · exact absurd hs (fun h' => by cases h')
    · exact absurd hs (fun h' => by cases h')
    · have hv : 2 + j.val = 2 + j'.val := congrArg Fin.val (SemLoc.dma.inj hs)
      exact congrArg (fun x => Sum.inr (Sum.inl x)) (Fin.ext (by omega))
    · have hv : 2 + j.val = 17 + s'.1.val := congrArg Fin.val (SemLoc.dma.inj hs)
      have := j.isLt; omega
    · exact absurd hs (fun h' => by cases h')
    · have hv : 17 + s.1.val = 2 + j'.val := congrArg Fin.val (SemLoc.dma.inj hs)
      have := j'.isLt; omega
    · have hv : 17 + s.1.val = 17 + s'.1.val := congrArg Fin.val (SemLoc.dma.inj hs)
      exact congrArg (fun x => Sum.inr (Sum.inr x)) (Subtype.ext (Fin.ext (by omega)))
  subst h2; rfl
def ringToks : Finset (GSem nD τ sig × ℕ × Fin 16) := Finset.univ.map ⟨tokOf, tokOf_injective⟩

/-- The launch element: the pipeline library's cells beside the exchange's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun e : Fin 16 => dutyTok ER (barCell c) 0 e)
    ∗ (bigSep Finset.univ fun j : Fin 15 => dutyTok ER (sendCell c j) 0 0)
    ∗ (bigSep (Finset.univ.erase 0) fun s : Fin 16 => dutyTok ER (recvCell c s) 0 0))

/-- What the launch element deals device `c`. -/
def G (c : Dev nD) : sProp 𝕄 :=
  iprop((bigSep Finset.univ fun k : Fin 32 => roundState ER (sched m ρ) (kcell (c, k)) 0)
    ∗ (bigSep Finset.univ fun k : Fin 32 => iprop(atPos ER (kcell (c, k)) 0 ∅ 0 ∗ reached ER (kcell (c, k)) 0)) ∗ toks c)

/-- What the global step makes of it. -/
def G' (c : Dev nD) : sProp 𝕄 := iprop(∃ K, ghost m ρ K c)

/-! ## Conjunctions over a device's cells, by kind -/

omit [FloatOps F] in
/-- A conjunction over `Fin (a + b)` is the one over the first `a` and the one over the last `b`. -/
theorem bigSep_fin_add (a b : ℕ) (Φ : Fin (a + b) → sProp 𝕄) :
    bigSep Finset.univ Φ
      = iprop((bigSep Finset.univ fun i : Fin a => Φ (Fin.castAdd b i)) ∗ bigSep Finset.univ fun i : Fin b => Φ (Fin.natAdd a i)) := by
  rw [bigSep_univ_equiv finSumFinEquiv Φ, bigSep_univ_sum]; rfl

omit [FloatOps F] in
theorem kcell_own (c : Dev nD) (k : Fin 31) : kcell (c, (Fin.natAdd 1 k : Fin (1 + 31))) = ((c : Thread nD τ), osem k) := by
  have hv : (Fin.natAdd 1 k : Fin (1 + 31)).val = 1 + k.val := rfl
  show ((c : Thread nD τ), csem (Fin.natAdd 1 k : Fin (1 + 31))) = ((c : Thread nD τ), osem k)
  rw [csem_pos _ (by rw [hv]; omega)]
  exact congrArg (fun q : DmaSem sig => ((c : Thread nD τ), SemLoc.dma q)) (Fin.ext (by show 1 + (Fin.natAdd 1 k : Fin (1 + 31)).val = 2 + k.val; rw [hv]; omega))

omit [FloatOps F] in
/-- A device's cells: its barrier cell, then the kernel's own thirty-one. -/
theorem bigSep_cells_own (c : Dev nD) (Φ : GSem nD τ sig → sProp 𝕄) :
    (bigSep Finset.univ fun k : Fin 32 => Φ (kcell (c, k)))
      = iprop(Φ (barCell c) ∗ bigSep Finset.univ fun k : Fin 31 => Φ ((c : Thread nD τ), osem k)) := by
  rw [bigSep_fin_add 1 31 (fun k => Φ (kcell (c, k))), bigSep_univ_of_subsingleton (0 : Fin 1)]
  simp only [kcell_own]
  rfl

omit [FloatOps F] in
theorem osem_send (j : Fin 15) : osem (Fin.castAdd 16 j : Fin (15 + 16)) = .dma (sendS j) := rfl
omit [FloatOps F] in
theorem osem_recv (s : Fin 16) : osem (Fin.natAdd 15 s : Fin (15 + 16)) = .dma (recvS s) := by
  have hv : (Fin.natAdd 15 s : Fin (15 + 16)).val = 15 + s.val := rfl
  exact congrArg SemLoc.dma (Fin.ext (by show 2 + (Fin.natAdd 15 s : Fin (15 + 16)).val = 17 + s.val; rw [hv]; omega))

omit [FloatOps F] in
/-- A device's cells: its barrier cell, its fifteen send cells, its sixteen receive cells. -/
theorem bigSep_cells (c : Dev nD) (Φ : GSem nD τ sig → sProp 𝕄) :
    (bigSep Finset.univ fun k : Fin 32 => Φ (kcell (c, k)))
      = iprop(Φ (barCell c) ∗ (bigSep Finset.univ fun j : Fin 15 => Φ (sendCell c j)) ∗ bigSep Finset.univ fun s : Fin 16 => Φ (recvCell c s)) := by
  rw [bigSep_cells_own, bigSep_fin_add 15 16 (fun k => Φ ((c : Thread nD τ), osem k))]
  simp only [osem_send, osem_recv]

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 32 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum]
    unfold toks
    rw [← bigSep_subtype_ne 0 (fun e : Fin 16 => (dutyTok ER (barCell c) 0 e : sProp 𝕄)),
      ← bigSep_subtype_ne 0 (fun s : Fin 16 => (dutyTok ER (recvCell c s) 0 0 : sProp 𝕄))]
    rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline library's cells and deals every device its `G`. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The cells' invariants, allocated for a device -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 32 => semVal (kcell (c, k)) 0 : sProp 𝕄) := by
  rw [unscopedSems0_eq, bigSep_cells_own c (fun g => semVal g 0)]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 32 => semVal (kcell (c, k)) 0) ∗ bigSep Finset.univ fun k : Fin 32 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal: every token to the device that pays its duty -/

omit [FloatOps F] in
/-- (device, offset ≠ 0) ↦ (the peer at that offset, the offset back): an involution. -/
def dealEquiv : Dev nD × {e : Fin 16 // e ≠ 0} ≃ Dev nD × {e : Fin 16 // e ≠ 0} where
  toFun p := (peer p.1 p.2.1, ⟨opp p.2.1, opp_ne_zero p.2.2⟩)
  invFun p := (peer p.1 p.2.1, ⟨opp p.2.1, opp_ne_zero p.2.2⟩)
  left_inv p := Prod.ext (peer_opp p.1 p.2.1) (Subtype.ext (opp_opp p.2.1))
  right_inv p := Prod.ext (peer_opp p.1 p.2.1) (Subtype.ext (opp_opp p.2.1))

omit [FloatOps F] in
/-- A family over (device, offset ≠ 0), read at (the peer at that offset, the offset back), is the same conjunction. -/
theorem bigSep_deal (Ψ : Dev nD → Fin 16 → sProp 𝕄) :
    (bigSep Finset.univ fun c : Dev nD => bigSep (Finset.univ.erase 0) fun e : Fin 16 => Ψ c e)
      = bigSep Finset.univ fun c : Dev nD => bigSep (Finset.univ.erase 0) fun e : Fin 16 => Ψ (peer c e) (opp e) := by
  have h (Φ : Dev nD → Fin 16 → sProp 𝕄) :
      (bigSep Finset.univ fun c : Dev nD => bigSep (Finset.univ.erase 0) fun e : Fin 16 => Φ c e)
        = bigSep Finset.univ fun p : Dev nD × {e : Fin 16 // e ≠ 0} => Φ p.1 p.2.1 := by
    rw [bigSep_univ_prod (fun p : Dev nD × {e : Fin 16 // e ≠ 0} => Φ p.1 p.2.1)]
    exact bigSep_congr fun c _ => (bigSep_subtype_ne 0 (Φ c)).symm
  rw [h Ψ, h (fun c e => Ψ (peer c e) (opp e)), bigSep_univ_equiv dealEquiv]
  rfl

/-- The tokens of the duties device `c` pays. -/
def payToks (c : Dev nD) : sProp 𝕄 :=
  iprop((bigSep (Finset.univ.erase 0) fun e : Fin 16 => dutyTok ER (barCell (peer c e)) 0 (opp e))
    ∗ (bigSep Finset.univ fun j : Fin 15 => dutyTok ER (sendCell c j) 0 0)
    ∗ (bigSep (Finset.univ.erase 0) fun e : Fin 16 => dutyTok ER (recvCell (peer c e) (opp e)) 0 0))

omit [FloatOps F] in
/-- The tokens dealt: duty `e` of `c`'s barrier cell, and the duty of its receive cell `e`, to the peer at offset `e`. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_deal (fun c e => (dutyTok ER (barCell c) 0 e : sProp 𝕄)),
    bigSep_deal (fun c s => (dutyTok ER (recvCell c s) 0 0 : sProp 𝕄))]

theorem ghost_intro (K : Dev nD × Fin 32 → ℕ) (c : Dev nD) : iprop(records m ρ K ∗ linear c) ⊢ G' m ρ c := by
  unfold G' ghost
  iintro H
  iexists K
  iexact H

omit [FloatOps F] in
theorem linear_intro (c : Dev nD) :
    iprop((bigSep Finset.univ fun k : Fin 32 => (atPos ER (kcell (c, k)) 0 ∅ 0 : sProp 𝕄)) ∗ payToks c) ⊢ linear c := by
  rw [bigSep_cells c (fun g => atPos ER g 0 ∅ 0)]
  unfold linear payToks
  iintro ⟨⟨HaB, HaS, HaV⟩, HtB, HtS, HtV⟩
  isplitl [HaB]; · iexact HaB
  isplitl [HaS]; · iexact HaS
  isplitl [HaV]; · iexact HaV
  isplitl [HtB]; · iexact HtB
  isplitl [HtS]; · iexact HtS
  iexact HtV

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 32 => iprop(∃ κ : ℕ, cellInv ER (sched m ρ) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 32 => (atPos ER (kcell (c, k)) 0 ∅ 0 : sProp 𝕄)) payToks).symm).trans
      (bigSep_mono fun c _ => linear_intro (F := F) c))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Ghost

/-- info: 'Cert.Kernel.Hand.fund_u₀' depends on axioms: [propext, Classical.choice, Quot.sound] -/
#guard_msgs in #print axioms fund_u₀

/-- info: 'Cert.Kernel.Hand.glob' depends on axioms: [propext, Classical.choice, Quot.sound] -/
#guard_msgs in #print axioms glob

end Cert.Kernel.Hand

end
-- ==== Proof.Kernel.LaunchCred.lean ====
/-
  The launch credit: what all devices together owe a cell at launch is what its owner may wait for.

  Device `d` owes device `c`'s barrier cell one unit exactly when `d ≠ c` (its signal number `off d c`), so the cell's
  launch credit is fifteen; it owes `c`'s receive cell for slot `s ≠ 0` one copy's credit exactly when `d` is the peer of
  `c` at offset `s`, so that cell's launch credit is one copy's credit.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells are told apart by their device and their semaphore -/

theorem bar_eq_iff {a b : Dev nD} : barCell a = barCell b ↔ a = b :=
  ⟨fun h => congrArg (fun g : GSem nD τ sig => g.1.1) h, fun h => h ▸ rfl⟩

theorem recvS_inj {s s' : Fin 16} (h : recvS s = recvS s') : s = s' := by
  have h4 : 17 + s.val = 17 + s'.val := congrArg Fin.val h
  exact Fin.ext (by omega)

theorem recv_eq_iff {a b : Dev nD} {s s' : Fin 16} : recvCell a s = recvCell b s' ↔ a = b ∧ s = s' := by
  constructor
  · intro h
    have h2 : (SemLoc.dma (recvS s) : SemLoc sig) = .dma (recvS s') := congrArg Prod.snd h
    exact ⟨congrArg (fun g : GSem nD τ sig => g.1.1) h, recvS_inj (SemLoc.dma.inj h2)⟩
  · rintro ⟨rfl, rfl⟩; rfl

theorem bar_ne_recv (a b : Dev nD) (s : Fin 16) : barCell a ≠ recvCell b s := fun h => by
  have h2 : (SemLoc.reg barS : SemLoc sig) = .dma (recvS s) := congrArg Prod.snd h
  cases h2

/-! ## What a device owes at launch, in closed form: its fifteen copies' credits and its fifteen signals -/

theorem oweX_eq (d : Dev nD) (k : ℕ) : oweX d k = ∑ i ∈ Finset.range k, tXfer d (fin16 (15 - i)) := by
  induction k with
  | zero => rw [oweX, Finset.sum_range_zero]
  | succ k ih => rw [oweX, ih, Finset.sum_range_succ]

theorem oweS_eq (d : Dev nD) (k : ℕ) : oweS d k = oweX d 15 + ∑ i ∈ Finset.range k, tSig d (fin16 (15 - i)) := by
  induction k with
  | zero => rw [oweS, Finset.sum_range_zero, add_zero]
  | succ k ih => rw [oweS, ih, Finset.sum_range_succ, add_assoc]

/-- Counting down from fifteen runs through the fifteen nonzero offsets, once each. -/
theorem sum_countdown {M : Type} [AddCommMonoid M] (f : Fin 16 → M) :
    ∑ i ∈ Finset.range 15, f (fin16 (15 - i)) = ∑ e ∈ Finset.univ.erase 0, f e := by
  have himg : (Finset.range 15).image (fun i => fin16 (15 - i)) = Finset.univ.erase 0 := by decide
  rw [← himg, Finset.sum_image]
  intro x hx y hy h
  have hx' : x < 15 := Finset.mem_range.mp hx
  have hy' : y < 15 := Finset.mem_range.mp hy
  have hv : (15 - x) % 16 = (15 - y) % 16 := congrArg Fin.val h
  omega

theorem O₀_eq (d : Dev nD) :
    O₀ d = (∑ e ∈ Finset.univ.erase 0, tXfer d e) + ∑ e ∈ Finset.univ.erase 0, tSig d e := by
  unfold O₀
  rw [oweS_eq, oweX_eq, sum_countdown (tXfer d), sum_countdown (tSig d)]

theorem O₀_apply (d : Dev nD) (g : GSem nD τ sig) :
    O₀ d g () = (∑ e ∈ Finset.univ.erase 0, tXfer d e g ()) + ∑ e ∈ Finset.univ.erase 0, tSig d e g () := by
  rw [O₀_eq, Pi.add_apply, Finsupp.add_apply, Finset.sum_apply, Finsupp.finsetSum_apply, Finset.sum_apply, Finsupp.finsetSum_apply]

/-! ## What device `d` owes a barrier cell, and a receive cell -/

/-- The signal of `d` that reaches `c`'s barrier cell is the one numbered by the offset from `d` to `c`. -/
theorem bar_hit (d c : Dev nD) (e : Fin 16) : (barCell c = barCell (peer d e) ∧ () = ()) ↔ e = off d c :=
  ⟨fun h => (peer_eq_iff d c e).mp (bar_eq_iff.mp h.1).symm, fun h => ⟨by rw [h, peer_off], rfl⟩⟩

/-- The copy of `d` that lands in slot `s` of `c` is the one numbered `opp s`, and `d` is then `c`'s peer at offset `s`. -/
theorem recv_hit (d c : Dev nD) (e s : Fin 16) :
    (recvCell c s = recvCell (peer d e) (opp e) ∧ () = ()) ↔ (e = opp s ∧ d = peer c s) := by
  constructor
  · rintro ⟨h, -⟩
    obtain ⟨hc, hs⟩ := recv_eq_iff.mp h
    have he : e = opp s := by rw [hs, opp_opp]
    refine ⟨he, ?_⟩
    rw [hc, he, peer_opp']
  · rintro ⟨he, hd⟩
    refine ⟨?_, rfl⟩
    rw [he, hd, peer_opp, opp_opp]

theorem off_eq_zero_iff (d c : Dev nD) : off d c = 0 ↔ d = c := by
  constructor
  · intro h; have := peer_off d c; rw [h, peer_zero] at this; exact this
  · intro h; rw [h, off_self]

theorem owed_bar (d c : Dev nD) : O₀ d (barCell c) () = if d = c then 0 else 1 := by
  have hX : ∀ e ∈ (Finset.univ.erase 0 : Finset (Fin 16)), tXfer d e (barCell c) () = 0 := fun e _ => by
    unfold tXfer; rw [tallyAt_ne_cell (bar_ne_recv _ _ _), Finsupp.zero_apply]
  have hS : ∀ e ∈ (Finset.univ.erase 0 : Finset (Fin 16)), tSig d e (barCell c) () = if e = off d c then 1 else 0 := fun e _ => by
    unfold tSig; rw [tallyAt_apply]; exact if_congr (bar_hit d c e) rfl rfl
  rw [O₀_apply, Finset.sum_congr rfl hX, Finset.sum_congr rfl hS, Finset.sum_const_zero, Nat.zero_add,
    Finset.sum_ite_eq' (Finset.univ.erase 0) (off d c) fun _ => 1]
  by_cases hdc : d = c
  · rw [if_pos hdc, if_neg (fun hm => (Finset.mem_erase.mp hm).1 ((off_eq_zero_iff d c).mpr hdc))]
  · rw [if_neg hdc, if_pos (Finset.mem_erase.mpr ⟨fun h0 => hdc ((off_eq_zero_iff d c).mp h0), Finset.mem_univ _⟩)]

theorem owed_recv (d c : Dev nD) (s : Fin 16) (hs : s ≠ 0) : O₀ d (recvCell c s) () = if d = peer c s then N else 0 := by
  have hS : ∀ e ∈ (Finset.univ.erase 0 : Finset (Fin 16)), tSig d e (recvCell c s) () = 0 := fun e _ => by
    unfold tSig; rw [tallyAt_ne_cell (fun h => bar_ne_recv _ _ _ h.symm), Finsupp.zero_apply]
  have hX : ∀ e ∈ (Finset.univ.erase 0 : Finset (Fin 16)),
      tXfer d e (recvCell c s) () = if e = opp s then (if d = peer c s then N else 0) else 0 := fun e _ => by
    unfold tXfer; rw [tallyAt_apply, ← ite_and]; exact if_congr (recv_hit d c e s) rfl rfl
  rw [O₀_apply, Finset.sum_congr rfl hX, Finset.sum_congr rfl hS, Finset.sum_const_zero, Nat.add_zero,
    Finset.sum_ite_eq' (Finset.univ.erase 0) (opp s) fun _ => if d = peer c s then N else 0,
    if_pos (Finset.mem_erase.mpr ⟨opp_ne_zero hs, Finset.mem_univ _⟩)]

/-- Fifteen of the sixteen devices are not `c`. -/
theorem sum_others (c : Dev nD) : (∑ d : Dev nD, if d = c then 0 else 1) = 15 := by revert c; decide

/-! ## The launch credit of a barrier cell and of a receive cell -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c : Dev nD) (s : Fin 16) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ (peer c s) fun _ => N, if_pos (Finset.mem_univ _)]

omit [FloatOps F] in
/-- What the launch gives device `c` to wait with: fifteen units on its barrier cell, a copy's credit on each receive
    cell in use. -/
theorem creds (c : Dev nD) :
    (Pipeline.launchCred O₀ c : sProp 𝕄)
      ⊢ iprop(cred (tallyAt (barCell c) () 15) ∗ bigSep (Finset.univ.erase 0) fun s : Fin 16 => cred (tallyAt (recvCell c s) () N)) := by
  unfold Pipeline.launchCred
  rw [bigSep_univ_at _ (SemLoc.reg barS), launch_bar]
  refine sep_mono_right ?_
  have hinj : Set.InjOn (fun s : Fin 16 => (SemLoc.dma (recvS s) : SemLoc sig)) ↑(Finset.univ.erase (0 : Fin 16)) :=
    fun a _ b _ h => recvS_inj (SemLoc.dma.inj h)
  have hsub : (Finset.univ.erase (0 : Fin 16)).image (fun s : Fin 16 => (SemLoc.dma (recvS s) : SemLoc sig))
      ⊆ Finset.univ.erase (SemLoc.reg barS) := by
    intro x hx
    obtain ⟨s, _, rfl⟩ := Finset.mem_image.mp hx
    exact Finset.mem_erase.mpr ⟨(fun h => by cases h), Finset.mem_univ _⟩
  refine (bigSep_subset hsub).trans ?_
  rw [bigSep_image_of_injOn hinj]
  exact bigSep_mono fun s hs => Entails.of_eq (congrArg cred (launch_recv c s (Finset.mem_erase.mp hs).1))

/-- info: 'Cert.Kernel.Hand.creds' depends on axioms: [propext, Classical.choice, Quot.sound] -/
#guard_msgs in #print axioms creds

end Cert.Kernel.Hand

end
-- ==== Proof.Kernel.Launch.lean ====
/-
  The launch: the sixteen devices' bodies, each proved once at a symbolic device, make every weakly fair execution of the
  program terminate, with each device's result array holding the maximum over the sixteen slots and its argument unchanged.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Tables
import proofs.«900908_g7700000000000909_dist_max_ax0_shard0_i_m1536_n768_v7x_i16_bf16_1_alg».proof.Proof.Kernel.Slots
import proofs.«900908_g7700000000000909_dist_max_ax0_shard0_i_m1536_n768_v7x_i16_bf16_1_alg».proof.Proof.Kernel.Body
import proofs.«900908_g7700000000000909_dist_max_ax0_shard0_i_m1536_n768_v7x_i16_bf16_1_alg».proof.Proof.Kernel.LaunchGhost
import proofs.«900908_g7700000000000909_dist_max_ax0_shard0_i_m1536_n768_v7x_i16_bf16_1_alg».proof.Proof.Kernel.LaunchCred

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Restatements: the two windows one by one, a whole staging buffer's holding, the whole exchange buffer -/

omit [FloatOps F] in
theorem ln_bigSep_W (Φ : Fin cfg0.W → sProp 𝕄) : bigSep Finset.univ Φ = iprop(Φ (0 : Fin 2) ∗ Φ (1 : Fin 2)) := bigSep_W0 Φ

omit [FloatOps F] in
theorem ln_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem ln_scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

/-! ## The body obligation -/

set_option maxRecDepth 4000 in
/-- The obligation's precondition at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 16000 in
/-- The library's body obligation on device `c`. -/
theorem body_obligation (c : Dev nD) : BodyObligation (dats (F := F) m ρ 0 c) (defs₀ (F := F)) 𝒱₀ () Set.univ := fun t => by
  obtain rfl : t = t₀ := fin_N t
  rw [ln_bigSep_W, ln_bigSep_W]
  simp only [ln_owns_whole_eq]
  refine BIBase.Entails.trans ?_ (wp_mono _ _ _ (Q := fun _ => bodyPost m ρ c) fun _ => ?_)
  · show bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
    unfold bodyPre' Φ₀ start
    iintro ⟨⟨⟨⟨%K, Hg⟩, Hrest⟩, Hscr⟩, Ho, Hx, Hout⟩
    iapply (sound_body m ρ K c fun _ => bodyPost m ρ c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H
  · unfold bodyPost
    refine BIClass.sep_mono (BIBase.Entails.of_eq (show (dats m ρ 0 c).Φ t₀.succ = Φ₁ m ρ c from rfl).symm) ?_
    refine BIClass.sep_mono BIBase.Entails.rfl ?_
    refine BIClass.sep_mono ?_ ?_
    · exact BIBase.Entails.of_eq (congrArg (stg c cc0_stg0_0) (show (dats m ρ 0 c).after 0 t₀ = xblk m ρ c from rfl).symm)
    · exact BIBase.Entails.of_eq (congrArg (stg c cc0_stg1_0) (show (dats m ρ 0 c).after 1 t₀ = outAt m ρ c from rfl).symm)

/-! ## The launch theorem's side conditions -/

/-- The thirty-one own semaphores are scoped, pairwise distinct, and none is a staging semaphore. -/
theorem ownSemFacts : Pipeline.OwnSemFacts cfg0.spec osem where
  isScoped := by decide
  inj := fun a b h => by
    have h2 : 2 + a.val = 2 + b.val := congrArg Fin.val (SemLoc.dma.inj h)
    exact Fin.ext (by omega)
  disj := by decide

theorem share_eq (c : Dev nD) (w : Fin cfg0.W) : (dats m ρ 0 c).share w = fullShare := by unfold Dat.share; split <;> rfl

/-- What the launch hands device `c` is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [ln_scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (full m ρ c); rw [← ln_scrPts_eq]; iexact Hr

/-- The staging semaphores come before the receive semaphores: they may be waited on at either point. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- Each window's array after the run, as the proof data computes it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, and every final state has each window's array at `finalA`. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_u₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window's one block starts at the array's origin. -/
theorem out_off_zero : (fun a => win0_1.index t₀ a * (main_v1 : Ref sig .tc).ty.shape.size a) = fun _ => 0 :=
  funext fun a => by fin_cases a <;> first | rfl | decide

/-- The result array after the run holds the device's result. -/
theorem finalA_out (c : Dev nD) : finalA m ρ c (1 : Fin 2) = outAt m ρ c := by
  show (dats (F := F) m ρ 0 c).arrAt (1 : Fin 2) ((t₀ : Fin cfg0.N).val + 1) = outAt m ρ c
  rw [(dats (F := F) m ρ 0 c).arrAt_succ (1 : Fin 2) t₀, flush0_1 t₀, if_pos rfl]
  exact Memref.write_access_unit_zero_univ (Elt F) main_v1 out_off_zero
    (fun a => by rw [congrFun out_off_zero a]; simp) _ (outAt m ρ c)

/-- info: 'Cert.Kernel.Hand.run_main' depends on axioms: [propext, Classical.choice, Quot.sound] -/
#guard_msgs in #print axioms run_main

end Cert.Kernel.Hand

end
-- ==== Proof.Kernel.Claims.lean ====
/-
  The run read at the program's arrays: each device's result array ends holding the maximum over the sixteen devices'
  column maxima, as a function of the devices' argument buffers, and its argument buffer what it held.

  Each window is its whole array at the one grid point, so a window's block read off an array is the array. The result
  window is written back at that point: the result array ends holding what the body left in the output staging buffer.
-/
import proofs.«900908_g7700000000000909_dist_max_ax0_shard0_i_m1536_n768_v7x_i16_bf16_1_alg».proof.Proof.Kernel.Proto
import proofs.«900908_g7700000000000909_dist_max_ax0_shard0_i_m1536_n768_v7x_i16_bf16_1_alg».proof.Proof.Kernel.Launch

noncomputable section

namespace Cert.Kernel.Hand

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The argument window's one block is the whole argument buffer. -/
theorem read_arg_block (f : (main_arg0 : Ref sig .tc).ty.Contents (Elt F)) :
    (win0_0.blk (0 : Fin 1)).view.read (Elt F) f = f :=
  Memref.read_access_unit_zero (Elt F) main_arg0
    (funext fun a => by fin_cases a <;> decide : (fun a => (win0_0.index (0 : Fin 1)) a * main_arg0.ty.shape.size a) = fun _ => 0)
    (fun a => by fin_cases a <;> decide) f

/-- The block a device's body works on is its argument buffer. -/
theorem xblk_eq (c : Dev nD) : xblk m ρ c = m ((c : Thread nD τ).loc main_arg0) := by
  unfold xblk s₀
  exact read_arg_block _

/-- Every weakly fair execution terminates; each device's result array ends at `result` of the devices' argument
    buffers, its argument buffer unchanged. -/
theorem run_value :
    θ_run defs (onTc (τ := τ) (main (F := F))) ⟨m, fun _ => 0, ρ⟩ (fun r => ∀ c : Dev nD,
      r.2.mem ((c.tc : Thread nD τ).loc main_v1) = result (fun c' : Dev nD => m ((c'.tc : Thread nD τ).loc main_arg0)) c
      ∧ r.2.mem ((c.tc : Thread nD τ).loc main_arg0) = m ((c.tc : Thread nD τ).loc main_arg0)) := by
  refine (θ_run defs _ _).mono (fun _ h c => ⟨(h c (1 : Fin 2)).trans ?_, (h c (0 : Fin 2)).trans (finalA_x m ρ c)⟩) (run_main m ρ)
  rw [finalA_out]
  unfold outAt
  exact congrArg (fun X => result X c) (funext fun c' => xblk_eq m ρ c')

/-- info: 'Cert.Kernel.Hand.run_value' depends on axioms: [propext, Classical.choice, Quot.sound] -/
#guard_msgs in #print axioms run_value

end Cert.Kernel.Hand

end
-- ==== Proof.KernelIdeal.Mesh.lean ====
/-
  The mesh arithmetic of the all-to-all exchange on the ring of sixteen devices.

  Device `c` addresses its peers by OFFSET: the peer at offset `e` is `peer c e = (c + e) mod 16`, and the offset
  back from that peer to `c` is `opp e = (16 - e) mod 16`. Every `device_id` the kernel computes is such a peer:
  its `d`-th barrier signal and its `d`-th remote copy (d = 1 … 15) both address `peer c d`. The printed chains
  (a floor-mod of `my + d` by 16, spelt with remsi / select) are decided equal to that closed form over the sixteen
  devices.
-/
import proofs.«900908_g7700000000000909_dist_max_ax0_shard0_i_m1536_n768_v7x_i16_bf16_1_alg».proof.Proof.Gen.KernelIdeal

namespace Cert.KernelIdeal.Hand

open Idealize.ShloMosaic Cert.KernelIdeal Cert.KernelIdeal.Gen

/-- The device at offset `e` from `c` on the ring. -/
def peer (c : Dev nD) (e : Fin 16) : Dev nD := ⟨(c.val + e.val) % 16, Nat.mod_lt _ (by decide)⟩

/-- The offset that undoes `e`. -/
def opp (e : Fin 16) : Fin 16 := ⟨(16 - e.val) % 16, Nat.mod_lt _ (by decide)⟩

theorem peer_zero (c : Dev nD) : peer c 0 = c := by revert c; decide
theorem peer_opp (c : Dev nD) (e : Fin 16) : peer (peer c e) (opp e) = c := by revert c e; decide
theorem peer_opp' (c : Dev nD) (e : Fin 16) : peer (peer c (opp e)) e = c := by revert c e; decide
theorem opp_opp (e : Fin 16) : opp (opp e) = e := by revert e; decide
theorem opp_zero : opp 0 = 0 := by decide
theorem opp_ne_zero {e : Fin 16} (h : e ≠ 0) : opp e ≠ 0 := by revert e; decide
theorem opp_eq_zero_iff {e : Fin 16} : opp e = 0 ↔ e = 0 := by revert e; decide
theorem peer_right_inj (c : Dev nD) {e e' : Fin 16} (h : peer c e = peer c e') : e = e' := by revert c e e'; decide
theorem peer_left_inj (e : Fin 16) {c c' : Dev nD} (h : peer c e = peer c' e) : c = c' := by revert e c c'; decide
theorem peer_ne_self (c : Dev nD) {e : Fin 16} (h : e ≠ 0) : peer c e ≠ c := by revert c e; decide
/-- The offset from `c` to `c'`. -/
def off (c c' : Dev nD) : Fin 16 := ⟨(c'.val + 16 - c.val) % 16, Nat.mod_lt _ (by decide)⟩
theorem peer_off (c c' : Dev nD) : peer c (off c c') = c' := by revert c c'; decide
theorem off_peer (c : Dev nD) (e : Fin 16) : off c (peer c e) = e := by revert c e; decide
theorem off_self (c : Dev nD) : off c c = 0 := by revert c; decide
theorem off_opp (c c' : Dev nD) : opp (off c c') = off c' c := by revert c c'; decide
theorem peer_eq_iff (c c' : Dev nD) (e : Fin 16) : peer c e = c' ↔ e = off c c' := by revert c c' e; decide

/-- Translation by a fixed offset is a permutation of the devices. -/
def shift (e : Fin 16) : Dev nD ≃ Dev nD := ⟨fun c => peer c e, fun c => peer c (opp e), fun c => peer_opp c e, fun c => peer_opp' c e⟩

/-! ## The printed device chains, in closed form -/

theorem dev_sig1 (c : Dev nD) : (⟨k0_dev1 c, k0_dev1_lt c⟩ : Dev nD) = peer c 1 := by revert c; decide +kernel
theorem dev_sig2 (c : Dev nD) : (⟨k0_dev2 c, k0_dev2_lt c⟩ : Dev nD) = peer c 2 := by revert c; decide +kernel
theorem dev_sig3 (c : Dev nD) : (⟨k0_dev3 c, k0_dev3_lt c⟩ : Dev nD) = peer c 3 := by revert c; decide +kernel
theorem dev_sig4 (c : Dev nD) : (⟨k0_dev4 c, k0_dev4_lt c⟩ : Dev nD) = peer c 4 := by revert c; decide +kernel
theorem dev_sig5 (c : Dev nD) : (⟨k0_dev5 c, k0_dev5_lt c⟩ : Dev nD) = peer c 5 := by revert c; decide +kernel
theorem dev_sig6 (c : Dev nD) : (⟨k0_dev6 c, k0_dev6_lt c⟩ : Dev nD) = peer c 6 := by revert c; decide +kernel
theorem dev_sig7 (c : Dev nD) : (⟨k0_dev7 c, k0_dev7_lt c⟩ : Dev nD) = peer c 7 := by revert c; decide +kernel
theorem dev_sig8 (c : Dev nD) : (⟨k0_dev8 c, k0_dev8_lt c⟩ : Dev nD) = peer c 8 := by revert c; decide +kernel
theorem dev_sig9 (c : Dev nD) : (⟨k0_dev9 c, k0_dev9_lt c⟩ : Dev nD) = peer c 9 := by revert c; decide +kernel
theorem dev_sig10 (c : Dev nD) : (⟨k0_dev10 c, k0_dev10_lt c⟩ : Dev nD) = peer c 10 := by revert c; decide +kernel
theorem dev_sig11 (c : Dev nD) : (⟨k0_dev11 c, k0_dev11_lt c⟩ : Dev nD) = peer c 11 := by revert c; decide +kernel
theorem dev_sig12 (c : Dev nD) : (⟨k0_dev12 c, k0_dev12_lt c⟩ : Dev nD) = peer c 12 := by revert c; decide +kernel
theorem dev_sig13 (c : Dev nD) : (⟨k0_dev13 c, k0_dev13_lt c⟩ : Dev nD) = peer c 13 := by revert c; decide +kernel
theorem dev_sig14 (c : Dev nD) : (⟨k0_dev14 c, k0_dev14_lt c⟩ : Dev nD) = peer c 14 := by revert c; decide +kernel
theorem dev_sig15 (c : Dev nD) : (⟨k0_dev15 c, k0_dev15_lt c⟩ : Dev nD) = peer c 15 := by revert c; decide +kernel
theorem dev_xfer1 (c : Dev nD) : (⟨k0_dev16 c, k0_dev16_lt c⟩ : Dev nD) = peer c 1 := by revert c; decide +kernel
theorem dev_xfer2 (c : Dev nD) : (⟨k0_dev17 c, k0_dev17_lt c⟩ : Dev nD) = peer c 2 := by revert c; decide +kernel
theorem dev_xfer3 (c : Dev nD) : (⟨k0_dev18 c, k0_dev18_lt c⟩ : Dev nD) = peer c 3 := by revert c; decide +kernel
theorem dev_xfer4 (c : Dev nD) : (⟨k0_dev19 c, k0_dev19_lt c⟩ : Dev nD) = peer c 4 := by revert c; decide +kernel
theorem dev_xfer5 (c : Dev nD) : (⟨k0_dev20 c, k0_dev20_lt c⟩ : Dev nD) = peer c 5 := by revert c; decide +kernel
theorem dev_xfer6 (c : Dev nD) : (⟨k0_dev21 c, k0_dev21_lt c⟩ : Dev nD) = peer c 6 := by revert c; decide +kernel
theorem dev_xfer7 (c : Dev nD) : (⟨k0_dev22 c, k0_dev22_lt c⟩ : Dev nD) = peer c 7 := by revert c; decide +kernel
theorem dev_xfer8 (c : Dev nD) : (⟨k0_dev23 c, k0_dev23_lt c⟩ : Dev nD) = peer c 8 := by revert c; decide +kernel
theorem dev_xfer9 (c : Dev nD) : (⟨k0_dev24 c, k0_dev24_lt c⟩ : Dev nD) = peer c 9 := by revert c; decide +kernel
theorem dev_xfer10 (c : Dev nD) : (⟨k0_dev25 c, k0_dev25_lt c⟩ : Dev nD) = peer c 10 := by revert c; decide +kernel
theorem dev_xfer11 (c : Dev nD) : (⟨k0_dev26 c, k0_dev26_lt c⟩ : Dev nD) = peer c 11 := by revert c; decide +kernel
theorem dev_xfer12 (c : Dev nD) : (⟨k0_dev27 c, k0_dev27_lt c⟩ : Dev nD) = peer c 12 := by revert c; decide +kernel
theorem dev_xfer13 (c : Dev nD) : (⟨k0_dev28 c, k0_dev28_lt c⟩ : Dev nD) = peer c 13 := by revert c; decide +kernel
theorem dev_xfer14 (c : Dev nD) : (⟨k0_dev29 c, k0_dev29_lt c⟩ : Dev nD) = peer c 14 := by revert c; decide +kernel
theorem dev_xfer15 (c : Dev nD) : (⟨k0_dev30 c, k0_dev30_lt c⟩ : Dev nD) = peer c 15 := by revert c; decide +kernel

end Cert.KernelIdeal.Hand
-- ==== Proof.KernelIdeal.Spec.lean ====
/-
  What the exchange computes, as pure functions of the sixteen devices' blocks.

  Device `c` first reduces its block (1536 rows of 768 columns) to its column maxima and keeps them in slot 0 of
  its exchange buffer (sixteen slots of one row of 768). Every other device does the same and copies its slot 0
  into one slot of `c`'s buffer: the device at offset `s` from `c` lands in slot `s`. So, once everything has
  landed, slot `s` of `c`'s buffer holds the column maxima of the block of `peer c s` (slot 0: its own), and the
  result, the maximum over the sixteen slots, is the column maximum over all sixteen blocks — the same on every
  device.
-/
import proofs.«900908_g7700000000000909_dist_max_ax0_shard0_i_m1536_n768_v7x_i16_bf16_1_alg».proof.Proof.Gen.KernelIdeal.Skeleton
import proofs.«900908_g7700000000000909_dist_max_ax0_shard0_i_m1536_n768_v7x_i16_bf16_1_alg».proof.Proof.KernelIdeal.Mesh
import Idealize.ShloMosaic.Lib.ValueIdx

noncomputable section

namespace Cert.KernelIdeal.Hand

open Idealize.ShloMosaic Cert.KernelIdeal Cert.KernelIdeal.Gen

variable {F : FTy → Type} [FloatOps F]

/-- The exchange buffer of device `c` with every slot landed: at slot `s`, the column maxima of the block of the
    device at offset `s` (as the body's first payload computes them from a block). -/
def gathered (X : Dev nD → Vec F S1536x768 .f32) (c : Dev nD) : Vec F S16x1x768 .f32 :=
  fun i => k0_pay2 (X (peer c ⟨(i 0).val, (i 0).isLt⟩)) (ValueIdx.ix3 (0 : Fin 1) (0 : Fin 1) (⟨(i 2).val, (i 2).isLt⟩ : Fin 768))

/-- The result on device `c`: the maximum over the sixteen slots (the body's last two payloads). -/
def result (X : Dev nD → Vec F S1536x768 .f32) (c : Dev nD) : FVec F S1x768 .f32 :=
  k0_pay1 (k0_pay3 (gathered X c))

end Cert.KernelIdeal.Hand

end
-- ==== Proof.KernelIdeal.Proto.lean ====
/-
  The exchange's protocol, as data: which semaphore cells there are, what each unit landing on one of them hands to the
  cell's owner, at which level each cell is waited on, and what a device still owes at each moment.

  Per device `c` (sixteen of them on a ring, peers addressed by offset, Mesh.lean):
  * its barrier cell receives one unit from each of the fifteen other devices. The unit from the peer at offset `e`
    hands `c` that peer's receive slot `opp e` (the slot `c` is going to write into) and the fact that the peer's receive
    cell for that slot is at its first round — exactly what `c`'s copy number `e` needs;
  * its fifteen send cells (one per copy) each receive that copy's credit once the source, slot 0, has been read:
    the landing hands back the share of slot 0 the copy was issued with;
  * its receive cells 1 … 15 each receive one copy's credit once slot `s` has been written by the peer at offset `s`:
    the landing hands `c` slot `s` holding that peer's column maxima. Receive cell 0 is never used.
  All of it is one round per cell. A device waits on its barrier cell while it still owes the fifteen receive credits,
  so barrier cells sit below receive cells; staging and send cells are waited on owing nothing that matters.
  The contents every landing leaves are named from the start by ONE function of the devices' blocks,
  `gathered` (Spec.lean): slot `s` of device `c` holds the column maxima of the block of `peer c s`.
-/
import proofs.«900908_g7700000000000909_dist_max_ax0_shard0_i_m1536_n768_v7x_i16_bf16_1_alg».proof.Proof.Gen.KernelIdeal
import proofs.«900908_g7700000000000909_dist_max_ax0_shard0_i_m1536_n768_v7x_i16_bf16_1_alg».proof.Proof.Gen.KernelIdeal.Skeleton
import proofs.«900908_g7700000000000909_dist_max_ax0_shard0_i_m1536_n768_v7x_i16_bf16_1_alg».proof.Proof.Gen.KernelIdeal.Launch
import proofs.«900908_g7700000000000909_dist_max_ax0_shard0_i_m1536_n768_v7x_i16_bf16_1_alg».proof.Proof.Gen.KernelIdeal.Points
import proofs.«900908_g7700000000000909_dist_max_ax0_shard0_i_m1536_n768_v7x_i16_bf16_1_alg».proof.Proof.KernelIdeal.Mesh
import proofs.«900908_g7700000000000909_dist_max_ax0_shard0_i_m1536_n768_v7x_i16_bf16_1_alg».proof.Proof.KernelIdeal.Spec
import Idealize.ShloMosaic.Lib.Pipeline.Launch
import Idealize.ShloMosaic.Lib.Pipeline.Kit
import Idealize.ShloMosaic.Lib.Tactic

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy (duties `Unit`) beside the exchange's (duties `Fin 16`) -/

abbrev UB : Type := URounds (GSem nD τ sig) (Fin 16)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The memrefs: the two staging buffers, the exchange buffer and its sixteen slots -/

abbrev xM : Memref sig .tc .vmem S1536x768 .f32 := Memref.whole cc0_stg0_0
abbrev oM : Memref sig .tc .vmem S1x768 .f32 := Memref.whole cc0_stg1_0
abbrev rM : Memref sig .tc .vmem S16x1x768 .f32 := Memref.whole cc0_scratch0

theorem slot_inb (s : Fin 16) : ∀ a, (![s.val, 0, 0] : Fin 3 → Nat) a + S1x1x768.size a ≤ S16x1x768.size a := by
  revert s; decide
/-- Slot `s` of the exchange buffer as a rectangle of it: row `s`, all 768 columns. -/
abbrev slotRect (s : Fin 16) : Rect S16x1x768 := Rect.unit (s := S16x1x768) ![s.val, 0, 0] S1x1x768.size (slot_inb s)
/-- Slot `s` as the body names it: the slice, with the leading axis squeezed away. -/
abbrev slotM (s : Fin 16) : Memref sig .tc .vmem S1x768 .f32 :=
  ((Memref.whole (cc0_scratch0 : Ref sig .tc) : Memref sig .tc .vmem S16x1x768 .f32).slice (slotRect s) (fun _ => rfl)).squeeze S1x768 squeezes_S1x1x768_S1x768

/-! ## The semaphores and the cells -/

/-- The runtime's barrier semaphore of collective id 0 (not scoped to the launch). -/
abbrev barS : Sem sig := (SemArray.scalar (sig.barrier 0 rfl) : Sems sig S_).sem
/-- Send semaphore `j` (copy number `j + 1`) and receive semaphore `s` (slot `s`), by their place in the pool of DMA
    semaphores: the two staging semaphores come first, then the fifteen send, then the sixteen receive semaphores. -/
abbrev sendS (j : Fin 15) : DmaSem sig := ⟨2 + j.val, by have := j.isLt; show 2 + j.val < 33; omega⟩
abbrev recvS (s : Fin 16) : DmaSem sig := ⟨17 + s.val, by have := s.isLt; show 17 + s.val < 33; omega⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (s : Fin 16) : GSem nD τ sig := ((c : Thread nD τ), .dma (recvS s))

/-- The kernel's OWN (scoped) semaphores, as the launch theorem indexes them: the thirty-one DMA semaphores after the two
    staging ones; -/
abbrev osem : Fin 31 → SemLoc sig := fun k => .dma ⟨2 + k.val, by have := k.isLt; show 2 + k.val < 33; omega⟩
/-- all thirty-two of the exchange's, as this proof indexes them: the barrier, then the same thirty-one. -/
abbrev csem : Fin 32 → SemLoc sig := fun k =>
  if h : k.val = 0 then .reg barS else .dma ⟨1 + k.val, by have := k.isLt; show 1 + k.val < 33; omega⟩
abbrev kcell (ck : Dev nD × Fin 32) : GSem nD τ sig := ((ck.1 : Thread nD τ), csem ck.2)

/-- What one copy of a slot credits the cells it completes on. -/
abbrev N : ℕ := (slotM 0).view.dmaCredit
theorem N_pos : 0 < N := View.dmaCredit_pos _ (by decide)

/-! ## Contents -/

/-- Device `c`'s block of the argument, as its input staging buffer holds it at the one grid point. -/
def xblk (c : Dev nD) : (cc0_stg0_0 : Ref sig .tc).ty.Contents (Elt F) :=
  (win0_0.blk (0 : Fin 1)).view.read (Elt F) ((s₀ m ρ).mem ((c : Thread nD τ).loc main_arg0))

/-- The exchange buffer of device `c` with everything landed (Spec.lean's `gathered` of the devices' blocks). -/
def full (c : Dev nD) : (cc0_scratch0 : Ref sig .tc).ty.Contents (Elt F) := gathered (xblk m ρ) c

/-- The result on device `c`. -/
def outAt (c : Dev nD) : (cc0_stg1_0 : Ref sig .tc).ty.Contents (Elt F) := result (xblk m ρ) c

/-! ## Points-to assertions -/

/-- The shares the fifteen copies read slot 0 under: the `n`-th copy takes the left half of what the first `n` left. -/
def restShare : ℕ → PosShare TreeShare
  | 0 => fullShare
  | n + 1 => (restShare n).right
def copyShare (n : ℕ) : PosShare TreeShare := (restShare n).left

/-- Slot `s` of device `c`'s exchange buffer, held at share `q` with the buffer's contents agreeing with `f` there. -/
def slotPts (c : Dev nD) (s : Fin 16) (q : PosShare TreeShare)
    (f : Buf (Elt F) ((slotM s).view.loc (c : Thread nD τ))) : sProp 𝕄 :=
  (slotM s).view.loc (c : Thread nD τ) ↦[(slotM s).view.set]{q} f
/-- The whole exchange buffer. -/
def scrPts (c : Dev nD) (f : Buf (Elt F) ((rM : Memref sig .tc .vmem S16x1x768 .f32).view.loc (c : Thread nD τ))) : sProp 𝕄 :=
  (rM : Memref sig .tc .vmem S16x1x768 .f32).view.loc (c : Thread nD τ) ↦[(rM : Memref sig .tc .vmem S16x1x768 .f32).view.set]{fullShare} f
/-- The input staging buffer, holding the device's block. -/
def xPts (c : Dev nD) : sProp 𝕄 :=
  (xM : Memref sig .tc .vmem S1536x768 .f32).view.loc (c : Thread nD τ) ↦[(xM : Memref sig .tc .vmem S1536x768 .f32).view.set]{fullShare} xblk m ρ c

omit [FloatOps F] in
instance slotPts_storable (c : Dev nD) (s : Fin 16) (q) (f) : BI.Storable (upEmb : UEmb _ 𝕄) (slotPts (F := F) c s q f) := by
  unfold slotPts; infer_instance
omit [FloatOps F] in
instance scrPts_storable (c : Dev nD) (f) : BI.Storable (upEmb : UEmb _ 𝕄) (scrPts (F := F) c f) := by unfold scrPts; infer_instance

/-! ## The schedule -/

/-- What the unit from the peer at offset `e` hands `c`: that peer's slot `opp e`, at whatever it holds, and that the
    peer's receive cell for it has reached its first round. -/
def barPay (c : Dev nD) (e : Fin 16) : sProp 𝕄 :=
  iprop((∃ f, slotPts (peer c e) (opp e) fullShare f) ∗ reached ER (recvCell (peer c e) (opp e)) 0)
/-- What the copy landing in slot `s` hands `c`: the slot, holding what the finished exchange buffer holds there. -/
def recvPay (c : Dev nD) (s : Fin 16) : sProp 𝕄 := slotPts c s fullShare (full m ρ c)
/-- What copy number `j + 1`, once it has read its source, hands back: its share of slot 0. -/
def sendPay (c : Dev nD) (j : Fin 15) : sProp 𝕄 := slotPts c 0 (copyShare j.val) (full m ρ c)

/-- One round, round 0. A barrier cell: fifteen duties of one unit, named by the payer's offset. A send cell, and a
    receive cell other than the unused one: the duty `0` of one copy's credit. -/
def sched : Rounds.Schedule (GSem nD τ sig) (Fin 16) 𝕄 where
  duties g r :=
    if r = 0 ∧ g.1.2 = .tc then
      (match g.2 with
        | .reg _ => Finset.univ.erase 0
        | .dma q => if 2 ≤ q.val ∧ q.val ≠ 17 then {0} else ∅)
    else ∅
  unitless _ := False
  amount g _ _ := match g.2 with
    | .reg _ => 1
    | .dma _ => N
  payload g _ d := match g.2 with
    | .reg _ => barPay g.1.1 d
    | .dma q =>
      if h : 17 ≤ q.val then recvPay m ρ g.1.1 ⟨q.val - 17, by have : q.val < 33 := q.isLt; omega⟩
      else if h2 : 2 ≤ q.val then sendPay m ρ g.1.1 ⟨q.val - 2, by omega⟩
      else iprop(emp)
  amount_pos g _ _ _ := by
    cases g.2 with
    | reg _ => exact Nat.one_pos
    | dma _ => exact N_pos

instance sched_payload_storable (g : GSem nD τ sig) (r : ℕ) (d : Fin 16) :
    BI.Storable (upEmb : UEmb _ 𝕄) ((sched (F := F) m ρ).payload g r d) := by
  obtain ⟨t, sm⟩ := g
  cases sm with
  | reg s => show BI.Storable upEmb (barPay t.1 d); unfold barPay; infer_instance
  | dma q =>
    show BI.Storable upEmb (if h : 17 ≤ q.val then recvPay m ρ t.1 ⟨q.val - 17, _⟩
      else if h2 : 2 ≤ q.val then sendPay m ρ t.1 ⟨q.val - 2, _⟩ else iprop(emp))
    unfold recvPay sendPay
    (repeat' split) <;> infer_instance

/-! ## Levels, and what a device owes -/

def L (g : GSem nD τ sig) : Finset Unit := if g.1.2 = .tc then {()} else ∅
/-- Barrier cells at 1, receive cells at 2, everything else (staging, send) at 0. -/
def lv (g : GSem nD τ sig) (_ : Unit) : ℕ := match g.2 with
  | .reg _ => 1
  | .dma q => if 17 ≤ q.val then 2 else 0

def fin16 (n : ℕ) : Fin 16 := ⟨n % 16, Nat.mod_lt _ (by decide)⟩

/-- The unit device `c`'s signal number `d` pays, and the credit its copy number `d` pays. -/
def tSig (c : Dev nD) (d : Fin 16) : CellTallies nD τ sig Unit := tallyAt (barCell (peer c d)) () 1
def tXfer (c : Dev nD) (d : Fin 16) : CellTallies nD τ sig Unit := tallyAt (recvCell (peer c d) (opp d)) () N

/-- What `c` owes with `k` copies still to issue (the copies go out in the order 1, 2, … 15, so with `k + 1` to go the
    next one is number `15 - k`, and it peels the last summand). -/
def oweX (c : Dev nD) : ℕ → CellTallies nD τ sig Unit
  | 0 => 0
  | k + 1 => oweX c k + tXfer c (fin16 (15 - k))
/-- What `c` owes with `k` signals still to send (and all fifteen copies). -/
def oweS (c : Dev nD) : ℕ → CellTallies nD τ sig Unit
  | 0 => oweX c 15
  | k + 1 => oweS c k + tSig c (fin16 (15 - k))
/-- At launch: fifteen signals and fifteen copies. -/
def O₀ (c : Dev nD) : CellTallies nD τ sig Unit := oweS c 15

/-! ## The ghost state a device's body starts from -/

/-- Every cell's invariant, under the names `K` the launch allocated them at, and that every cell is at its first round:
    persistent, so every device has all of it. -/
def records (K : Dev nD × Fin 32 → ℕ) : sProp 𝕄 :=
  iprop((bigSep Finset.univ fun ck : Dev nD × Fin 32 => cellInv ER (sched m ρ) (K ck) (kcell ck))
    ∗ bigSep Finset.univ fun ck : Dev nD × Fin 32 => reached ER (kcell ck) 0)

instance records_persistent (K : Dev nD × Fin 32 → ℕ) : BI.Persistent (records m ρ K) := by unfold records; infer_instance

/-- What only device `c` has: its position at the start of round 0 of each of its cells, and the token of every duty IT
    pays — the duty `opp e` of the barrier cell of its peer at offset `e`, the duty of each of its own send cells, the
    duty of the receive cell for slot `opp e` of its peer at offset `e`. -/
def linear (c : Dev nD) : sProp 𝕄 :=
  iprop(atPos ER (barCell c) 0 ∅ 0
    ∗ (bigSep Finset.univ fun j : Fin 15 => atPos ER (sendCell c j) 0 ∅ 0)
    ∗ (bigSep Finset.univ fun s : Fin 16 => atPos ER (recvCell c s) 0 ∅ 0)
    ∗ (bigSep (Finset.univ.erase 0) fun e : Fin 16 => dutyTok ER (barCell (peer c e)) 0 (opp e))
    ∗ (bigSep Finset.univ fun j : Fin 15 => dutyTok ER (sendCell c j) 0 0)
    ∗ (bigSep (Finset.univ.erase 0) fun e : Fin 16 => dutyTok ER (recvCell (peer c e) (opp e)) 0 0))

def ghost (K : Dev nD × Fin 32 → ℕ) (c : Dev nD) : sProp 𝕄 := iprop(records m ρ K ∗ linear c)

/-- What device `c`'s body starts from: that at some names, the credit to wait with (fifteen units on its barrier cell,
    one copy's credit on each receive cell in use) and the level facts. -/
def start (c : Dev nD) : sProp 𝕄 :=
  iprop((∃ K, ghost m ρ K c) ∗ cred (tallyAt (barCell c) () 15)
    ∗ (bigSep (Finset.univ.erase 0) fun s : Fin 16 => cred (tallyAt (recvCell c s) () N)) ∗ levAts L lv)

def Φ₀ (c : Dev nD) : sProp 𝕄 := iprop(start m ρ c ∗ ∃ f, scrPts c f)
/-- After the point: the exchange buffer with everything landed, and the kernel's own semaphores at zero again. -/
def Φ₁ (c : Dev nD) : sProp 𝕄 :=
  iprop(scrPts c (full m ρ c) ∗ bigSep Finset.univ fun k : Fin 31 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xblk m ρ c
    | ⟨1, _⟩ => outAt m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

abbrev 𝒱₀ : Variants := Variants.none

/-! ## The body's pre- and postcondition -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × Fin 32 → ℕ) (c : Dev nD) : sProp 𝕄 :=
  iprop((ghost m ρ K c ∗ cred (tallyAt (barCell c) () 15)
      ∗ (bigSep (Finset.univ.erase 0) fun s : Fin 16 => cred (tallyAt (recvCell c s) () N)) ∗ levAts L lv ∗ ∃ f, scrPts c f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xblk m ρ c) ∗ stg c cc0_stg1_0 (outAt m ρ c))

end Cert.KernelIdeal.Hand

end
-- ==== Proof.KernelIdeal.Tables.lean ====
/-
  The schedule's tables read at each kind of cell, and the level facts.

  A barrier cell has the fifteen duties 1 … 15 of one unit each in round 0, a send cell and a receive cell in use the one
  duty 0 of a copy's credit, the unused receive cell none; nothing after round 0. A device's debts all sit on barrier
  cells (level 1) and receive cells (level 2): so a staging or send cell (level 0) may be waited on whatever is owed, and
  the barrier cell while only receive credits are owed.
-/
import proofs.«900908_g7700000000000909_dist_max_ax0_shard0_i_m1536_n768_v7x_i16_bf16_1_alg».proof.Proof.KernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Sched
variable (c : Dev nD)

theorem duties_bar : (sched (F := F) m ρ).duties (barCell c) 0 = Finset.univ.erase 0 := by
  dsimp only [sched]; exact if_pos ⟨rfl, rfl⟩
theorem duties_send (j : Fin 15) : (sched (F := F) m ρ).duties (sendCell c j) 0 = {0} := by
  have hj := j.isLt
  dsimp only [sched]
  exact (if_pos ⟨rfl, rfl⟩).trans
    (if_pos ⟨show 2 ≤ 2 + j.val by omega, show 2 + j.val ≠ 17 by omega⟩)
theorem duties_recv {s : Fin 16} (hs : s ≠ 0) : (sched (F := F) m ρ).duties (recvCell c s) 0 = {0} := by
  have h0 : s.val ≠ 0 := fun h => hs (Fin.ext h)
  dsimp only [sched]
  exact (if_pos ⟨rfl, rfl⟩).trans
    (if_pos ⟨show 2 ≤ 17 + s.val by omega, show 17 + s.val ≠ 17 by omega⟩)
theorem duties_recv0 (r : ℕ) : (sched (F := F) m ρ).duties (recvCell c 0) r = ∅ := by
  dsimp only [sched]
  by_cases hr : r = 0
  · subst hr
    exact (if_pos ⟨rfl, rfl⟩).trans (if_neg fun h => h.2 rfl)
  · exact if_neg fun h => hr h.1
theorem duties_later (g : GSem nD τ sig) : ∀ r, 1 ≤ r → (sched (F := F) m ρ).duties g r = ∅ :=
  fun r hr => by dsimp only [sched]; exact if_neg fun h => by omega

theorem amount_bar (d : Fin 16) : (sched (F := F) m ρ).amount (barCell c) 0 d = 1 := rfl
theorem amount_send (j : Fin 15) (d : Fin 16) : (sched (F := F) m ρ).amount (sendCell c j) 0 d = N := rfl
theorem amount_recv (s : Fin 16) (d : Fin 16) : (sched (F := F) m ρ).amount (recvCell c s) 0 d = N := rfl

theorem expect_bar : (sched (F := F) m ρ).expect (barCell c) 0 = 15 := by
  unfold Schedule.expect Schedule.amountOf
  rw [duties_bar, Finset.sum_congr rfl fun d _ => amount_bar m ρ c d, Finset.sum_const, smul_eq_mul, mul_one,
    Finset.card_erase_of_mem (Finset.mem_univ _), Finset.card_univ, Fintype.card_fin]
theorem expect_send (j : Fin 15) : (sched (F := F) m ρ).expect (sendCell c j) 0 = N := by
  unfold Schedule.expect Schedule.amountOf; rw [duties_send, Finset.sum_singleton, amount_send]
theorem expect_recv {s : Fin 16} (hs : s ≠ 0) : (sched (F := F) m ρ).expect (recvCell c s) 0 = N := by
  unfold Schedule.expect Schedule.amountOf; rw [duties_recv m ρ c hs, Finset.sum_singleton, amount_recv]

theorem payload_bar (e : Fin 16) : (sched (F := F) m ρ).payload (barCell c) 0 e = barPay c e := rfl
theorem payload_send (j : Fin 15) (d : Fin 16) : (sched (F := F) m ρ).payload (sendCell c j) 0 d = sendPay m ρ c j := by
  have hj := j.isLt
  show (if h : 17 ≤ 2 + j.val then recvPay m ρ c ⟨2 + j.val - 17, _⟩
    else if h2 : 2 ≤ 2 + j.val then sendPay m ρ c ⟨2 + j.val - 2, _⟩ else iprop(emp)) = _
  rw [dif_neg (by omega), dif_pos (by omega)]
  congr 1
  exact Fin.ext (show 2 + j.val - 2 = j.val by omega)
theorem payload_recv (s : Fin 16) (d : Fin 16) : (sched (F := F) m ρ).payload (recvCell c s) 0 d = recvPay m ρ c s := by
  show (if h : 17 ≤ 17 + s.val then recvPay m ρ c ⟨17 + s.val - 17, _⟩
    else if h2 : 2 ≤ 17 + s.val then sendPay m ρ c ⟨17 + s.val - 2, _⟩ else iprop(emp)) = _
  rw [dif_pos (by omega)]
  congr 1
  exact Fin.ext (show 17 + s.val - 17 = s.val by omega)

/-- The rest of the barrier cell's round, no duty taken: the fifteen peers' payloads. -/
theorem rest_bar : bigSep ((sched (F := F) m ρ).duties (barCell c) 0 \ ∅) (fun d => (sched (F := F) m ρ).payload (barCell c) 0 d)
    = bigSep (Finset.univ.erase 0) (fun e : Fin 16 => barPay (F := F) c e) := by
  rw [Finset.sdiff_empty, duties_bar]
  rfl
theorem rest_send (j : Fin 15) : bigSep ((sched (F := F) m ρ).duties (sendCell c j) 0 \ ∅) (fun d => (sched (F := F) m ρ).payload (sendCell c j) 0 d)
    = sendPay m ρ c j := by
  rw [Finset.sdiff_empty, duties_send, bigSep_singleton, payload_send]
theorem rest_recv {s : Fin 16} (hs : s ≠ 0) : bigSep ((sched (F := F) m ρ).duties (recvCell c s) 0 \ ∅) (fun d => (sched (F := F) m ρ).payload (recvCell c s) 0 d)
    = recvPay m ρ c s := by
  rw [Finset.sdiff_empty, duties_recv m ρ c hs, bigSep_singleton, payload_recv]

end Sched

/-! ## Levels -/

theorem L_of_ne (g : GSem nD τ sig) (h : g.1.2 ≠ .tc) : L g = ∅ := if_neg h
theorem L_tc (c : Dev nD) (sm : SemLoc sig) : L ((c : Thread nD τ), sm) = {()} := if_pos rfl

/-- Whatever is owed with copies still to issue is owed to a receive cell. -/
theorem oweX_pos {c : Dev nD} {k : ℕ} {g : GSem nD τ sig} {u : Unit} (h : 0 < oweX c k g u) :
    ∃ d : Fin 16, g = recvCell (peer c d) (opp d) := by
  induction k with
  | zero =>
    rw [oweX, Pi.zero_apply, Finsupp.zero_apply] at h
    exact absurd h (Nat.lt_irrefl 0)
  | succ k ih =>
    rw [oweX, Pi.add_apply, Finsupp.add_apply, tXfer, tallyAt_apply] at h
    rcases Nat.eq_zero_or_pos (oweX c k g u) with h0 | hp
    · by_cases hh : g = recvCell (peer c (fin16 (15 - k))) (opp (fin16 (15 - k))) ∧ u = ()
      · exact ⟨_, hh.1⟩
      · rw [h0, if_neg hh] at h; exact absurd h (Nat.lt_irrefl 0)
    · exact ih hp
/-- Whatever is owed at all is owed to a receive cell or to a barrier cell. -/
theorem oweS_pos {c : Dev nD} {k : ℕ} {g : GSem nD τ sig} {u : Unit} (h : 0 < oweS c k g u) :
    (∃ d : Fin 16, g = recvCell (peer c d) (opp d)) ∨ ∃ d : Fin 16, g = barCell (peer c d) := by
  induction k with
  | zero =>
    rw [oweS] at h
    exact .inl (oweX_pos h)
  | succ k ih =>
    rw [oweS, Pi.add_apply, Finsupp.add_apply, tSig, tallyAt_apply] at h
    rcases Nat.eq_zero_or_pos (oweS c k g u) with h0 | hp
    · by_cases hh : g = barCell (peer c (fin16 (15 - k))) ∧ u = ()
      · exact .inr ⟨_, hh.1⟩
      · rw [h0, if_neg hh] at h; exact absurd h (Nat.lt_irrefl 0)
    · exact ih hp

/-- A staging or send cell (any DMA cell before the receive cells) may be waited on owing the launch's debts, or nothing. -/
theorem mayWait_low (c : Dev nD) (q : DmaSem sig) (hq : q.val < 17) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0
      (fun p hp => by rw [Finset.mem_singleton.mp hp, L_tc]; exact Finset.mem_singleton_self _)
      (fun g u hg => by
        rcases oweS_pos (c := c) (k := 15) hg with ⟨d, rfl⟩ | ⟨d, rfl⟩ <;> exact Finset.mem_singleton_self _)
      (fun p hp => by
        rw [Finset.mem_singleton.mp hp]
        show (if 17 ≤ q.val then 2 else 0) ≤ 0
        rw [if_neg (by omega)])
      (fun g u hg => by
        rcases oweS_pos (c := c) (k := 15) hg with ⟨d, rfl⟩ | ⟨d, rfl⟩
        · show 0 < (if 17 ≤ 17 + (opp d).val then 2 else 0)
          rw [if_pos (Nat.le_add_right _ _)]; exact Nat.two_pos
        · exact Nat.one_pos)
  · rw [MayWait_zero]; iintro -; iempintro
/-- At its barrier wait a device owes the fifteen receive credits only: receive cells, above its barrier cell. -/
theorem mayWait_bar (c : Dev nD) :
    (levAts L lv : sProp 𝕄) ⊢ MayWait (c : Thread nD τ) (.reg barS) () (oweX c 15) :=
  MayOwe.of_cut (L := L) (lev := lv) 1
    (fun p hp => by rw [Finset.mem_singleton.mp hp, L_tc]; exact Finset.mem_singleton_self _)
    (fun g u hg => by obtain ⟨d, rfl⟩ := oweX_pos hg; exact Finset.mem_singleton_self _)
    (fun p hp => by rw [Finset.mem_singleton.mp hp]; exact Nat.le_refl 1)
    (fun g u hg => by
      obtain ⟨d, rfl⟩ := oweX_pos hg
      show 1 < (if 17 ≤ 17 + (opp d).val then 2 else 0)
      rw [if_pos (Nat.le_add_right _ _)]; exact Nat.one_lt_two)

/-- info: 'Cert.KernelIdeal.Hand.duties_bar' depends on axioms: [propext, Classical.choice, Quot.sound] -/
#guard_msgs in #print axioms duties_bar

/-- info: 'Cert.KernelIdeal.Hand.duties_send' depends on axioms: [propext, Classical.choice, Quot.sound] -/
#guard_msgs in #print axioms duties_send

/-- info: 'Cert.KernelIdeal.Hand.duties_recv' depends on axioms: [propext, Classical.choice, Quot.sound] -/
#guard_msgs in #print axioms duties_recv

/-- info: 'Cert.KernelIdeal.Hand.duties_recv0' depends on axioms: [propext, Classical.choice, Quot.sound] -/
#guard_msgs in #print axioms duties_recv0

/-- info: 'Cert.KernelIdeal.Hand.duties_later' depends on axioms: [propext, Classical.choice, Quot.sound] -/
#guard_msgs in #print axioms duties_later

/-- info: 'Cert.KernelIdeal.Hand.amount_bar' depends on axioms: [propext, Classical.choice, Quot.sound] -/
#guard_msgs in #print axioms amount_bar

/-- info: 'Cert.KernelIdeal.Hand.amount_send' depends on axioms: [propext, Classical.choice, Quot.sound] -/
#guard_msgs in #print axioms amount_send

/-- info: 'Cert.KernelIdeal.Hand.amount_recv' depends on axioms: [propext, Classical.choice, Quot.sound] -/
#guard_msgs in #print axioms amount_recv

/-- info: 'Cert.KernelIdeal.Hand.expect_bar' depends on axioms: [propext, Classical.choice, Quot.sound] -/
#guard_msgs in #print axioms expect_bar

/-- info: 'Cert.KernelIdeal.Hand.expect_send' depends on axioms: [propext, Classical.choice, Quot.sound] -/
#guard_msgs in #print axioms expect_send

/-- info: 'Cert.KernelIdeal.Hand.expect_recv' depends on axioms: [propext, Classical.choice, Quot.sound] -/
#guard_msgs in #print axioms expect_recv

/-- info: 'Cert.KernelIdeal.Hand.payload_bar' depends on axioms: [propext, Classical.choice, Quot.sound] -/
#guard_msgs in #print axioms payload_bar

/-- info: 'Cert.KernelIdeal.Hand.payload_send' depends on axioms: [propext, Classical.choice, Quot.sound] -/
#guard_msgs in #print axioms payload_send

/-- info: 'Cert.KernelIdeal.Hand.payload_recv' depends on axioms: [propext, Classical.choice, Quot.sound] -/
#guard_msgs in #print axioms payload_recv

/-- info: 'Cert.KernelIdeal.Hand.rest_bar' depends on axioms: [propext, Classical.choice, Quot.sound] -/
#guard_msgs in #print axioms rest_bar

/-- info: 'Cert.KernelIdeal.Hand.rest_send' depends on axioms: [propext, Classical.choice, Quot.sound] -/
#guard_msgs in #print axioms rest_send

/-- info: 'Cert.KernelIdeal.Hand.rest_recv' depends on axioms: [propext, Classical.choice, Quot.sound] -/
#guard_msgs in #print axioms rest_recv

/-- info: 'Cert.KernelIdeal.Hand.L_of_ne' depends on axioms: [propext, Classical.choice, Quot.sound] -/
#guard_msgs in #print axioms L_of_ne

/-- info: 'Cert.KernelIdeal.Hand.L_tc' depends on axioms: [propext, Classical.choice, Quot.sound] -/
#guard_msgs in #print axioms L_tc

/-- info: 'Cert.KernelIdeal.Hand.oweX_pos' depends on axioms: [propext, Classical.choice, Quot.sound] -/
#guard_msgs in #print axioms oweX_pos

/-- info: 'Cert.KernelIdeal.Hand.oweS_pos' depends on axioms: [propext, Classical.choice, Quot.sound] -/
#guard_msgs in #print axioms oweS_pos

/-- info: 'Cert.KernelIdeal.Hand.mayWait_low' depends on axioms: [propext, Classical.choice, Quot.sound] -/
#guard_msgs in #print axioms mayWait_low

/-- info: 'Cert.KernelIdeal.Hand.mayWait_bar' depends on axioms: [propext, Classical.choice, Quot.sound] -/
#guard_msgs in #print axioms mayWait_bar

end Cert.KernelIdeal.Hand

end
-- ==== Proof.KernelIdeal.Slots.lean ====
/-
  The exchange buffer as sixteen slots, and what the body's stores, copies and loads do to it.

  The buffer's index set is the disjoint union of the sixteen slots' index sets, so holding the buffer is holding the
  sixteen slots and back. The store of a block's column maxima through the rectangle of slot 0, and the copy of a peer's
  slot 0 into slot `s`, each leave the slot holding what the finished buffer `full` holds there: at (s, 0, j) that is the
  column-`j` maximum of the block of the device at offset `s`. Values off a slot's index set are irrelevant to a
  points-to of that slot, so each such fact is an equation between points-to assertions.
-/
import proofs.«900908_g7700000000000909_dist_max_ax0_shard0_i_m1536_n768_v7x_i16_bf16_1_alg».proof.Proof.KernelIdeal.Proto
import Idealize.ShloMosaic.Lib.Pipeline.Value

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Slots
variable (c : Dev nD)

/-! ### The slots' index sets -/

omit [FloatOps F] in
/-- The rectangle of slot `s` and the squeezed slice the copies name go through the same elements of the buffer. -/
theorem access_set (s : Fin 16) :
    ((rM : Memref sig .tc .vmem S16x1x768 .f32).access (slotRect s) : View sig .tc .vmem _ .f32).set = (slotM s).view.set :=
  (View.set_reshape _ _).symm

omit [FloatOps F] in
/-- A slot's elements are those of its rectangle: first coordinate `s`, the other two free. -/
private theorem slot_set (s : Fin 16) : (slotM s).view.set = (slotRect s).set :=
  (access_set s).symm.trans (View.set_slice_whole cc0_scratch0 (slotRect s))

omit [FloatOps F] in
/-- Distinct slots share no element. -/
theorem slot_disjoint {s s' : Fin 16} (h : s ≠ s') : Disjoint (slotM s).view.set (slotM s').view.set := by
  rw [slot_set s, slot_set s']
  have hv : s.val ≠ s'.val := fun e => h (Fin.ext e)
  exact Rect.unit_disjoint 0 (by show s.val + 1 ≤ s'.val ∨ s'.val + 1 ≤ s.val; omega)

omit [FloatOps F] in
/-- Every element of the buffer lies in the slot its first coordinate names. -/
private theorem mem_slot (i : S16x1x768.Idx) : i ∈ (slotRect ⟨(i 0).val, (i 0).isLt⟩).set := by
  rw [Rect.mem_set_unit]
  intro a
  match a with
  | ⟨0, _⟩ => exact ⟨Nat.le_refl _, Nat.lt_succ_self _⟩
  | ⟨1, _⟩ => exact ⟨Nat.zero_le _, (i 1).isLt⟩
  | ⟨2, _⟩ => exact ⟨Nat.zero_le _, (i 2).isLt⟩

omit [FloatOps F] in
/-- The buffer is its sixteen slots. -/
theorem scr_split (f : Buf (Elt F) ((rM : Memref sig .tc .vmem S16x1x768 .f32).view.loc (c : Thread nD τ))) :
    scrPts (F := F) c f = bigSep Finset.univ fun s : Fin 16 => slotPts c s fullShare f := by
  unfold scrPts slotPts
  have hU : (rM : Memref sig .tc .vmem S16x1x768 .f32).view.set
      = Finset.univ.biUnion fun s : Fin 16 => (slotM s).view.set := by
    have hw : (rM : Memref sig .tc .vmem S16x1x768 .f32).view.set = Finset.univ := View.set_whole cc0_scratch0
    rw [hw]
    ext i
    simp only [Finset.mem_univ, Finset.mem_biUnion, true_and, true_iff]
    exact ⟨⟨(i 0).val, (i 0).isLt⟩, by rw [slot_set]; exact mem_slot i⟩
  rw [hU]
  exact pointsTo_biUnion _ _ (fun t _ t' _ h => slot_disjoint h)

/-! ### What the finished buffer holds at an element of a slot -/

omit [FloatOps F] in
/-- A cast along an equation between a type and itself does nothing. -/
private theorem cast_self {α : Type} (h : α = α) (a : α) : cast h a = a := rfl

omit [FloatOps F] in
/-- Where an index of slot `s`'s rectangle sits in the buffer: at `s` on the first axis, at itself on the others. -/
private theorem acc_emb (s : Fin 16) (y : S1x1x768.Idx) (a : Fin 3) :
    ((((rM : Memref sig .tc .vmem S16x1x768 .f32).access (slotRect s) : View sig .tc .vmem _ .f32).emb y) a).val
      = (![s.val, 0, 0] : Fin 3 → ℕ) a + (y a).val := by
  show (((slotRect s).emb y a : Fin _) : ℕ) = _
  rw [Rect.emb_apply]
  show (![s.val, 0, 0] : Fin 3 → ℕ) a + 1 * (y a).val = _
  rw [Nat.one_mul]

/-- The gathered buffer at an index whose first coordinate is `s` and whose last coordinate is that of `y`, an index of a
    slot's rectangle (its first two coordinates are zero): the column maxima of the block at offset `s`, read at `y`. -/
private theorem gathered_at (X : Dev nD → Vec F S1536x768 .f32) (s : Fin 16) (i : S16x1x768.Idx) (y : S1x1x768.Idx)
    (h0 : (i 0).val = s.val) (h2 : (i 2).val = (y 2).val) : gathered X c i = k0_pay2 (X (peer c s)) y := by
  have y0 : (y 0).val < 1 := (y 0).isLt
  have y1 : (y 1).val < 1 := (y 1).isLt
  have e1 : (⟨(i 0).val, (i 0).isLt⟩ : Fin 16) = s := Fin.ext h0
  have e2 : (ValueIdx.ix3 (0 : Fin 1) (0 : Fin 1) (⟨(i 2).val, (i 2).isLt⟩ : Fin 768) : S1x1x768.Idx) = y := by
    funext a
    match a with
    | ⟨0, _⟩ => exact Fin.ext (by show 0 = (y 0).val; omega)
    | ⟨1, _⟩ => exact Fin.ext (by show 0 = (y 1).val; omega)
    | ⟨2, _⟩ => exact Fin.ext h2
  unfold gathered
  rw [e1, e2]

/-- At the element of slot `s` under the index `y` of the slot's rectangle the finished buffer holds the column maxima of
    the block of the device at offset `s`, read at `y`. -/
private theorem full_acc (s : Fin 16) (y : S1x1x768.Idx) :
    full m ρ c (((rM : Memref sig .tc .vmem S16x1x768 .f32).access (slotRect s) : View sig .tc .vmem _ .f32).emb y)
      = k0_pay2 (xblk m ρ (peer c s)) y := by
  have y0 : (y 0).val < 1 := (y 0).isLt
  unfold full
  refine gathered_at c (xblk m ρ) s _ y ?_ ?_
  · rw [acc_emb]; show s.val + (y 0).val = s.val; omega
  · rw [acc_emb]; show 0 + (y 2).val = (y 2).val; omega

omit [FloatOps F] in
/-- An index of slot `s` sits where the matching index of the slot's rectangle does. -/
private theorem slot_emb (s : Fin 16) (x : S1x768.Idx) :
    (slotM s).view.emb x
      = ((rM : Memref sig .tc .vmem S16x1x768 .f32).access (slotRect s) : View sig .tc .vmem _ .f32).emb
          (Shape.reshapeEquiv squeezes_S1x1x768_S1x768.numel_eq x) := rfl

/-- The store of the block's column maxima through slot 0's rectangle leaves slot 0 as the finished buffer has it. -/
theorem store_slot0 (f : Buf (Elt F) ((rM : Memref sig .tc .vmem S16x1x768 .f32).view.loc (c : Thread nD τ))) :
    slotPts (F := F) c 0 fullShare
        (((rM : Memref sig .tc .vmem S16x1x768 .f32).access (Rect.unit (s := S16x1x768) ![0, 0, 0] S1x1x768.size inb_S16x1x768_S1x1x768_0_0_0) : View sig .tc .vmem _ .f32).write
          (Elt F) f (k0_pay2 (xblk m ρ c)) Finset.univ)
      = slotPts c 0 fullShare (full m ρ c) := by
  unfold slotPts
  refine pointsTo_congr fun i hi => ?_
  have hi' : i ∈ ((rM : Memref sig .tc .vmem S16x1x768 .f32).access (slotRect 0) : View sig .tc .vmem _ .f32).set := by
    rw [access_set]; exact hi
  obtain ⟨y, rfl⟩ := View.exists_emb_of_mem_set _ hi'
  rw [full_acc, peer_zero]
  generalize k0_pay2 (xblk m ρ c) = w
  exact (View.write_emb_of_mem
    (v := ((rM : Memref sig .tc .vmem S16x1x768 .f32).access (slotRect 0) : View sig .tc .vmem _ .f32))
    f w (Finset.mem_univ y)).trans (cast_self _ _)

/-- The copy of the slot 0 of the peer at offset `s` into slot `s` leaves slot `s` as the finished buffer has it, whatever
    the slot held before. -/
theorem landing (s : Fin 16) (fd : Buf (Elt F) ((slotM s).view.loc (c : Thread nD τ))) :
    ((slotM s).view.loc (c : Thread nD τ) ↦[(slotM s).view.set]{fullShare}
        ((slotM s).view.write (Elt F) fd ((slotM 0).view.read (Elt F) (full m ρ (peer c s))) Finset.univ) : sProp 𝕄)
      = slotPts c s fullShare (full m ρ c) := by
  unfold slotPts
  refine pointsTo_congr fun i hi => ?_
  obtain ⟨x, rfl⟩ := View.exists_emb_of_mem_set _ hi
  rw [View.write_emb_of_mem _ _ (Finset.mem_univ x), cast_self, View.read_apply, cast_self, slot_emb, slot_emb, full_acc, full_acc,
    peer_zero]

/-! ### Whole rectangles -/

omit [FloatOps F] in
/-- Loads and the final store through whole rectangles read and write the whole buffer. -/
theorem read_x (f : (cc0_stg0_0 : Ref sig .tc).ty.Contents (Elt F)) :
    (xM : Memref sig .tc .vmem S1536x768 .f32).view.readAt (Elt F) (Rect.unit (s := S1536x768) ![0, 0] S1536x768.size inb_S1536x768_S1536x768_0_0).toLoadRect f = f :=
  Memref.readAt_unit_zero (Elt F) cc0_stg0_0 (funext fun a => by fin_cases a <;> rfl) inb_S1536x768_S1536x768_0_0 f
omit [FloatOps F] in
theorem read_scr (f : (cc0_scratch0 : Ref sig .tc).ty.Contents (Elt F)) :
    (rM : Memref sig .tc .vmem S16x1x768 .f32).view.readAt (Elt F) (Rect.unit (s := S16x1x768) ![0, 0, 0] S16x1x768.size inb_S16x1x768_S16x1x768_0_0_0).toLoadRect f = f :=
  Memref.readAt_unit_zero (Elt F) cc0_scratch0 (funext fun a => by fin_cases a <;> rfl) inb_S16x1x768_S16x1x768_0_0_0 f
omit [FloatOps F] in
theorem write_out (f w : (cc0_stg1_0 : Ref sig .tc).ty.Contents (Elt F)) :
    ((oM : Memref sig .tc .vmem S1x768 .f32).access (Rect.unit (s := S1x768) ![0, 0] S1x768.size inb_S1x768_S1x768_0_0) : View sig .tc .vmem _ .f32).write (Elt F) f w Finset.univ = w :=
  Memref.write_access_unit_zero_univ (Elt F) cc0_stg1_0 (funext fun a => by fin_cases a <;> rfl) inb_S1x768_S1x768_0_0 f w

/-! ### The shares slot 0 is read under -/

omit [FloatOps F] in
/-- Slot 0 held at what the first `n` copies left is the `n`-th copy's share and what that leaves. -/
theorem share_step (n : ℕ) (f : Buf (Elt F) ((slotM 0).view.loc (c : Thread nD τ))) :
    (slotPts (F := F) c 0 (restShare n) f) ⊣⊢ iprop(slotPts c 0 (copyShare n) f ∗ slotPts c 0 (restShare (n + 1)) f) := by
  unfold slotPts copyShare
  exact pointsTo_share (PosShare.mem_left_op_right (restShare n))

end Slots

/-- info: 'Cert.KernelIdeal.Hand.access_set' depends on axioms: [propext, Classical.choice, Quot.sound] -/
#guard_msgs in #print axioms access_set

/-- info: 'Cert.KernelIdeal.Hand.slot_disjoint' depends on axioms: [propext, Classical.choice, Quot.sound] -/
#guard_msgs in #print axioms slot_disjoint

/-- info: 'Cert.KernelIdeal.Hand.scr_split' depends on axioms: [propext, Classical.choice, Quot.sound] -/
#guard_msgs in #print axioms scr_split

/-- info: 'Cert.KernelIdeal.Hand.store_slot0' depends on axioms: [propext, Classical.choice, Quot.sound] -/
#guard_msgs in #print axioms store_slot0

/-- info: 'Cert.KernelIdeal.Hand.landing' depends on axioms: [propext, Classical.choice, Quot.sound] -/
#guard_msgs in #print axioms landing

/-- info: 'Cert.KernelIdeal.Hand.read_x' depends on axioms: [propext, Classical.choice, Quot.sound] -/
#guard_msgs in #print axioms read_x

/-- info: 'Cert.KernelIdeal.Hand.read_scr' depends on axioms: [propext, Classical.choice, Quot.sound] -/
#guard_msgs in #print axioms read_scr

/-- info: 'Cert.KernelIdeal.Hand.write_out' depends on axioms: [propext, Classical.choice, Quot.sound] -/
#guard_msgs in #print axioms write_out

/-- info: 'Cert.KernelIdeal.Hand.share_step' depends on axioms: [propext, Classical.choice, Quot.sound] -/
#guard_msgs in #print axioms share_step

end Cert.KernelIdeal.Hand

end
-- ==== Proof.KernelIdeal.Stages.lean ====
/-
  The body cut into four stretches at boundaries of its printed parts, and what a device holds between them.

  Stretch 1 (parts 1–7): the fifteen signals, the local column maxima stored into slot 0, the barrier wait.
  Stretch 2 (parts 8–17): the fifteen copies, and the waits for the copies into slots 15 and 14.
  Stretch 3 (parts 18–21): the waits for the copies into slots 13 … 1.
  Stretch 4 (parts 22–25 and the tail): the fifteen waits for the copies' sources, then the load of the whole buffer and
  the store of the result.
  The words the parts pass along are what the printed device arithmetic computed; no step depends on them, so a stretch's
  continuation is any function of them.
-/
import proofs.«900908_g7700000000000909_dist_max_ax0_shard0_i_m1536_n768_v7x_i16_bf16_1_alg».proof.Proof.KernelIdeal.Proto

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The four stretches of the program -/

def seg1Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (kont : Dev nD → BitVec 32 → BitVec 32 → Prog (TpuEff nD τ sig (Elt F) Λ₀ .tc) α) : Prog (TpuEff nD τ sig (Elt F) Λ₀ .tc) α := do
  let ⟨d0, v2, v3, v30, c16_i32_18, v31⟩ : Σ' (d0 : Dev nD) (v2 : BitVec 32) (v3 : Sems sig S_) (v30 : BitVec 32) (c16_i32_18 : BitVec 32), BitVec 1 ← k0_part1 arg0 harg0 arg1 harg1 arg2 harg2 arg3 arg4
  let ⟨v59, v64, v65⟩ : Σ' (v59 : BitVec 32) (v64 : BitVec 1), BitVec 32 ← k0_part2 arg0 harg0 arg1 harg1 arg2 harg2 arg3 arg4 d0 v2 v3 v30 c16_i32_18 v31
  let ⟨v95, c16_i32_63, v96⟩ : Σ' (v95 : BitVec 32) (c16_i32_63 : BitVec 32), BitVec 1 ← k0_part3 arg0 harg0 arg1 harg1 arg2 harg2 arg3 arg4 d0 v2 v3 v59 v64 v65
  let ⟨v124, v129, v130⟩ : Σ' (v124 : BitVec 32) (v129 : BitVec 1), BitVec 32 ← k0_part4 arg0 harg0 arg1 harg1 arg2 harg2 arg3 arg4 d0 v2 v3 v95 c16_i32_63 v96
  let ⟨v160, c16_i32_108, v161⟩ : Σ' (v160 : BitVec 32) (c16_i32_108 : BitVec 32), BitVec 1 ← k0_part5 arg0 harg0 arg1 harg1 arg2 harg2 arg3 arg4 d0 v2 v3 v124 v129 v130
  let ⟨v189, v194, v195⟩ : Σ' (v189 : BitVec 32) (v194 : BitVec 1), BitVec 32 ← k0_part6 arg0 harg0 arg1 harg1 arg2 harg2 arg3 arg4 d0 v2 v3 v160 c16_i32_108 v161
  let v216 : BitVec 32 ← k0_part7 arg0 harg0 arg1 harg1 arg2 harg2 arg3 arg4 d0 v2 v3 v189 v194 v195
  kont d0 v2 v216

def seg2Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (d0 : Dev nD) (v2 v216 : BitVec 32)
    (kont : (v279 v300 v321 v342 v363 v384 v405 v426 v447 v468 v489 v510 : BitVec 32) → Prog (TpuEff nD τ sig (Elt F) Λ₀ .tc) α) : Prog (TpuEff nD τ sig (Elt F) Λ₀ .tc) α := do
  let ⟨v237, v258⟩ : Σ' (v237 : BitVec 32), BitVec 32 ← k0_part8 arg0 harg0 arg1 harg1 arg2 harg2 arg3 arg4 d0 v2
  let v279 : BitVec 32 ← k0_part9 arg0 harg0 arg1 harg1 arg2 harg2 arg3 arg4 d0 v2 v258
  let ⟨v300, v321⟩ : Σ' (v300 : BitVec 32), BitVec 32 ← k0_part10 arg0 harg0 arg1 harg1 arg2 harg2 arg3 arg4 d0 v2
  let ⟨v342, v353, c16_i32_260⟩ : Σ' (v342 : BitVec 32) (v353 : BitVec 32), BitVec 32 ← k0_part11 arg0 harg0 arg1 harg1 arg2 harg2 arg3 arg4 d0 v2 v321
  let ⟨v363, v384, v385⟩ : Σ' (v363 : BitVec 32) (v384 : BitVec 32), BitVec 32 ← k0_part12 arg0 harg0 arg1 harg1 arg2 harg2 arg3 arg4 d0 v2 v353 c16_i32_260
  let ⟨v405, v416, c16_i32_311, v417, c1_i32_313⟩ : Σ' (v405 : BitVec 32) (v416 : BitVec 32) (c16_i32_311 : BitVec 32) (v417 : BitVec 1), BitVec 32 ← k0_part13 arg0 harg0 arg1 harg1 arg2 harg2 arg3 arg4 d0 v2 v385
  let ⟨v426, v447⟩ : Σ' (v426 : BitVec 32), BitVec 32 ← k0_part14 arg0 harg0 arg1 harg1 arg2 harg2 arg3 arg4 d0 v2 v416 c16_i32_311 v417 c1_i32_313
  let ⟨v468, v481, v482, c0_i32_365⟩ : Σ' (v468 : BitVec 32) (v481 : BitVec 32) (v482 : BitVec 32), BitVec 32 ← k0_part15 arg0 harg0 arg1 harg1 arg2 harg2 arg3 arg4 d0 v2
  let ⟨v489, v510⟩ : Σ' (v489 : BitVec 32), BitVec 32 ← k0_part16 arg0 harg0 arg1 harg1 arg2 harg2 arg3 arg4 d0 v2 v481 v482 c0_i32_365
  k0_part17 arg0 harg0 arg1 harg1 arg2 harg2 arg3 arg4 d0 v216 v237 v258
  kont v279 v300 v321 v342 v363 v384 v405 v426 v447 v468 v489 v510

def seg3Prog {α : Type} (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16)
    (v279 v300 v321 v342 v363 v384 v405 v426 v447 v468 v489 v510 : BitVec 32)
    (kont : Prog (TpuEff nD τ sig (Elt F) Λ₀ .tc) α) : Prog (TpuEff nD τ sig (Elt F) Λ₀ .tc) α := do
  k0_part18 arg0 harg0 arg1 harg1 arg2 harg2 arg3 arg4 v279 v300 v321
  k0_part19 arg0 harg0 arg1 harg1 arg2 harg2 arg3 arg4 v342 v363 v384
  k0_part20 arg0 harg0 arg1 harg1 arg2 harg2 arg3 arg4 v405 v426 v447
  k0_part21 arg0 harg0 arg1 harg1 arg2 harg2 arg3 arg4 v468 v489 v510
  kont

def seg4Prog (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16) : Prog (TpuEff nD τ sig (Elt F) Λ₀ .tc) PUnit := do
  k0_part22 arg0 harg0 arg1 harg1 arg2 harg2 arg3 arg4
  k0_part23 arg0 harg0 arg1 harg1 arg2 harg2 arg3 arg4
  k0_part24 arg0 harg0 arg1 harg1 arg2 harg2 arg3 arg4
  let v732 : FVec F S16x768 .f32 ← k0_part25 arg0 harg0 arg1 harg1 arg2 harg2 arg3 arg4
  let v735 : Vec F S1x768 .f32 ← Prog.lift (.load arg1 (Rect.unit (s := S1x768) ![0, 0] S1x768.size inb_S1x768_S1x768_0_0).toLoadRect (View.loadsAt_vmem h_S1x768))
  Prog.lift (.store arg1 (Rect.unit (s := S1x768) ![0, 0] S1x768.size inb_S1x768_S1x768_0_0) (k0_pay1 v732) Finset.univ (View.stores_vmem_bits_univ h_S1x768 rfl) (.inl rfl))
  pure ⟨⟩

/-- The body is the four stretches in order. -/
theorem body_split (arg0 : Memref sig .tc .vmem S1536x768 .f32) (harg0 : arg0.IsWhole) (arg1 : Memref sig .tc .vmem S1x768 .f32) (harg1 : arg1.IsWhole) (arg2 : Memref sig .tc .vmem S16x1x768 .f32) (harg2 : arg2.IsWhole) (arg3 : DmaSems sig S15) (arg4 : DmaSems sig S16) :
    cc0_body_skel (F := F) arg0 harg0 arg1 harg1 arg2 harg2 arg3 arg4
      = seg1Prog arg0 harg0 arg1 harg1 arg2 harg2 arg3 arg4 fun d0 v2 v216 =>
          seg2Prog arg0 harg0 arg1 harg1 arg2 harg2 arg3 arg4 d0 v2 v216 fun v279 v300 v321 v342 v363 v384 v405 v426 v447 v468 v489 v510 =>
            seg3Prog arg0 harg0 arg1 harg1 arg2 harg2 arg3 arg4 v279 v300 v321 v342 v363 v384 v405 v426 v447 v468 v489 v510
              (seg4Prog arg0 harg0 arg1 harg1 arg2 harg2 arg3 arg4) := rfl

/-! ## What a device holds between the stretches -/

section Stages
variable (K : Dev nD × Fin 32 → ℕ) (c : Dev nD)

/-- The two staging buffers: the block, and the result buffer at whatever it holds. -/
def stgs : sProp 𝕄 :=
  iprop((((c : Thread nD τ).loc cc0_stg0_0) ↦{fullShare} xblk m ρ c)
    ∗ ∃ g : Buf (Elt F) ((c : Thread nD τ).loc cc0_stg1_0), (((c : Thread nD τ).loc cc0_stg1_0) ↦{fullShare} g))

/-- Slots 1 … 13, and slots 14 and 15. -/
def lowSlots : Finset (Fin 16) := Finset.univ.filter fun s => 1 ≤ s.val ∧ s.val ≤ 13
def highSlots : Finset (Fin 16) := Finset.univ.filter fun s => 14 ≤ s.val

/-- After stretch 1: slot 0 holds the column maxima; the fifteen peers' slots are in hand; the fifteen receive credits
    are still owed; no copy has been issued. -/
def stageB (W : Waits sig Unit) : sProp 𝕄 :=
  iprop(records m ρ K ∗ levAts L lv ∗ stgs m ρ c
    ∗ owes (c : Thread nD τ) (oweX c 15) W
    ∗ slotPts c 0 fullShare (full m ρ c)
    ∗ (bigSep (Finset.univ.erase 0) fun e : Fin 16 => barPay (F := F) c e)
    ∗ (bigSep Finset.univ fun j : Fin 15 => atPos ER (sendCell c j) 0 ∅ 0)
    ∗ (bigSep Finset.univ fun s : Fin 16 => atPos ER (recvCell c s) 0 ∅ 0)
    ∗ (bigSep Finset.univ fun j : Fin 15 => dutyTok ER (sendCell c j) 0 0)
    ∗ (bigSep (Finset.univ.erase 0) fun e : Fin 16 => dutyTok ER (recvCell (peer c e) (opp e)) 0 0)
    ∗ (bigSep (Finset.univ.erase 0) fun s : Fin 16 => cred (tallyAt (recvCell c s) () N)))

/-- After stretch 2: nothing owed; slot 0 at what the fifteen copies left of it; each send cell's credit in hand; slots
    15 and 14 landed, slots 1 … 13 still awaited. -/
def stageC (W : Waits sig Unit) : sProp 𝕄 :=
  iprop(records m ρ K ∗ levAts L lv ∗ stgs m ρ c
    ∗ owes (c : Thread nD τ) 0 W
    ∗ slotPts c 0 (restShare 15) (full m ρ c)
    ∗ (bigSep Finset.univ fun j : Fin 15 => cred (tallyAt (sendCell c j) () N))
    ∗ (bigSep Finset.univ fun j : Fin 15 => atPos ER (sendCell c j) 0 ∅ 0)
    ∗ atPos ER (recvCell c 0) 0 ∅ 0
    ∗ (bigSep lowSlots fun s : Fin 16 => iprop(cred (tallyAt (recvCell c s) () N) ∗ atPos ER (recvCell c s) 0 ∅ 0))
    ∗ (bigSep highSlots fun s : Fin 16 => iprop(slotPts c s fullShare (full m ρ c) ∗ atPos ER (recvCell c s) 1 ∅ 0)))

/-- After stretch 3: every slot landed. -/
def stageD (W : Waits sig Unit) : sProp 𝕄 :=
  iprop(records m ρ K ∗ levAts L lv ∗ stgs m ρ c
    ∗ owes (c : Thread nD τ) 0 W
    ∗ slotPts c 0 (restShare 15) (full m ρ c)
    ∗ (bigSep Finset.univ fun j : Fin 15 => cred (tallyAt (sendCell c j) () N))
    ∗ (bigSep Finset.univ fun j : Fin 15 => atPos ER (sendCell c j) 0 ∅ 0)
    ∗ atPos ER (recvCell c 0) 0 ∅ 0
    ∗ (bigSep (Finset.univ.erase 0) fun s : Fin 16 => iprop(slotPts c s fullShare (full m ρ c) ∗ atPos ER (recvCell c s) 1 ∅ 0)))

end Stages

end Cert.KernelIdeal.Hand

end
-- ==== Proof.KernelIdeal.Steps.lean ====
/-
  The exchange's steps, one lemma per kind, each stated over only what the step touches.

  A device `c` makes five kinds of steps that involve a cell: its signal number `e` (to the barrier cell of the peer at
  offset `e`, handing over its own slot `e`), its one barrier wait (for all fifteen peers' units, which hand it their
  slots), its copy number `e` (slot 0, at the copy's share, into slot `opp e` of the peer at offset `e`), its wait for
  the copy into its slot `s` (the slot comes back holding that peer's column maxima), its wait for its own copy's source
  to have been read (the share comes back). Afterwards each of its cells is closed: its counter is zero again.
  `records` (every cell's invariant and first round, persistent) is taken whole by each lemma.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.Tactic

variable {F : FTy → Type} [FloatOps F]

local notation "𝕄" => MT nD τ sig Unit (Elt F) ℕ UU ℕ

variable (m : (ℓ : Loc nD τ sig) → Buf (Elt F) ℓ) (ρ : Dev nD → PrngReg)

/-- A cell's place in the table of names: the barrier cell first, the fifteen send cells, the sixteen receive cells. -/
abbrev kBar : Fin 32 := 0
abbrev kSend (j : Fin 15) : Fin 32 := ⟨1 + j.val, by have := j.isLt; omega⟩
abbrev kRecv (s : Fin 16) : Fin 32 := ⟨16 + s.val, by have := s.isLt; omega⟩

section Steps
variable (K : Dev nD × Fin 32 → ℕ) (c : Dev nD)

omit [FloatOps F] in
theorem kcell_bar (c' : Dev nD) : kcell (c', kBar) = barCell c' := rfl
omit [FloatOps F] in
theorem kcell_send (c' : Dev nD) (j : Fin 15) : kcell (c', kSend j) = sendCell c' j := by
  have h : ¬ (kSend j).val = 0 := by show ¬ (1 + j.val = 0); omega
  refine Prod.ext rfl ?_
  show csem (kSend j) = SemLoc.dma (sendS j)
  unfold csem
  rw [dif_neg h]
  exact congrArg SemLoc.dma (Fin.ext (by show 1 + (1 + j.val) = 2 + j.val; omega))
omit [FloatOps F] in
theorem kcell_recv (c' : Dev nD) (s : Fin 16) : kcell (c', kRecv s) = recvCell c' s := by
  have h : ¬ (kRecv s).val = 0 := by show ¬ (16 + s.val = 0); omega
  refine Prod.ext rfl ?_
  show csem (kRecv s) = SemLoc.dma (recvS s)
  unfold csem
  rw [dif_neg h]
  exact congrArg SemLoc.dma (Fin.ext (by show 1 + (16 + s.val) = 17 + s.val; omega))

theorem inv_bar (c' : Dev nD) : records m ρ K ⊢ cellInv ER (sched m ρ) (K (c', kBar)) (barCell c') := by
  rw [← kcell_bar c']
  unfold records
  have h : (bigSep Finset.univ fun ck : Dev nD × Fin 32 => cellInv ER (sched (F := F) m ρ) (K ck) (kcell ck))
      ⊢ cellInv ER (sched (F := F) m ρ) (K (c', kBar)) (kcell (c', kBar)) :=
    BI.bigSep_elim (Finset.mem_univ ((c', kBar) : Dev nD × Fin 32))
  iintro ⟨H, -⟩
  iapply h
  iexact H
theorem inv_send (c' : Dev nD) (j : Fin 15) : records m ρ K ⊢ cellInv ER (sched m ρ) (K (c', kSend j)) (sendCell c' j) := by
  rw [← kcell_send c' j]
  unfold records
  have h : (bigSep Finset.univ fun ck : Dev nD × Fin 32 => cellInv ER (sched (F := F) m ρ) (K ck) (kcell ck))
      ⊢ cellInv ER (sched (F := F) m ρ) (K (c', kSend j)) (kcell (c', kSend j)) :=
    BI.bigSep_elim (Finset.mem_univ ((c', kSend j) : Dev nD × Fin 32))
  iintro ⟨H, -⟩
  iapply h
  iexact H
theorem inv_recv (c' : Dev nD) (s : Fin 16) : records m ρ K ⊢ cellInv ER (sched m ρ) (K (c', kRecv s)) (recvCell c' s) := by
  rw [← kcell_recv c' s]
  unfold records
  have h : (bigSep Finset.univ fun ck : Dev nD × Fin 32 => cellInv ER (sched (F := F) m ρ) (K ck) (kcell ck))
      ⊢ cellInv ER (sched (F := F) m ρ) (K (c', kRecv s)) (kcell (c', kRecv s)) :=
    BI.bigSep_elim (Finset.mem_univ ((c', kRecv s) : Dev nD × Fin 32))
  iintro ⟨H, -⟩
  iapply h
  iexact H
theorem reached_bar (c' : Dev nD) : records m ρ K ⊢ (reached ER (barCell c') 0 : sProp 𝕄) := by
  rw [← kcell_bar c']
  unfold records
  have h : (bigSep Finset.univ fun ck : Dev nD × Fin 32 => (reached ER (kcell ck) 0 : sProp 𝕄))
      ⊢ (reached ER (kcell (c', kBar)) 0 : sProp 𝕄) :=
    BI.bigSep_elim (Finset.mem_univ ((c', kBar) : Dev nD × Fin 32))
  iintro ⟨-, H⟩
  iapply h
  iexact H
theorem reached_send (c' : Dev nD) (j : Fin 15) : records m ρ K ⊢ (reached ER (sendCell c' j) 0 : sProp 𝕄) := by
  rw [← kcell_send c' j]
  unfold records
  have h : (bigSep Finset.univ fun ck : Dev nD × Fin 32 => (reached ER (kcell ck) 0 : sProp 𝕄))
      ⊢ (reached ER (kcell (c', kSend j)) 0 : sProp 𝕄) :=
    BI.bigSep_elim (Finset.mem_univ ((c', kSend j) : Dev nD × Fin 32))
  iintro ⟨-, H⟩
  iapply h
  iexact H
theorem reached_recv (c' : Dev nD) (s : Fin 16) : records m ρ K ⊢ (reached ER (recvCell c' s) 0 : sProp 𝕄) := by
  rw [← kcell_recv c' s]
  unfold records
  have h : (bigSep Finset.univ fun ck : Dev nD × Fin 32 => (reached ER (kcell ck) 0 : sProp 𝕄))
      ⊢ (reached ER (kcell (c', kRecv s)) 0 : sProp 𝕄) :=
    BI.bigSep_elim (Finset.mem_univ ((c', kRecv s) : Dev nD × Fin 32))
  iintro ⟨-, H⟩
  iapply h
  iexact H

/-! ### What the steps read off the schedule and off what is owed -/

omit [FloatOps F] in
/-- Equal assertions entail one another. -/
theorem ent_of_eq {P Q : sProp 𝕄} (h : P = Q) : P ⊢ Q := h ▸ .rfl

/-- The unit a device's signal number `e` pays, as the peer's barrier cell states it: the payer's own slot `e`, and
    that its receive cell for that slot is at its first round. -/
theorem pay_bar_at (e : Fin 16) :
    (sched (F := F) m ρ).payload (barCell (peer c e)) 0 (opp e)
      = iprop((∃ f, ((slotM e).view.loc (c : Thread nD τ) ↦[(slotM e).view.set]{fullShare} f : sProp 𝕄)) ∗ reached ER (recvCell c e) 0) := by
  rw [payload_bar]; unfold barPay slotPts; rw [peer_opp, opp_opp]

omit [FloatOps F] in
theorem oweS_succ (e : Fin 16) (n : ℕ) (hn : fin16 (15 - n) = e) :
    oweS c (n + 1) = oweS c n + tallyAt (barCell (peer c e)) () 1 := by
  show oweS c n + tSig c (fin16 (15 - n)) = _; rw [hn]; rfl

omit [FloatOps F] in
theorem oweX_succ (e : Fin 16) (n : ℕ) (hn : fin16 (15 - n) = e) :
    oweX c (n + 1) = oweX c n + tallyAt (recvCell (peer c e) (opp e)) () N := by
  show oweX c n + tXfer c (fin16 (15 - n)) = _; rw [hn]; rfl

theorem mem_bar (e : Fin 16) (he : e ≠ 0) : opp e ∈ (sched (F := F) m ρ).duties (barCell (peer c e)) 0 := by
  rw [duties_bar]; exact Finset.mem_erase.mpr ⟨opp_ne_zero he, Finset.mem_univ _⟩
theorem mem_send (j : Fin 15) : (0 : Fin 16) ∈ (sched (F := F) m ρ).duties (sendCell c j) 0 := by
  rw [duties_send]; exact Finset.mem_singleton_self _
theorem mem_recv (c' : Dev nD) {s : Fin 16} (hs : s ≠ 0) : (0 : Fin 16) ∈ (sched (F := F) m ρ).duties (recvCell c' s) 0 := by
  rw [duties_recv m ρ c' hs]; exact Finset.mem_singleton_self _

attribute [local sl_rounds] pay_bar_at amount_bar mem_bar expect_bar expect_send expect_recv rest_bar rest_send rest_recv

/-- Signal number `e` (with `n` signals to go after it): the unit to the barrier cell of the peer at offset `e`, paid with
    that cell's duty `opp e`; it hands over slot `e`, at whatever it holds. -/
theorem step_signal (e : Fin 16) (he : e ≠ 0) (n : ℕ) (hn : fin16 (15 - n) = e) {k' : ℕ} (hk' : k' = 1)
    {α : Type} {Q : α → sProp 𝕄} {kont : PUnit → Prog (TpuEff nD τ sig (Elt F) Λ₀ .tc) α} (W : Waits sig Unit)
    (f : Buf (Elt F) ((slotM e).view.loc (c : Thread nD τ))) :
    iprop(records m ρ K ∗ owes (c : Thread nD τ) (oweS c (n + 1)) W ∗ dutyTok ER (barCell (peer c e)) 0 (opp e) ∗ slotPts c e fullShare f)
      ⊢ iprop((owes (c : Thread nD τ) (oweS c n) W -∗ wp frame (wpE (defs₀ (F := F)) 𝒱₀ (c : Thread nD τ) none) Set.univ (kont ⟨⟩) Q)
          -∗ wp frame (wpE (defs₀ (F := F)) 𝒱₀ (c : Thread nD τ) none) Set.univ (.op (.semSignal ((peer c e : Dev nD), Proc.tc) barS k') kont) Q) := by
  subst hk'
  rw [oweS_succ c e n hn]
  unfold slotPts
  iintro ⟨#Hrec, HO, Htok, Hslot⟩ Hk
  ihave #HI := (inv_bar m ρ K (peer c e)) $$ Hrec
  ihave #Hr := (reached_bar m ρ K (peer c e)) $$ Hrec
  ihave #Hr2 := (reached_recv m ρ K c e) $$ Hrec
  sl_exec
  iapply Hk
  iexact HO

/-- The barrier wait, owing the fifteen receive credits: the fifteen peers' payloads come with it. -/
theorem step_barwait {k' : ℕ} (hk' : k' = 15)
    {α : Type} {Q : α → sProp 𝕄} {kont : PUnit → Prog (TpuEff nD τ sig (Elt F) Λ₀ .tc) α} (W : Waits sig Unit) :
    iprop(records m ρ K ∗ levAts L lv ∗ cred (tallyAt (barCell c) () 15) ∗ owes (c : Thread nD τ) (oweX c 15) W ∗ atPos ER (barCell c) 0 ∅ 0)
      ⊢ iprop(((owes (c : Thread nD τ) (oweX c 15) (insert (SemLoc.reg barS, ()) W) ∗ atPos ER (barCell c) 1 ∅ 0
              ∗ bigSep (Finset.univ.erase 0) (fun e : Fin 16 => barPay (F := F) c e))
            -∗ wp frame (wpE (defs₀ (F := F)) 𝒱₀ (c : Thread nD τ) none) Set.univ (kont ⟨⟩) Q)
          -∗ wp frame (wpE (defs₀ (F := F)) 𝒱₀ (c : Thread nD τ) none) Set.univ (.op (.semWait barS k') kont) Q) := by
  subst hk'
  have hlev := mayWait_bar (F := F) c
  iintro ⟨#Hrec, Hlev, Hcred, HO, Hat⟩ Hk
  ihave #HI := (inv_bar m ρ K c) $$ Hrec
  sl_exec
  iapply Hk
  isplitl [HO]; · iexact HO
  isplitl [Hat]; · iexact Hat
  iexact Hat_pay1

/-- Copy number `e` (send semaphore `j = e - 1`, with `n` copies to go after it): slot 0 at the copy's share into slot
    `opp e` of the peer at offset `e`, which the peer's barrier unit handed over at contents `fn`. -/
theorem step_send (e : Fin 16) (he : e ≠ 0) (n : ℕ) (hn : fin16 (15 - n) = e) (j : Fin 15) (hj : j.val + 1 = e.val)
    {hsc : (slotM (opp e) : Memref sig (Dev.tc (peer c e) : Thread nD τ).2.kind .vmem S1x768 .f32).view.ref.isScScratch = false}
    {hsrc : (slotM 0).view.WordExact} {hdst : (slotM (opp e)).view.WordExact}
    {hsem : DmaTarget.Typed .vmem (.dma (recvS (opp e))) (.remote (Dev.tc (peer c e) : Thread nD τ) (slotM (opp e)) (.dma (sendS j)) hsc)}
    {α : Type} {Q : α → sProp 𝕄} {kont : PUnit → Prog (TpuEff nD τ sig (Elt F) Λ₀ .tc) α} (W : Waits sig Unit)
    (fn : Buf (Elt F) ((slotM (opp e)).view.loc (peer c e : Thread nD τ))) :
    iprop(records m ρ K ∗ slotPts c 0 (copyShare j.val) (full m ρ c) ∗ slotPts (peer c e) (opp e) fullShare fn
        ∗ owes (c : Thread nD τ) (oweX c (n + 1)) W
        ∗ dutyTok ER (sendCell c j) 0 0 ∗ dutyTok ER (recvCell (peer c e) (opp e)) 0 0)
      ⊢ iprop(((cred (tallyAt (sendCell c j) () N) ∗ owes (c : Thread nD τ) (oweX c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0) (.remote (Dev.tc (peer c e) : Thread nD τ) (slotM (opp e)) (.dma (sendS j)) hsc) (.dma (recvS (opp e))) hsrc hdst hsem) kont) Q) := by
  have hpay₁ : ((slotM 0).view.loc (c : Thread nD τ) ↦[(slotM 0).view.set]{copyShare j.val} full m ρ c : sProp 𝕄)
      ⊢ (sched (F := F) m ρ).payload (sendCell c j) 0 0 := by
    rw [payload_send]; exact .rfl
  have hpay₂ : ((slotM (opp e)).view.loc (peer c e : Thread nD τ) ↦[(slotM (opp e)).view.set]{fullShare}
        ((slotM (opp e)).view.write (Elt F) fn ((slotM 0).view.read (Elt F) (full m ρ c)) Finset.univ) : sProp 𝕄)
      ⊢ (sched (F := F) m ρ).payload (recvCell (peer c e) (opp e)) 0 0 := by
    rw [payload_recv]
    have h := landing m ρ (peer c e) (opp e) fn
    rw [peer_opp] at h
    rw [h]; exact .rfl
  unfold slotPts
  iintro ⟨#Hrec, Hsrc, Hdst, HO, Htok₁, Htok₂⟩ Hk
  iapply (Rounds.wp_send_pointsTo 𝒱₀ ER (sched m ρ) (c : Thread nD τ) none
      (c' := (peer c e : Thread nD τ)) (src := slotM 0) (dst := slotM (opp e)) (sS := .dma (sendS j)) (sem := .dma (recvS (opp e)))
      (q := copyShare j.val) (fs := full m ρ c) (fd := fn) (r₁ := 0) (r₂ := 0) (d₁ := 0) (d₂ := 0)
      (κ₁ := K (c, kSend j)) (κ₂ := K (peer c e, kRecv (opp e)))
      (mem_send m ρ c j) (mem_recv m ρ (peer c e) (opp_ne_zero he)) () () N rfl
      (amount_send m ρ c j 0) (amount_recv m ρ (peer c e) (opp e) 0) (oweX c n) (oweX_succ c e n hn) hpay₁ hpay₂)
    $$ [Hsrc Hdst HO Htok₁ Htok₂]
  · isplitr; · iapply (inv_send m ρ K c j); iexact Hrec
    isplitr; · iapply (inv_recv m ρ K (peer c e) (opp e)); iexact Hrec
    isplitl [Hsrc]; · iexact Hsrc
    isplitl [Hdst]; · iexact Hdst
    isplitl [HO]; · iexact HO
    isplitl [Htok₁]; · iexact Htok₁
    isplitr; · iapply (reached_send m ρ K c j); iexact Hrec
    isplitl [Htok₂]; · iexact Htok₂
    iapply (reached_recv m ρ K (peer c e) (opp e)); iexact Hrec
  iexact Hk

/-- The wait for the copy into slot `s`, owing nothing: the slot comes back holding what the finished buffer holds there. -/
theorem step_recvwait (s : Fin 16) (hs : s ≠ 0) {sp sp' : Space} {sh sh' : Shape} {el el' : EltTy}
    {src : Memref sig .tc sp' sh' el'} {κ' : Kind} {dst : Memref sig κ' sp sh el} {hsrc : src.view.WordExact} {hdst : dst.view.WordExact}
    (hcr : dst.view.dmaCredit = N)
    {α : Type} {Q : α → sProp 𝕄} {kont : PUnit → Prog (TpuEff nD τ sig (Elt F) Λ₀ .tc) α} (W : Waits sig Unit) :
    iprop(records m ρ K ∗ cred (tallyAt (recvCell c s) () N) ∗ owes (c : Thread nD τ) 0 W ∗ atPos ER (recvCell c s) 0 ∅ 0)
      ⊢ iprop(((owes (c : Thread nD τ) 0 (insert (SemLoc.dma (recvS s), ()) W) ∗ atPos ER (recvCell c s) 1 ∅ 0
              ∗ slotPts c s fullShare (full m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (recvS s) src dst hsrc hdst) kont) Q) := by
  have hrest : bigSep ((sched (F := F) m ρ).duties (recvCell c s) 0) (fun d => (sched (F := F) m ρ).payload (recvCell c s) 0 d)
      = slotPts c s fullShare (full m ρ c) := by
    have h := rest_recv m ρ c hs
    rw [Finset.sdiff_empty] at h
    exact h
  rw [← hcr]
  iintro ⟨#Hrec, Hcred, HO, Hat⟩ Hk
  ihave #HI := (inv_recv m ρ K c s) $$ Hrec
  sl_exec
  iapply Hk
  isplitl [HO]; · iexact HO
  isplitl [Hat]; · iexact Hat
  iapply (ent_of_eq hrest)
  iexact Hat_pay1

/-- The wait for copy number `j + 1`'s source to have been read, owing nothing: its share of slot 0 comes back. -/
theorem step_sendwait (j : Fin 15) {sp sp' : Space} {sh sh' : Shape} {el el' : EltTy}
    {src : Memref sig .tc sp' sh' el'} {κ' : Kind} {dst : Memref sig κ' sp sh el} {hsrc : src.view.WordExact} {hdst : dst.view.WordExact}
    (hcr : dst.view.dmaCredit = N)
    {α : Type} {Q : α → sProp 𝕄} {kont : PUnit → Prog (TpuEff nD τ sig (Elt F) Λ₀ .tc) α} (W : Waits sig Unit) :
    iprop(records m ρ K ∗ cred (tallyAt (sendCell c j) () N) ∗ owes (c : Thread nD τ) 0 W ∗ atPos ER (sendCell c j) 0 ∅ 0)
      ⊢ iprop(((owes (c : Thread nD τ) 0 (insert (SemLoc.dma (sendS j), ()) W) ∗ atPos ER (sendCell c j) 1 ∅ 0
              ∗ slotPts c 0 (copyShare j.val) (full m ρ c))
            -∗ wp frame (wpE (defs₀ (F := F)) 𝒱₀ (c : Thread nD τ) none) Set.univ (kont ⟨⟩) Q)
          -∗ wp frame (wpE (defs₀ (F := F)) 𝒱₀ (c : Thread nD τ) none) Set.univ (.op (.waitDma2 (sendS j) src dst hsrc hdst) kont) Q) := by
  have hrest : bigSep ((sched (F := F) m ρ).duties (sendCell c j) 0) (fun d => (sched (F := F) m ρ).payload (sendCell c j) 0 d)
      = slotPts c 0 (copyShare j.val) (full m ρ c) := by
    have h := rest_send m ρ c j
    rw [Finset.sdiff_empty] at h
    exact h
  rw [← hcr]
  iintro ⟨#Hrec, Hcred, HO, Hat⟩ Hk
  ihave #HI := (inv_send m ρ K c j) $$ Hrec
  sl_exec
  iapply Hk
  isplitl [HO]; · iexact HO
  isplitl [Hat]; · iexact Hat
  iapply (ent_of_eq hrest)
  iexact Hat_pay1

/-- A cell past its only round, and the unused cell, close: the counter at zero is the device's again. -/
theorem close_send (j : Fin 15) : iprop(records m ρ K ∗ atPos ER (sendCell c j) 1 ∅ 0) ⊢ (|={Set.univ}=> semVal (sendCell c j) 0 : sProp 𝕄) := by
  iintro ⟨#Hrec, Hat⟩
  iapply (Rounds.cell_close ER (sched m ρ) (g := sendCell c j) (κ := K (c, kSend j)) (Set.mem_univ _) (fun h => h) (R := 1)
    (duties_later m ρ (sendCell c j)))
  isplitr; · iapply (inv_send m ρ K c j); iexact Hrec
  iexact Hat
theorem close_recv (s : Fin 16) (hs : s ≠ 0) : iprop(records m ρ K ∗ atPos ER (recvCell c s) 1 ∅ 0) ⊢ (|={Set.univ}=> semVal (recvCell c s) 0 : sProp 𝕄) := by
  iintro ⟨#Hrec, Hat⟩
  iapply (Rounds.cell_close ER (sched m ρ) (g := recvCell c s) (κ := K (c, kRecv s)) (Set.mem_univ _) (fun h => h) (R := 1)
    (duties_later m ρ (recvCell c s)))
  isplitr; · iapply (inv_recv m ρ K c s); iexact Hrec
  iexact Hat
theorem close_recv0 : iprop(records m ρ K ∗ atPos ER (recvCell c 0) 0 ∅ 0) ⊢ (|={Set.univ}=> semVal (recvCell c 0) 0 : sProp 𝕄) := by
  iintro ⟨#Hrec, Hat⟩
  iapply (Rounds.cell_close ER (sched m ρ) (g := recvCell c 0) (κ := K (c, kRecv 0)) (Set.mem_univ _) (fun h => h) (R := 0)
    (fun r _ => duties_recv0 m ρ c r))
  isplitr; · iapply (inv_recv m ρ K c 0); iexact Hrec
  iexact Hat

end Steps

/-- info: 'Cert.KernelIdeal.Hand.step_signal' depends on axioms: [propext, Classical.choice, Quot.sound] -/
#guard_msgs in #print axioms step_signal

/-- info: 'Cert.KernelIdeal.Hand.step_barwait' depends on axioms: [propext, Classical.choice, Quot.sound] -/
#guard_msgs in #print axioms step_barwait

/-- info: 'Cert.KernelIdeal.Hand.step_send' depends on axioms: [propext, Classical.choice, Quot.sound] -/
#guard_msgs in #print axioms step_send

/-- info: 'Cert.KernelIdeal.Hand.step_recvwait' depends on axioms: [propext, Classical.choice, Quot.sound] -/
#guard_msgs in #print axioms step_recvwait

/-- info: 'Cert.KernelIdeal.Hand.step_sendwait' depends on axioms: [propext, Classical.choice, Quot.sound] -/
#guard_msgs in #print axioms step_sendwait

/-- info: 'Cert.KernelIdeal.Hand.close_send' depends on axioms: [propext, Classical.choice, Quot.sound] -/
#guard_msgs in #print axioms close_send

/-- info: 'Cert.KernelIdeal.Hand.close_recv' depends on axioms: [propext, Classical.choice, Quot.sound] -/
#guard_msgs in #print axioms close_recv

/-- info: 'Cert.KernelIdeal.Hand.close_recv0' depends on axioms: [propext, Classical.choice, Quot.sound] -/
#guard_msgs in #print axioms close_recv0

end Cert.KernelIdeal.Hand

end
-- ==== Proof.KernelIdeal.Seg1.lean ====
/-
  The body's first stretch: the fifteen signals, the column maxima into slot 0, the barrier wait.

  The device cuts its exchange buffer into its sixteen slots. Signal number e hands slot e to the peer at offset e (through
  the duty opp e of that peer's barrier cell) and peels one unit off what the device owes. It loads its block, reduces it
  to its column maxima and stores them into slot 0. It then waits for all fifteen units on its own barrier cell, still
  owing the fifteen receive credits, which sit above the barrier cell; the wait returns the fifteen peers' payloads.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots
import proofs.«900908_g7700000000000909_dist_max_ax0_shard0_i_m1536_n768_v7x_i16_bf16_1_alg».proof.Proof.KernelIdeal.Steps
import proofs.«900908_g7700000000000909_dist_max_ax0_shard0_i_m1536_n768_v7x_i16_bf16_1_alg».proof.Proof.KernelIdeal.Stages

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Seg
variable (K : Dev nD × Fin 32 → ℕ) (c : Dev nD)

omit [FloatOps F] in
private theorem bigSep_fin16 (Φ : Fin 16 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ

omit [FloatOps F] in
private theorem bigSep_fin16e (Φ : Fin 16 → sProp 𝕄) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

set_option hygiene false in
/-- One signal: the unit to the peer at offset `e`, paid with the duty token `Ht`, handing over the slot `Hs`. -/
local macro "seg1_signal" e:term:max n:term:max Ht:ident Hs:ident : tactic => `(tactic| (
  iapply (step_signal m ρ K c $e (by decide) $n (by decide) (show (1#32).toNat = 1 by decide) W f) $$ [Howes $Ht:ident $Hs:ident]
  · isplitr
    · iexact Hrec
    isplitl [Howes]
    · iexact Howes
    isplitl [$Ht:ident]
    · iexact $Ht
    · iexact $Hs
  iintro Howes))

set_option hygiene false in
local macro "seg1_part" t:term:max s:ident : tactic => `(tactic| (
  simp only [$t:term]; unfold $s:ident
  simp only [semSignalWord, semWaitWord, Prog.lift, Prog.bind_op, Prog.bind_ret, Prog.pure_eq_ret]))

/-- The input staging buffer holds the device's block: window 0 is fetched at the one grid point. -/
private theorem before_x (c : Dev nD) (d : (cfg0.win 0).block.Idx → Elt F (cfg0.win 0).elt) :
    (dats m ρ 0 c).before (0 : Fin 2) t₀ d = xblk m ρ c := by
  rw [(dats m ρ 0 c).before_fetched 0 t₀ (fetch0_0 t₀)]
  unfold Dat.fetched Dat.blockOf
  rfl

omit [FloatOps F] in
/-- Slot 0 held through the squeezed slice is slot 0 held through its rectangle of the buffer: the same location. -/
private theorem slot0_access (c : Dev nD) (g : Buf (Elt F) ((slotM 0).view.loc (c : Thread nD τ))) :
    slotPts (F := F) c 0 fullShare g
      = (((rM : Memref sig .tc .vmem S16x1x768 .f32).access (Rect.unit (s := S16x1x768) ![0, 0, 0] S1x1x768.size inb_S16x1x768_S1x1x768_0_0_0) : View sig .tc .vmem _ .f32).loc (c : Thread nD τ)
          ↦[(slotM 0).view.set]{fullShare} g) := rfl

theorem seg1 {α : Type} (Kt : α → sProp 𝕄) (kont : Dev nD → BitVec 32 → BitVec 32 → Prog (TpuEff nD τ sig (Elt F) Λ₀ .tc) α) :
    iprop(bodyPre m ρ K c ∗ (∀ v2 v216, (∃ W, stageB m ρ K c W) -∗ wp frame (wpE (defs₀ (F := F)) 𝒱₀ (c : Thread nD τ) none) Set.univ (kont c v2 v216) Kt))
      ⊢ wp frame (wpE (defs₀ (F := F)) 𝒱₀ (c : Thread nD τ) none) Set.univ (seg1Prog (Memref.whole cc0_stg0_0) (Memref.isWhole_whole _) (Memref.whole cc0_stg1_0) (Memref.isWhole_whole _) (Memref.whole cc0_scratch0) (Memref.isWhole_whole _) cc0_scratch1 cc0_scratch2 kont) Kt := by
  unfold seg1Prog bodyPre ghost linear
  iintro ⟨⟨⟨⟨#Hrec, Hbar, Hsend, Hrecv, HtokB, HtokS, HtokR⟩, Hcred, HcredR, #Hlev, ⟨%f, Hscr⟩⟩, ⟨%W, %hW, Howes⟩, ⟨%d0, %fx, %hfx, Hx⟩, ⟨%d1, %fo, %hfo, Ho⟩⟩, Hk⟩
  ihave Hslots := (Entails.of_eq (scr_split c f)) $$ Hscr
  ihave Hslots := (Entails.of_eq (bigSep_fin16 _)) $$ Hslots
  icases Hslots with ⟨Hs0, Hs1, Hs2, Hs3, Hs4, Hs5, Hs6, Hs7, Hs8, Hs9, Hs10, Hs11, Hs12, Hs13, Hs14, Hs15⟩
  ihave HtokB := (Entails.of_eq (bigSep_fin16e _)) $$ HtokB
  icases HtokB with ⟨Ht1, Ht2, Ht3, Ht4, Ht5, Ht6, Ht7, Ht8, Ht9, Ht10, Ht11, Ht12, Ht13, Ht14, Ht15⟩
  simp only [k0_part1_eq_skeleton]; unfold k0_part1_skel
  simp only [semSignalWord, semWaitWord, Prog.lift, Prog.bind_op, Prog.bind_ret, Prog.pure_eq_ret, wp_deviceId]
  simp only [dev_sig1 c, dev_sig2 c]
  seg1_signal 1 14 Ht1 Hs1
  seg1_signal 2 13 Ht2 Hs2
  seg1_part k0_part2_eq_skeleton k0_part2_skel
  simp only [dev_sig3 c, dev_sig4 c]
  seg1_signal 3 12 Ht3 Hs3
  seg1_signal 4 11 Ht4 Hs4
  seg1_part k0_part3_eq_skeleton k0_part3_skel
  simp only [dev_sig5 c, dev_sig6 c, dev_sig7 c]
  seg1_signal 5 10 Ht5 Hs5
  seg1_signal 6 9 Ht6 Hs6
  seg1_signal 7 8 Ht7 Hs7
  seg1_part k0_part4_eq_skeleton k0_part4_skel
  simp only [dev_sig8 c, dev_sig9 c]
  seg1_signal 8 7 Ht8 Hs8
  seg1_signal 9 6 Ht9 Hs9
  seg1_part k0_part5_eq_skeleton k0_part5_skel
  simp only [dev_sig10 c, dev_sig11 c, dev_sig12 c]
  seg1_signal 10 5 Ht10 Hs10
  seg1_signal 11 4 Ht11 Hs11
  seg1_signal 12 3 Ht12 Hs12
  seg1_part k0_part6_eq_skeleton k0_part6_skel
  simp only [dev_sig13 c, dev_sig14 c]
  seg1_signal 13 2 Ht13 Hs13
  seg1_signal 14 1 Ht14 Hs14
  seg1_part k0_part7_eq_skeleton k0_part7_skel
  simp only [dev_sig15 c]
  seg1_signal 15 0 Ht15 Hs15
  -- the block, read whole
  have hx : fx = xblk m ρ c := hfx.trans (before_x m ρ c d0)
  subst hx
  iapply (wp_load (defs := defs₀ (F := F)) 𝒱₀ (c : Thread nD τ) none Set.univ (m := xM) (S := Finset.univ) (q := fullShare)
    (f := xblk m ρ c) (Finset.subset_univ _)) $$ [Hx]
  · iexact Hx
  iintro Hx
  rw [read_x]
  -- slot 0, read through its rectangle (the value is not used)
  ihave Hs0 := (Entails.of_eq (slot0_access c f)) $$ Hs0
  iapply (wp_load_rect (defs := defs₀ (F := F)) 𝒱₀ (c : Thread nD τ) none Set.univ (m := rM)
    (r := Rect.unit (s := S16x1x768) ![0, 0, 0] S1x1x768.size inb_S16x1x768_S1x1x768_0_0_0)
    (S := (slotM 0).view.set) (q := fullShare) (f := f) (access_set 0).subset) $$ [Hs0]
  · iexact Hs0
  iintro Hs0
  -- the column maxima into slot 0
  iapply (wp_store (defs := defs₀ (F := F)) 𝒱₀ (c : Thread nD τ) none Set.univ (m := rM)
    (r := Rect.unit (s := S16x1x768) ![0, 0, 0] S1x1x768.size inb_S16x1x768_S1x1x768_0_0_0)
    (S := (slotM 0).view.set) (f := f) (access_set 0).subset) $$ [Hs0]
  · iexact Hs0
  iintro Hs0
  ihave Hs0 := (Entails.of_eq (slot0_access c _).symm) $$ Hs0
  ihave Hs0 := (Entails.of_eq (store_slot0 m ρ c f)) $$ Hs0
  -- the barrier wait
  iapply (step_barwait m ρ K c (show (15#32).toNat = 15 by decide) W) $$ [Hcred Howes Hbar]
  · isplitr
    · iexact Hrec
    isplitr
    · iexact Hlev
    isplitl [Hcred]
    · iexact Hcred
    isplitl [Howes]
    · iexact Howes
    · iexact Hbar
  iintro ⟨Howes, Hbar, Hpay⟩
  -- the next stretch
  iapply Hk
  iexists (insert (SemLoc.reg barS, ()) W)
  unfold stageB stgs
  isplitr
  · iexact Hrec
  isplitr
  · iexact Hlev
  isplitl [Hx Ho]
  · isplitl [Hx]
    · iexact Hx
    · iexists fo
      iexact Ho
  isplitl [Howes]
  · iexact Howes
  isplitl [Hs0]
  · iexact Hs0
  isplitl [Hpay]
  · iexact Hpay
  isplitl [Hsend]
  · iexact Hsend
  isplitl [Hrecv]
  · iexact Hrecv
  isplitl [HtokS]
  · iexact HtokS
  isplitl [HtokR]
  · iexact HtokR
  · iexact HcredR

end Seg

/-- info: 'Cert.KernelIdeal.Hand.seg1' depends on axioms: [propext, Classical.choice, Quot.sound] -/
#guard_msgs in #print axioms seg1

end Cert.KernelIdeal.Hand

end
-- ==== Proof.KernelIdeal.Seg2.lean ====
/-
  The body's second stretch: the fifteen copies, and the waits for the copies into slots 15 and 14.

  Copy number e takes the left half of what is left of slot 0's share, pays the duty of send cell e - 1 and the duty of
  the receive cell for slot opp e of the peer at offset e, whose slot the peer's barrier unit handed over; it peels that
  receive credit off what the device owes and returns the send cell's credit. After the fifteenth the device owes nothing,
  and waits for the copies into its own slots 15 and 14.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots
import proofs.«900908_g7700000000000909_dist_max_ax0_shard0_i_m1536_n768_v7x_i16_bf16_1_alg».proof.Proof.KernelIdeal.Steps
import proofs.«900908_g7700000000000909_dist_max_ax0_shard0_i_m1536_n768_v7x_i16_bf16_1_alg».proof.Proof.KernelIdeal.Stages

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Finite conjunctions, listed -/

omit [FloatOps F] in
private theorem bigSep_off (Φ : Fin 16 → sProp 𝕄) : bigSep (Finset.univ.erase 0) Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ
omit [FloatOps F] in
private theorem bigSep_fin15 (Φ : Fin 15 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
omit [FloatOps F] in
private theorem bigSep_fin16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
omit [FloatOps F] in
private theorem bigSep_low (Φ : Fin 16 → sProp 𝕄) : bigSep lowSlots Φ
    = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq [1, 2, 3, 4, 5, 6, 7, 8, 9, 10, 11, 12, 13] (by decide) (by decide) Φ
omit [FloatOps F] in
private theorem bigSep_high (Φ : Fin 16 → sProp 𝕄) : bigSep highSlots Φ = iprop(Φ 14 ∗ Φ 15) :=
  bigSep_eq_bigSepL_of_eq [14, 15] (by decide) (by decide) Φ

/-! ## The copy's step with the destination device named as the program computes it -/

section Send

/-- `step_send` with the destination device given as any device equal to the peer at offset `e`. -/
private theorem step_send_at (K : Dev nD × Fin 32 → ℕ) (c : Dev nD) (e : Fin 16) (he : e ≠ 0) (n : ℕ) (hn : fin16 (15 - n) = e) (j : Fin 15) (hj : j.val + 1 = e.val)
    (d' : Dev nD) (hd : d' = peer c e)
    {hsc : (slotM (opp e) : Memref sig (Dev.tc d' : Thread nD τ).2.kind .vmem S1x768 .f32).view.ref.isScScratch = false}
    {hsrc : (slotM 0).view.WordExact} {hdst : (slotM (opp e)).view.WordExact}
    {hsem : DmaTarget.Typed .vmem (.dma (recvS (opp e))) (.remote (Dev.tc d' : Thread nD τ) (slotM (opp e)) (.dma (sendS j)) hsc)}
    {α : Type} {Q : α → sProp 𝕄} {kont : PUnit → Prog (TpuEff nD τ sig (Elt F) Λ₀ .tc) α} (W : Waits sig Unit)
    (fn : Buf (Elt F) ((slotM (opp e)).view.loc (peer c e : Thread nD τ))) :
    iprop(records m ρ K ∗ slotPts c 0 (copyShare j.val) (full m ρ c) ∗ slotPts (peer c e) (opp e) fullShare fn
        ∗ owes (c : Thread nD τ) (oweX c (n + 1)) W
        ∗ dutyTok ER (sendCell c j) 0 0 ∗ dutyTok ER (recvCell (peer c e) (opp e)) 0 0)
      ⊢ iprop(((cred (tallyAt (sendCell c j) () N) ∗ owes (c : Thread nD τ) (oweX c n) W) -∗ wp frame (wpE (defs₀ (F := F)) 𝒱₀ (c : Thread nD τ) none) Set.univ (kont ⟨⟩) Q)
          -∗ wp frame (wpE (defs₀ (F := F)) 𝒱₀ (c : Thread nD τ) none) Set.univ
              (.op (.enqueueDma (slotM 0) (.remote (Dev.tc d' : Thread nD τ) (slotM (opp e)) (.dma (sendS j)) hsc) (.dma (recvS (opp e))) hsrc hdst hsem) kont) Q) := by
  subst hd
  exact step_send m ρ K c e he n hn j hj W fn

end Send

omit [FloatOps F] in
/-- Before the first copy all of slot 0's share is left. -/
private theorem slot0_start (c : Dev nD) (f : Buf (Elt F) ((slotM 0).view.loc (c : Thread nD τ))) :
    slotPts (F := F) c 0 fullShare f ⊢ slotPts c 0 (restShare 0) f := .rfl

omit [FloatOps F] in
/-- After the fifteenth copy nothing is owed. -/
private theorem owes_done (c : Dev nD) (W : Waits sig Unit) :
    (owes (c : Thread nD τ) (oweX c 0) W : sProp 𝕄) ⊢ owes (c : Thread nD τ) 0 W := .rfl

/-! ## One copy: split slot 0's share, issue the copy, take back the send cell's credit and what is still owed -/

set_option hygiene false in
local macro "seg2_copy_step " e:num n:num j:num hd:ident Hb:ident Ht:ident Hr:ident Hcr:ident : tactic => `(tactic| (
  icases $Hb:ident with ⟨⟨%fn, Hn⟩, -⟩
  ihave Hsp := (share_step c $j (full m ρ c)).1 $$ Hs0
  icases Hsp with ⟨Hcp, Hs0⟩
  iapply (step_send_at m ρ K c $e (by decide) $n (by decide) $j (by decide) _ ($hd c) W fn) $$ [Hcp Hn Ho $Ht:ident $Hr:ident]
  · isplitr; · iexact Hrec
    isplitl [Hcp]; · iexact Hcp
    isplitl [Hn]; · iexact Hn
    isplitl [Ho]; · iexact Ho
    isplitl [$Ht:ident]; · iexact $Ht:ident
    iexact $Hr:ident
  iintro ⟨$Hcr:ident, Ho⟩))

section Seg
variable (K : Dev nD × Fin 32 → ℕ) (c : Dev nD)

theorem seg2 {α : Type} (Kt : α → sProp 𝕄) (v2 v216 : BitVec 32) (kont : (v279 v300 v321 v342 v363 v384 v405 v426 v447 v468 v489 v510 : BitVec 32) → Prog (TpuEff nD τ sig (Elt F) Λ₀ .tc) α) (W : Waits sig Unit) :
    iprop(stageB m ρ K c W ∗ (∀ v279 v300 v321 v342 v363 v384 v405 v426 v447 v468 v489 v510, (∃ W', stageC m ρ K c W') -∗ wp frame (wpE (defs₀ (F := F)) 𝒱₀ (c : Thread nD τ) none) Set.univ (kont v279 v300 v321 v342 v363 v384 v405 v426 v447 v468 v489 v510) Kt))
      ⊢ wp frame (wpE (defs₀ (F := F)) 𝒱₀ (c : Thread nD τ) none) Set.univ (seg2Prog (Memref.whole cc0_stg0_0) (Memref.isWhole_whole _) (Memref.whole cc0_stg1_0) (Memref.isWhole_whole _) (Memref.whole cc0_scratch0) (Memref.isWhole_whole _) cc0_scratch1 cc0_scratch2 c v2 v216 kont) Kt := by
  -- what the device holds at the start of the stretch, every finite conjunction listed
  unfold seg2Prog stageB barPay
  simp only [bigSep_off, bigSep_fin15, bigSep_fin16]
  iintro ⟨⟨#Hrec, HL, Hstg, Ho, Hs0, ⟨Hb1, Hb2, Hb3, Hb4, Hb5, Hb6, Hb7, Hb8, Hb9, Hb10, Hb11, Hb12, Hb13, Hb14, Hb15⟩,
    ⟨Hsa0, Hsa1, Hsa2, Hsa3, Hsa4, Hsa5, Hsa6, Hsa7, Hsa8, Hsa9, Hsa10, Hsa11, Hsa12, Hsa13, Hsa14⟩,
    ⟨Hra0, Hra1, Hra2, Hra3, Hra4, Hra5, Hra6, Hra7, Hra8, Hra9, Hra10, Hra11, Hra12, Hra13, Hra14, Hra15⟩,
    ⟨Ht0, Ht1, Ht2, Ht3, Ht4, Ht5, Ht6, Ht7, Ht8, Ht9, Ht10, Ht11, Ht12, Ht13, Ht14⟩,
    ⟨Hr1, Hr2, Hr3, Hr4, Hr5, Hr6, Hr7, Hr8, Hr9, Hr10, Hr11, Hr12, Hr13, Hr14, Hr15⟩,
    ⟨Hc1, Hc2, Hc3, Hc4, Hc5, Hc6, Hc7, Hc8, Hc9, Hc10, Hc11, Hc12, Hc13, Hc14, Hc15⟩⟩, Hk⟩
  ihave Hs0 := (slot0_start c (full m ρ c)) $$ Hs0
  -- the fifteen copies, in program order
  simp only [k0_part8_eq_skeleton]; unfold k0_part8_skel
  simp only [Prog.lift, Prog.bind_op, Prog.bind_ret, Prog.pure_eq_ret]
  seg2_copy_step 1 14 0 dev_xfer1 Hb1 Ht0 Hr1 Hd0
  seg2_copy_step 2 13 1 dev_xfer2 Hb2 Ht1 Hr2 Hd1
  simp only [k0_part9_eq_skeleton]; unfold k0_part9_skel
  simp only [Prog.lift, Prog.bind_op, Prog.bind_ret, Prog.pure_eq_ret]
  seg2_copy_step 3 12 2 dev_xfer3 Hb3 Ht2 Hr3 Hd2
  seg2_copy_step 4 11 3 dev_xfer4 Hb4 Ht3 Hr4 Hd3
  simp only [k0_part10_eq_skeleton]; unfold k0_part10_skel
  simp only [Prog.lift, Prog.bind_op, Prog.bind_ret, Prog.pure_eq_ret]
  seg2_copy_step 5 10 4 dev_xfer5 Hb5 Ht4 Hr5 Hd4
  simp only [k0_part11_eq_skeleton]; unfold k0_part11_skel
  simp only [Prog.lift, Prog.bind_op, Prog.bind_ret, Prog.pure_eq_ret]
  seg2_copy_step 6 9 5 dev_xfer6 Hb6 Ht5 Hr6 Hd5
  seg2_copy_step 7 8 6 dev_xfer7 Hb7 Ht6 Hr7 Hd6
  simp only [k0_part12_eq_skeleton]; unfold k0_part12_skel
  simp only [Prog.lift, Prog.bind_op, Prog.bind_ret, Prog.pure_eq_ret]
  seg2_copy_step 8 7 7 dev_xfer8 Hb8 Ht7 Hr8 Hd7
  simp only [k0_part13_eq_skeleton]; unfold k0_part13_skel
  simp only [Prog.lift, Prog.bind_op, Prog.bind_ret, Prog.pure_eq_ret]
  seg2_copy_step 9 6 8 dev_xfer9 Hb9 Ht8 Hr9 Hd8
  seg2_copy_step 10 5 9 dev_xfer10 Hb10 Ht9 Hr10 Hd9
  simp only [k0_part14_eq_skeleton]; unfold k0_part14_skel
  simp only [Prog.lift, Prog.bind_op, Prog.bind_ret, Prog.pure_eq_ret]
  seg2_copy_step 11 4 10 dev_xfer11 Hb11 Ht10 Hr11 Hd10
  simp only [k0_part15_eq_skeleton]; unfold k0_part15_skel
  simp only [Prog.lift, Prog.bind_op, Prog.bind_ret, Prog.pure_eq_ret]
  seg2_copy_step 12 3 11 dev_xfer12 Hb12 Ht11 Hr12 Hd11
  seg2_copy_step 13 2 12 dev_xfer13 Hb13 Ht12 Hr13 Hd12
  simp only [k0_part16_eq_skeleton]; unfold k0_part16_skel
  simp only [Prog.lift, Prog.bind_op, Prog.bind_ret, Prog.pure_eq_ret]
  seg2_copy_step 14 1 13 dev_xfer14 Hb14 Ht13 Hr14 Hd13
  simp only [k0_part17_eq_skeleton]; unfold k0_part17_skel
  simp only [Prog.lift, Prog.bind_op, Prog.bind_ret, Prog.pure_eq_ret]
  seg2_copy_step 15 0 14 dev_xfer15 Hb15 Ht14 Hr15 Hd14
  -- nothing is owed any more: the waits for the copies into slots 15 and 14
  ihave Ho := (owes_done (F := F) c W) $$ Ho
  iapply (step_recvwait m ρ K c 15 (by decide) (dst := slotM 15) (hcr := rfl) W) $$ [Hc15 Ho Hra15]
  · isplitr; · iexact Hrec
    isplitl [Hc15]; · iexact Hc15
    isplitl [Ho]; · iexact Ho
    iexact Hra15
  iintro ⟨Ho, Hra15, Hs15⟩
  iapply (step_recvwait m ρ K c 14 (by decide) (dst := slotM 14) (hcr := rfl) (insert (SemLoc.dma (recvS 15), ()) W)) $$ [Hc14 Ho Hra14]
  · isplitr; · iexact Hrec
    isplitl [Hc14]; · iexact Hc14
    isplitl [Ho]; · iexact Ho
    iexact Hra14
  iintro ⟨Ho, Hra14, Hs14⟩
  -- the continuation, from what the device holds now
  iapply Hk
  iexists (insert (SemLoc.dma (recvS 14), ()) (insert (SemLoc.dma (recvS 15), ()) W))
  unfold stageC
  simp only [bigSep_fin15, bigSep_low, bigSep_high]
  isplitr; · iexact Hrec
  isplitl [HL]; · iexact HL
  isplitl [Hstg]; · iexact Hstg
  isplitl [Ho]; · iexact Ho
  isplitl [Hs0]; · iexact Hs0
  isplitl [Hd0 Hd1 Hd2 Hd3 Hd4 Hd5 Hd6 Hd7 Hd8 Hd9 Hd10 Hd11 Hd12 Hd13 Hd14]
  · isplitl [Hd0]; · iexact Hd0
    isplitl [Hd1]; · iexact Hd1
    isplitl [Hd2]; · iexact Hd2
    isplitl [Hd3]; · iexact Hd3
    isplitl [Hd4]; · iexact Hd4
    isplitl [Hd5]; · iexact Hd5
    isplitl [Hd6]; · iexact Hd6
    isplitl [Hd7]; · iexact Hd7
    isplitl [Hd8]; · iexact Hd8
    isplitl [Hd9]; · iexact Hd9
    isplitl [Hd10]; · iexact Hd10
    isplitl [Hd11]; · iexact Hd11
    isplitl [Hd12]; · iexact Hd12
    isplitl [Hd13]; · iexact Hd13
    iexact Hd14
  isplitl [Hsa0 Hsa1 Hsa2 Hsa3 Hsa4 Hsa5 Hsa6 Hsa7 Hsa8 Hsa9 Hsa10 Hsa11 Hsa12 Hsa13 Hsa14]
  · isplitl [Hsa0]; · iexact Hsa0
    isplitl [Hsa1]; · iexact Hsa1
    isplitl [Hsa2]; · iexact Hsa2
    isplitl [Hsa3]; · iexact Hsa3
    isplitl [Hsa4]; · iexact Hsa4
    isplitl [Hsa5]; · iexact Hsa5
    isplitl [Hsa6]; · iexact Hsa6
    isplitl [Hsa7]; · iexact Hsa7
    isplitl [Hsa8]; · iexact Hsa8
    isplitl [Hsa9]; · iexact Hsa9
    isplitl [Hsa10]; · iexact Hsa10
    isplitl [Hsa11]; · iexact Hsa11
    isplitl [Hsa12]; · iexact Hsa12
    isplitl [Hsa13]; · iexact Hsa13
    iexact Hsa14
  isplitl [Hra0]; · iexact Hra0
  isplitl [Hc1 Hc2 Hc3 Hc4 Hc5 Hc6 Hc7 Hc8 Hc9 Hc10 Hc11 Hc12 Hc13 Hra1 Hra2 Hra3 Hra4 Hra5 Hra6 Hra7 Hra8 Hra9 Hra10 Hra11 Hra12 Hra13]
  · isplitl [Hc1 Hra1]; · (isplitl [Hc1]; · iexact Hc1); iexact Hra1
    isplitl [Hc2 Hra2]; · (isplitl [Hc2]; · iexact Hc2); iexact Hra2
    isplitl [Hc3 Hra3]; · (isplitl [Hc3]; · iexact Hc3); iexact Hra3
    isplitl [Hc4 Hra4]; · (isplitl [Hc4]; · iexact Hc4); iexact Hra4
    isplitl [Hc5 Hra5]; · (isplitl [Hc5]; · iexact Hc5); iexact Hra5
    isplitl [Hc6 Hra6]; · (isplitl [Hc6]; · iexact Hc6); iexact Hra6
    isplitl [Hc7 Hra7]; · (isplitl [Hc7]; · iexact Hc7); iexact Hra7
    isplitl [Hc8 Hra8]; · (isplitl [Hc8]; · iexact Hc8); iexact Hra8
    isplitl [Hc9 Hra9]; · (isplitl [Hc9]; · iexact Hc9); iexact Hra9
    isplitl [Hc10 Hra10]; · (isplitl [Hc10]; · iexact Hc10); iexact Hra10
    isplitl [Hc11 Hra11]; · (isplitl [Hc11]; · iexact Hc11); iexact Hra11
    isplitl [Hc12 Hra12]; · (isplitl [Hc12]; · iexact Hc12); iexact Hra12
    isplitl [Hc13]; · iexact Hc13
    iexact Hra13
  isplitl [Hs14 Hra14]
  · isplitl [Hs14]; · iexact Hs14
    iexact Hra14
  isplitl [Hs15]; · iexact Hs15
  iexact Hra15

end Seg

/-- info: 'Cert.KernelIdeal.Hand.seg2' depends on axioms: [propext, Classical.choice, Quot.sound] -/
#guard_msgs in #print axioms seg2

end Cert.KernelIdeal.Hand

end
-- ==== Proof.KernelIdeal.Seg3.lean ====
/-
  The body's third stretch: the waits for the copies into slots 13 down to 1, each returning its slot holding the
  column maxima of the peer at that offset.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots
import proofs.«900908_g7700000000000909_dist_max_ax0_shard0_i_m1536_n768_v7x_i16_bf16_1_alg».proof.Proof.KernelIdeal.Steps
import proofs.«900908_g7700000000000909_dist_max_ax0_shard0_i_m1536_n768_v7x_i16_bf16_1_alg».proof.Proof.KernelIdeal.Stages

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The three index sets, listed -/

omit [FloatOps F] in
private theorem low_open (Φ : Fin 16 → sProp 𝕄) :
    bigSep lowSlots Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_eq_bigSepL_of_eq [1, 2, 3, 4, 5, 6, 7, 8, 9, 10, 11, 12, 13] (by decide) (by decide) Φ
omit [FloatOps F] in
private theorem high_open (Φ : Fin 16 → sProp 𝕄) : bigSep highSlots Φ = iprop(Φ 14 ∗ Φ 15) :=
  bigSep_eq_bigSepL_of_eq [14, 15] (by decide) (by decide) Φ
omit [FloatOps F] in
private theorem all_open (Φ : Fin 16 → sProp 𝕄) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ

section Seg
variable (K : Dev nD × Fin 32 → ℕ) (c : Dev nD)

/-- One wait for the copy into slot `s`, as the program spells it (the destination is slot `s` itself), with the
    grown set of waits left unnamed. -/
private theorem recv_one (s : Fin 16) (hs : s ≠ 0) (W : Waits sig Unit)
    {src : Memref sig .tc .vmem S1x768 .f32} {hsrc : src.view.WordExact} {hdst : (slotM s).view.WordExact}
    {α : Type} {Q : α → sProp 𝕄} {kont : PUnit → Prog (TpuEff nD τ sig (Elt F) Λ₀ .tc) α} :
    records m ρ K ⊢ iprop(cred (tallyAt (recvCell c s) () N) -∗ owes (c : Thread nD τ) 0 W -∗ atPos ER (recvCell c s) 0 ∅ 0
      -∗ ((∃ W' : Waits sig Unit, owes (c : Thread nD τ) 0 W' ∗ atPos ER (recvCell c s) 1 ∅ 0 ∗ slotPts c s fullShare (full m ρ c))
            -∗ wp frame (wpE (defs₀ (F := F)) 𝒱₀ (c : Thread nD τ) none) Set.univ (kont ⟨⟩) Q)
      -∗ wp frame (wpE (defs₀ (F := F)) 𝒱₀ (c : Thread nD τ) none) Set.univ (.op (.waitDma2 (recvS s) src (slotM s) hsrc hdst) kont) Q) := by
  iintro #Hrec Hc HO Ha Hk
  iapply (step_recvwait m ρ K c s hs (dst := slotM s) rfl W) $$ [Hc HO Ha]
  · isplitr; · iexact Hrec
    isplitl [Hc]; · iexact Hc
    isplitl [HO]; · iexact HO
    iexact Ha
  iintro ⟨HO, Ha, Hs⟩
  iapply Hk
  iexists (insert (SemLoc.dma (recvS s), ()) W)
  isplitl [HO]; · iexact HO
  isplitl [Ha] <;> iassumption

theorem seg3 {α : Type} (Kt : α → sProp 𝕄) (v279 v300 v321 v342 v363 v384 v405 v426 v447 v468 v489 v510 : BitVec 32) (kont : Prog (TpuEff nD τ sig (Elt F) Λ₀ .tc) α) (W : Waits sig Unit) :
    iprop(stageC m ρ K c W ∗ ((∃ W', stageD m ρ K c W') -∗ wp frame (wpE (defs₀ (F := F)) 𝒱₀ (c : Thread nD τ) none) Set.univ kont Kt))
      ⊢ wp frame (wpE (defs₀ (F := F)) 𝒱₀ (c : Thread nD τ) none) Set.univ (seg3Prog (Memref.whole cc0_stg0_0) (Memref.isWhole_whole _) (Memref.whole cc0_stg1_0) (Memref.isWhole_whole _) (Memref.whole cc0_scratch0) (Memref.isWhole_whole _) cc0_scratch1 cc0_scratch2 v279 v300 v321 v342 v363 v384 v405 v426 v447 v468 v489 v510 kont) Kt := by
  unfold stageC stageD seg3Prog
  simp only [low_open, high_open, all_open]
  iintro ⟨⟨#Hrec, #Hlev, Hstg, HO, Hs0, Hsc, Hsp, Hr0, ⟨⟨Hc1, Ha1⟩, ⟨Hc2, Ha2⟩, ⟨Hc3, Ha3⟩, ⟨Hc4, Ha4⟩, ⟨Hc5, Ha5⟩, ⟨Hc6, Ha6⟩, ⟨Hc7, Ha7⟩, ⟨Hc8, Ha8⟩, ⟨Hc9, Ha9⟩, ⟨Hc10, Ha10⟩, ⟨Hc11, Ha11⟩, ⟨Hc12, Ha12⟩, ⟨Hc13, Ha13⟩⟩, ⟨Hs14, Ha14⟩, ⟨Hs15, Ha15⟩⟩, Hk⟩
  -- the waits for slots 13, 12, 11
  simp only [k0_part18_eq_skeleton]; unfold k0_part18_skel
  simp only [Prog.lift, Prog.bind_op, Prog.bind_ret, Prog.pure_eq_ret]
  iapply (recv_one m ρ K c 13 (by decide) W) $$ Hrec Hc13 HO Ha13
  iintro ⟨%W13, HO, Ha13, Hs13⟩
  iapply (recv_one m ρ K c 12 (by decide) W13) $$ Hrec Hc12 HO Ha12
  iintro ⟨%W12, HO, Ha12, Hs12⟩
  iapply (recv_one m ρ K c 11 (by decide) W12) $$ Hrec Hc11 HO Ha11
  iintro ⟨%W11, HO, Ha11, Hs11⟩
  -- the waits for slots 10, 9, 8, 7
  simp only [k0_part19_eq_skeleton]; unfold k0_part19_skel
  simp only [Prog.lift, Prog.bind_op, Prog.bind_ret, Prog.pure_eq_ret]
  iapply (recv_one m ρ K c 10 (by decide) W11) $$ Hrec Hc10 HO Ha10
  iintro ⟨%W10, HO, Ha10, Hs10⟩
  iapply (recv_one m ρ K c 9 (by decide) W10) $$ Hrec Hc9 HO Ha9
  iintro ⟨%W9, HO, Ha9, Hs9⟩
  iapply (recv_one m ρ K c 8 (by decide) W9) $$ Hrec Hc8 HO Ha8
  iintro ⟨%W8, HO, Ha8, Hs8⟩
  iapply (recv_one m ρ K c 7 (by decide) W8) $$ Hrec Hc7 HO Ha7
  iintro ⟨%W7, HO, Ha7, Hs7⟩
  -- the waits for slots 6, 5, 4
  simp only [k0_part20_eq_skeleton]; unfold k0_part20_skel
  simp only [Prog.lift, Prog.bind_op, Prog.bind_ret, Prog.pure_eq_ret]
  iapply (recv_one m ρ K c 6 (by decide) W7) $$ Hrec Hc6 HO Ha6
  iintro ⟨%W6, HO, Ha6, Hs6⟩
  iapply (recv_one m ρ K c 5 (by decide) W6) $$ Hrec Hc5 HO Ha5
  iintro ⟨%W5, HO, Ha5, Hs5⟩
  iapply (recv_one m ρ K c 4 (by decide) W5) $$ Hrec Hc4 HO Ha4
  iintro ⟨%W4, HO, Ha4, Hs4⟩
  -- the waits for slots 3, 2, 1
  simp only [k0_part21_eq_skeleton]; unfold k0_part21_skel
  simp only [Prog.lift, Prog.bind_op, Prog.bind_ret, Prog.pure_eq_ret]
  iapply (recv_one m ρ K c 3 (by decide) W4) $$ Hrec Hc3 HO Ha3
  iintro ⟨%W3, HO, Ha3, Hs3⟩
  iapply (recv_one m ρ K c 2 (by decide) W3) $$ Hrec Hc2 HO Ha2
  iintro ⟨%W2, HO, Ha2, Hs2⟩
  iapply (recv_one m ρ K c 1 (by decide) W2) $$ Hrec Hc1 HO Ha1
  iintro ⟨%W1, HO, Ha1, Hs1⟩
  -- every slot has landed
  iapply Hk
  iexists W1
  isplitr; · iexact Hrec
  isplitr; · iexact Hlev
  isplitl [Hstg]; · iexact Hstg
  isplitl [HO]; · iexact HO
  isplitl [Hs0]; · iexact Hs0
  isplitl [Hsc]; · iexact Hsc
  isplitl [Hsp]; · iexact Hsp
  isplitl [Hr0]; · iexact Hr0
  isplitl [Hs1 Ha1]; · isplitl [Hs1] <;> iassumption
  isplitl [Hs2 Ha2]; · isplitl [Hs2] <;> iassumption
  isplitl [Hs3 Ha3]; · isplitl [Hs3] <;> iassumption
  isplitl [Hs4 Ha4]; · isplitl [Hs4] <;> iassumption
  isplitl [Hs5 Ha5]; · isplitl [Hs5] <;> iassumption
  isplitl [Hs6 Ha6]; · isplitl [Hs6] <;> iassumption
  isplitl [Hs7 Ha7]; · isplitl [Hs7] <;> iassumption
  isplitl [Hs8 Ha8]; · isplitl [Hs8] <;> iassumption
  isplitl [Hs9 Ha9]; · isplitl [Hs9] <;> iassumption
  isplitl [Hs10 Ha10]; · isplitl [Hs10] <;> iassumption
  isplitl [Hs11 Ha11]; · isplitl [Hs11] <;> iassumption
  isplitl [Hs12 Ha12]; · isplitl [Hs12] <;> iassumption
  isplitl [Hs13 Ha13]; · isplitl [Hs13] <;> iassumption
  isplitl [Hs14 Ha14]; · isplitl [Hs14] <;> iassumption
  isplitl [Hs15] <;> iassumption

end Seg

/-- info: 'Cert.KernelIdeal.Hand.seg3' depends on axioms: [propext, Classical.choice, Quot.sound] -/
#guard_msgs in #print axioms seg3

end Cert.KernelIdeal.Hand

end
-- ==== Proof.KernelIdeal.Seg4.lean ====
/-
  The body's last stretch: the fifteen waits for the copies' sources, the cells closed, the result.

  Each wait returns the share of slot 0 its copy was issued with; joined in reverse order they make the full share again.
  Every send cell, every receive cell in use (past its round) and the unused one (never opened) is closed: the
  thirty-one counters are at zero. The sixteen slots are the whole buffer again, holding the finished contents; the body
  loads it, reduces over the sixteen slots and stores the result.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots
import proofs.«900908_g7700000000000909_dist_max_ax0_shard0_i_m1536_n768_v7x_i16_bf16_1_alg».proof.Proof.KernelIdeal.Steps
import proofs.«900908_g7700000000000909_dist_max_ax0_shard0_i_m1536_n768_v7x_i16_bf16_1_alg».proof.Proof.KernelIdeal.Stages

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Finite conjunctions as chains

A conjunction over all of `Fin 15`, `Fin 16`, `Fin 31`, or over `Fin 16` without `0`, written out member by member. -/

section Lists
variable {M : Type _} [URA M]

private theorem univ15 (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide) (by decide) Φ
private theorem erase16 (Φ : Fin 16 → sProp M) :
    bigSep (Finset.univ.erase 0) Φ = iprop(Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_eq_bigSepL_of_eq [1, 2, 3, 4, 5, 6, 7, 8, 9, 10, 11, 12, 13, 14, 15] (by decide) (by decide) Φ
private theorem univ16 (Φ : Fin 16 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
private theorem univ31 (Φ : Fin 31 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide) (by decide) Φ
end Lists

variable (m : (ℓ : Loc nD τ sig) → Buf (Elt F) ℓ) (ρ : Dev nD → PrngReg)

section Seg
variable (K : Dev nD × Fin 32 → ℕ) (c : Dev nD)

theorem seg4 (Kt : PUnit → sProp 𝕄) (W : Waits sig Unit) :
    iprop(stageD m ρ K c W ∗ (bodyPost m ρ c -∗ Kt ⟨⟩))
      ⊢ wp frame (wpE (defs₀ (F := F)) 𝒱₀ (c : Thread nD τ) none) Set.univ (seg4Prog (F := F) (Memref.whole cc0_stg0_0) (Memref.isWhole_whole _) (Memref.whole cc0_stg1_0) (Memref.isWhole_whole _) (Memref.whole cc0_scratch0) (Memref.isWhole_whole _) cc0_scratch1 cc0_scratch2) Kt := by
  unfold seg4Prog stageD stgs
  simp only [univ15, erase16]
  -- what the device holds, member by member: per send cell its credit and its position, per slot 1 … 15 the slot and its
  -- cell's position
  iintro ⟨⟨#HR, HL, ⟨Hx, ⟨%g, Hout⟩⟩, Ho, H0, ⟨Hc0, Hc1, Hc2, Hc3, Hc4, Hc5, Hc6, Hc7, Hc8, Hc9, Hc10, Hc11, Hc12, Hc13, Hc14⟩, ⟨Ha0, Ha1, Ha2, Ha3, Ha4, Ha5, Ha6, Ha7, Ha8, Ha9, Ha10, Ha11, Ha12, Ha13, Ha14⟩, Hr0, ⟨⟨Hs1, Hp1⟩, ⟨Hs2, Hp2⟩, ⟨Hs3, Hp3⟩, ⟨Hs4, Hp4⟩, ⟨Hs5, Hp5⟩, ⟨Hs6, Hp6⟩, ⟨Hs7, Hp7⟩, ⟨Hs8, Hp8⟩, ⟨Hs9, Hp9⟩, ⟨Hs10, Hp10⟩, ⟨Hs11, Hp11⟩, ⟨Hs12, Hp12⟩, ⟨Hs13, Hp13⟩, ⟨Hs14, Hp14⟩, ⟨Hs15, Hp15⟩⟩⟩, Hk⟩
  -- the fifteen waits for the copies' sources, in program order: wait `j` spends send cell `j`'s credit, leaves the cell
  -- past its round and hands back the share `copyShare j` of slot 0
  simp only [k0_part22_eq_skeleton]; unfold k0_part22_skel
  simp only [Prog.lift, Prog.bind_op, Prog.bind_ret, Prog.pure_eq_ret]
  iapply (step_sendwait m ρ K c 0 (hcr := rfl) _) $$ [Hc0 Ho Ha0]
  · isplitr; · iexact HR
    isplitl [Hc0]; · iexact Hc0
    isplitl [Ho]; · iexact Ho
    iexact Ha0
  iintro ⟨Ho, Ha0, Hq0⟩
  iapply (step_sendwait m ρ K c 1 (hcr := rfl) _) $$ [Hc1 Ho Ha1]
  · isplitr; · iexact HR
    isplitl [Hc1]; · iexact Hc1
    isplitl [Ho]; · iexact Ho
    iexact Ha1
  iintro ⟨Ho, Ha1, Hq1⟩
  iapply (step_sendwait m ρ K c 2 (hcr := rfl) _) $$ [Hc2 Ho Ha2]
  · isplitr; · iexact HR
    isplitl [Hc2]; · iexact Hc2
    isplitl [Ho]; · iexact Ho
    iexact Ha2
  iintro ⟨Ho, Ha2, Hq2⟩
  iapply (step_sendwait m ρ K c 3 (hcr := rfl) _) $$ [Hc3 Ho Ha3]
  · isplitr; · iexact HR
    isplitl [Hc3]; · iexact Hc3
    isplitl [Ho]; · iexact Ho
    iexact Ha3
  iintro ⟨Ho, Ha3, Hq3⟩
  simp only [k0_part23_eq_skeleton]; unfold k0_part23_skel
  simp only [Prog.lift, Prog.bind_op, Prog.bind_ret, Prog.pure_eq_ret]
  iapply (step_sendwait m ρ K c 4 (hcr := rfl) _) $$ [Hc4 Ho Ha4]
  · isplitr; · iexact HR
    isplitl [Hc4]; · iexact Hc4
    isplitl [Ho]; · iexact Ho
    iexact Ha4
  iintro ⟨Ho, Ha4, Hq4⟩
  iapply (step_sendwait m ρ K c 5 (hcr := rfl) _) $$ [Hc5 Ho Ha5]
  · isplitr; · iexact HR
    isplitl [Hc5]; · iexact Hc5
    isplitl [Ho]; · iexact Ho
    iexact Ha5
  iintro ⟨Ho, Ha5, Hq5⟩
  iapply (step_sendwait m ρ K c 6 (hcr := rfl) _) $$ [Hc6 Ho Ha6]
  · isplitr; · iexact HR
    isplitl [Hc6]; · iexact Hc6
    isplitl [Ho]; · iexact Ho
    iexact Ha6
  iintro ⟨Ho, Ha6, Hq6⟩
  simp only [k0_part24_eq_skeleton]; unfold k0_part24_skel
  simp only [Prog.lift, Prog.bind_op, Prog.bind_ret, Prog.pure_eq_ret]
  iapply (step_sendwait m ρ K c 7 (hcr := rfl) _) $$ [Hc7 Ho Ha7]
  · isplitr; · iexact HR
    isplitl [Hc7]; · iexact Hc7
    isplitl [Ho]; · iexact Ho
    iexact Ha7
  iintro ⟨Ho, Ha7, Hq7⟩
  iapply (step_sendwait m ρ K c 8 (hcr := rfl) _) $$ [Hc8 Ho Ha8]
  · isplitr; · iexact HR
    isplitl [Hc8]; · iexact Hc8
    isplitl [Ho]; · iexact Ho
    iexact Ha8
  iintro ⟨Ho, Ha8, Hq8⟩
  iapply (step_sendwait m ρ K c 9 (hcr := rfl) _) $$ [Hc9 Ho Ha9]
  · isplitr; · iexact HR
    isplitl [Hc9]; · iexact Hc9
    isplitl [Ho]; · iexact Ho
    iexact Ha9
  iintro ⟨Ho, Ha9, Hq9⟩
  iapply (step_sendwait m ρ K c 10 (hcr := rfl) _) $$ [Hc10 Ho Ha10]
  · isplitr; · iexact HR
    isplitl [Hc10]; · iexact Hc10
    isplitl [Ho]; · iexact Ho
    iexact Ha10
  iintro ⟨Ho, Ha10, Hq10⟩
  simp only [k0_part25_eq_skeleton]; unfold k0_part25_skel
  simp only [Prog.lift, Prog.bind_op, Prog.bind_ret, Prog.pure_eq_ret]
  iapply (step_sendwait m ρ K c 11 (hcr := rfl) _) $$ [Hc11 Ho Ha11]
  · isplitr; · iexact HR
    isplitl [Hc11]; · iexact Hc11
    isplitl [Ho]; · iexact Ho
    iexact Ha11
  iintro ⟨Ho, Ha11, Hq11⟩
  iapply (step_sendwait m ρ K c 12 (hcr := rfl) _) $$ [Hc12 Ho Ha12]
  · isplitr; · iexact HR
    isplitl [Hc12]; · iexact Hc12
    isplitl [Ho]; · iexact Ho
    iexact Ha12
  iintro ⟨Ho, Ha12, Hq12⟩
  iapply (step_sendwait m ρ K c 13 (hcr := rfl) _) $$ [Hc13 Ho Ha13]
  · isplitr; · iexact HR
    isplitl [Hc13]; · iexact Hc13
    isplitl [Ho]; · iexact Ho
    iexact Ha13
  iintro ⟨Ho, Ha13, Hq13⟩
  iapply (step_sendwait m ρ K c 14 (hcr := rfl) _) $$ [Hc14 Ho Ha14]
  · isplitr; · iexact HR
    isplitl [Hc14]; · iexact Hc14
    isplitl [Ho]; · iexact Ho
    iexact Ha14
  iintro ⟨Ho, Ha14, Hq14⟩
  -- the shares joined again, last first: `copyShare n` and `restShare (n + 1)` are `restShare n`; `restShare 0` is the
  -- full share
  ihave H0 := (share_step (F := F) c 14 (full m ρ c)).2 $$ [Hq14 H0]
  · isplitl [Hq14]; · iexact Hq14
    iexact H0
  ihave H0 := (share_step (F := F) c 13 (full m ρ c)).2 $$ [Hq13 H0]
  · isplitl [Hq13]; · iexact Hq13
    iexact H0
  ihave H0 := (share_step (F := F) c 12 (full m ρ c)).2 $$ [Hq12 H0]
  · isplitl [Hq12]; · iexact Hq12
    iexact H0
  ihave H0 := (share_step (F := F) c 11 (full m ρ c)).2 $$ [Hq11 H0]
  · isplitl [Hq11]; · iexact Hq11
    iexact H0
  ihave H0 := (share_step (F := F) c 10 (full m ρ c)).2 $$ [Hq10 H0]
  · isplitl [Hq10]; · iexact Hq10
    iexact H0
  ihave H0 := (share_step (F := F) c 9 (full m ρ c)).2 $$ [Hq9 H0]
  · isplitl [Hq9]; · iexact Hq9
    iexact H0
  ihave H0 := (share_step (F := F) c 8 (full m ρ c)).2 $$ [Hq8 H0]
  · isplitl [Hq8]; · iexact Hq8
    iexact H0
  ihave H0 := (share_step (F := F) c 7 (full m ρ c)).2 $$ [Hq7 H0]
  · isplitl [Hq7]; · iexact Hq7
    iexact H0
  ihave H0 := (share_step (F := F) c 6 (full m ρ c)).2 $$ [Hq6 H0]
  · isplitl [Hq6]; · iexact Hq6
    iexact H0
  ihave H0 := (share_step (F := F) c 5 (full m ρ c)).2 $$ [Hq5 H0]
  · isplitl [Hq5]; · iexact Hq5
    iexact H0
  ihave H0 := (share_step (F := F) c 4 (full m ρ c)).2 $$ [Hq4 H0]
  · isplitl [Hq4]; · iexact Hq4
    iexact H0
  ihave H0 := (share_step (F := F) c 3 (full m ρ c)).2 $$ [Hq3 H0]
  · isplitl [Hq3]; · iexact Hq3
    iexact H0
  ihave H0 := (share_step (F := F) c 2 (full m ρ c)).2 $$ [Hq2 H0]
  · isplitl [Hq2]; · iexact Hq2
    iexact H0
  ihave H0 := (share_step (F := F) c 1 (full m ρ c)).2 $$ [Hq1 H0]
  · isplitl [Hq1]; · iexact Hq1
    iexact H0
  ihave H0 := (share_step (F := F) c 0 (full m ρ c)).2 $$ [Hq0 H0]
  · isplitl [Hq0]; · iexact Hq0
    iexact H0
  -- the sixteen slots, each whole and holding the finished contents, are the buffer
  ihave Hscr : scrPts (F := F) c (full m ρ c) $$ [H0 Hs1 Hs2 Hs3 Hs4 Hs5 Hs6 Hs7 Hs8 Hs9 Hs10 Hs11 Hs12 Hs13 Hs14 Hs15]
  · rw [scr_split (F := F) c (full m ρ c), univ16]
    isplitl [H0]; · iexact H0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    isplitl [Hs9]; · iexact Hs9
    isplitl [Hs10]; · iexact Hs10
    isplitl [Hs11]; · iexact Hs11
    isplitl [Hs12]; · iexact Hs12
    isplitl [Hs13]; · iexact Hs13
    isplitl [Hs14]; · iexact Hs14
    iexact Hs15
  -- the load of the whole buffer reads the finished contents
  unfold scrPts
  iapply (wp_load 𝒱₀ (c : Thread nD τ) none Set.univ (m := (rM : Memref sig .tc .vmem S16x1x768 .f32)) (View.setOn_subset_set _ _)) $$ Hscr
  iintro Hscr
  rw [read_scr]
  -- the load of the result buffer, then the store of the maximum over the sixteen slots into it
  iapply (wp_load 𝒱₀ (c : Thread nD τ) none Set.univ (m := (oM : Memref sig .tc .vmem S1x768 .f32)) (S := Finset.univ) (Finset.subset_univ _)) $$ Hout
  iintro Hout
  iapply (wp_store 𝒱₀ (c : Thread nD τ) none Set.univ (m := (oM : Memref sig .tc .vmem S1x768 .f32))
    (r := Rect.unit (s := S1x768) ![0, 0] S1x768.size inb_S1x768_S1x768_0_0) (S := Finset.univ) (Finset.subset_univ _)) $$ Hout
  iintro Hout
  rw [write_out, wp_ret]
  -- every cell closes: the fifteen send cells and the receive cells 1 … 15 past their round, receive cell 0 never opened
  imod (close_send m ρ K c 0) $$ [Ha0] with Hz0
  · isplitr; · iexact HR
    iexact Ha0
  imod (close_send m ρ K c 1) $$ [Ha1] with Hz1
  · isplitr; · iexact HR
    iexact Ha1
  imod (close_send m ρ K c 2) $$ [Ha2] with Hz2
  · isplitr; · iexact HR
    iexact Ha2
  imod (close_send m ρ K c 3) $$ [Ha3] with Hz3
  · isplitr; · iexact HR
    iexact Ha3
  imod (close_send m ρ K c 4) $$ [Ha4] with Hz4
  · isplitr; · iexact HR
    iexact Ha4
  imod (close_send m ρ K c 5) $$ [Ha5] with Hz5
  · isplitr; · iexact HR
    iexact Ha5
  imod (close_send m ρ K c 6) $$ [Ha6] with Hz6
  · isplitr; · iexact HR
    iexact Ha6
  imod (close_send m ρ K c 7) $$ [Ha7] with Hz7
  · isplitr; · iexact HR
    iexact Ha7
  imod (close_send m ρ K c 8) $$ [Ha8] with Hz8
  · isplitr; · iexact HR
    iexact Ha8
  imod (close_send m ρ K c 9) $$ [Ha9] with Hz9
  · isplitr; · iexact HR
    iexact Ha9
  imod (close_send m ρ K c 10) $$ [Ha10] with Hz10
  · isplitr; · iexact HR
    iexact Ha10
  imod (close_send m ρ K c 11) $$ [Ha11] with Hz11
  · isplitr; · iexact HR
    iexact Ha11
  imod (close_send m ρ K c 12) $$ [Ha12] with Hz12
  · isplitr; · iexact HR
    iexact Ha12
  imod (close_send m ρ K c 13) $$ [Ha13] with Hz13
  · isplitr; · iexact HR
    iexact Ha13
  imod (close_send m ρ K c 14) $$ [Ha14] with Hz14
  · isplitr; · iexact HR
    iexact Ha14
  imod (close_recv0 m ρ K c) $$ [Hr0] with Hy0
  · isplitr; · iexact HR
    iexact Hr0
  imod (close_recv m ρ K c 1 (by decide)) $$ [Hp1] with Hy1
  · isplitr; · iexact HR
    iexact Hp1
  imod (close_recv m ρ K c 2 (by decide)) $$ [Hp2] with Hy2
  · isplitr; · iexact HR
    iexact Hp2
  imod (close_recv m ρ K c 3 (by decide)) $$ [Hp3] with Hy3
  · isplitr; · iexact HR
    iexact Hp3
  imod (close_recv m ρ K c 4 (by decide)) $$ [Hp4] with Hy4
  · isplitr; · iexact HR
    iexact Hp4
  imod (close_recv m ρ K c 5 (by decide)) $$ [Hp5] with Hy5
  · isplitr; · iexact HR
    iexact Hp5
  imod (close_recv m ρ K c 6 (by decide)) $$ [Hp6] with Hy6
  · isplitr; · iexact HR
    iexact Hp6
  imod (close_recv m ρ K c 7 (by decide)) $$ [Hp7] with Hy7
  · isplitr; · iexact HR
    iexact Hp7
  imod (close_recv m ρ K c 8 (by decide)) $$ [Hp8] with Hy8
  · isplitr; · iexact HR
    iexact Hp8
  imod (close_recv m ρ K c 9 (by decide)) $$ [Hp9] with Hy9
  · isplitr; · iexact HR
    iexact Hp9
  imod (close_recv m ρ K c 10 (by decide)) $$ [Hp10] with Hy10
  · isplitr; · iexact HR
    iexact Hp10
  imod (close_recv m ρ K c 11 (by decide)) $$ [Hp11] with Hy11
  · isplitr; · iexact HR
    iexact Hp11
  imod (close_recv m ρ K c 12 (by decide)) $$ [Hp12] with Hy12
  · isplitr; · iexact HR
    iexact Hp12
  imod (close_recv m ρ K c 13 (by decide)) $$ [Hp13] with Hy13
  · isplitr; · iexact HR
    iexact Hp13
  imod (close_recv m ρ K c 14 (by decide)) $$ [Hp14] with Hy14
  · isplitr; · iexact HR
    iexact Hp14
  imod (close_recv m ρ K c 15 (by decide)) $$ [Hp15] with Hy15
  · isplitr; · iexact HR
    iexact Hp15
  -- the postcondition: the buffer and the thirty-one counters at zero; nothing owed; the two staging buffers
  imodintro
  iapply Hk
  unfold bodyPost Φ₁
  rw [univ31]
  isplitl [Hscr Hz0 Hz1 Hz2 Hz3 Hz4 Hz5 Hz6 Hz7 Hz8 Hz9 Hz10 Hz11 Hz12 Hz13 Hz14 Hy0 Hy1 Hy2 Hy3 Hy4 Hy5 Hy6 Hy7 Hy8 Hy9 Hy10 Hy11 Hy12 Hy13 Hy14 Hy15]
  · isplitl [Hscr]; · unfold scrPts; iexact Hscr
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    isplitl [Hz8]; · iexact Hz8
    isplitl [Hz9]; · iexact Hz9
    isplitl [Hz10]; · iexact Hz10
    isplitl [Hz11]; · iexact Hz11
    isplitl [Hz12]; · iexact Hz12
    isplitl [Hz13]; · iexact Hz13
    isplitl [Hz14]; · iexact Hz14
    isplitl [Hy0]; · iexact Hy0
    isplitl [Hy1]; · iexact Hy1
    isplitl [Hy2]; · iexact Hy2
    isplitl [Hy3]; · iexact Hy3
    isplitl [Hy4]; · iexact Hy4
    isplitl [Hy5]; · iexact Hy5
    isplitl [Hy6]; · iexact Hy6
    isplitl [Hy7]; · iexact Hy7
    isplitl [Hy8]; · iexact Hy8
    isplitl [Hy9]; · iexact Hy9
    isplitl [Hy10]; · iexact Hy10
    isplitl [Hy11]; · iexact Hy11
    isplitl [Hy12]; · iexact Hy12
    isplitl [Hy13]; · iexact Hy13
    isplitl [Hy14]; · iexact Hy14
    iexact Hy15
  isplitl [Ho]
  · unfold Dat.owesAt Pipeline.owesWithin
    iexists (insert (SemLoc.dma (sendS 14), ()) (insert (SemLoc.dma (sendS 13), ()) (insert (SemLoc.dma (sendS 12), ()) (insert (SemLoc.dma (sendS 11), ()) (insert (SemLoc.dma (sendS 10), ()) (insert (SemLoc.dma (sendS 9), ()) (insert (SemLoc.dma (sendS 8), ()) (insert (SemLoc.dma (sendS 7), ()) (insert (SemLoc.dma (sendS 6), ()) (insert (SemLoc.dma (sendS 5), ()) (insert (SemLoc.dma (sendS 4), ()) (insert (SemLoc.dma (sendS 3), ()) (insert (SemLoc.dma (sendS 2), ()) (insert (SemLoc.dma (sendS 1), ()) (insert (SemLoc.dma (sendS 0), ()) W)))))))))))))))
    isplitr; · ipureintro; exact fun _ _ => Or.inl trivial
    iexact Ho
  isplitl [Hx]
  · iexists _
    isplitr; · ipureintro; rfl
    iexact Hx
  iexists _
  isplitr; · ipureintro; rfl
  iexact Hout

end Seg

/-- info: 'Cert.KernelIdeal.Hand.seg4' depends on axioms: [propext, Classical.choice, Quot.sound] -/
#guard_msgs in #print axioms seg4

end Cert.KernelIdeal.Hand

end
-- ==== Proof.KernelIdeal.Body.lean ====
/-
  The body: its four stretches in order, each handing the next what it holds.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Stages
import proofs.«900908_g7700000000000909_dist_max_ax0_shard0_i_m1536_n768_v7x_i16_bf16_1_alg».proof.Proof.KernelIdeal.Seg1
import proofs.«900908_g7700000000000909_dist_max_ax0_shard0_i_m1536_n768_v7x_i16_bf16_1_alg».proof.Proof.KernelIdeal.Seg2
import proofs.«900908_g7700000000000909_dist_max_ax0_shard0_i_m1536_n768_v7x_i16_bf16_1_alg».proof.Proof.KernelIdeal.Seg3
import proofs.«900908_g7700000000000909_dist_max_ax0_shard0_i_m1536_n768_v7x_i16_bf16_1_alg».proof.Proof.KernelIdeal.Seg4

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Body
variable (K : Dev nD × Fin 32 → ℕ) (c : Dev nD)

/-- The body, from what the launch hands device `c` to the finished exchange buffer, the own cells closed, and the result
    in the output staging buffer. -/
theorem sound_body (Kt : PUnit → sProp 𝕄) :
    iprop(bodyPre m ρ K c ∗ (bodyPost m ρ c -∗ Kt ⟨⟩))
      ⊢ wp frame (wpE (defs₀ (F := F)) 𝒱₀ (c : Thread nD τ) none) Set.univ (cc0_body (Memref.whole cc0_stg0_0) (Memref.isWhole_whole _) (Memref.whole cc0_stg1_0) (Memref.isWhole_whole _) (Memref.whole cc0_scratch0) (Memref.isWhole_whole _) cc0_scratch1 cc0_scratch2) Kt := by
  rw [cc0_body_eq_skeleton, body_split]
  iintro ⟨Hpre, Hk⟩
  iapply (seg1 m ρ K c Kt _)
  isplitl [Hpre]; · iexact Hpre
  iintro %v2 %v216 ⟨%W, HB⟩
  iapply (seg2 m ρ K c Kt v2 v216 _ W)
  isplitl [HB]; · iexact HB
  iintro %v279 %v300 %v321 %v342 %v363 %v384 %v405 %v426 %v447 %v468 %v489 %v510 ⟨%W', HC⟩
  iapply (seg3 m ρ K c Kt v279 v300 v321 v342 v363 v384 v405 v426 v447 v468 v489 v510 _ W')
  isplitl [HC]; · iexact HC
  iintro ⟨%W'', HD⟩
  iapply (seg4 m ρ K c Kt W'')
  isplitl [HD]; · iexact HD
  iexact Hk

end Body

end Cert.KernelIdeal.Hand

end
-- ==== Proof.KernelIdeal.LaunchGhost.lean ====
/-
  The launch's ghost state: every cell funded at its first round, the cells' invariants allocated for all devices at once,
  and the duty tokens dealt to the devices that pay them.

  Each device's thirty-two cells (its barrier cell, fifteen send cells, sixteen receive cells) start at round 0 with their
  counters at zero — the thirty-one own ones from the launch, the barrier's among the launch's unscoped semaphores. The
  token of duty `e` of device `c`'s barrier cell goes to the peer at offset `e` (it is that peer's signal number `opp e`);
  the token of receive cell `s` of `c` goes to the peer at offset `s` (its copy number `opp s`); a send cell's token stays.
  Translation by a fixed offset is a permutation of the devices, so each deal is a re-indexing of one big conjunction.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables

import Mathlib.Logic.Equiv.Fin.Basic
import Mathlib.Data.Fintype.Sum

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

section Ghost

/-! ## The thirty-two cells of a device, and the tokens minted for them -/

omit [FloatOps F] in
theorem csem_pos (k : Fin 32) (h : k.val ≠ 0) :
    csem k = .dma ⟨1 + k.val, by have := k.isLt; show 1 + k.val < 33; omega⟩ := dif_neg h

omit [FloatOps F] in
theorem csem_injective : Function.Injective csem := by
  intro k k' h
  by_cases hk : k.val = 0 <;> by_cases hk' : k'.val = 0
  · exact Fin.ext (hk.trans hk'.symm)
  · rw [show csem k = .reg barS from dif_pos hk, csem_pos k' hk'] at h; cases h
  · rw [csem_pos k hk, show csem k' = .reg barS from dif_pos hk'] at h; cases h
  · rw [csem_pos k hk, csem_pos k' hk'] at h
    have hv : 1 + k.val = 1 + k'.val := congrArg Fin.val (SemLoc.dma.inj h)
    exact Fin.ext (by omega)

omit [FloatOps F] in
theorem kcell_injective : Function.Injective (kcell : Dev nD × Fin 32 → GSem nD τ sig) := by
  rintro ⟨c, k⟩ ⟨c', k'⟩ h
  have h1 : c = c' := congrArg (fun g : GSem nD τ sig => g.1.1) h
  subst h1
  have h2 : csem k = csem k' := congrArg Prod.snd h
  have h3 : k = k' := csem_injective h2
  subst h3; rfl
/-- All the exchange's cells, over all devices. -/
def ringCells : Finset (GSem nD τ sig) := Finset.univ.map ⟨kcell, kcell_injective⟩

/-- Which of a device's own cells' duty tokens: a duty `e ≠ 0` of its barrier cell, the duty of one of its fifteen send
    cells, or the duty of its receive cell for a slot `s ≠ 0`. -/
abbrev Tk : Type := {e : Fin 16 // e ≠ 0} ⊕ (Fin 15 ⊕ {s : Fin 16 // s ≠ 0})

/-- A device's own cells' duty tokens as minted: (device, which). -/
def tokOf (cj : Dev nD × Tk) : GSem nD τ sig × ℕ × Fin 16 := match cj.2 with
  | .inl e => (barCell cj.1, 0, e.1)
  | .inr (.inl j) => (sendCell cj.1 j, 0, 0)
  | .inr (.inr s) => (recvCell cj.1 s.1, 0, 0)
omit [FloatOps F] in
theorem tokOf_injective : Function.Injective (tokOf : Dev nD × Tk → GSem nD τ sig × ℕ × Fin 16) := by
  rintro ⟨c, j⟩ ⟨c', j'⟩ h
  have h1 : c = c' := by
    have := congrArg (fun x : GSem nD τ sig × ℕ × Fin 16 => x.1.1.1) h
    rcases j with e | j | s <;> rcases j' with e' | j' | s' <;> exact this
  subst h1
  have hs := congrArg (fun x : GSem nD τ sig × ℕ × Fin 16 => x.1.2) h
  have hd := congrArg (fun x : GSem nD τ sig × ℕ × Fin 16 => x.2.2) h
  have h2 : j = j' := by
    rcases j with e | j | s <;> rcases j' with e' | j' | s'
    · exact congrArg Sum.inl (Subtype.ext hd)
    · exact absurd hs (fun h' => by cases h')
    · exact absurd hs (fun h' => by cases h')
    · exact absurd hs (fun h' => by cases h')
    · have hv : 2 + j.val = 2 + j'.val := congrArg Fin.val (SemLoc.dma.inj hs)
      exact congrArg (fun x => Sum.inr (Sum.inl x)) (Fin.ext (by omega))
    · have hv : 2 + j.val = 17 + s'.1.val := congrArg Fin.val (SemLoc.dma.inj hs)
      have := j.isLt; omega
    · exact absurd hs (fun h' => by cases h')
    · have hv : 17 + s.1.val = 2 + j'.val := congrArg Fin.val (SemLoc.dma.inj hs)
      have := j'.isLt; omega
    · have hv : 17 + s.1.val = 17 + s'.1.val := congrArg Fin.val (SemLoc.dma.inj hs)
      exact congrArg (fun x => Sum.inr (Sum.inr x)) (Subtype.ext (Fin.ext (by omega)))
  subst h2; rfl
def ringToks : Finset (GSem nD τ sig × ℕ × Fin 16) := Finset.univ.map ⟨tokOf, tokOf_injective⟩

/-- The launch element: the pipeline library's cells beside the exchange's. -/
def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep (Finset.univ.erase 0) fun e : Fin 16 => dutyTok ER (barCell c) 0 e)
    ∗ (bigSep Finset.univ fun j : Fin 15 => dutyTok ER (sendCell c j) 0 0)
    ∗ (bigSep (Finset.univ.erase 0) fun s : Fin 16 => dutyTok ER (recvCell c s) 0 0))

/-- What the launch element deals device `c`. -/
def G (c : Dev nD) : sProp 𝕄 :=
  iprop((bigSep Finset.univ fun k : Fin 32 => roundState ER (sched m ρ) (kcell (c, k)) 0)
    ∗ (bigSep Finset.univ fun k : Fin 32 => iprop(atPos ER (kcell (c, k)) 0 ∅ 0 ∗ reached ER (kcell (c, k)) 0)) ∗ toks c)

/-- What the global step makes of it. -/
def G' (c : Dev nD) : sProp 𝕄 := iprop(∃ K, ghost m ρ K c)

/-! ## Conjunctions over a device's cells, by kind -/

omit [FloatOps F] in
/-- A conjunction over `Fin (a + b)` is the one over the first `a` and the one over the last `b`. -/
theorem bigSep_fin_add (a b : ℕ) (Φ : Fin (a + b) → sProp 𝕄) :
    bigSep Finset.univ Φ
      = iprop((bigSep Finset.univ fun i : Fin a => Φ (Fin.castAdd b i)) ∗ bigSep Finset.univ fun i : Fin b => Φ (Fin.natAdd a i)) := by
  rw [bigSep_univ_equiv finSumFinEquiv Φ, bigSep_univ_sum]; rfl

omit [FloatOps F] in
theorem kcell_own (c : Dev nD) (k : Fin 31) : kcell (c, (Fin.natAdd 1 k : Fin (1 + 31))) = ((c : Thread nD τ), osem k) := by
  have hv : (Fin.natAdd 1 k : Fin (1 + 31)).val = 1 + k.val := rfl
  show ((c : Thread nD τ), csem (Fin.natAdd 1 k : Fin (1 + 31))) = ((c : Thread nD τ), osem k)
  rw [csem_pos _ (by rw [hv]; omega)]
  exact congrArg (fun q : DmaSem sig => ((c : Thread nD τ), SemLoc.dma q)) (Fin.ext (by show 1 + (Fin.natAdd 1 k : Fin (1 + 31)).val = 2 + k.val; rw [hv]; omega))

omit [FloatOps F] in
/-- A device's cells: its barrier cell, then the kernel's own thirty-one. -/
theorem bigSep_cells_own (c : Dev nD) (Φ : GSem nD τ sig → sProp 𝕄) :
    (bigSep Finset.univ fun k : Fin 32 => Φ (kcell (c, k)))
      = iprop(Φ (barCell c) ∗ bigSep Finset.univ fun k : Fin 31 => Φ ((c : Thread nD τ), osem k)) := by
  rw [bigSep_fin_add 1 31 (fun k => Φ (kcell (c, k))), bigSep_univ_of_subsingleton (0 : Fin 1)]
  simp only [kcell_own]
  rfl

omit [FloatOps F] in
theorem osem_send (j : Fin 15) : osem (Fin.castAdd 16 j : Fin (15 + 16)) = .dma (sendS j) := rfl
omit [FloatOps F] in
theorem osem_recv (s : Fin 16) : osem (Fin.natAdd 15 s : Fin (15 + 16)) = .dma (recvS s) := by
  have hv : (Fin.natAdd 15 s : Fin (15 + 16)).val = 15 + s.val := rfl
  exact congrArg SemLoc.dma (Fin.ext (by show 2 + (Fin.natAdd 15 s : Fin (15 + 16)).val = 17 + s.val; rw [hv]; omega))

omit [FloatOps F] in
/-- A device's cells: its barrier cell, its fifteen send cells, its sixteen receive cells. -/
theorem bigSep_cells (c : Dev nD) (Φ : GSem nD τ sig → sProp 𝕄) :
    (bigSep Finset.univ fun k : Fin 32 => Φ (kcell (c, k)))
      = iprop(Φ (barCell c) ∗ (bigSep Finset.univ fun j : Fin 15 => Φ (sendCell c j)) ∗ bigSep Finset.univ fun s : Fin 16 => Φ (recvCell c s)) := by
  rw [bigSep_cells_own, bigSep_fin_add 15 16 (fun k => Φ ((c : Thread nD τ), osem k))]
  simp only [osem_send, osem_recv]

/-! ## Funding -/

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Fin 32 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    refine bigSep_congr fun c _ => ?_
    rw [bigSep_univ_sum, bigSep_univ_sum]
    unfold toks
    rw [← bigSep_subtype_ne 0 (fun e : Fin 16 => (dutyTok ER (barCell c) 0 e : sProp 𝕄)),
      ← bigSep_subtype_ne 0 (fun s : Fin 16 => (dutyTok ER (recvCell c s) 0 0 : sProp 𝕄))]
    rfl
  iintro HX
  imod (Rounds.fund ER (sched m ρ) ringCells ringToks) $$ HX with ⟨Hst, Hr, Hat, Htok⟩
  imodintro
  ihave Hst' := (Entails.of_eq (hX fun g => roundState ER (sched m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- The launch element funds the pipeline library's cells and deals every device its `G`. -/
theorem fund_u₀ : (ownU u₀ : sProp 𝕄)
    ⊢ |={Set.univ}=> iprop(BI.own (EP (initOf (Pipeline.cells cfgs cellOf_inj) (Pipeline.launchToks cfgs cellOf_inj))) ∗ bigSep Finset.univ (G m ρ)) := by
  unfold u₀
  iintro Hu
  ihave H := (ownU_pair _ _) $$ Hu
  icases H with ⟨HP, HX⟩
  imod (fund_ring m ρ) $$ HX with HG
  imodintro
  isplitl [HP] <;> iassumption

/-! ## The cells' invariants, allocated for a device -/

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 32 => semVal (kcell (c, k)) 0 : sProp 𝕄) := by
  rw [unscopedSems0_eq, bigSep_cells_own c (fun g => semVal g 0)]
  unfold Pipeline.ownSems0
  iintro ⟨HS, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 32 => semVal (kcell (c, k)) 0) ∗ bigSep Finset.univ fun k : Fin 32 => roundState ER (sched m ρ) (kcell (c, k)) 0)
      ⊢ (|={Set.univ}=> bigSep Finset.univ fun k => iprop(∃ κ : ℕ, cellInv ER (sched m ρ) κ (kcell (c, k))) : sProp 𝕄) from by
        rw [← bigSep_sep']
        exact (bigSep_mono fun k _ => (Rounds.body_intro ER (sched m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal: every token to the device that pays its duty -/

omit [FloatOps F] in
/-- (device, offset ≠ 0) ↦ (the peer at that offset, the offset back): an involution. -/
def dealEquiv : Dev nD × {e : Fin 16 // e ≠ 0} ≃ Dev nD × {e : Fin 16 // e ≠ 0} where
  toFun p := (peer p.1 p.2.1, ⟨opp p.2.1, opp_ne_zero p.2.2⟩)
  invFun p := (peer p.1 p.2.1, ⟨opp p.2.1, opp_ne_zero p.2.2⟩)
  left_inv p := Prod.ext (peer_opp p.1 p.2.1) (Subtype.ext (opp_opp p.2.1))
  right_inv p := Prod.ext (peer_opp p.1 p.2.1) (Subtype.ext (opp_opp p.2.1))

omit [FloatOps F] in
/-- A family over (device, offset ≠ 0), read at (the peer at that offset, the offset back), is the same conjunction. -/
theorem bigSep_deal (Ψ : Dev nD → Fin 16 → sProp 𝕄) :
    (bigSep Finset.univ fun c : Dev nD => bigSep (Finset.univ.erase 0) fun e : Fin 16 => Ψ c e)
      = bigSep Finset.univ fun c : Dev nD => bigSep (Finset.univ.erase 0) fun e : Fin 16 => Ψ (peer c e) (opp e) := by
  have h (Φ : Dev nD → Fin 16 → sProp 𝕄) :
      (bigSep Finset.univ fun c : Dev nD => bigSep (Finset.univ.erase 0) fun e : Fin 16 => Φ c e)
        = bigSep Finset.univ fun p : Dev nD × {e : Fin 16 // e ≠ 0} => Φ p.1 p.2.1 := by
    rw [bigSep_univ_prod (fun p : Dev nD × {e : Fin 16 // e ≠ 0} => Φ p.1 p.2.1)]
    exact bigSep_congr fun c _ => (bigSep_subtype_ne 0 (Φ c)).symm
  rw [h Ψ, h (fun c e => Ψ (peer c e) (opp e)), bigSep_univ_equiv dealEquiv]
  rfl

/-- The tokens of the duties device `c` pays. -/
def payToks (c : Dev nD) : sProp 𝕄 :=
  iprop((bigSep (Finset.univ.erase 0) fun e : Fin 16 => dutyTok ER (barCell (peer c e)) 0 (opp e))
    ∗ (bigSep Finset.univ fun j : Fin 15 => dutyTok ER (sendCell c j) 0 0)
    ∗ (bigSep (Finset.univ.erase 0) fun e : Fin 16 => dutyTok ER (recvCell (peer c e) (opp e)) 0 0))

omit [FloatOps F] in
/-- The tokens dealt: duty `e` of `c`'s barrier cell, and the duty of its receive cell `e`, to the peer at offset `e`. -/
theorem toks_around : (bigSep Finset.univ fun c : Dev nD => (toks c : sProp 𝕄)) ⊢ bigSep Finset.univ fun c : Dev nD => payToks c := by
  unfold toks payToks
  rw [bigSep_sep', bigSep_sep', bigSep_sep', bigSep_sep',
    bigSep_deal (fun c e => (dutyTok ER (barCell c) 0 e : sProp 𝕄)),
    bigSep_deal (fun c s => (dutyTok ER (recvCell c s) 0 0 : sProp 𝕄))]

theorem ghost_intro (K : Dev nD × Fin 32 → ℕ) (c : Dev nD) : iprop(records m ρ K ∗ linear c) ⊢ G' m ρ c := by
  unfold G' ghost
  iintro H
  iexists K
  iexact H

omit [FloatOps F] in
theorem linear_intro (c : Dev nD) :
    iprop((bigSep Finset.univ fun k : Fin 32 => (atPos ER (kcell (c, k)) 0 ∅ 0 : sProp 𝕄)) ∗ payToks c) ⊢ linear c := by
  rw [bigSep_cells c (fun g => atPos ER g 0 ∅ 0)]
  unfold linear payToks
  iintro ⟨⟨HaB, HaS, HaV⟩, HtB, HtS, HtV⟩
  isplitl [HaB]; · iexact HaB
  isplitl [HaS]; · iexact HaS
  isplitl [HaV]; · iexact HaV
  isplitl [HtB]; · iexact HtB
  isplitl [HtS]; · iexact HtS
  iexact HtV

theorem regroup :
    (bigSep Finset.univ fun c : Dev nD => iprop((bigSep Finset.univ fun k => iprop(∃ κ : ℕ, cellInv ER (sched m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Fin 32 => iprop(∃ κ : ℕ, cellInv ER (sched m ρ) κ (kcell ck))),
    bigSep_congr (s := Finset.univ) (fun (c : Dev nD) _ => bigSep_sep' Finset.univ (fun k : Fin 32 => (atPos ER (kcell (c, k)) 0 ∅ 0 : sProp 𝕄)) (fun k => reached ER (kcell (c, k)) 0)),
    bigSep_sep', ← bigSep_univ_prod (fun ck : Dev nD × Fin 32 => (reached ER (kcell ck) 0 : sProp 𝕄))]
  iintro ⟨HI, ⟨Hat, #HR⟩, Htok⟩
  ihave HK := (BI.bigSep_exists_pi Finset.univ (fun (ck : Dev nD × Fin 32) (κ : ℕ) => (cellInv ER (sched m ρ) κ (kcell ck) : sProp 𝕄))) $$ HI
  icases HK with ⟨%K, #HI⟩
  ihave Htk := (toks_around (F := F)) $$ Htok
  iapply (BI.bigSep_with_persistent (R := records m ρ K) fun c _ => ghost_intro m ρ K c)
  isplitr
  · unfold records; isplitl; · iexact HI
    iexact HR
  · iapply ((Entails.of_eq (bigSep_sep' Finset.univ (fun c : Dev nD => bigSep Finset.univ fun k : Fin 32 => (atPos ER (kcell (c, k)) 0 ∅ 0 : sProp 𝕄)) payToks).symm).trans
      (bigSep_mono fun c _ => linear_intro (F := F) c))
    isplitl [Hat]; · iexact Hat
    iexact Htk

/-- The global step: own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

end Ghost

/-- info: 'Cert.KernelIdeal.Hand.fund_u₀' depends on axioms: [propext, Classical.choice, Quot.sound] -/
#guard_msgs in #print axioms fund_u₀

/-- info: 'Cert.KernelIdeal.Hand.glob' depends on axioms: [propext, Classical.choice, Quot.sound] -/
#guard_msgs in #print axioms glob

end Cert.KernelIdeal.Hand

end
-- ==== Proof.KernelIdeal.LaunchCred.lean ====
/-
  The launch credit: what all devices together owe a cell at launch is what its owner may wait for.

  Device `d` owes device `c`'s barrier cell one unit exactly when `d ≠ c` (its signal number `off d c`), so the cell's
  launch credit is fifteen; it owes `c`'s receive cell for slot `s ≠ 0` one copy's credit exactly when `d` is the peer of
  `c` at offset `s`, so that cell's launch credit is one copy's credit.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Cells are told apart by their device and their semaphore -/

theorem bar_eq_iff {a b : Dev nD} : barCell a = barCell b ↔ a = b :=
  ⟨fun h => congrArg (fun g : GSem nD τ sig => g.1.1) h, fun h => h ▸ rfl⟩

theorem recvS_inj {s s' : Fin 16} (h : recvS s = recvS s') : s = s' := by
  have h4 : 17 + s.val = 17 + s'.val := congrArg Fin.val h
  exact Fin.ext (by omega)

theorem recv_eq_iff {a b : Dev nD} {s s' : Fin 16} : recvCell a s = recvCell b s' ↔ a = b ∧ s = s' := by
  constructor
  · intro h
    have h2 : (SemLoc.dma (recvS s) : SemLoc sig) = .dma (recvS s') := congrArg Prod.snd h
    exact ⟨congrArg (fun g : GSem nD τ sig => g.1.1) h, recvS_inj (SemLoc.dma.inj h2)⟩
  · rintro ⟨rfl, rfl⟩; rfl

theorem bar_ne_recv (a b : Dev nD) (s : Fin 16) : barCell a ≠ recvCell b s := fun h => by
  have h2 : (SemLoc.reg barS : SemLoc sig) = .dma (recvS s) := congrArg Prod.snd h
  cases h2

/-! ## What a device owes at launch, in closed form: its fifteen copies' credits and its fifteen signals -/

theorem oweX_eq (d : Dev nD) (k : ℕ) : oweX d k = ∑ i ∈ Finset.range k, tXfer d (fin16 (15 - i)) := by
  induction k with
  | zero => rw [oweX, Finset.sum_range_zero]
  | succ k ih => rw [oweX, ih, Finset.sum_range_succ]

theorem oweS_eq (d : Dev nD) (k : ℕ) : oweS d k = oweX d 15 + ∑ i ∈ Finset.range k, tSig d (fin16 (15 - i)) := by
  induction k with
  | zero => rw [oweS, Finset.sum_range_zero, add_zero]
  | succ k ih => rw [oweS, ih, Finset.sum_range_succ, add_assoc]

/-- Counting down from fifteen runs through the fifteen nonzero offsets, once each. -/
theorem sum_countdown {M : Type} [AddCommMonoid M] (f : Fin 16 → M) :
    ∑ i ∈ Finset.range 15, f (fin16 (15 - i)) = ∑ e ∈ Finset.univ.erase 0, f e := by
  have himg : (Finset.range 15).image (fun i => fin16 (15 - i)) = Finset.univ.erase 0 := by decide
  rw [← himg, Finset.sum_image]
  intro x hx y hy h
  have hx' : x < 15 := Finset.mem_range.mp hx
  have hy' : y < 15 := Finset.mem_range.mp hy
  have hv : (15 - x) % 16 = (15 - y) % 16 := congrArg Fin.val h
  omega

theorem O₀_eq (d : Dev nD) :
    O₀ d = (∑ e ∈ Finset.univ.erase 0, tXfer d e) + ∑ e ∈ Finset.univ.erase 0, tSig d e := by
  unfold O₀
  rw [oweS_eq, oweX_eq, sum_countdown (tXfer d), sum_countdown (tSig d)]

theorem O₀_apply (d : Dev nD) (g : GSem nD τ sig) :
    O₀ d g () = (∑ e ∈ Finset.univ.erase 0, tXfer d e g ()) + ∑ e ∈ Finset.univ.erase 0, tSig d e g () := by
  rw [O₀_eq, Pi.add_apply, Finsupp.add_apply, Finset.sum_apply, Finsupp.finsetSum_apply, Finset.sum_apply, Finsupp.finsetSum_apply]

/-! ## What device `d` owes a barrier cell, and a receive cell -/

/-- The signal of `d` that reaches `c`'s barrier cell is the one numbered by the offset from `d` to `c`. -/
theorem bar_hit (d c : Dev nD) (e : Fin 16) : (barCell c = barCell (peer d e) ∧ () = ()) ↔ e = off d c :=
  ⟨fun h => (peer_eq_iff d c e).mp (bar_eq_iff.mp h.1).symm, fun h => ⟨by rw [h, peer_off], rfl⟩⟩

/-- The copy of `d` that lands in slot `s` of `c` is the one numbered `opp s`, and `d` is then `c`'s peer at offset `s`. -/
theorem recv_hit (d c : Dev nD) (e s : Fin 16) :
    (recvCell c s = recvCell (peer d e) (opp e) ∧ () = ()) ↔ (e = opp s ∧ d = peer c s) := by
  constructor
  · rintro ⟨h, -⟩
    obtain ⟨hc, hs⟩ := recv_eq_iff.mp h
    have he : e = opp s := by rw [hs, opp_opp]
    refine ⟨he, ?_⟩
    rw [hc, he, peer_opp']
  · rintro ⟨he, hd⟩
    refine ⟨?_, rfl⟩
    rw [he, hd, peer_opp, opp_opp]

theorem off_eq_zero_iff (d c : Dev nD) : off d c = 0 ↔ d = c := by
  constructor
  · intro h; have := peer_off d c; rw [h, peer_zero] at this; exact this
  · intro h; rw [h, off_self]

theorem owed_bar (d c : Dev nD) : O₀ d (barCell c) () = if d = c then 0 else 1 := by
  have hX : ∀ e ∈ (Finset.univ.erase 0 : Finset (Fin 16)), tXfer d e (barCell c) () = 0 := fun e _ => by
    unfold tXfer; rw [tallyAt_ne_cell (bar_ne_recv _ _ _), Finsupp.zero_apply]
  have hS : ∀ e ∈ (Finset.univ.erase 0 : Finset (Fin 16)), tSig d e (barCell c) () = if e = off d c then 1 else 0 := fun e _ => by
    unfold tSig; rw [tallyAt_apply]; exact if_congr (bar_hit d c e) rfl rfl
  rw [O₀_apply, Finset.sum_congr rfl hX, Finset.sum_congr rfl hS, Finset.sum_const_zero, Nat.zero_add,
    Finset.sum_ite_eq' (Finset.univ.erase 0) (off d c) fun _ => 1]
  by_cases hdc : d = c
  · rw [if_pos hdc, if_neg (fun hm => (Finset.mem_erase.mp hm).1 ((off_eq_zero_iff d c).mpr hdc))]
  · rw [if_neg hdc, if_pos (Finset.mem_erase.mpr ⟨fun h0 => hdc ((off_eq_zero_iff d c).mp h0), Finset.mem_univ _⟩)]

theorem owed_recv (d c : Dev nD) (s : Fin 16) (hs : s ≠ 0) : O₀ d (recvCell c s) () = if d = peer c s then N else 0 := by
  have hS : ∀ e ∈ (Finset.univ.erase 0 : Finset (Fin 16)), tSig d e (recvCell c s) () = 0 := fun e _ => by
    unfold tSig; rw [tallyAt_ne_cell (fun h => bar_ne_recv _ _ _ h.symm), Finsupp.zero_apply]
  have hX : ∀ e ∈ (Finset.univ.erase 0 : Finset (Fin 16)),
      tXfer d e (recvCell c s) () = if e = opp s then (if d = peer c s then N else 0) else 0 := fun e _ => by
    unfold tXfer; rw [tallyAt_apply, ← ite_and]; exact if_congr (recv_hit d c e s) rfl rfl
  rw [O₀_apply, Finset.sum_congr rfl hX, Finset.sum_congr rfl hS, Finset.sum_const_zero, Nat.add_zero,
    Finset.sum_ite_eq' (Finset.univ.erase 0) (opp s) fun _ => if d = peer c s then N else 0,
    if_pos (Finset.mem_erase.mpr ⟨opp_ne_zero hs, Finset.mem_univ _⟩)]

/-- Fifteen of the sixteen devices are not `c`. -/
theorem sum_others (c : Dev nD) : (∑ d : Dev nD, if d = c then 0 else 1) = 15 := by revert c; decide

/-! ## The launch credit of a barrier cell and of a receive cell -/

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same, Finset.sum_congr rfl fun d _ => owed_bar d c, sum_others]

theorem launch_recv (c : Dev nD) (s : Fin 16) (hs : s ≠ 0) :
    tallyOn (recvCell c s) (launchCredit (Pipeline.owing O₀) 0 (recvCell c s)) = (tallyAt (recvCell c s) () N : CellTallies nD τ sig Unit) := by
  unfold tallyAt; refine congrArg _ (Finsupp.ext fun u => ?_); cases u
  rw [Pipeline.launchCredit_owing, Finsupp.single_eq_same, Finset.sum_congr rfl fun d _ => owed_recv d c s hs,
    Finset.sum_ite_eq' Finset.univ (peer c s) fun _ => N, if_pos (Finset.mem_univ _)]

omit [FloatOps F] in
/-- What the launch gives device `c` to wait with: fifteen units on its barrier cell, a copy's credit on each receive
    cell in use. -/
theorem creds (c : Dev nD) :
    (Pipeline.launchCred O₀ c : sProp 𝕄)
      ⊢ iprop(cred (tallyAt (barCell c) () 15) ∗ bigSep (Finset.univ.erase 0) fun s : Fin 16 => cred (tallyAt (recvCell c s) () N)) := by
  unfold Pipeline.launchCred
  rw [bigSep_univ_at _ (SemLoc.reg barS), launch_bar]
  refine sep_mono_right ?_
  have hinj : Set.InjOn (fun s : Fin 16 => (SemLoc.dma (recvS s) : SemLoc sig)) ↑(Finset.univ.erase (0 : Fin 16)) :=
    fun a _ b _ h => recvS_inj (SemLoc.dma.inj h)
  have hsub : (Finset.univ.erase (0 : Fin 16)).image (fun s : Fin 16 => (SemLoc.dma (recvS s) : SemLoc sig))
      ⊆ Finset.univ.erase (SemLoc.reg barS) := by
    intro x hx
    obtain ⟨s, _, rfl⟩ := Finset.mem_image.mp hx
    exact Finset.mem_erase.mpr ⟨(fun h => by cases h), Finset.mem_univ _⟩
  refine (bigSep_subset hsub).trans ?_
  rw [bigSep_image_of_injOn hinj]
  exact bigSep_mono fun s hs => Entails.of_eq (congrArg cred (launch_recv c s (Finset.mem_erase.mp hs).1))

/-- info: 'Cert.KernelIdeal.Hand.creds' depends on axioms: [propext, Classical.choice, Quot.sound] -/
#guard_msgs in #print axioms creds

end Cert.KernelIdeal.Hand

end
-- ==== Proof.KernelIdeal.Launch.lean ====
/-
  The launch: the sixteen devices' bodies, each proved once at a symbolic device, make every weakly fair execution of the
  program terminate, with each device's result array holding the maximum over the sixteen slots and its argument unchanged.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Tables
import proofs.«900908_g7700000000000909_dist_max_ax0_shard0_i_m1536_n768_v7x_i16_bf16_1_alg».proof.Proof.KernelIdeal.Slots
import proofs.«900908_g7700000000000909_dist_max_ax0_shard0_i_m1536_n768_v7x_i16_bf16_1_alg».proof.Proof.KernelIdeal.Body
import proofs.«900908_g7700000000000909_dist_max_ax0_shard0_i_m1536_n768_v7x_i16_bf16_1_alg».proof.Proof.KernelIdeal.LaunchGhost
import proofs.«900908_g7700000000000909_dist_max_ax0_shard0_i_m1536_n768_v7x_i16_bf16_1_alg».proof.Proof.KernelIdeal.LaunchCred

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Restatements: the two windows one by one, a whole staging buffer's holding, the whole exchange buffer -/

omit [FloatOps F] in
theorem ln_bigSep_W (Φ : Fin cfg0.W → sProp 𝕄) : bigSep Finset.univ Φ = iprop(Φ (0 : Fin 2) ∗ Φ (1 : Fin 2)) := bigSep_W0 Φ

omit [FloatOps F] in
theorem ln_owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem ln_scrPts_eq (c : Dev nD) (f : Buf (Elt F) ((c : Thread nD τ).loc cc0_scratch0)) :
    scrPts c f = (((c : Thread nD τ).loc cc0_scratch0) ↦{fullShare} f : sProp 𝕄) := by unfold scrPts; rw [View.set_whole]

/-! ## The body obligation -/

set_option maxRecDepth 4000 in
/-- The obligation's precondition at the one point, named. -/
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

set_option maxRecDepth 16000 in
/-- The library's body obligation on device `c`. -/
theorem body_obligation (c : Dev nD) : BodyObligation (dats (F := F) m ρ 0 c) (defs₀ (F := F)) 𝒱₀ () Set.univ := fun t => by
  obtain rfl : t = t₀ := fin_N t
  rw [ln_bigSep_W, ln_bigSep_W]
  simp only [ln_owns_whole_eq]
  refine BIBase.Entails.trans ?_ (wp_mono _ _ _ (Q := fun _ => bodyPost m ρ c) fun _ => ?_)
  · show bodyPre' m ρ c ⊢ wp frame (wpE (defs₀ (F := F)) 𝒱₀ c none) Set.univ
      (cc0_body (Memref.whole cc0_stg0_0) (Memref.isWhole_whole _) (Memref.whole cc0_stg1_0) (Memref.isWhole_whole _)
        (Memref.whole cc0_scratch0) (Memref.isWhole_whole _) cc0_scratch1 cc0_scratch2) (fun _ => bodyPost m ρ c)
    unfold bodyPre' Φ₀ start
    iintro ⟨⟨⟨⟨%K, Hg⟩, Hrest⟩, Hscr⟩, Ho, Hx, Hout⟩
    iapply (sound_body m ρ K c fun _ => bodyPost m ρ c)
    unfold bodyPre
    isplitr []
    · isplitl [Hg Hrest Hscr]
      · isplitl [Hg]; · iexact Hg
        icases Hrest with ⟨H1, H2, H3⟩
        isplitl [H1]; · iexact H1
        isplitl [H2]; · iexact H2
        isplitl [H3]; · iexact H3
        iexact Hscr
      isplitl [Ho]; · iexact Ho
      isplitl [Hx] <;> iassumption
    · iintro H; iexact H
  · unfold bodyPost
    refine BIClass.sep_mono (BIBase.Entails.of_eq (show (dats m ρ 0 c).Φ t₀.succ = Φ₁ m ρ c from rfl).symm) ?_
    refine BIClass.sep_mono BIBase.Entails.rfl ?_
    refine BIClass.sep_mono ?_ ?_
    · exact BIBase.Entails.of_eq (congrArg (stg c cc0_stg0_0) (show (dats m ρ 0 c).after 0 t₀ = xblk m ρ c from rfl).symm)
    · exact BIBase.Entails.of_eq (congrArg (stg c cc0_stg1_0) (show (dats m ρ 0 c).after 1 t₀ = outAt m ρ c from rfl).symm)

/-! ## The launch theorem's side conditions -/

/-- The thirty-one own semaphores are scoped, pairwise distinct, and none is a staging semaphore. -/
theorem ownSemFacts : Pipeline.OwnSemFacts cfg0.spec osem where
  isScoped := by decide
  inj := fun a b h => by
    have h2 : 2 + a.val = 2 + b.val := congrArg Fin.val (SemLoc.dma.inj h)
    exact Fin.ext (by omega)
  disj := by decide

theorem share_eq (c : Dev nD) (w : Fin cfg0.W) : (dats m ρ 0 c).share w = fullShare := by unfold Dat.share; split <;> rfl

/-- What the launch hands device `c` is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; rw [ln_scrPts_eq]; iexact Hr

theorem phi1_exit (c : Dev nD) :
    (dats m ρ 0 c).Φ (Fin.last cfg0.N) ⊢ iprop(emp ∗ Pipeline.ownSems0 osem c ∗ Pipeline.scopedRest cfg0.spec c) := by
  rw [show (dats m ρ 0 c).Φ (Fin.last cfg0.N) = Φ₁ m ρ c from rfl, scopedRest0_eq]
  unfold Φ₁ Pipeline.ownSems0
  iintro ⟨Hr, Hz⟩
  isplitr; · iempintro
  isplitl [Hz]; · iexact Hz
  iexists (full m ρ c); rw [← ln_scrPts_eq]; iexact Hr

/-- The staging semaphores come before the receive semaphores: they may be waited on at either point. -/
theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> decide) _ (by
      rcases t with ⟨_ | _, ht⟩
      · exact Or.inl rfl
      · exact Or.inr rfl)

/-! ## The run -/

/-- Each window's array after the run, as the proof data computes it. -/
def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of @main terminates, and every final state has each window's array at `finalA`. -/
theorem run_main : θ_run defs (onTc (τ := τ) (main (F := F))) (s₀ m ρ) (QC m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := fund_u₀ m ρ)
    (hglob := glob m ρ)
    (hA := fun _ _ => rfl) (hpf := fun _ k => k.elim0)
    (X := start m ρ) (Y := fun _ => iprop(emp)) (Z := fun _ => iprop(emp))
    (hX := start_intro m ρ) (hin := phi0_intro m ρ) (hout := phi1_exit m ρ)
    (QY := fun _ _ => True)
    (hY := fun c s' => by
      iintro ⟨-, -, HSI⟩
      imodintro
      isplitr; · ipureintro; trivial
      iexact HSI)
    (hQ := fun _ h c w => (h c).1 w)

/-- The argument array after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

/-- The result window's one block starts at the array's origin. -/
theorem out_off_zero : (fun a => win0_1.index t₀ a * (main_v1 : Ref sig .tc).ty.shape.size a) = fun _ => 0 :=
  funext fun a => by fin_cases a <;> first | rfl | decide

/-- The result array after the run holds the device's result. -/
theorem finalA_out (c : Dev nD) : finalA m ρ c (1 : Fin 2) = outAt m ρ c := by
  show (dats (F := F) m ρ 0 c).arrAt (1 : Fin 2) ((t₀ : Fin cfg0.N).val + 1) = outAt m ρ c
  rw [(dats (F := F) m ρ 0 c).arrAt_succ (1 : Fin 2) t₀, flush0_1 t₀, if_pos rfl]
  exact Memref.write_access_unit_zero_univ (Elt F) main_v1 out_off_zero
    (fun a => by rw [congrFun out_off_zero a]; simp) _ (outAt m ρ c)

/-- info: 'Cert.KernelIdeal.Hand.run_main' depends on axioms: [propext, Classical.choice, Quot.sound] -/
#guard_msgs in #print axioms run_main

end Cert.KernelIdeal.Hand

end
-- ==== Proof.KernelIdeal.Claims.lean ====
/-
  The run read at the program's arrays: each device's result array ends holding the maximum over the sixteen devices'
  column maxima, as a function of the devices' argument buffers, and its argument buffer what it held.

  Each window is its whole array at the one grid point, so a window's block read off an array is the array. The result
  window is written back at that point: the result array ends holding what the body left in the output staging buffer.
-/
import proofs.«900908_g7700000000000909_dist_max_ax0_shard0_i_m1536_n768_v7x_i16_bf16_1_alg».proof.Proof.KernelIdeal.Proto
import proofs.«900908_g7700000000000909_dist_max_ax0_shard0_i_m1536_n768_v7x_i16_bf16_1_alg».proof.Proof.KernelIdeal.Launch

noncomputable section

namespace Cert.KernelIdeal.Hand

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- The argument window's one block is the whole argument buffer. -/
theorem read_arg_block (f : (main_arg0 : Ref sig .tc).ty.Contents (Elt F)) :
    (win0_0.blk (0 : Fin 1)).view.read (Elt F) f = f :=
  Memref.read_access_unit_zero (Elt F) main_arg0
    (funext fun a => by fin_cases a <;> decide : (fun a => (win0_0.index (0 : Fin 1)) a * main_arg0.ty.shape.size a) = fun _ => 0)
    (fun a => by fin_cases a <;> decide) f

/-- The block a device's body works on is its argument buffer. -/
theorem xblk_eq (c : Dev nD) : xblk m ρ c = m ((c : Thread nD τ).loc main_arg0) := by
  unfold xblk s₀
  exact read_arg_block _

/-- Every weakly fair execution terminates; each device's result array ends at `result` of the devices' argument
    buffers, its argument buffer unchanged. -/
theorem run_value :
    θ_run defs (onTc (τ := τ) (main (F := F))) ⟨m, fun _ => 0, ρ⟩ (fun r => ∀ c : Dev nD,
      r.2.mem ((c.tc : Thread nD τ).loc main_v1) = result (fun c' : Dev nD => m ((c'.tc : Thread nD τ).loc main_arg0)) c
      ∧ r.2.mem ((c.tc : Thread nD τ).loc main_arg0) = m ((c.tc : Thread nD τ).loc main_arg0)) := by
  refine (θ_run defs _ _).mono (fun _ h c => ⟨(h c (1 : Fin 2)).trans ?_, (h c (0 : Fin 2)).trans (finalA_x m ρ c)⟩) (run_main m ρ)
  rw [finalA_out]
  unfold outAt
  exact congrArg (fun X => result X c) (funext fun c' => xblk_eq m ρ c')

/-- info: 'Cert.KernelIdeal.Hand.run_value' depends on axioms: [propext, Classical.choice, Quot.sound] -/
#guard_msgs in #print axioms run_value

end Cert.KernelIdeal.Hand

end
-- ==== Proof.Value.lean ====
/-
  The value leg. At the ideal instance (a float is an extended real, the maximum is the lattice maximum) the result
  of every device — the maximum over the sixteen slots of the column maxima of the sixteen blocks — is the column
  maximum of the whole array over all 24576 rows, which is what the one-device reference computes: the maximum is
  associative, commutative and idempotent, the offsets from a device enumerate the sixteen devices once each, and
  row `r` of block `c'` is row `1536 · c' + r` of the whole array.
-/
import proofs.«900908_g7700000000000909_dist_max_ax0_shard0_i_m1536_n768_v7x_i16_bf16_1_alg».proof.Defs
import proofs.«900908_g7700000000000909_dist_max_ax0_shard0_i_m1536_n768_v7x_i16_bf16_1_alg».proof.Proof.KernelIdeal.Spec
import proofs.«900908_g7700000000000909_dist_max_ax0_shard0_i_m1536_n768_v7x_i16_bf16_1_alg».proof.Proof.Gen.ReferenceIdeal.Run
import proofs.«900908_g7700000000000909_dist_max_ax0_shard0_i_m1536_n768_v7x_i16_bf16_1_alg».proof.Proof.Gen.ReferenceIdeal.Read
import proofs.«900908_g7700000000000909_dist_max_ax0_shard0_i_m1536_n768_v7x_i16_bf16_1_alg».proof.Proof.Gen.Pre_finite_inputs_ReferenceIdeal
import proofs.«900908_g7700000000000909_dist_max_ax0_shard0_i_m1536_n768_v7x_i16_bf16_1_alg».proof.Proof.Gen.Pre_finite_inputs_Kernel
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce
import Mathlib.Data.Finset.Fold

noncomputable section

namespace Cert.Hand.Value

open Idealize.ShloMosaic Idealize.ShloMosaic.TcCoe Idealize.SL.Sem

/-- The reference runs, and its argument array ends unchanged: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- What the reference's result holds, as a function of its argument array: the column maximum over all rows, with
    the row axis put back as an axis of size one. -/
def refVal (W : (⟨Cert.ReferenceIdeal.S24576x768, .f32⟩ : BufTy).Contents (Elt Ideal)) :
    (⟨Cert.ReferenceIdeal.S1x768, .f32⟩ : BufTy).Contents (Elt Ideal) :=
  Cert.ReferenceIdeal.Read.val_main_v1 (F := Ideal) W

/-- The reference's run, read at its one device: the result ends at `refVal` of the argument, the argument unchanged. -/
theorem ref_run (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r =>
      r.2.mem (((0 : Dev Cert.ReferenceIdeal.nD).tc : Thread Cert.ReferenceIdeal.nD Cert.ReferenceIdeal.τ).loc Cert.ReferenceIdeal.main_v1) = refVal (m' (((0 : Dev Cert.ReferenceIdeal.nD).tc : Thread Cert.ReferenceIdeal.nD Cert.ReferenceIdeal.τ).loc Cert.ReferenceIdeal.main_arg0))
      ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)) :=
  (θ_run Cert.ReferenceIdeal.defs _ _).mono
    (fun _ h => ⟨(h 0).1.trans (Cert.ReferenceIdeal.Read.val_main_v1_eq (F := Ideal) _), (h 0).2⟩)
    (Cert.ReferenceIdeal.Value.run (F := Ideal) m' g')

/-! ## Maxima over the rows of a matrix, by their universal property -/

section Rows

open Idealize.ShloMosaic.ValueIdx

/-- The pattern of −∞ denotes the least extended real. -/
theorem ofBits_neg_inf : Ideal.ofBits .f32 0xFF800000#32 = (⊥ : EReal) := by
  simp [Ideal.ofBits, Ideal.ieee]

/-- Column `t` of the reduced row with row `k` put back is the entry (k, t). -/
theorem lift_rows {m n : Nat} (h : (⟨2, ![m, n]⟩ : Shape).Reduces [0] (⟨1, ![n]⟩ : Shape)) (t : Fin n)
    (k : Fin ((⟨2, ![m, n]⟩ : Shape).size 0)) : h.lift (ix1 t) k = ix2 (⟨k.val, k.isLt⟩ : Fin m) t := by
  funext c
  apply Fin.ext
  match c with
  | ⟨0, _⟩ => rfl
  | ⟨1, _⟩ => rfl

/-- A maximum-reduction from −∞ over the rows of a matrix, at column `t`, is the least upper bound of that column:
    it is below `b` exactly when every entry of the column is. -/
theorem multiReduction_rows_le {m n : Nat} (x : FVec Ideal ⟨2, ![m, n]⟩ .f32)
    (h : (⟨2, ![m, n]⟩ : Shape).Reduces [0] (⟨1, ![n]⟩ : Shape)) (hφ : FKind.Formats .f32)
    (hacc : (0xFF800000#32 : BitVec 32) = FKind.maximumf.neutral .f32 hφ) (t : Fin n) (b : EReal) :
    multiReduction (F := Ideal) .maximumf [0] ⟨1, ![n]⟩ x 0xFF800000#32 h hφ hacc (ix1 t) ≤ b
      ↔ ∀ k : Fin m, x (ix2 k t) ≤ b := by
  rw [Ideal.multiReduction_maximumf_single, Finset.fold_max_le]
  constructor
  · intro hb k
    have := hb.2 (⟨k.val, k.isLt⟩ : Fin ((⟨2, ![m, n]⟩ : Shape).size 0)) (Finset.mem_univ _)
    rw [Function.comp_apply, lift_rows] at this
    exact this
  · intro hb
    refine ⟨?_, fun k _ => ?_⟩
    · rw [Ideal.ofBits_def, ofBits_neg_inf]; exact bot_le
    · rw [Function.comp_apply, lift_rows]; exact hb _

/-- The host's maximum-reduce from −∞ over the rows of a matrix, at column `t`, likewise. -/
theorem hostReduce_rows_le {m n : Nat} (x : FVec Ideal ⟨2, ![m, n]⟩ .f32)
    (h' : (⟨2, ![m, n]⟩ : Shape).ReducesTo [0] (⟨1, ![n]⟩ : Shape)) (hu : 0 < (⟨0, ![]⟩ : Shape).numel) (t : Fin n) (b : EReal) :
    Host.reduce FloatOps.maximumf x (constant (F := Ideal) (⟨0, ![]⟩ : Shape) .f32 0xFF800000#32) h' hu (ix1 t) ≤ b
      ↔ ∀ k : Fin m, x (ix2 k t) ≤ b := by
  have h : (⟨2, ![m, n]⟩ : Shape).Reduces [0] (⟨1, ![n]⟩ : Shape) := ⟨h'.1, Nat.one_pos, h'.2⟩
  rw [Host.reduce_eq_fold_single FloatOps.maximumf x _ h' h hu]
  show Finset.fold max (Ideal.ofBits .f32 0xFF800000#32) (x ∘ h.lift (ix1 t)) Finset.univ ≤ b ↔ _
  rw [Finset.fold_max_le]
  constructor
  · intro hb k
    have := hb.2 (⟨k.val, k.isLt⟩ : Fin ((⟨2, ![m, n]⟩ : Shape).size 0)) (Finset.mem_univ _)
    rw [Function.comp_apply, lift_rows] at this
    exact this
  · intro hb
    refine ⟨?_, fun k _ => ?_⟩
    · rw [ofBits_neg_inf]; exact bot_le
    · rw [Function.comp_apply, lift_rows]; exact hb _

end Rows

/-! ## The kernel's payloads, read at an index -/

section Kernel

open Idealize.ShloMosaic.ValueIdx Cert.KernelIdeal Cert.KernelIdeal.Gen Cert.KernelIdeal.Hand

/-- A block's column maxima, as the first payload computes them: at column `j` the least upper bound of the
    block's column `j`. -/
theorem pay2_le (x : Vec Ideal S1536x768 .f32) (u v : Fin 1) (j : Fin 768) (b : EReal) :
    k0_pay2 (F := Ideal) x (ix3 u v j) ≤ b ↔ ∀ r : Fin 1536, x (ix2 r j) ≤ b := by
  unfold k0_pay2
  rw [shapeCast_ab_1ab_apply, shapeCast_a_1a_apply, shapeCast_self]
  exact multiReduction_rows_le (m := 1536) (n := 768) x _ _ _ j b

/-- The exchange buffer viewed as sixteen rows: row `s` is slot `s`. -/
theorem pay3_apply (v : Vec Ideal S16x1x768 .f32) (s : Fin 16) (j : Fin 768) :
    k0_pay3 (F := Ideal) v (ix2 s j) = v (ix3 s (0 : Fin 1) j) := by
  unfold k0_pay3
  refine shapeCast_apply v _ (ix2 s j) (ix3 s (0 : Fin 1) j) ?_
  rw [Shape.rowMajor_val_three, Shape.rowMajor_val_two]
  show (s.val * 1 + 0) * 768 + j.val = s.val * 768 + j.val
  omega

/-- The maximum over the sixteen rows, as the last payload computes it: at column `j` the least upper bound of
    the sixteen rows' entries there. -/
theorem pay1_le (v : FVec Ideal S16x768 .f32) (u : Fin 1) (j : Fin 768) (b : EReal) :
    k0_pay1 (F := Ideal) v (ix2 u j) ≤ b ↔ ∀ s : Fin 16, v (ix2 s j) ≤ b := by
  unfold k0_pay1
  rw [shapeCast_a_1a_apply]
  exact multiReduction_rows_le (m := 16) (n := 768) v _ _ _ j b

/-- Slot `s` of the landed exchange buffer of device `c`, at column `j`: the column maximum of the block of the
    device at offset `s`. -/
theorem gathered_apply (X : Dev nD → Vec Ideal S1536x768 .f32) (c : Dev nD) (s : Fin 16) (j : Fin 768) :
    gathered (F := Ideal) X c (ix3 s (0 : Fin 1) j) = k0_pay2 (F := Ideal) (X (peer c s)) (ix3 (0 : Fin 1) (0 : Fin 1) j) := rfl

/-- The result of device `c` at column `j` is the least upper bound of column `j` of all sixteen blocks. -/
theorem result_le (X : Dev nD → Vec Ideal S1536x768 .f32) (c : Dev nD) (u : Fin 1) (j : Fin 768) (b : EReal) :
    result (F := Ideal) X c (ix2 u j) ≤ b ↔ ∀ (s : Fin 16) (r : Fin 1536), X (peer c s) (ix2 r j) ≤ b := by
  unfold result
  rw [pay1_le]
  refine forall_congr' fun s => ?_
  rw [pay3_apply, gathered_apply, pay2_le]

end Kernel

/-! ## The reference, read at an index -/

section Reference

open Idealize.ShloMosaic.ValueIdx Cert.ReferenceIdeal Cert.ReferenceIdeal.Gen

/-- The reference's result at column `j` is the least upper bound of column `j` of the whole array. -/
theorem refVal_le (W : (⟨S24576x768, .f32⟩ : BufTy).Contents (Elt Ideal)) (u : Fin 1) (j : Fin 768) (b : EReal) :
    refVal W (ix2 u j) ≤ b ↔ ∀ R : Fin 24576, W (ix2 R j) ≤ b := by
  unfold refVal
  rw [Cert.ReferenceIdeal.Read.val_main_v1_apply]
  have hi : Cert.ReferenceIdeal.Read.idx_main_v1 (ix2 u j) = ix1 j := by
    funext a
    match a with
    | ⟨0, _⟩ => rfl
  rw [hi]
  unfold Cert.ReferenceIdeal.Read.val_main_v0 Cert.ReferenceIdeal.Read.val_main_cst
  exact hostReduce_rows_le (m := 24576) (n := 768) W _ _ j b

end Reference

/-! ## The two least upper bounds are one -/

section Join

open Idealize.ShloMosaic.ValueIdx Cert.KernelIdeal.Hand

/-- Row `r` of block `c'` of the whole array is its row `1536 · c' + r`. -/
theorem block_rows_apply (W : (⟨2, ![24576, 768]⟩ : Shape).Idx → EReal) (c' : Fin 16) (r : Fin 1536) (j : Fin 768) :
    (Layout.block ⟨2, ![1536, 768]⟩ ⟨2, ![24576, 768]⟩ 0 16 c' W) (ix2 r j)
      = W (ix2 (⟨c'.val * 1536 + r.val, by omega⟩ : Fin 24576) j) := by
  rw [Layout.block_apply]
  refine congrArg W (funext fun a => Fin.ext ?_)
  match a with
  | ⟨0, _⟩ => rfl
  | ⟨1, _⟩ => rfl

/-- On every device the result is the reference's: at each column both are the least upper bound of that column of
    the whole array — every row of the whole array is a row of exactly one block, and every block is the block of the
    device at exactly one offset from `c`. -/
theorem result_eq (W : (⟨Cert.ReferenceIdeal.S24576x768, .f32⟩ : BufTy).Contents (Elt Ideal))
    (X : Dev Cert.KernelIdeal.nD → Vec Ideal Cert.KernelIdeal.S1536x768 .f32)
    (hX : ∀ c, X c = Layout.block ⟨2, ![1536, 768]⟩ ⟨2, ![24576, 768]⟩ 0 16 c W) (c : Dev Cert.KernelIdeal.nD) :
    Cert.KernelIdeal.Hand.result (F := Ideal) X c = refVal W := by
  funext i
  obtain ⟨u, j, rfl⟩ : ∃ (u : Fin 1) (j : Fin 768), i = ix2 u j := ⟨i 0, i 1, eq_ix2 i⟩
  refine eq_of_forall_ge_iff fun b => ?_
  rw [result_le, refVal_le]
  constructor
  · intro h R
    have hc' : R.val / 1536 < 16 := by omega
    have hr : R.val % 1536 < 1536 := Nat.mod_lt _ (by decide)
    have key : W (ix2 R j) = X (peer c (off c ⟨R.val / 1536, hc'⟩)) (ix2 (⟨R.val % 1536, hr⟩ : Fin 1536) j) := by
      rw [peer_off, hX, block_rows_apply]
      exact congrArg (fun q : Fin 24576 => W (ix2 q j))
        (Fin.ext (by show R.val = R.val / 1536 * 1536 + R.val % 1536; omega))
    rw [key]
    exact h _ _
  · intro h s r
    rw [hX, block_rows_apply]
    exact h _

end Join

end Cert.Hand.Value

end
-- ==== Proof.lean ====
/-
  The column maximum of a 24576 × 768 array cut by rows over sixteen devices: each device reduces its 1536 rows to their
  column maxima, the sixteen devices exchange those rows of 768 all-to-all (an entry handshake on the barrier semaphore,
  then one remote copy per peer into a slot of the peer's exchange buffer), and each takes the maximum over the sixteen
  slots. The reference takes the column maximum of the whole array on one device.

  Over the extended reals the two agree: the maximum is associative, commutative and idempotent, the sixteen blocks cover
  the 24576 rows, and translation by a device's position permutes the sixteen peers, so the maximum over a device's slots
  of the blocks' column maxima is the column maximum over all rows — on every device the same value, the reference's.
  The exchange terminates on every weakly fair schedule and no copy races a store or a load: a device copies into a peer's
  slot only after that peer's barrier unit has handed the slot over, and reads its own slots only after each copy's
  receive wait; the waits are ordered by levels (barrier cells below receive cells), which is the deadlock argument.
  The word-level program and its idealization are the same text read at two float instances (no rewrite was applied), so
  one proof, generic in the instance, gives both frames.
-/
import proofs.«900908_g7700000000000909_dist_max_ax0_shard0_i_m1536_n768_v7x_i16_bf16_1_alg».proof.Defs
import proofs.«900908_g7700000000000909_dist_max_ax0_shard0_i_m1536_n768_v7x_i16_bf16_1_alg».proof.Proof.Gen.Kernel
import proofs.«900908_g7700000000000909_dist_max_ax0_shard0_i_m1536_n768_v7x_i16_bf16_1_alg».proof.Proof.Gen.KernelIdeal
import proofs.«900908_g7700000000000909_dist_max_ax0_shard0_i_m1536_n768_v7x_i16_bf16_1_alg».proof.Proof.Gen.ReferenceIdeal
import proofs.«900908_g7700000000000909_dist_max_ax0_shard0_i_m1536_n768_v7x_i16_bf16_1_alg».proof.Proof.Gen.Pre_finite_inputs_Kernel
import proofs.«900908_g7700000000000909_dist_max_ax0_shard0_i_m1536_n768_v7x_i16_bf16_1_alg».proof.Proof.Gen.Pre_finite_inputs_ReferenceIdeal
import proofs.«900908_g7700000000000909_dist_max_ax0_shard0_i_m1536_n768_v7x_i16_bf16_1_alg».proof.Proof.Kernel.Claims
import proofs.«900908_g7700000000000909_dist_max_ax0_shard0_i_m1536_n768_v7x_i16_bf16_1_alg».proof.Proof.KernelIdeal.Claims
import proofs.«900908_g7700000000000909_dist_max_ax0_shard0_i_m1536_n768_v7x_i16_bf16_1_alg».proof.Proof.Value
import Idealize.ShloMosaic.Adequacy
import Idealize.ShloMosaic.Init

noncomputable section

namespace Cert.Proof

open Idealize.ShloMosaic Idealize.SL.Sem

/-- The word-level program runs to the end, faults nowhere and leaves each device's argument buffer as it was: its run
    with the result's value dropped. -/
theorem frame_k : Cert.frame_Kernel := fun m g _ =>
  (θ_run (Cert.Kernel.defs (F := Bits)) _ _).mono (fun _ h c => (h c).2) (Cert.Kernel.Hand.run_value (F := Bits) m g)

/-- The same for the idealized program. -/
theorem frame_ki : Cert.frame_KernelIdeal := fun m g _ =>
  (θ_run (Cert.KernelIdeal.defs (F := Ideal)) _ _).mono (fun _ h c => (h c).2) (Cert.KernelIdeal.Hand.run_value (F := Ideal) m g)

/-- Over the extended reals: every device's result array ends holding the reference's result — the column maximum of the
    whole array of which the devices' argument buffers are the sixteen row blocks. -/
theorem algebraic : Cert.algebraic_KernelIdeal_ReferenceIdeal := by
  intro m g m' g' _ hagree
  refine ⟨Cert.Hand.Value.refVal (m' (((0 : Dev Cert.ReferenceIdeal.nD).tc : Thread Cert.ReferenceIdeal.nD Cert.ReferenceIdeal.τ).loc Cert.ReferenceIdeal.main_arg0)),
    ?_, Cert.Hand.Value.ref_run m' g'⟩
  refine (θ_run (Cert.KernelIdeal.defs (F := Ideal)) _ _).mono (fun _ h c => ⟨(h c).1.trans ?_, (h c).2⟩)
    (Cert.KernelIdeal.Hand.run_value (F := Ideal) m g)
  exact Cert.Hand.Value.result_eq _ _ hagree c

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts, frame_k, frame_ki, Cert.Hand.Value.frame_ri, trivial, algebraic⟩

/-- info: 'Cert.Proof.claim' depends on axioms: [propext, Classical.choice, Quot.sound] -/
#guard_msgs in #print axioms claim

end Cert.Proof

end
